-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)) →
    ∃ (v0 : (c : Dev Cert.KernelIdeal.nD) → Buf (Elt Ideal) ((c.tc : Thread Cert.KernelIdeal.nD Cert.KernelIdeal.τ).loc Cert.KernelIdeal.main_v62)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v62) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v98) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x128 : Shape := ⟨2, ![50000, 128]⟩
abbrev S2x800000 : Shape := ⟨2, ![2, 800000]⟩
abbrev S50000 : Shape := ⟨1, ![50000]⟩
abbrev S128x128 : Shape := ⟨2, ![128, 128]⟩
abbrev S128 : Shape := ⟨1, ![128]⟩
abbrev S128x3 : Shape := ⟨2, ![128, 3]⟩
abbrev S3 : Shape := ⟨1, ![3]⟩
abbrev S_ : Shape := ⟨0, ![]⟩

class Facts : Prop where
  bcast_S_S50000x128 : S_.BroadcastsInDim S50000x128 (![] : Fin 0 → Fin S50000x128.rank)
  reducesTo_S50000x128_S_d0_1 : S50000x128.ReducesTo [0, 1] S_
  h_S_ : 0 < S_.numel
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_
  bcast_S_S128x3 : S_.BroadcastsInDim S128x3 (![] : Fin 0 → Fin S128x3.rank)
  reducesTo_S128x3_S_d0_1 : S128x3.ReducesTo [0, 1] S_
  bcast_S_S3 : S_.BroadcastsInDim S3 (![] : Fin 0 → Fin S3.rank)
  reducesTo_S3_S_d0 : S3.ReducesTo [0] S_

variable [Facts]

def fn_part2 {F : FTy → Type} [FloatOps F] (main_arg9 : FVec F S128x3 .f32) (main_arg10 : FVec F S3 .f32) (main_v33 : IVec S_ 1) : IVec S_ 1 :=
  let main_v34 : FVec F S128x3 .f32 := Host.absf main_arg9
  let main_cst_12 : FVec F S_ .f32 := constant S_ .f32 0x7F800000#32
  let main_v35 : FVec F S128x3 .f32 := broadcastInDim S128x3 ![] bcast_S_S128x3 main_cst_12
  let main_v36 : IVec S128x3 1 := cmpf .olt main_v34 main_v35
  let main_c_13 : IVec S_ 1 := constantI S_ 1 1#1
  let main_v37 : IVec S_ 1 := (fun x v => Host.reduce IntOp.andi x v reducesTo_S128x3_S_d0_1 h_S_) main_v36 main_c_13
  let main_v38 : IVec S_ 1 := andi main_v33 main_v37
  let main_v39 : FVec F S3 .f32 := Host.absf main_arg10
  let main_cst_14 : FVec F S_ .f32 := constant S_ .f32 0x7F800000#32
  let main_v40 : FVec F S3 .f32 := broadcastInDim S3 ![] bcast_S_S3 main_cst_14
  let main_v41 : IVec S3 1 := cmpf .olt main_v39 main_v40
  let main_c_15 : IVec S_ 1 := constantI S_ 1 1#1
  let main_v42 : IVec S_ 1 := (fun x v => Host.reduce IntOp.andi x v reducesTo_S3_S_d0 h_S_) main_v41 main_c_15
  let main_v43 : IVec S_ 1 := andi main_v38 main_v42
  main_v43

def fn_part1 {F : FTy → Type} [FloatOps F] (main_arg6 : FVec F S128 .f32) (main_arg7 : FVec F S128x128 .f32) (main_arg8 : FVec F S128 .f32) (main_arg9 : FVec F S128x3 .f32) (main_arg10 : FVec F S3 .f32) (main_v13 : IVec S_ 1) (main_v16 : IVec S128x128 1) : IVec S_ 1 :=
  let main_c_5 : IVec S_ 1 := constantI S_ 1 1#1
  let main_v17 : IVec S_ 1 := (fun x v => Host.reduce IntOp.andi x v reducesTo_S128x128_S_d0_1 h_S_) main_v16 main_c_5
  let main_v18 : IVec S_ 1 := andi main_v13 main_v17
  let main_v19 : FVec F S128 .f32 := Host.absf main_arg6
  let main_cst_6 : FVec F S_ .f32 := constant S_ .f32 0x7F800000#32
  let main_v20 : FVec F S128 .f32 := broadcastInDim S128 ![] bcast_S_S128 main_cst_6
  let main_v21 : IVec S128 1 := cmpf .olt main_v19 main_v20
  let main_c_7 : IVec S_ 1 := constantI S_ 1 1#1
  let main_v22 : IVec S_ 1 := (fun x v => Host.reduce IntOp.andi x v reducesTo_S128_S_d0 h_S_) main_v21 main_c_7
  let main_v23 : IVec S_ 1 := andi main_v18 main_v22
  let main_v24 : FVec F S128x128 .f32 := Host.absf main_arg7
  let main_cst_8 : FVec F S_ .f32 := constant S_ .f32 0x7F800000#32
  let main_v25 : FVec F S128x128 .f32 := broadcastInDim S128x128 ![] bcast_S_S128x128 main_cst_8
  let main_v26 : IVec S128x128 1 := cmpf .olt main_v24 main_v25
  let main_c_9 : IVec S_ 1 := constantI S_ 1 1#1
  let main_v27 : IVec S_ 1 := (fun x v => Host.reduce IntOp.andi x v reducesTo_S128x128_S_d0_1 h_S_) main_v26 main_c_9
  let main_v28 : IVec S_ 1 := andi main_v23 main_v27
  let main_v29 : FVec F S128 .f32 := Host.absf main_arg8
  let main_cst_10 : FVec F S_ .f32 := constant S_ .f32 0x7F800000#32
  let main_v30 : FVec F S128 .f32 := broadcastInDim S128 ![] bcast_S_S128 main_cst_10
  let main_v31 : IVec S128 1 := cmpf .olt main_v29 main_v30
  let main_c_11 : IVec S_ 1 := constantI S_ 1 1#1
  let main_v32 : IVec S_ 1 := (fun x v => Host.reduce IntOp.andi x v reducesTo_S128_S_d0 h_S_) main_v31 main_c_11
  let main_v33 : IVec S_ 1 := andi main_v28 main_v32
  fn_part2 (F := F) main_arg9 main_arg10 main_v33

def fn {F : FTy → Type} [FloatOps F] (main_arg0 : FVec F S50000x128 .f32) (main_arg1 : IVec S2x800000 32) (main_arg2 : IVec S50000 32) (main_arg3 : FVec F S128x128 .f32) (main_arg4 : FVec F S128 .f32) (main_arg5 : FVec F S128x128 .f32) (main_arg6 : FVec F S128 .f32) (main_arg7 : FVec F S128x128 .f32) (main_arg8 : FVec F S128 .f32) (main_arg9 : FVec F S128x3 .f32) (main_arg10 : FVec F S3 .f32) : IVec S_ 1 :=
  let main_v0 : FVec F S50000x128 .f32 := Host.absf main_arg0
  let main_cst : FVec F S_ .f32 := constant S_ .f32 0x7F800000#32
  let main_v1 : FVec F S50000x128 .f32 := broadcastInDim S50000x128 ![] bcast_S_S50000x128 main_cst
  let main_v2 : IVec S50000x128 1 := cmpf .olt main_v0 main_v1
  let main_c : IVec S_ 1 := constantI S_ 1 1#1
  let main_v3 : IVec S_ 1 := (fun x v => Host.reduce IntOp.andi x v reducesTo_S50000x128_S_d0_1 h_S_) main_v2 main_c
  let main_v4 : FVec F S128x128 .f32 := Host.absf main_arg3
  let main_cst_0 : FVec F S_ .f32 := constant S_ .f32 0x7F800000#32
  let main_v5 : FVec F S128x128 .f32 := broadcastInDim S128x128 ![] bcast_S_S128x128 main_cst_0
  let main_v6 : IVec S128x128 1 := cmpf .olt main_v4 main_v5
  let main_c_1 : IVec S_ 1 := constantI S_ 1 1#1
  let main_v7 : IVec S_ 1 := (fun x v => Host.reduce IntOp.andi x v reducesTo_S128x128_S_d0_1 h_S_) main_v6 main_c_1
  let main_v8 : IVec S_ 1 := andi main_v3 main_v7
  let main_v9 : FVec F S128 .f32 := Host.absf main_arg4
  let main_cst_2 : FVec F S_ .f32 := constant S_ .f32 0x7F800000#32
  let main_v10 : FVec F S128 .f32 := broadcastInDim S128 ![] bcast_S_S128 main_cst_2
  let main_v11 : IVec S128 1 := cmpf .olt main_v9 main_v10
  let main_c_3 : IVec S_ 1 := constantI S_ 1 1#1
  let main_v12 : IVec S_ 1 := (fun x v => Host.reduce IntOp.andi x v reducesTo_S128_S_d0 h_S_) main_v11 main_c_3
  let main_v13 : IVec S_ 1 := andi main_v8 main_v12
  let main_v14 : FVec F S128x128 .f32 := Host.absf main_arg5
  let main_cst_4 : FVec F S_ .f32 := constant S_ .f32 0x7F800000#32
  let main_v15 : FVec F S128x128 .f32 := broadcastInDim S128x128 ![] bcast_S_S128x128 main_cst_4
  let main_v16 : IVec S128x128 1 := cmpf .olt main_v14 main_v15
  fn_part1 (F := F) main_arg6 main_arg7 main_arg8 main_arg9 main_arg10 main_v13 main_v16
-- ==== Kernel.lean ====
abbrev S50000x128 : Shape := ⟨2, ![50000, 128]⟩
abbrev S2x800000 : Shape := ⟨2, ![2, 800000]⟩
abbrev S50000 : Shape := ⟨1, ![50000]⟩
abbrev S128x128 : Shape := ⟨2, ![128, 128]⟩
abbrev S128 : Shape := ⟨1, ![128]⟩
abbrev S128x3 : Shape := ⟨2, ![128, 3]⟩
abbrev S3 : Shape := ⟨1, ![3]⟩
abbrev S1x800000 : Shape := ⟨2, ![1, 800000]⟩
abbrev S800000 : Shape := ⟨1, ![800000]⟩
abbrev S850000 : Shape := ⟨1, ![850000]⟩
abbrev S_ : Shape := ⟨0, ![]⟩
abbrev S850000x1 : Shape := ⟨2, ![850000, 1]⟩
abbrev S50000x1 : Shape := ⟨2, ![50000, 1]⟩
abbrev S5000x128 : Shape := ⟨2, ![5000, 128]⟩
abbrev S5000x1 : Shape := ⟨2, ![5000, 1]⟩
abbrev S850000x128 : Shape := ⟨2, ![850000, 128]⟩
abbrev S1x128 : Shape := ⟨2, ![1, 128]⟩
abbrev S128x1 : Shape := ⟨2, ![128, 1]⟩
abbrev S1x3 : Shape := ⟨2, ![1, 3]⟩

abbrev nBuf : Space → Nat
  | .hbm => 91
  | .vmem => 35
  | .smem => 0
  | _ => 0

abbrev bufTy : (tb : Table) → Fin (tcTables nBuf tb) → BufTy
  | .hbm, ⟨0, _⟩ => ⟨S50000x128, .f32⟩
  | .hbm, ⟨1, _⟩ => ⟨S2x800000, .i32⟩
  | .hbm, ⟨2, _⟩ => ⟨S50000, .i32⟩
  | .hbm, ⟨3, _⟩ => ⟨S128x128, .f32⟩
  | .hbm, ⟨4, _⟩ => ⟨S128, .f32⟩
  | .hbm, ⟨5, _⟩ => ⟨S128x128, .f32⟩
  | .hbm, ⟨6, _⟩ => ⟨S128, .f32⟩
  | .hbm, ⟨7, _⟩ => ⟨S128x128, .f32⟩
  | .hbm, ⟨8, _⟩ => ⟨S128, .f32⟩
  | .hbm, ⟨9, _⟩ => ⟨S128x3, .f32⟩
  | .hbm, ⟨10, _⟩ => ⟨S3, .f32⟩
  | .hbm, ⟨11, _⟩ => ⟨S50000, .i32⟩
  | .hbm, ⟨12, _⟩ => ⟨S1x800000, .i32⟩
  | .hbm, ⟨13, _⟩ => ⟨S800000, .i32⟩
  | .hbm, ⟨14, _⟩ => ⟨S850000, .i32⟩
  | .hbm, ⟨15, _⟩ => ⟨S1x800000, .i32⟩
  | .hbm, ⟨16, _⟩ => ⟨S800000, .i32⟩
  | .hbm, ⟨17, _⟩ => ⟨S850000, .i32⟩
  | .hbm, ⟨18, _⟩ => ⟨S_, .f32⟩
  | .hbm, ⟨19, _⟩ => ⟨S850000, .f32⟩
  | .hbm, ⟨20, _⟩ => ⟨S_, .f32⟩
  | .hbm, ⟨21, _⟩ => ⟨S50000, .f32⟩
  | .hbm, ⟨22, _⟩ => ⟨S850000x1, .i32⟩
  | .hbm, ⟨23, _⟩ => ⟨S50000, .f32⟩
  | .hbm, ⟨24, _⟩ => ⟨S_, .f32⟩
  | .hbm, ⟨25, _⟩ => ⟨S50000, .f32⟩
  | .hbm, ⟨26, _⟩ => ⟨S50000, .i1⟩
  | .hbm, ⟨27, _⟩ => ⟨S50000, .f32⟩
  | .hbm, ⟨28, _⟩ => ⟨S_, .f32⟩
  | .hbm, ⟨29, _⟩ => ⟨S_, .f32⟩
  | .hbm, ⟨30, _⟩ => ⟨S50000, .f32⟩
  | .hbm, ⟨31, _⟩ => ⟨S50000, .f32⟩
  | .hbm, ⟨32, _⟩ => ⟨S50000x1, .f32⟩
  | .hbm, ⟨33, _⟩ => ⟨S50000x128, .bf16⟩
  | .hbm, ⟨34, _⟩ => ⟨S_, .i32⟩
  | .hbm, ⟨35, _⟩ => ⟨S850000, .i32⟩
  | .hbm, ⟨36, _⟩ => ⟨S850000, .i1⟩
  | .hbm, ⟨37, _⟩ => ⟨S_, .i32⟩
  | .hbm, ⟨38, _⟩ => ⟨S850000, .i32⟩
  | .hbm, ⟨39, _⟩ => ⟨S850000, .i32⟩
  | .hbm, ⟨40, _⟩ => ⟨S850000, .i32⟩
  | .hbm, ⟨41, _⟩ => ⟨S850000x1, .i32⟩
  | .hbm, ⟨42, _⟩ => ⟨S850000x128, .bf16⟩
  | .hbm, ⟨43, _⟩ => ⟨S850000x128, .f32⟩
  | .hbm, ⟨44, _⟩ => ⟨S_, .f32⟩
  | .hbm, ⟨45, _⟩ => ⟨S50000x128, .f32⟩
  | .hbm, ⟨46, _⟩ => ⟨S850000x1, .i32⟩
  | .hbm, ⟨47, _⟩ => ⟨S50000x128, .f32⟩
  | .hbm, ⟨48, _⟩ => ⟨S1x128, .f32⟩
  | .hbm, ⟨49, _⟩ => ⟨S50000x128, .bf16⟩
  | .hbm, ⟨50, _⟩ => ⟨S_, .i32⟩
  | .hbm, ⟨51, _⟩ => ⟨S850000, .i32⟩
  | .hbm, ⟨52, _⟩ => ⟨S850000, .i1⟩
  | .hbm, ⟨53, _⟩ => ⟨S_, .i32⟩
  | .hbm, ⟨54, _⟩ => ⟨S850000, .i32⟩
  | .hbm, ⟨55, _⟩ => ⟨S850000, .i32⟩
  | .hbm, ⟨56, _⟩ => ⟨S850000, .i32⟩
  | .hbm, ⟨57, _⟩ => ⟨S850000x1, .i32⟩
  | .hbm, ⟨58, _⟩ => ⟨S850000x128, .bf16⟩
  | .hbm, ⟨59, _⟩ => ⟨S850000x128, .f32⟩
  | .hbm, ⟨60, _⟩ => ⟨S_, .f32⟩
  | .hbm, ⟨61, _⟩ => ⟨S50000x128, .f32⟩
  | .hbm, ⟨62, _⟩ => ⟨S850000x1, .i32⟩
  | .hbm, ⟨63, _⟩ => ⟨S50000x128, .f32⟩
  | .hbm, ⟨64, _⟩ => ⟨S1x128, .f32⟩
  | .hbm, ⟨65, _⟩ => ⟨S50000x128, .bf16⟩
  | .hbm, ⟨66, _⟩ => ⟨S_, .i32⟩
  | .hbm, ⟨67, _⟩ => ⟨S850000, .i32⟩
  | .hbm, ⟨68, _⟩ => ⟨S850000, .i1⟩
  | .hbm, ⟨69, _⟩ => ⟨S_, .i32⟩
  | .hbm, ⟨70, _⟩ => ⟨S850000, .i32⟩
  | .hbm, ⟨71, _⟩ => ⟨S850000, .i32⟩
  | .hbm, ⟨72, _⟩ => ⟨S850000, .i32⟩
  | .hbm, ⟨73, _⟩ => ⟨S850000x1, .i32⟩
  | .hbm, ⟨74, _⟩ => ⟨S850000x128, .bf16⟩
  | .hbm, ⟨75, _⟩ => ⟨S850000x128, .f32⟩
  | .hbm, ⟨76, _⟩ => ⟨S_, .f32⟩
  | .hbm, ⟨77, _⟩ => ⟨S50000x128, .f32⟩
  | .hbm, ⟨78, _⟩ => ⟨S850000x1, .i32⟩
  | .hbm, ⟨79, _⟩ => ⟨S50000x128, .f32⟩
  | .hbm, ⟨80, _⟩ => ⟨S50000x1, .i32⟩
  | .hbm, ⟨81, _⟩ => ⟨S_, .f32⟩
  | .hbm, ⟨82, _⟩ => ⟨S50000, .f32⟩
  | .hbm, ⟨83, _⟩ => ⟨S_, .f32⟩
  | .hbm, ⟨84, _⟩ => ⟨S128, .f32⟩
  | .hbm, ⟨85, _⟩ => ⟨S50000x1, .i32⟩
  | .hbm, ⟨86, _⟩ => ⟨S128, .f32⟩
  | .hbm, ⟨87, _⟩ => ⟨S128x1, .f32⟩
  | .hbm, ⟨88, _⟩ => ⟨S1x128, .f32⟩
  | .hbm, ⟨89, _⟩ => ⟨S1x3, .f32⟩
  | .hbm, ⟨90, _⟩ => ⟨S128x3, .f32⟩
  | .local _ .vmem, ⟨0, _⟩ => ⟨S5000x128, .f32⟩
  | .local _ .vmem, ⟨1, _⟩ => ⟨S5000x128, .f32⟩
  | .local _ .vmem, ⟨2, _⟩ => ⟨S128x128, .f32⟩
  | .local _ .vmem, ⟨3, _⟩ => ⟨S5000x1, .f32⟩
  | .local _ .vmem, ⟨4, _⟩ => ⟨S5000x1, .f32⟩
  | .local _ .vmem, ⟨5, _⟩ => ⟨S5000x128, .bf16⟩
  | .local _ .vmem, ⟨6, _⟩ => ⟨S5000x128, .bf16⟩
  | .local _ .vmem, ⟨7, _⟩ => ⟨S5000x128, .f32⟩
  | .local _ .vmem, ⟨8, _⟩ => ⟨S5000x128, .f32⟩
  | .local _ .vmem, ⟨9, _⟩ => ⟨S5000x1, .f32⟩
  | .local _ .vmem, ⟨10, _⟩ => ⟨S5000x1, .f32⟩
  | .local _ .vmem, ⟨11, _⟩ => ⟨S1x128, .f32⟩
  | .local _ .vmem, ⟨12, _⟩ => ⟨S128x128, .f32⟩
  | .local _ .vmem, ⟨13, _⟩ => ⟨S5000x128, .bf16⟩
  | .local _ .vmem, ⟨14, _⟩ => ⟨S5000x128, .bf16⟩
  | .local _ .vmem, ⟨15, _⟩ => ⟨S5000x128, .f32⟩
  | .local _ .vmem, ⟨16, _⟩ => ⟨S5000x128, .f32⟩
  | .local _ .vmem, ⟨17, _⟩ => ⟨S5000x1, .f32⟩
  | .local _ .vmem, ⟨18, _⟩ => ⟨S5000x1, .f32⟩
  | .local _ .vmem, ⟨19, _⟩ => ⟨S1x128, .f32⟩
  | .local _ .vmem, ⟨20, _⟩ => ⟨S128x128, .f32⟩
  | .local _ .vmem, ⟨21, _⟩ => ⟨S5000x128, .bf16⟩
  | .local _ .vmem, ⟨22, _⟩ => ⟨S5000x128, .bf16⟩
  | .local _ .vmem, ⟨23, _⟩ => ⟨S5000x128, .f32⟩
  | .local _ .vmem, ⟨24, _⟩ => ⟨S5000x128, .f32⟩
  | .local _ .vmem, ⟨25, _⟩ => ⟨S5000x1, .f32⟩
  | .local _ .vmem, ⟨26, _⟩ => ⟨S5000x1, .f32⟩
  | .local _ .vmem, ⟨27, _⟩ => ⟨S1x128, .f32⟩
  | .local _ .vmem, ⟨28, _⟩ => ⟨S5000x1, .i32⟩
  | .local _ .vmem, ⟨29, _⟩ => ⟨S5000x1, .i32⟩
  | .local _ .vmem, ⟨30, _⟩ => ⟨S128x1, .f32⟩
  | .local _ .vmem, ⟨31, _⟩ => ⟨S128x3, .f32⟩
  | .local _ .vmem, ⟨32, _⟩ => ⟨S1x3, .f32⟩
  | .local _ .vmem, ⟨33, _⟩ => ⟨S128x3, .f32⟩
  | .local _ .vmem, ⟨34, _⟩ => ⟨S128x128, .f32⟩
  | _, _ => ⟨S50000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | _, _ => false

abbrev semScoped : Fin 0 → Bool
  | ⟨_, h⟩ => absurd h (Nat.not_lt_zero _)

abbrev dmaSemScoped : Fin 34 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | _ => false

abbrev sig : RefSig :=
  ofTc nBuf bufTy 0 34 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_cst : Ref sig .tc := ⟨.hbm, 18, rfl⟩
abbrev main_v7 : Ref sig .tc := ⟨.hbm, 19, rfl⟩
abbrev main_cst_0 : Ref sig .tc := ⟨.hbm, 20, rfl⟩
abbrev main_v8 : Ref sig .tc := ⟨.hbm, 21, rfl⟩
abbrev main_v9 : Ref sig .tc := ⟨.hbm, 22, rfl⟩
abbrev main_v10 : Ref sig .tc := ⟨.hbm, 23, rfl⟩
abbrev main_cst_1 : Ref sig .tc := ⟨.hbm, 24, rfl⟩
abbrev main_v11 : Ref sig .tc := ⟨.hbm, 25, rfl⟩
abbrev main_v12 : Ref sig .tc := ⟨.hbm, 26, rfl⟩
abbrev main_v13 : Ref sig .tc := ⟨.hbm, 27, rfl⟩
abbrev main_cst_2 : Ref sig .tc := ⟨.hbm, 28, rfl⟩
abbrev main_call0_v0 : Ref sig .tc := ⟨.hbm, 29, rfl⟩
abbrev main_call0_v1 : Ref sig .tc := ⟨.hbm, 30, rfl⟩
abbrev main_v14 : Ref sig .tc := ⟨.hbm, 31, rfl⟩
abbrev main_v15 : Ref sig .tc := ⟨.hbm, 32, rfl⟩
abbrev main_v16 : Ref sig .tc := ⟨.hbm, 33, rfl⟩
abbrev main_c : Ref sig .tc := ⟨.hbm, 34, rfl⟩
abbrev main_v17 : Ref sig .tc := ⟨.hbm, 35, rfl⟩
abbrev main_v18 : Ref sig .tc := ⟨.hbm, 36, rfl⟩
abbrev main_c_3 : Ref sig .tc := ⟨.hbm, 37, rfl⟩
abbrev main_v19 : Ref sig .tc := ⟨.hbm, 38, rfl⟩
abbrev main_v20 : Ref sig .tc := ⟨.hbm, 39, rfl⟩
abbrev main_v21 : Ref sig .tc := ⟨.hbm, 40, rfl⟩
abbrev main_v22 : Ref sig .tc := ⟨.hbm, 41, rfl⟩
abbrev main_v23 : Ref sig .tc := ⟨.hbm, 42, rfl⟩
abbrev main_v24 : Ref sig .tc := ⟨.hbm, 43, rfl⟩
abbrev main_cst_4 : Ref sig .tc := ⟨.hbm, 44, rfl⟩
abbrev main_v25 : Ref sig .tc := ⟨.hbm, 45, rfl⟩
abbrev main_v26 : Ref sig .tc := ⟨.hbm, 46, rfl⟩
abbrev main_v27 : Ref sig .tc := ⟨.hbm, 47, rfl⟩
abbrev main_v28 : Ref sig .tc := ⟨.hbm, 48, rfl⟩
abbrev main_v29 : Ref sig .tc := ⟨.hbm, 49, rfl⟩
abbrev main_c_5 : Ref sig .tc := ⟨.hbm, 50, rfl⟩
abbrev main_v30 : Ref sig .tc := ⟨.hbm, 51, rfl⟩
abbrev main_v31 : Ref sig .tc := ⟨.hbm, 52, rfl⟩
abbrev main_c_6 : Ref sig .tc := ⟨.hbm, 53, rfl⟩
abbrev main_v32 : Ref sig .tc := ⟨.hbm, 54, rfl⟩
abbrev main_v33 : Ref sig .tc := ⟨.hbm, 55, rfl⟩
abbrev main_v34 : Ref sig .tc := ⟨.hbm, 56, rfl⟩
abbrev main_v35 : Ref sig .tc := ⟨.hbm, 57, rfl⟩
abbrev main_v36 : Ref sig .tc := ⟨.hbm, 58, rfl⟩
abbrev main_v37 : Ref sig .tc := ⟨.hbm, 59, rfl⟩
abbrev main_cst_7 : Ref sig .tc := ⟨.hbm, 60, rfl⟩
abbrev main_v38 : Ref sig .tc := ⟨.hbm, 61, rfl⟩
abbrev main_v39 : Ref sig .tc := ⟨.hbm, 62, rfl⟩
abbrev main_v40 : Ref sig .tc := ⟨.hbm, 63, rfl⟩
abbrev main_v41 : Ref sig .tc := ⟨.hbm, 64, rfl⟩
abbrev main_v42 : Ref sig .tc := ⟨.hbm, 65, rfl⟩
abbrev main_c_8 : Ref sig .tc := ⟨.hbm, 66, rfl⟩
abbrev main_v43 : Ref sig .tc := ⟨.hbm, 67, rfl⟩
abbrev main_v44 : Ref sig .tc := ⟨.hbm, 68, rfl⟩
abbrev main_c_9 : Ref sig .tc := ⟨.hbm, 69, rfl⟩
abbrev main_v45 : Ref sig .tc := ⟨.hbm, 70, rfl⟩
abbrev main_v46 : Ref sig .tc := ⟨.hbm, 71, rfl⟩
abbrev main_v47 : Ref sig .tc := ⟨.hbm, 72, rfl⟩
abbrev main_v48 : Ref sig .tc := ⟨.hbm, 73, rfl⟩
abbrev main_v49 : Ref sig .tc := ⟨.hbm, 74, rfl⟩
abbrev main_v50 : Ref sig .tc := ⟨.hbm, 75, rfl⟩
abbrev main_cst_10 : Ref sig .tc := ⟨.hbm, 76, rfl⟩
abbrev main_v51 : Ref sig .tc := ⟨.hbm, 77, rfl⟩
abbrev main_v52 : Ref sig .tc := ⟨.hbm, 78, rfl⟩
abbrev main_v53 : Ref sig .tc := ⟨.hbm, 79, rfl⟩
abbrev main_v54 : Ref sig .tc := ⟨.hbm, 80, rfl⟩
abbrev main_cst_11 : Ref sig .tc := ⟨.hbm, 81, rfl⟩
abbrev main_v55 : Ref sig .tc := ⟨.hbm, 82, rfl⟩
abbrev main_cst_12 : Ref sig .tc := ⟨.hbm, 83, rfl⟩
abbrev main_v56 : Ref sig .tc := ⟨.hbm, 84, rfl⟩
abbrev main_v57 : Ref sig .tc := ⟨.hbm, 85, rfl⟩
abbrev main_v58 : Ref sig .tc := ⟨.hbm, 86, rfl⟩
abbrev main_v59 : Ref sig .tc := ⟨.hbm, 87, rfl⟩
abbrev main_v60 : Ref sig .tc := ⟨.hbm, 88, rfl⟩
abbrev main_v61 : Ref sig .tc := ⟨.hbm, 89, rfl⟩
abbrev main_v62 : Ref sig .tc := ⟨.hbm, 90, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc1_stg0_0 : Ref sig .tc := ⟨.vmem, 7, rfl⟩
abbrev cc1_stg0_1 : Ref sig .tc := ⟨.vmem, 8, rfl⟩
abbrev cc1_stg1_0 : Ref sig .tc := ⟨.vmem, 9, rfl⟩
abbrev cc1_stg1_1 : Ref sig .tc := ⟨.vmem, 10, rfl⟩
abbrev cc1_stg2_0 : Ref sig .tc := ⟨.vmem, 11, rfl⟩
abbrev cc1_stg3_0 : Ref sig .tc := ⟨.vmem, 12, rfl⟩
abbrev cc1_stg4_0 : Ref sig .tc := ⟨.vmem, 13, rfl⟩
abbrev cc1_stg4_1 : Ref sig .tc := ⟨.vmem, 14, rfl⟩
abbrev cc2_stg0_0 : Ref sig .tc := ⟨.vmem, 15, rfl⟩
abbrev cc2_stg0_1 : Ref sig .tc := ⟨.vmem, 16, rfl⟩
abbrev cc2_stg1_0 : Ref sig .tc := ⟨.vmem, 17, rfl⟩
abbrev cc2_stg1_1 : Ref sig .tc := ⟨.vmem, 18, rfl⟩
abbrev cc2_stg2_0 : Ref sig .tc := ⟨.vmem, 19, rfl⟩
abbrev cc2_stg3_0 : Ref sig .tc := ⟨.vmem, 20, rfl⟩
abbrev cc2_stg4_0 : Ref sig .tc := ⟨.vmem, 21, rfl⟩
abbrev cc2_stg4_1 : Ref sig .tc := ⟨.vmem, 22, rfl⟩
abbrev cc3_stg0_0 : Ref sig .tc := ⟨.vmem, 23, rfl⟩
abbrev cc3_stg0_1 : Ref sig .tc := ⟨.vmem, 24, rfl⟩
abbrev cc3_stg1_0 : Ref sig .tc := ⟨.vmem, 25, rfl⟩
abbrev cc3_stg1_1 : Ref sig .tc := ⟨.vmem, 26, rfl⟩
abbrev cc3_stg2_0 : Ref sig .tc := ⟨.vmem, 27, rfl⟩
abbrev cc3_stg3_0 : Ref sig .tc := ⟨.vmem, 28, rfl⟩
abbrev cc3_stg3_1 : Ref sig .tc := ⟨.vmem, 29, rfl⟩
abbrev cc3_stg4_0 : Ref sig .tc := ⟨.vmem, 30, rfl⟩
abbrev cc3_stg5_0 : Ref sig .tc := ⟨.vmem, 31, rfl⟩
abbrev cc3_stg6_0 : Ref sig .tc := ⟨.vmem, 32, rfl⟩
abbrev cc3_stg7_0 : Ref sig .tc := ⟨.vmem, 33, rfl⟩
abbrev cc3_scratch0 : Ref sig .tc := ⟨.vmem, 34, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc1_sem0_0 : DmaSem sig := 7
abbrev cc1_sem0_1 : DmaSem sig := 8
abbrev cc1_sem1_0 : DmaSem sig := 9
abbrev cc1_sem1_1 : DmaSem sig := 10
abbrev cc1_sem2_0 : DmaSem sig := 11
abbrev cc1_sem3_0 : DmaSem sig := 12
abbrev cc1_sem4_0 : DmaSem sig := 13
abbrev cc1_sem4_1 : DmaSem sig := 14
abbrev cc2_sem0_0 : DmaSem sig := 15
abbrev cc2_sem0_1 : DmaSem sig := 16
abbrev cc2_sem1_0 : DmaSem sig := 17
abbrev cc2_sem1_1 : DmaSem sig := 18
abbrev cc2_sem2_0 : DmaSem sig := 19
abbrev cc2_sem3_0 : DmaSem sig := 20
abbrev cc2_sem4_0 : DmaSem sig := 21
abbrev cc2_sem4_1 : DmaSem sig := 22
abbrev cc3_sem0_0 : DmaSem sig := 23
abbrev cc3_sem0_1 : DmaSem sig := 24
abbrev cc3_sem1_0 : DmaSem sig := 25
abbrev cc3_sem1_1 : DmaSem sig := 26
abbrev cc3_sem2_0 : DmaSem sig := 27
abbrev cc3_sem3_0 : DmaSem sig := 28
abbrev cc3_sem3_1 : DmaSem sig := 29
abbrev cc3_sem4_0 : DmaSem sig := 30
abbrev cc3_sem5_0 : DmaSem sig := 31
abbrev cc3_sem6_0 : DmaSem sig := 32
abbrev cc3_sem7_0 : DmaSem sig := 33

abbrev nD : Nat := 1
abbrev τ : Topo := Topo.v7x

variable {F : FTy → Type} [FloatOps F]

abbrev grid0 : Pipeline.Grid := ⟨1, ![10], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S5000x1 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S5000x128 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev grid1 : Pipeline.Grid := ⟨1, ![10], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S5000x1 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S1x128 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S128x128 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 2 → Memref sig .tc .vmem S5000x128 .bf16 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true]

abbrev grid2 : Pipeline.Grid := ⟨1, ![10], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_4 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S5000x128 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S5000x1 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 1 → Memref sig .tc .vmem S1x128 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 1 → Memref sig .tc .vmem S128x128 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 2 → Memref sig .tc .vmem S5000x128 .bf16 := fun | 0 => Memref.whole cc2_stg4_0 | 1 => Memref.whole cc2_stg4_1 | ⟨_ + 2, h⟩ => absurd h (Nat.not_lt.2 (Nat.le_add_left _ _))
abbrev sem2_4 : Fin 2 → DmaSem sig := fun | 0 => cc2_sem4_0 | 1 => cc2_sem4_1 | ⟨_ + 2, h⟩ => absurd h (Nat.not_lt.2 (Nat.le_add_left _ _))
abbrev reads2_4 : Fin grid2.rank → Bool := ![true]

abbrev grid3 : Pipeline.Grid := ⟨1, ![10], ![false]⟩

def k3_cond2 (i : grid3.Coords) : BitVec 1 :=
  let arg0 : BitVec 32 := BitVec.ofNat 32 (i 0).val
  let c9_i32 : BitVec 32 := 9#32
  let v28 : BitVec 1 := Scalar.cmpi .eq arg0 c9_i32
  let v29 : BitVec 32 := Scalar.extui v28
  let c0_i32_12 : BitVec 32 := 0#32
  let v30 : BitVec 1 := Scalar.cmpi .ne v29 c0_i32_12
  v30

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_2 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_3 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_4 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_5 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_6 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_7 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage3_0 : Fin 2 → Memref sig .tc .vmem S5000x128 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 2 → Memref sig .tc .vmem S5000x1 .f32 := fun | 0 => Memref.whole cc3_stg1_0 | 1 => Memref.whole cc3_stg1_1 | ⟨_ + 2, h⟩ => absurd h (Nat.not_lt.2 (Nat.le_add_left _ _))
abbrev sem3_1 : Fin 2 → DmaSem sig := fun | 0 => cc3_sem1_0 | 1 => cc3_sem1_1 | ⟨_ + 2, h⟩ => absurd h (Nat.not_lt.2 (Nat.le_add_left _ _))
abbrev reads3_1 : Fin grid3.rank → Bool := ![true]

abbrev stage3_2 : Fin 1 → Memref sig .tc .vmem S1x128 .f32 := fun | 0 => Memref.whole cc3_stg2_0 | ⟨_ + 1, h⟩ => absurd h (Nat.not_lt.2 (Nat.le_add_left _ _))
abbrev sem3_2 : Fin 1 → DmaSem sig := fun | 0 => cc3_sem2_0 | ⟨_ + 1, h⟩ => absurd h (Nat.not_lt.2 (Nat.le_add_left _ _))
abbrev reads3_2 : Fin grid3.rank → Bool := ![false]

abbrev stage3_3 : Fin 2 → Memref sig .tc .vmem S5000x1 .i32 := fun | 0 => Memref.whole cc3_stg3_0 | 1 => Memref.whole cc3_stg3_1 | ⟨_ + 2, h⟩ => absurd h (Nat.not_lt.2 (Nat.le_add_left _ _))
abbrev sem3_3 : Fin 2 → DmaSem sig := fun | 0 => cc3_sem3_0 | 1 => cc3_sem3_1 | ⟨_ + 2, h⟩ => absurd h (Nat.not_lt.2 (Nat.le_add_left _ _))
abbrev reads3_3 : Fin grid3.rank → Bool := ![true]

abbrev stage3_4 : Fin 1 → Memref sig .tc .vmem S128x1 .f32 := fun | 0 => Memref.whole cc3_stg4_0 | ⟨_ + 1, h⟩ => absurd h (Nat.not_lt.2 (Nat.le_add_left _ _))
abbrev sem3_4 : Fin 1 → DmaSem sig := fun | 0 => cc3_sem4_0 | ⟨_ + 1, h⟩ => absurd h (Nat.not_lt.2 (Nat.le_add_left _ _))
abbrev reads3_4 : Fin grid3.rank → Bool := ![false]

abbrev stage3_5 : Fin 1 → Memref sig .tc .vmem S128x3 .f32 := fun | 0 => Memref.whole cc3_stg5_0 | ⟨_ + 1, h⟩ => absurd h (Nat.not_lt.2 (Nat.le_add_left _ _))
abbrev sem3_5 : Fin 1 → DmaSem sig := fun | 0 => cc3_sem5_0 | ⟨_ + 1, h⟩ => absurd h (Nat.not_lt.2 (Nat.le_add_left _ _))
abbrev reads3_5 : Fin grid3.rank → Bool := ![false]

abbrev stage3_6 : Fin 1 → Memref sig .tc .vmem S1x3 .f32 := fun | 0 => Memref.whole cc3_stg6_0 | ⟨_ + 1, h⟩ => absurd h (Nat.not_lt.2 (Nat.le_add_left _ _))
abbrev sem3_6 : Fin 1 → DmaSem sig := fun | 0 => cc3_sem6_0 | ⟨_ + 1, h⟩ => absurd h (Nat.not_lt.2 (Nat.le_add_left _ _))
abbrev reads3_6 : Fin grid3.rank → Bool := ![false]

abbrev stage3_7 : Fin 1 → Memref sig .tc .vmem S128x3 .f32 := fun | 0 => Memref.whole cc3_stg7_0 | ⟨_ + 1, h⟩ => absurd h (Nat.not_lt.2 (Nat.le_add_left _ _))
abbrev sem3_7 : Fin 1 → DmaSem sig := fun | 0 => cc3_sem7_0 | ⟨_ + 1, h⟩ => absurd h (Nat.not_lt.2 (Nat.le_add_left _ _))
abbrev reads3_7 : Fin grid3.rank → Bool := ![false]

class Facts₀ : Prop where
  slices_S2x800000_S1x800000_0_0 : S2x800000.Slices ![0, 0] S1x800000
  shapeCasts_S1x800000_S800000 : S1x800000.ShapeCasts S800000
  concatenates_S800000_S50000_S850000_d0 : Shape.Concatenates [S800000, S50000] S850000 0
  slices_S2x800000_S1x800000_1_0 : S2x800000.Slices ![1, 0] S1x800000
  bcast_S_S850000 : S_.BroadcastsInDim S850000 (![] : Fin 0 → Fin S850000.rank)
  bcast_S_S50000 : S_.BroadcastsInDim S50000 (![] : Fin 0 → Fin S50000.rank)
  bcast_S850000_S850000x1_0 : S850000.BroadcastsInDim S850000x1 (![0] : Fin 1 → Fin S850000x1.rank)
  shapeCasts_S50000_S50000x1 : S50000.ShapeCasts S50000x1
  inb_S5000x128_S5000x128_0_0 : ∀ a, (![0, 0] : Fin 2 → Nat) a + S5000x128.size a ≤ S5000x128.size a
  h_S5000x128 : 0 < S5000x128.numel
  bitsLt_bf16_f32 : FTy.bits .bf16 < FTy.bits .f32
  inb_S128x128_S128x128_0_0 : ∀ a, (![0, 0] : Fin 2 → Nat) a + S128x128.size a ≤ S128x128.size a
  h_S128x128 : 0 < S128x128.numel
  inb_S5000x1_S5000x1_0_0 : ∀ a, (![0, 0] : Fin 2 → Nat) a + S5000x1.size a ≤ S5000x1.size a
  h_S5000x1 : 0 < S5000x1.numel
  shapeCasts_S5000x1_S5000x1 : S5000x1.ShapeCasts S5000x1
  broadcasts_S5000x1_S5000x128 : S5000x1.Broadcasts S5000x128
  packedbf16_S5000x128_S5000x128_0_0 : (Rect.unit (s := S5000x128) ![0, 0] S5000x128.size inb_S5000x128_S5000x128_0_0).PackedRows (EltTy.packing .bf16)
  bcast_S_S50000x128 : S_.BroadcastsInDim S50000x128 (![] : Fin 0 → Fin S50000x128.rank)
  shapeCasts_S128_S1x128 : S128.ShapeCasts S1x128
  shapeCasts_S5000x128_S5000x128 : S5000x128.ShapeCasts S5000x128
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S5000x128 : S1x128.Broadcasts S5000x128
  bcast_S_S128 : S_.BroadcastsInDim S128 (![] : Fin 0 → Fin S128.rank)
  bcast_S50000_S50000x1_0 : S50000.BroadcastsInDim S50000x1 (![0] : Fin 1 → Fin S50000x1.rank)
  shapeCasts_S128_S128x1 : S128.ShapeCasts S128x1
  shapeCasts_S3_S1x3 : S3.ShapeCasts S1x3
  shapeCasts_S128x128_S128x128 : S128x128.ShapeCasts S128x128
  iota_S5000x128_d1_w32 : S5000x128.Iotas .tc 32 [1]
  natLt_1_32 : 1 < 32
  inb_S128x1_S128x1_0_0 : ∀ a, (![0, 0] : Fin 2 → Nat) a + S128x1.size a ≤ S128x1.size a
  h_S128x1 : 0 < S128x1.numel
  shapeCasts_S128x1_S128x1 : S128x1.ShapeCasts S128x1
  broadcasts_S128x1_S128x128 : S128x1.Broadcasts S128x128
  inb_S128x3_S128x3_0_0 : ∀ a, (![0, 0] : Fin 2 → Nat) a + S128x3.size a ≤ S128x3.size a
  h_S128x3 : 0 < S128x3.numel
  inb_S1x3_S1x3_0_0 : ∀ a, (![0, 0] : Fin 2 → Nat) a + S1x3.size a ≤ S1x3.size a
  h_S1x3 : 0 < S1x3.numel
  shapeCasts_S1x3_S1x3 : S1x3.ShapeCasts S1x3
  broadcasts_S1x3_S128x3 : S1x3.Broadcasts S128x3
  scatter_S50000_S850000x1_S850000_n_0_0_1_wf : ScatterDims.WF S50000 S850000x1 S850000 [] [0] [0] 1
  dot_S5000x128_S128x128_S5000x128_1_0_0_1_n_n_wf : DotDims.WF S5000x128 S128x128 S5000x128 [1] [0] [0] [1] [] []
  gather_S50000x128_S850000x1_S850000x128_1_0_n_n_0_1_1128_wf : GatherDims.WF S50000x128 S850000x1 S850000x128 [1] [0] [] [0] [] 1 ![1, 128]
  scatter_S50000x128_S850000x1_S850000x128_1_0_0_1_wf : ScatterDims.WF S50000x128 S850000x1 S850000x128 [1] [0] [0] 1
  scatter_S128_S50000x1_S50000_n_0_0_1_wf : ScatterDims.WF S128 S50000x1 S50000 [] [0] [0] 1
  dot_S5000x128_S5000x128_S128x128_0_0_1_1_n_n_wf : DotDims.WF S5000x128 S5000x128 S128x128 [0] [0] [1] [1] [] []
  dot_S128x128_S128x3_S128x3_1_0_0_1_n_n_wf : DotDims.WF S128x128 S128x3 S128x3 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x128.size a ≤ S50000x128.size a
  hwx0_0 : ∀ i : grid0.Coords, EltTy.bits .f32 = 32 ∨ (Rect.block (s := S50000x128) S5000x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x128.size a ≤ S128x128.size a
  hwx0_1 : ∀ i : grid0.Coords, EltTy.bits .f32 = 32 ∨ (Rect.block (s := S128x128) S128x128.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S5000x1.size a ≤ S50000x1.size a
  hwx0_2 : ∀ i : grid0.Coords, EltTy.bits .f32 = 32 ∨ (Rect.block (s := S50000x1) S5000x1.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S5000x128.size a ≤ S50000x128.size a
  hwx0_3 : ∀ i : grid0.Coords, EltTy.bits .bf16 = 32 ∨ (Rect.block (s := S50000x128) S5000x128.size (cc0_transform_3 i) (hinb0_3 i)).WholeWords (EltTy.packing .bf16)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x128.size a ≤ S50000x128.size a
  hwx1_0 : ∀ i : grid1.Coords, EltTy.bits .f32 = 32 ∨ (Rect.block (s := S50000x128) S5000x128.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S5000x1.size a ≤ S50000x1.size a
  hwx1_1 : ∀ i : grid1.Coords, EltTy.bits .f32 = 32 ∨ (Rect.block (s := S50000x1) S5000x1.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S1x128.size a ≤ S1x128.size a
  hwx1_2 : ∀ i : grid1.Coords, EltTy.bits .f32 = 32 ∨ (Rect.block (s := S1x128) S1x128.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S128x128.size a ≤ S128x128.size a
  hwx1_3 : ∀ i : grid1.Coords, EltTy.bits .f32 = 32 ∨ (Rect.block (s := S128x128) S128x128.size (cc1_transform_3 i) (hinb1_3 i)).WholeWords (EltTy.packing .f32)
  hstage1_4 : ∀ j, (stage1_4 j).IsWhole
  nbuf1_4 : grid1.bufCount reads1_4 false = 2
  hreads1_4 : ∀ i i' : grid1.Coords, (∀ a, reads1_4 a = true → i a = i' a) → cc1_transform_4 i = cc1_transform_4 i'
  hinb1_4 : ∀ (i : grid1.Coords) a, (cc1_transform_4 i a + 1) * S5000x128.size a ≤ S50000x128.size a
  hwx1_4 : ∀ i : grid1.Coords, EltTy.bits .bf16 = 32 ∨ (Rect.block (s := S50000x128) S5000x128.size (cc1_transform_4 i) (hinb1_4 i)).WholeWords (EltTy.packing .bf16)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S5000x128.size a ≤ S50000x128.size a
  hwx2_0 : ∀ i : grid2.Coords, EltTy.bits .f32 = 32 ∨ (Rect.block (s := S50000x128) S5000x128.size (cc2_transform_0 i) (hinb2_0 i)).WholeWords (EltTy.packing .f32)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S5000x1.size a ≤ S50000x1.size a
  hwx2_1 : ∀ i : grid2.Coords, EltTy.bits .f32 = 32 ∨ (Rect.block (s := S50000x1) S5000x1.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S1x128.size a ≤ S1x128.size a
  hwx2_2 : ∀ i : grid2.Coords, EltTy.bits .f32 = 32 ∨ (Rect.block (s := S1x128) S1x128.size (cc2_transform_2 i) (hinb2_2 i)).WholeWords (EltTy.packing .f32)
  hstage2_3 : ∀ j, (stage2_3 j).IsWhole
  nbuf2_3 : grid2.bufCount reads2_3 true = 1
  hreads2_3 : ∀ i i' : grid2.Coords, (∀ a, reads2_3 a = true → i a = i' a) → cc2_transform_3 i = cc2_transform_3 i'
  hinb2_3 : ∀ (i : grid2.Coords) a, (cc2_transform_3 i a + 1) * S128x128.size a ≤ S128x128.size a
  hwx2_3 : ∀ i : grid2.Coords, EltTy.bits .f32 = 32 ∨ (Rect.block (s := S128x128) S128x128.size (cc2_transform_3 i) (hinb2_3 i)).WholeWords (EltTy.packing .f32)
  hstage2_4 : ∀ j, (stage2_4 j).IsWhole
  nbuf2_4 : grid2.bufCount reads2_4 false = 2
  hreads2_4 : ∀ i i' : grid2.Coords, (∀ a, reads2_4 a = true → i a = i' a) → cc2_transform_4 i = cc2_transform_4 i'
  hinb2_4 : ∀ (i : grid2.Coords) a, (cc2_transform_4 i a + 1) * S5000x128.size a ≤ S50000x128.size a
  hwx2_4 : ∀ i : grid2.Coords, EltTy.bits .bf16 = 32 ∨ (Rect.block (s := S50000x128) S5000x128.size (cc2_transform_4 i) (hinb2_4 i)).WholeWords (EltTy.packing .bf16)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S5000x128.size a ≤ S50000x128.size a
  hwx3_0 : ∀ i : grid3.Coords, EltTy.bits .f32 = 32 ∨ (Rect.block (s := S50000x128) S5000x128.size (cc3_transform_0 i) (hinb3_0 i)).WholeWords (EltTy.packing .f32)
  hstage3_1 : ∀ j, (stage3_1 j).IsWhole
  nbuf3_1 : grid3.bufCount reads3_1 false = 2
  hreads3_1 : ∀ i i' : grid3.Coords, (∀ a, reads3_1 a = true → i a = i' a) → cc3_transform_1 i = cc3_transform_1 i'
  hinb3_1 : ∀ (i : grid3.Coords) a, (cc3_transform_1 i a + 1) * S5000x1.size a ≤ S50000x1.size a
  hwx3_1 : ∀ i : grid3.Coords, EltTy.bits .f32 = 32 ∨ (Rect.block (s := S50000x1) S5000x1.size (cc3_transform_1 i) (hinb3_1 i)).WholeWords (EltTy.packing .f32)
  hstage3_2 : ∀ j, (stage3_2 j).IsWhole
  nbuf3_2 : grid3.bufCount reads3_2 true = 1
  hreads3_2 : ∀ i i' : grid3.Coords, (∀ a, reads3_2 a = true → i a = i' a) → cc3_transform_2 i = cc3_transform_2 i'
  hinb3_2 : ∀ (i : grid3.Coords) a, (cc3_transform_2 i a + 1) * S1x128.size a ≤ S1x128.size a
  hwx3_2 : ∀ i : grid3.Coords, EltTy.bits .f32 = 32 ∨ (Rect.block (s := S1x128) S1x128.size (cc3_transform_2 i) (hinb3_2 i)).WholeWords (EltTy.packing .f32)
  hstage3_3 : ∀ j, (stage3_3 j).IsWhole
  nbuf3_3 : grid3.bufCount reads3_3 false = 2
  hreads3_3 : ∀ i i' : grid3.Coords, (∀ a, reads3_3 a = true → i a = i' a) → cc3_transform_3 i = cc3_transform_3 i'
  hinb3_3 : ∀ (i : grid3.Coords) a, (cc3_transform_3 i a + 1) * S5000x1.size a ≤ S50000x1.size a
  hwx3_3 : ∀ i : grid3.Coords, EltTy.bits .i32 = 32 ∨ (Rect.block (s := S50000x1) S5000x1.size (cc3_transform_3 i) (hinb3_3 i)).WholeWords (EltTy.packing .i32)
  hstage3_4 : ∀ j, (stage3_4 j).IsWhole
  nbuf3_4 : grid3.bufCount reads3_4 true = 1
  hreads3_4 : ∀ i i' : grid3.Coords, (∀ a, reads3_4 a = true → i a = i' a) → cc3_transform_4 i = cc3_transform_4 i'
  hinb3_4 : ∀ (i : grid3.Coords) a, (cc3_transform_4 i a + 1) * S128x1.size a ≤ S128x1.size a
  hwx3_4 : ∀ i : grid3.Coords, EltTy.bits .f32 = 32 ∨ (Rect.block (s := S128x1) S128x1.size (cc3_transform_4 i) (hinb3_4 i)).WholeWords (EltTy.packing .f32)
  hstage3_5 : ∀ j, (stage3_5 j).IsWhole
  nbuf3_5 : grid3.bufCount reads3_5 true = 1
  hreads3_5 : ∀ i i' : grid3.Coords, (∀ a, reads3_5 a = true → i a = i' a) → cc3_transform_5 i = cc3_transform_5 i'
  hinb3_5 : ∀ (i : grid3.Coords) a, (cc3_transform_5 i a + 1) * S128x3.size a ≤ S128x3.size a
  hwx3_5 : ∀ i : grid3.Coords, EltTy.bits .f32 = 32 ∨ (Rect.block (s := S128x3) S128x3.size (cc3_transform_5 i) (hinb3_5 i)).WholeWords (EltTy.packing .f32)
  hstage3_6 : ∀ j, (stage3_6 j).IsWhole
  nbuf3_6 : grid3.bufCount reads3_6 true = 1
  hreads3_6 : ∀ i i' : grid3.Coords, (∀ a, reads3_6 a = true → i a = i' a) → cc3_transform_6 i = cc3_transform_6 i'
  hinb3_6 : ∀ (i : grid3.Coords) a, (cc3_transform_6 i a + 1) * S1x3.size a ≤ S1x3.size a
  hwx3_6 : ∀ i : grid3.Coords, EltTy.bits .f32 = 32 ∨ (Rect.block (s := S1x3) S1x3.size (cc3_transform_6 i) (hinb3_6 i)).WholeWords (EltTy.packing .f32)
  hstage3_7 : ∀ j, (stage3_7 j).IsWhole
  nbuf3_7 : grid3.bufCount reads3_7 true = 1
  hreads3_7 : ∀ i i' : grid3.Coords, (∀ a, reads3_7 a = true → i a = i' a) → cc3_transform_7 i = cc3_transform_7 i'
  hinb3_7 : ∀ (i : grid3.Coords) a, (cc3_transform_7 i a + 1) * S128x3.size a ≤ S128x3.size a
  hwx3_7 : ∀ i : grid3.Coords, EltTy.bits .f32 = 32 ∨ (Rect.block (s := S128x3) S128x3.size (cc3_transform_7 i) (hinb3_7 i)).WholeWords (EltTy.packing .f32)

variable [Facts₀]

def scatter_S50000_S850000x1_S850000_n_0_0_1 : ScatterDims S50000 S850000x1 S850000 where
  updateWindowDims := []
  insertedWindowDims := [0]
  scatterDimsToOperandDims := [0]
  indexVectorDim := 1
  wf := scatter_S50000_S850000x1_S850000_n_0_0_1_wf
def dot_S5000x128_S128x128_S5000x128_1_0_0_1_n_n : DotDims S5000x128 S128x128 S5000x128 where
  lhsContracting := [1]
  rhsContracting := [0]
  lhsNonContracting := [0]
  rhsNonContracting := [1]
  lhsBatch := []
  rhsBatch := []
  wf := dot_S5000x128_S128x128_S5000x128_1_0_0_1_n_n_wf
def gather_S50000x128_S850000x1_S850000x128_1_0_n_n_0_1_1128 : GatherDims S50000x128 S850000x1 S850000x128 where
  offsetDims := [1]
  collapsedSliceDims := [0]
  operandBatchingDims := []
  startIndicesBatchingDims := []
  startIndexMap := [0]
  indexVectorDim := 1
  sliceSizes := ![1, 128]
  wf := gather_S50000x128_S850000x1_S850000x128_1_0_n_n_0_1_1128_wf
def scatter_S50000x128_S850000x1_S850000x128_1_0_0_1 : ScatterDims S50000x128 S850000x1 S850000x128 where
  updateWindowDims := [1]
  insertedWindowDims := [0]
  scatterDimsToOperandDims := [0]
  indexVectorDim := 1
  wf := scatter_S50000x128_S850000x1_S850000x128_1_0_0_1_wf
def scatter_S128_S50000x1_S50000_n_0_0_1 : ScatterDims S128 S50000x1 S50000 where
  updateWindowDims := []
  insertedWindowDims := [0]
  scatterDimsToOperandDims := [0]
  indexVectorDim := 1
  wf := scatter_S128_S50000x1_S50000_n_0_0_1_wf
def dot_S5000x128_S5000x128_S128x128_0_0_1_1_n_n : DotDims S5000x128 S5000x128 S128x128 where
  lhsContracting := [0]
  rhsContracting := [0]
  lhsNonContracting := [1]
  rhsNonContracting := [1]
  lhsBatch := []
  rhsBatch := []
  wf := dot_S5000x128_S5000x128_S128x128_0_0_1_1_n_n_wf
def dot_S128x128_S128x3_S128x3_1_0_0_1_n_n : DotDims S128x128 S128x3 S128x3 where
  lhsContracting := [1]
  rhsContracting := [0]
  lhsNonContracting := [0]
  rhsNonContracting := [1]
  lhsBatch := []
  rhsBatch := []
  wf := dot_S128x128_S128x3_S128x3_1_0_0_1_n_n_wf

abbrev win0_0 : Pipeline.Window sig grid0 :=
  Pipeline.Window.ofSpec (Memref.whole main_arg0) S5000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg3) S128x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v15) S5000x1.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v16) S5000x128.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev win1_0 : Pipeline.Window sig grid1 :=
  Pipeline.Window.ofSpec (Memref.whole main_v27) S5000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v15) S5000x1.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v28) S1x128.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_arg5) S128x128.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v29) S5000x128.size cc1_transform_4 reads1_4 true false 2 stage1_4 sem1_4
    hrank1 hreads1_4 hinb1_4 nbuf1_4 (Memref.isWhole_whole _) hwx1_4 hstage1_4

abbrev win1 : Fin 5 → Pipeline.Window sig grid1 := fun | 0 => win1_0 | 1 => win1_1 | 2 => win1_2 | 3 => win1_3 | 4 => win1_4 | ⟨_ + 5, h⟩ => absurd h (Nat.not_lt.2 (Nat.le_add_left _ _))
abbrev spec1 : Fin 5 → Pipeline.WinSpec sig grid1.rank := fun w => (win1 w).toWinSpec

abbrev win2_0 : Pipeline.Window sig grid2 :=
  Pipeline.Window.ofSpec (Memref.whole main_v40) S5000x128.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v15) S5000x1.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_v41) S1x128.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_arg7) S128x128.size cc2_transform_3 reads2_3 false true 1 stage2_3 sem2_3
    hrank2 hreads2_3 hinb2_3 nbuf2_3 (Memref.isWhole_whole _) hwx2_3 hstage2_3

abbrev win2_4 : Pipeline.Window sig grid2 :=
  Pipeline.Window.ofSpec (Memref.whole main_v42) S5000x128.size cc2_transform_4 reads2_4 true false 2 stage2_4 sem2_4
    hrank2 hreads2_4 hinb2_4 nbuf2_4 (Memref.isWhole_whole _) hwx2_4 hstage2_4

abbrev win2 : Fin 5 → Pipeline.Window sig grid2 := fun | 0 => win2_0 | 1 => win2_1 | 2 => win2_2 | 3 => win2_3 | 4 => win2_4 | ⟨_ + 5, h⟩ => absurd h (Nat.not_lt.2 (Nat.le_add_left _ _))
abbrev spec2 : Fin 5 → Pipeline.WinSpec sig grid2.rank := fun w => (win2 w).toWinSpec

abbrev win3_0 : Pipeline.Window sig grid3 :=
  Pipeline.Window.ofSpec (Memref.whole main_v53) S5000x128.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v15) S5000x1.size cc3_transform_1 reads3_1 false false 2 stage3_1 sem3_1
    hrank3 hreads3_1 hinb3_1 nbuf3_1 (Memref.isWhole_whole _) hwx3_1 hstage3_1

abbrev win3_2 : Pipeline.Window sig grid3 :=
  Pipeline.Window.ofSpec (Memref.whole main_v60) S1x128.size cc3_transform_2 reads3_2 false true 1 stage3_2 sem3_2
    hrank3 hreads3_2 hinb3_2 nbuf3_2 (Memref.isWhole_whole _) hwx3_2 hstage3_2

abbrev win3_3 : Pipeline.Window sig grid3 :=
  Pipeline.Window.ofSpec (Memref.whole main_v54) S5000x1.size cc3_transform_3 reads3_3 false false 2 stage3_3 sem3_3
    hrank3 hreads3_3 hinb3_3 nbuf3_3 (Memref.isWhole_whole _) hwx3_3 hstage3_3

abbrev win3_4 : Pipeline.Window sig grid3 :=
  Pipeline.Window.ofSpec (Memref.whole main_v59) S128x1.size cc3_transform_4 reads3_4 false true 1 stage3_4 sem3_4
    hrank3 hreads3_4 hinb3_4 nbuf3_4 (Memref.isWhole_whole _) hwx3_4 hstage3_4

abbrev win3_5 : Pipeline.Window sig grid3 :=
  Pipeline.Window.ofSpec (Memref.whole main_arg9) S128x3.size cc3_transform_5 reads3_5 false true 1 stage3_5 sem3_5
    hrank3 hreads3_5 hinb3_5 nbuf3_5 (Memref.isWhole_whole _) hwx3_5 hstage3_5

abbrev win3_6 : Pipeline.Window sig grid3 :=
  Pipeline.Window.ofSpec (Memref.whole main_v61) S1x3.size cc3_transform_6 reads3_6 false true 1 stage3_6 sem3_6
    hrank3 hreads3_6 hinb3_6 nbuf3_6 (Memref.isWhole_whole _) hwx3_6 hstage3_6

abbrev win3_7 : Pipeline.Window sig grid3 :=
  Pipeline.Window.ofSpec (Memref.whole main_v62) S128x3.size cc3_transform_7 reads3_7 true true 1 stage3_7 sem3_7
    hrank3 hreads3_7 hinb3_7 nbuf3_7 (Memref.isWhole_whole _) hwx3_7 hstage3_7

abbrev win3 : Fin 8 → Pipeline.Window sig grid3 := fun | 0 => win3_0 | 1 => win3_1 | 2 => win3_2 | 3 => win3_3 | 4 => win3_4 | 5 => win3_5 | 6 => win3_6 | 7 => win3_7 | ⟨_ + 8, h⟩ => absurd h (Nat.not_lt.2 (Nat.le_add_left _ _))
abbrev spec3 : Fin 8 → Pipeline.WinSpec sig grid3.rank := fun w => (win3 w).toWinSpec

abbrev idle3 : Fin 8 → grid3.Coords → Bool := fun | 0 => fun _ => false | 1 => fun _ => false | 2 => fun _ => false | 3 => fun _ => false | 4 => fun _ => false | 5 => fun _ => false | 6 => fun _ => false | 7 => fun i => !(k3_cond2 i == 1#1) | ⟨_ + 8, h⟩ => absurd h (Nat.not_lt.2 (Nat.le_add_left _ _))

class Facts : Prop extends Facts₀ where

variable [Facts]
-- ==== ReferenceIdeal.lean ====
abbrev S50000x128 : Shape := ⟨2, ![50000, 128]⟩
abbrev S2x800000 : Shape := ⟨2, ![2, 800000]⟩
abbrev S50000 : Shape := ⟨1, ![50000]⟩
abbrev S128x128 : Shape := ⟨2, ![128, 128]⟩
abbrev S128 : Shape := ⟨1, ![128]⟩
abbrev S128x3 : Shape := ⟨2, ![128, 3]⟩
abbrev S3 : Shape := ⟨1, ![3]⟩
abbrev S1x800000 : Shape := ⟨2, ![1, 800000]⟩
abbrev S800000 : Shape := ⟨1, ![800000]⟩
abbrev S850000 : Shape := ⟨1, ![850000]⟩
abbrev S_ : Shape := ⟨0, ![]⟩
abbrev S850000x1 : Shape := ⟨2, ![850000, 1]⟩
abbrev S850000x128 : Shape := ⟨2, ![850000, 128]⟩
abbrev S1x128 : Shape := ⟨2, ![1, 128]⟩
abbrev S50000x1 : Shape := ⟨2, ![50000, 1]⟩
abbrev S128x1 : Shape := ⟨2, ![128, 1]⟩
abbrev S1x3 : Shape := ⟨2, ![1, 3]⟩

abbrev nBuf : Space → Nat
  | .hbm => 137
  | .vmem => 0
  | .smem => 0
  | _ => 0

abbrev hbmTy0_0 (i : Nat) : BufTy := match i % 128 with
  | 0 => ⟨S50000x128, .f32⟩
  | 1 => ⟨S2x800000, .i32⟩
  | 2 => ⟨S50000, .i32⟩
  | 3 => ⟨S128x128, .f32⟩
  | 4 => ⟨S128, .f32⟩
  | 5 => ⟨S128x128, .f32⟩
  | 6 => ⟨S128, .f32⟩
  | 7 => ⟨S128x128, .f32⟩
  | 8 => ⟨S128, .f32⟩
  | 9 => ⟨S128x3, .f32⟩
  | 10 => ⟨S3, .f32⟩
  | 11 => ⟨S50000, .i32⟩
  | 12 => ⟨S1x800000, .i32⟩
  | 13 => ⟨S800000, .i32⟩
  | 14 => ⟨S850000, .i32⟩
  | 15 => ⟨S1x800000, .i32⟩
  | 16 => ⟨S800000, .i32⟩
  | 17 => ⟨S850000, .i32⟩
  | 18 => ⟨S_, .f32⟩
  | 19 => ⟨S850000, .f32⟩
  | 20 => ⟨S_, .f32⟩
  | 21 => ⟨S50000, .f32⟩
  | 22 => ⟨S850000x1, .i32⟩
  | 23 => ⟨S50000, .f32⟩
  | 24 => ⟨S_, .f32⟩
  | 25 => ⟨S50000, .f32⟩
  | 26 => ⟨S50000, .i1⟩
  | 27 => ⟨S50000, .f32⟩
  | 28 => ⟨S_, .f32⟩
  | 29 => ⟨S_, .f32⟩
  | 30 => ⟨S50000, .f32⟩
  | 31 => ⟨S50000, .f32⟩
  | 32 => ⟨S_, .i32⟩
  | 33 => ⟨S850000, .i32⟩
  | 34 => ⟨S850000, .i1⟩
  | 35 => ⟨S_, .i32⟩
  | 36 => ⟨S850000, .i32⟩
  | 37 => ⟨S850000, .i32⟩
  | 38 => ⟨S850000, .i32⟩
  | 39 => ⟨S850000x1, .i32⟩
  | 40 => ⟨S850000, .f32⟩
  | 41 => ⟨S_, .i32⟩
  | 42 => ⟨S850000, .i32⟩
  | 43 => ⟨S850000, .i1⟩
  | 44 => ⟨S_, .i32⟩
  | 45 => ⟨S850000, .i32⟩
  | 46 => ⟨S850000, .i32⟩
  | 47 => ⟨S850000, .i32⟩
  | 48 => ⟨S850000x1, .i32⟩
  | 49 => ⟨S850000, .f32⟩
  | 50 => ⟨S850000, .f32⟩
  | 51 => ⟨S50000x128, .f32⟩
  | 52 => ⟨S_, .i32⟩
  | 53 => ⟨S850000, .i32⟩
  | 54 => ⟨S850000, .i1⟩
  | 55 => ⟨S_, .i32⟩
  | 56 => ⟨S850000, .i32⟩
  | 57 => ⟨S850000, .i32⟩
  | 58 => ⟨S850000, .i32⟩
  | 59 => ⟨S850000x1, .i32⟩
  | 60 => ⟨S850000x128, .f32⟩
  | 61 => ⟨S850000x1, .f32⟩
  | 62 => ⟨S850000x128, .f32⟩
  | 63 => ⟨S850000x128, .f32⟩
  | 64 => ⟨S_, .f32⟩
  | 65 => ⟨S50000x128, .f32⟩
  | 66 => ⟨S850000x1, .i32⟩
  | 67 => ⟨S50000x128, .f32⟩
  | 68 => ⟨S1x128, .f32⟩
  | 69 => ⟨S50000x128, .f32⟩
  | 70 => ⟨S50000x128, .f32⟩
  | 71 => ⟨S_, .f32⟩
  | 72 => ⟨S50000x128, .f32⟩
  | 73 => ⟨S50000x128, .f32⟩
  | 74 => ⟨S50000x128, .f32⟩
  | 75 => ⟨S_, .i32⟩
  | 76 => ⟨S850000, .i32⟩
  | 77 => ⟨S850000, .i1⟩
  | 78 => ⟨S_, .i32⟩
  | 79 => ⟨S850000, .i32⟩
  | 80 => ⟨S850000, .i32⟩
  | 81 => ⟨S850000, .i32⟩
  | 82 => ⟨S850000x1, .i32⟩
  | 83 => ⟨S850000x128, .f32⟩
  | 84 => ⟨S850000x1, .f32⟩
  | 85 => ⟨S850000x128, .f32⟩
  | 86 => ⟨S850000x128, .f32⟩
  | 87 => ⟨S_, .f32⟩
  | 88 => ⟨S50000x128, .f32⟩
  | 89 => ⟨S850000x1, .i32⟩
  | 90 => ⟨S50000x128, .f32⟩
  | 91 => ⟨S1x128, .f32⟩
  | 92 => ⟨S50000x128, .f32⟩
  | 93 => ⟨S50000x128, .f32⟩
  | 94 => ⟨S_, .f32⟩
  | 95 => ⟨S50000x128, .f32⟩
  | 96 => ⟨S50000x128, .f32⟩
  | 97 => ⟨S50000x128, .f32⟩
  | 98 => ⟨S_, .i32⟩
  | 99 => ⟨S850000, .i32⟩
  | 100 => ⟨S850000, .i1⟩
  | 101 => ⟨S_, .i32⟩
  | 102 => ⟨S850000, .i32⟩
  | 103 => ⟨S850000, .i32⟩
  | 104 => ⟨S850000, .i32⟩
  | 105 => ⟨S850000x1, .i32⟩
  | 106 => ⟨S850000x128, .f32⟩
  | 107 => ⟨S850000x1, .f32⟩
  | 108 => ⟨S850000x128, .f32⟩
  | 109 => ⟨S850000x128, .f32⟩
  | 110 => ⟨S_, .f32⟩
  | 111 => ⟨S50000x128, .f32⟩
  | 112 => ⟨S850000x1, .i32⟩
  | 113 => ⟨S50000x128, .f32⟩
  | 114 => ⟨S1x128, .f32⟩
  | 115 => ⟨S50000x128, .f32⟩
  | 116 => ⟨S50000x128, .f32⟩
  | 117 => ⟨S_, .f32⟩
  | 118 => ⟨S128x128, .f32⟩
  | 119 => ⟨S50000x1, .i32⟩
  | 120 => ⟨S128x128, .f32⟩
  | 121 => ⟨S_, .f32⟩
  | 122 => ⟨S50000, .f32⟩
  | 123 => ⟨S_, .f32⟩
  | 124 => ⟨S128, .f32⟩
  | 125 => ⟨S50000x1, .i32⟩
  | 126 => ⟨S128, .f32⟩
  | 127 => ⟨S_, .f32⟩
  | _ => ⟨S50000x128, .f32⟩

abbrev hbmTy0_1 (i : Nat) : BufTy := match i % 128 with
  | 0 => ⟨S128, .f32⟩
  | 1 => ⟨S128, .f32⟩
  | 2 => ⟨S128x1, .f32⟩
  | 3 => ⟨S128x128, .f32⟩
  | 4 => ⟨S128x128, .f32⟩
  | 5 => ⟨S128x3, .f32⟩
  | 6 => ⟨S1x3, .f32⟩
  | 7 => ⟨S128x3, .f32⟩
  | 8 => ⟨S128x3, .f32⟩
  | _ => ⟨S50000x128, .f32⟩

abbrev hbmTy (i : Nat) : BufTy := match i / 128 with
  | 0 => hbmTy0_0 i
  | 1 => hbmTy0_1 i
  | _ => ⟨S50000x128, .f32⟩

abbrev bufTy : (tb : Table) → Fin (tcTables nBuf tb) → BufTy
  | .hbm, ⟨i, _⟩ => hbmTy i
  | _, _ => ⟨S50000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_cst : Ref sig .tc := ⟨.hbm, 18, rfl⟩
abbrev main_v7 : Ref sig .tc := ⟨.hbm, 19, rfl⟩
abbrev main_cst_0 : Ref sig .tc := ⟨.hbm, 20, rfl⟩
abbrev main_v8 : Ref sig .tc := ⟨.hbm, 21, rfl⟩
abbrev main_v9 : Ref sig .tc := ⟨.hbm, 22, rfl⟩
abbrev main_v10 : Ref sig .tc := ⟨.hbm, 23, rfl⟩
abbrev main_cst_1 : Ref sig .tc := ⟨.hbm, 24, rfl⟩
abbrev main_v11 : Ref sig .tc := ⟨.hbm, 25, rfl⟩
abbrev main_v12 : Ref sig .tc := ⟨.hbm, 26, rfl⟩
abbrev main_v13 : Ref sig .tc := ⟨.hbm, 27, rfl⟩
abbrev main_cst_2 : Ref sig .tc := ⟨.hbm, 28, rfl⟩
abbrev main_call0_v0 : Ref sig .tc := ⟨.hbm, 29, rfl⟩
abbrev main_call0_v1 : Ref sig .tc := ⟨.hbm, 30, rfl⟩
abbrev main_v14 : Ref sig .tc := ⟨.hbm, 31, rfl⟩
abbrev main_c : Ref sig .tc := ⟨.hbm, 32, rfl⟩
abbrev main_v15 : Ref sig .tc := ⟨.hbm, 33, rfl⟩
abbrev main_v16 : Ref sig .tc := ⟨.hbm, 34, rfl⟩
abbrev main_c_3 : Ref sig .tc := ⟨.hbm, 35, rfl⟩
abbrev main_v17 : Ref sig .tc := ⟨.hbm, 36, rfl⟩
abbrev main_v18 : Ref sig .tc := ⟨.hbm, 37, rfl⟩
abbrev main_v19 : Ref sig .tc := ⟨.hbm, 38, rfl⟩
abbrev main_v20 : Ref sig .tc := ⟨.hbm, 39, rfl⟩
abbrev main_v21 : Ref sig .tc := ⟨.hbm, 40, rfl⟩
abbrev main_c_4 : Ref sig .tc := ⟨.hbm, 41, rfl⟩
abbrev main_v22 : Ref sig .tc := ⟨.hbm, 42, rfl⟩
abbrev main_v23 : Ref sig .tc := ⟨.hbm, 43, rfl⟩
abbrev main_c_5 : Ref sig .tc := ⟨.hbm, 44, rfl⟩
abbrev main_v24 : Ref sig .tc := ⟨.hbm, 45, rfl⟩
abbrev main_v25 : Ref sig .tc := ⟨.hbm, 46, rfl⟩
abbrev main_v26 : Ref sig .tc := ⟨.hbm, 47, rfl⟩
abbrev main_v27 : Ref sig .tc := ⟨.hbm, 48, rfl⟩
abbrev main_v28 : Ref sig .tc := ⟨.hbm, 49, rfl⟩
abbrev main_v29 : Ref sig .tc := ⟨.hbm, 50, rfl⟩
abbrev main_v30 : Ref sig .tc := ⟨.hbm, 51, rfl⟩
abbrev main_c_6 : Ref sig .tc := ⟨.hbm, 52, rfl⟩
abbrev main_v31 : Ref sig .tc := ⟨.hbm, 53, rfl⟩
abbrev main_v32 : Ref sig .tc := ⟨.hbm, 54, rfl⟩
abbrev main_c_7 : Ref sig .tc := ⟨.hbm, 55, rfl⟩
abbrev main_v33 : Ref sig .tc := ⟨.hbm, 56, rfl⟩
abbrev main_v34 : Ref sig .tc := ⟨.hbm, 57, rfl⟩
abbrev main_v35 : Ref sig .tc := ⟨.hbm, 58, rfl⟩
abbrev main_v36 : Ref sig .tc := ⟨.hbm, 59, rfl⟩
abbrev main_v37 : Ref sig .tc := ⟨.hbm, 60, rfl⟩
abbrev main_v38 : Ref sig .tc := ⟨.hbm, 61, rfl⟩
abbrev main_v39 : Ref sig .tc := ⟨.hbm, 62, rfl⟩
abbrev main_v40 : Ref sig .tc := ⟨.hbm, 63, rfl⟩
abbrev main_cst_8 : Ref sig .tc := ⟨.hbm, 64, rfl⟩
abbrev main_v41 : Ref sig .tc := ⟨.hbm, 65, rfl⟩
abbrev main_v42 : Ref sig .tc := ⟨.hbm, 66, rfl⟩
abbrev main_v43 : Ref sig .tc := ⟨.hbm, 67, rfl⟩
abbrev main_v44 : Ref sig .tc := ⟨.hbm, 68, rfl⟩
abbrev main_v45 : Ref sig .tc := ⟨.hbm, 69, rfl⟩
abbrev main_v46 : Ref sig .tc := ⟨.hbm, 70, rfl⟩
abbrev main_call1_cst : Ref sig .tc := ⟨.hbm, 71, rfl⟩
abbrev main_call1_v0 : Ref sig .tc := ⟨.hbm, 72, rfl⟩
abbrev main_v47 : Ref sig .tc := ⟨.hbm, 73, rfl⟩
abbrev main_v48 : Ref sig .tc := ⟨.hbm, 74, rfl⟩
abbrev main_c_9 : Ref sig .tc := ⟨.hbm, 75, rfl⟩
abbrev main_v49 : Ref sig .tc := ⟨.hbm, 76, rfl⟩
abbrev main_v50 : Ref sig .tc := ⟨.hbm, 77, rfl⟩
abbrev main_c_10 : Ref sig .tc := ⟨.hbm, 78, rfl⟩
abbrev main_v51 : Ref sig .tc := ⟨.hbm, 79, rfl⟩
abbrev main_v52 : Ref sig .tc := ⟨.hbm, 80, rfl⟩
abbrev main_v53 : Ref sig .tc := ⟨.hbm, 81, rfl⟩
abbrev main_v54 : Ref sig .tc := ⟨.hbm, 82, rfl⟩
abbrev main_v55 : Ref sig .tc := ⟨.hbm, 83, rfl⟩
abbrev main_v56 : Ref sig .tc := ⟨.hbm, 84, rfl⟩
abbrev main_v57 : Ref sig .tc := ⟨.hbm, 85, rfl⟩
abbrev main_v58 : Ref sig .tc := ⟨.hbm, 86, rfl⟩
abbrev main_cst_11 : Ref sig .tc := ⟨.hbm, 87, rfl⟩
abbrev main_v59 : Ref sig .tc := ⟨.hbm, 88, rfl⟩
abbrev main_v60 : Ref sig .tc := ⟨.hbm, 89, rfl⟩
abbrev main_v61 : Ref sig .tc := ⟨.hbm, 90, rfl⟩
abbrev main_v62 : Ref sig .tc := ⟨.hbm, 91, rfl⟩
abbrev main_v63 : Ref sig .tc := ⟨.hbm, 92, rfl⟩
abbrev main_v64 : Ref sig .tc := ⟨.hbm, 93, rfl⟩
abbrev main_call2_cst : Ref sig .tc := ⟨.hbm, 94, rfl⟩
abbrev main_call2_v0 : Ref sig .tc := ⟨.hbm, 95, rfl⟩
abbrev main_v65 : Ref sig .tc := ⟨.hbm, 96, rfl⟩
abbrev main_v66 : Ref sig .tc := ⟨.hbm, 97, rfl⟩
abbrev main_c_12 : Ref sig .tc := ⟨.hbm, 98, rfl⟩
abbrev main_v67 : Ref sig .tc := ⟨.hbm, 99, rfl⟩
abbrev main_v68 : Ref sig .tc := ⟨.hbm, 100, rfl⟩
abbrev main_c_13 : Ref sig .tc := ⟨.hbm, 101, rfl⟩
abbrev main_v69 : Ref sig .tc := ⟨.hbm, 102, rfl⟩
abbrev main_v70 : Ref sig .tc := ⟨.hbm, 103, rfl⟩
abbrev main_v71 : Ref sig .tc := ⟨.hbm, 104, rfl⟩
abbrev main_v72 : Ref sig .tc := ⟨.hbm, 105, rfl⟩
abbrev main_v73 : Ref sig .tc := ⟨.hbm, 106, rfl⟩
abbrev main_v74 : Ref sig .tc := ⟨.hbm, 107, rfl⟩
abbrev main_v75 : Ref sig .tc := ⟨.hbm, 108, rfl⟩
abbrev main_v76 : Ref sig .tc := ⟨.hbm, 109, rfl⟩
abbrev main_cst_14 : Ref sig .tc := ⟨.hbm, 110, rfl⟩
abbrev main_v77 : Ref sig .tc := ⟨.hbm, 111, rfl⟩
abbrev main_v78 : Ref sig .tc := ⟨.hbm, 112, rfl⟩
abbrev main_v79 : Ref sig .tc := ⟨.hbm, 113, rfl⟩
abbrev main_v80 : Ref sig .tc := ⟨.hbm, 114, rfl⟩
abbrev main_v81 : Ref sig .tc := ⟨.hbm, 115, rfl⟩
abbrev main_v82 : Ref sig .tc := ⟨.hbm, 116, rfl⟩
abbrev main_cst_15 : Ref sig .tc := ⟨.hbm, 117, rfl⟩
abbrev main_v83 : Ref sig .tc := ⟨.hbm, 118, rfl⟩
abbrev main_v84 : Ref sig .tc := ⟨.hbm, 119, rfl⟩
abbrev main_v85 : Ref sig .tc := ⟨.hbm, 120, rfl⟩
abbrev main_cst_16 : Ref sig .tc := ⟨.hbm, 121, rfl⟩
abbrev main_v86 : Ref sig .tc := ⟨.hbm, 122, rfl⟩
abbrev main_cst_17 : Ref sig .tc := ⟨.hbm, 123, rfl⟩
abbrev main_v87 : Ref sig .tc := ⟨.hbm, 124, rfl⟩
abbrev main_v88 : Ref sig .tc := ⟨.hbm, 125, rfl⟩
abbrev main_v89 : Ref sig .tc := ⟨.hbm, 126, rfl⟩
abbrev main_cst_18 : Ref sig .tc := ⟨.hbm, 127, rfl⟩
abbrev main_v90 : Ref sig .tc := ⟨.hbm, 128, rfl⟩
abbrev main_v91 : Ref sig .tc := ⟨.hbm, 129, rfl⟩
abbrev main_v92 : Ref sig .tc := ⟨.hbm, 130, rfl⟩
abbrev main_v93 : Ref sig .tc := ⟨.hbm, 131, rfl⟩
abbrev main_v94 : Ref sig .tc := ⟨.hbm, 132, rfl⟩
abbrev main_v95 : Ref sig .tc := ⟨.hbm, 133, rfl⟩
abbrev main_v96 : Ref sig .tc := ⟨.hbm, 134, rfl⟩
abbrev main_v97 : Ref sig .tc := ⟨.hbm, 135, rfl⟩
abbrev main_v98 : Ref sig .tc := ⟨.hbm, 136, rfl⟩

abbrev nD : Nat := 1
abbrev τ : Topo := Topo.v7x

variable {F : FTy → Type} [FloatOps F]

class Facts₀ : Prop where
  slices_S2x800000_S1x800000_0_0 : S2x800000.Slices ![0, 0] S1x800000
  shapeCasts_S1x800000_S800000 : S1x800000.ShapeCasts S800000
  concatenates_S800000_S50000_S850000_d0 : Shape.Concatenates [S800000, S50000] S850000 0
  slices_S2x800000_S1x800000_1_0 : S2x800000.Slices ![1, 0] S1x800000
  bcast_S_S850000 : S_.BroadcastsInDim S850000 (![] : Fin 0 → Fin S850000.rank)
  bcast_S_S50000 : S_.BroadcastsInDim S50000 (![] : Fin 0 → Fin S50000.rank)
  bcast_S850000_S850000x1_0 : S850000.BroadcastsInDim S850000x1 (![0] : Fin 1 → Fin S850000x1.rank)
  bcast_S850000x1_S850000x128_0_1 : S850000x1.BroadcastsInDim S850000x128 (![0, 1] : Fin 2 → Fin S850000x128.rank)
  bcast_S_S50000x128 : S_.BroadcastsInDim S50000x128 (![] : Fin 0 → Fin S50000x128.rank)
  bcast_S128_S1x128_1 : S128.BroadcastsInDim S1x128 (![1] : Fin 1 → Fin S1x128.rank)
  bcast_S1x128_S50000x128_0_1 : S1x128.BroadcastsInDim S50000x128 (![0, 1] : Fin 2 → Fin S50000x128.rank)
  bcast_S_S128x128 : S_.BroadcastsInDim S128x128 (![] : Fin 0 → Fin S128x128.rank)
  bcast_S50000_S50000x1_0 : S50000.BroadcastsInDim S50000x1 (![0] : Fin 1 → Fin S50000x1.rank)
  bcast_S_S128 : S_.BroadcastsInDim S128 (![] : Fin 0 → Fin S128.rank)
  bcast_S128_S128x1_0 : S128.BroadcastsInDim S128x1 (![0] : Fin 1 → Fin S128x1.rank)
  bcast_S128x1_S128x128_0_1 : S128x1.BroadcastsInDim S128x128 (![0, 1] : Fin 2 → Fin S128x128.rank)
  bcast_S3_S1x3_1 : S3.BroadcastsInDim S1x3 (![1] : Fin 1 → Fin S1x3.rank)
  bcast_S1x3_S128x3_0_1 : S1x3.BroadcastsInDim S128x3 (![0, 1] : Fin 2 → Fin S128x3.rank)
  scatter_S50000_S850000x1_S850000_n_0_0_1_wf : ScatterDims.WF S50000 S850000x1 S850000 [] [0] [0] 1
  gather_S50000_S850000x1_S850000_n_0_n_n_0_1_1_wf : GatherDims.WF S50000 S850000x1 S850000 [] [0] [] [0] [] 1 ![1]
  dot_S50000x128_S128x128_S50000x128_1_0_0_1_n_n_wf : DotDims.WF S50000x128 S128x128 S50000x128 [1] [0] [0] [1] [] []
  gather_S50000x128_S850000x1_S850000x128_1_0_n_n_0_1_1128_wf : GatherDims.WF S50000x128 S850000x1 S850000x128 [1] [0] [] [0] [] 1 ![1, 128]
  scatter_S50000x128_S850000x1_S850000x128_1_0_0_1_wf : ScatterDims.WF S50000x128 S850000x1 S850000x128 [1] [0] [0] 1
  scatter_S128x128_S50000x1_S50000x128_1_0_0_1_wf : ScatterDims.WF S128x128 S50000x1 S50000x128 [1] [0] [0] 1
  scatter_S128_S50000x1_S50000_n_0_0_1_wf : ScatterDims.WF S128 S50000x1 S50000 [] [0] [0] 1
  dot_S128x128_S128x3_S128x3_1_0_0_1_n_n_wf : DotDims.WF S128x128 S128x3 S128x3 [1] [0] [0] [1] [] []

variable [Facts₀]

def scatter_S50000_S850000x1_S850000_n_0_0_1 : ScatterDims S50000 S850000x1 S850000 where
  updateWindowDims := []
  insertedWindowDims := [0]
  scatterDimsToOperandDims := [0]
  indexVectorDim := 1
  wf := scatter_S50000_S850000x1_S850000_n_0_0_1_wf
def gather_S50000_S850000x1_S850000_n_0_n_n_0_1_1 : GatherDims S50000 S850000x1 S850000 where
  offsetDims := []
  collapsedSliceDims := [0]
  operandBatchingDims := []
  startIndicesBatchingDims := []
  startIndexMap := [0]
  indexVectorDim := 1
  sliceSizes := ![1]
  wf := gather_S50000_S850000x1_S850000_n_0_n_n_0_1_1_wf
def dot_S50000x128_S128x128_S50000x128_1_0_0_1_n_n : DotDims S50000x128 S128x128 S50000x128 where
  lhsContracting := [1]
  rhsContracting := [0]
  lhsNonContracting := [0]
  rhsNonContracting := [1]
  lhsBatch := []
  rhsBatch := []
  wf := dot_S50000x128_S128x128_S50000x128_1_0_0_1_n_n_wf
def gather_S50000x128_S850000x1_S850000x128_1_0_n_n_0_1_1128 : GatherDims S50000x128 S850000x1 S850000x128 where
  offsetDims := [1]
  collapsedSliceDims := [0]
  operandBatchingDims := []
  startIndicesBatchingDims := []
  startIndexMap := [0]
  indexVectorDim := 1
  sliceSizes := ![1, 128]
  wf := gather_S50000x128_S850000x1_S850000x128_1_0_n_n_0_1_1128_wf
def scatter_S50000x128_S850000x1_S850000x128_1_0_0_1 : ScatterDims S50000x128 S850000x1 S850000x128 where
  updateWindowDims := [1]
  insertedWindowDims := [0]
  scatterDimsToOperandDims := [0]
  indexVectorDim := 1
  wf := scatter_S50000x128_S850000x1_S850000x128_1_0_0_1_wf
def scatter_S128x128_S50000x1_S50000x128_1_0_0_1 : ScatterDims S128x128 S50000x1 S50000x128 where
  updateWindowDims := [1]
  insertedWindowDims := [0]
  scatterDimsToOperandDims := [0]
  indexVectorDim := 1
  wf := scatter_S128x128_S50000x1_S50000x128_1_0_0_1_wf
def scatter_S128_S50000x1_S50000_n_0_0_1 : ScatterDims S128 S50000x1 S50000 where
  updateWindowDims := []
  insertedWindowDims := [0]
  scatterDimsToOperandDims := [0]
  indexVectorDim := 1
  wf := scatter_S128_S50000x1_S50000_n_0_0_1_wf
def dot_S128x128_S128x3_S128x3_1_0_0_1_n_n : DotDims S128x128 S128x3 S128x3 where
  lhsContracting := [1]
  rhsContracting := [0]
  lhsNonContracting := [0]
  rhsNonContracting := [1]
  lhsBatch := []
  rhsBatch := []
  wf := dot_S128x128_S128x3_S128x3_1_0_0_1_n_n_wf

class Facts : Prop extends Facts₀ where

variable [Facts]
-- ==== Proof.K.Reg0.lean ====
/-
  The first kernel region (the linear map of the first layer with the degree scaling folded in), at any float
  instance: what its body leaves in the output block at a grid point, as one function of the three input blocks,
  and the region's proof data over arrays found at contents `V`.

  At a point the body reads a block of 5000 rows of `x`, the whole weight matrix and the matching 5000 entries of
  the degree column, and stores `(x_blk · W) ⊙ dinv_blk` over the whole output block. Nothing is carried from
  point to point, so the region's invariant is the scoped buffers it never touches and the generator register.
-/
import proofs.«401627_j1056561955307_2_alg».proof.Proof.Gen.Kernel.Launch
import proofs.«401627_j1056561955307_2_alg».proof.Proof.Gen.Kernel.Skeleton
import proofs.«401627_j1056561955307_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the arrays' contents when the region is entered
variable (V : (c : Dev nD) → (b : Ref sig .tc) → Buf (Elt F) ((c : Thread nD τ).loc b))

/-! ## Blocks -/

/-- The block of window `w` at point `t`, read off the window's array at `V`. -/
def blk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- The whole-buffer rectangle of the output block. -/
abbrev whole0 : Rect S5000x128 := Rect.unit (s := S5000x128) ![0, 0] S5000x128.size inb_S5000x128_S5000x128_0_0

/-- The whole-buffer rectangles the weight matrix and the degree column are loaded through. -/
abbrev wholeW0 : Rect S128x128 := Rect.unit (s := S128x128) ![0, 0] S128x128.size inb_S128x128_S128x128_0_0
abbrev wholeD0 : Rect S5000x1 := Rect.unit (s := S5000x1) ![0, 0] S5000x1.size inb_S5000x1_S5000x1_0_0

/-- What the body leaves in the output block: its one store, of the product read off the three input blocks
    (each loaded whole). -/
def res0 (x : Vec F S5000x128 .f32) (w : Vec F S128x128 .f32) (d : Vec F S5000x1 .f32) : Vec F S5000x128 .bf16 :=
  View.canon [⟨whole0, k0_pay1 (View.ld x whole0) (View.ld w wholeW0) (View.ld d wholeD0)⟩]

theorem res0_cover (p : Vec F S5000x128 .bf16) (y : S5000x128.Idx) :
    ∃ pc ∈ ([⟨whole0, p⟩] : List (View.Piece (Elt F) S5000x128 .bf16)), y ∈ pc.1.set :=
  View.cover_of_tiled [⟨whole0, p⟩] S5000x128.size (by rfl) y

/-! ## The body on whole staging buffers -/

set_option maxHeartbeats 1000000 in
/-- The body, run on whole staging buffers holding `x`, `w`, `d` and an output buffer at anything, returns the
    inputs as they were and the output at `res0 x w d`. -/
theorem body0_run (c : Dev nD) (E : Set ℕ) (i : grid0.Coords)
    (a1 : Memref sig .tc .vmem S5000x128 .f32) (h1 : a1.IsWhole) (a2 : Memref sig .tc .vmem S128x128 .f32) (h2 : a2.IsWhole)
    (a3 : Memref sig .tc .vmem S5000x1 .f32) (h3 : a3.IsWhole) (a4 : Memref sig .tc .vmem S5000x128 .bf16) (h4 : a4.IsWhole)
    (x : Vec F S5000x128 .f32) (w : Vec F S128x128 .f32) (d : Vec F S5000x1 .f32) (K : PUnit → sProp 𝕄) :
    iprop(owns (c : Thread nD τ) a1 fullShare x ∗ owns (c : Thread nD τ) a2 fullShare w ∗ owns (c : Thread nD τ) a3 fullShare d
        ∗ (∃ o, owns (c : Thread nD τ) a4 fullShare o)
        ∗ (iprop(owns (c : Thread nD τ) a1 fullShare x ∗ owns (c : Thread nD τ) a2 fullShare w ∗ owns (c : Thread nD τ) a3 fullShare d
            ∗ owns (c : Thread nD τ) a4 fullShare (res0 x w d)) -∗ K ⟨⟩))
      ⊢ wp frame (wpE (defs₀ (F := F)) Variants.none c none) E (cc0__linear_scale_kernel i a1 h1 a2 h2 a3 h3 a4 h4) K := by
  simp only [cc0__linear_scale_kernel_eq_skeleton]; unfold cc0__linear_scale_kernel_skel
  unfold owns
  iintro ⟨⟨%f1, %hf1, H1⟩, ⟨%f2, %hf2, H2⟩, ⟨%f3, %hf3, H3⟩, ⟨%o, %f4, -, H4⟩, Hk⟩
  subst hf1; subst hf2; subst hf3
  sl_exec
  sl_step
  iapply Hk
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  iexists _; isplitr
  swap; · iexact H4
  ipureintro
  exact View.read_writes_eq_canon _ _ _ (res0_cover _)

/-! ## The proof data -/

/-- The region's proof data on core `c`: arrays as found; after the body each input buffer still at its block, the
    output buffer at `res0` of the three blocks; the untouched scoped buffers and the generator register as the
    invariant; nothing owed. -/
def dat0 (c : Dev nD) : Dat τ (Elt F) Unit ℕ (UR sig nD τ) ℕ cfg0 c where
  A w := V c (Pipeline.arrRef spec0 w)
  after w t := match w with
    | ⟨0, _⟩ => blk0 V c 0 t
    | ⟨1, _⟩ => blk0 V c 1 t
    | ⟨2, _⟩ => blk0 V c 2 t
    | ⟨3, _⟩ => res0 (blk0 V c 0 t) (blk0 V c 1 t) (blk0 V c 2 t)
  Φ _ := Pipeline.ΦA spec0 c
  q _ := fullShare
  owed _ := 0

theorem dat0_A (c : Dev nD) (w : Fin cfg0.W) : (dat0 V c).A w = V c (Pipeline.arrRef spec0 w) := by
  dsimp only [dat0]

theorem dat0_after0 (c : Dev nD) (t : Fin cfg0.N) : (dat0 V c).after 0 t = blk0 V c 0 t := by dsimp only [dat0]
theorem dat0_after1 (c : Dev nD) (t : Fin cfg0.N) : (dat0 V c).after 1 t = blk0 V c 1 t := by dsimp only [dat0]
theorem dat0_after2 (c : Dev nD) (t : Fin cfg0.N) : (dat0 V c).after 2 t = blk0 V c 2 t := by dsimp only [dat0]
theorem dat0_after3 (c : Dev nD) (t : Fin cfg0.N) :
    (dat0 V c).after 3 t = res0 (blk0 V c 0 t) (blk0 V c 1 t) (blk0 V c 2 t) := by dsimp only [dat0]

/-- An input buffer holds its block whenever the body is called, fetched at that point or not. -/
theorem dat0_before0 (c : Dev nD) (t : Fin cfg0.N) (d) : (dat0 V c).before 0 t d = blk0 V c 0 t :=
  ((dat0 V c).before_in_eq_fetched 0 rfl (fun _ => rfl) (fun _ _ _ => rfl)
    (fun t => by rw [dat0_after0]; unfold Dat.blockOf blk0; rw [dat0_A]; try rfl) t d).trans
    (by unfold Dat.fetched Dat.blockOf blk0; rw [dat0_A]; try rfl)
theorem dat0_before1 (c : Dev nD) (t : Fin cfg0.N) (d) : (dat0 V c).before 1 t d = blk0 V c 1 t :=
  ((dat0 V c).before_in_eq_fetched 1 rfl (fun _ => rfl) (fun _ _ _ => rfl)
    (fun t => by rw [dat0_after1]; unfold Dat.blockOf blk0; rw [dat0_A]; try rfl) t d).trans
    (by unfold Dat.fetched Dat.blockOf blk0; rw [dat0_A]; try rfl)
theorem dat0_before2 (c : Dev nD) (t : Fin cfg0.N) (d) : (dat0 V c).before 2 t d = blk0 V c 2 t :=
  ((dat0 V c).before_in_eq_fetched 2 rfl (fun _ => rfl) (fun _ _ _ => rfl)
    (fun t => by rw [dat0_after2]; unfold Dat.blockOf blk0; rw [dat0_A]; try rfl) t d).trans
    (by unfold Dat.fetched Dat.blockOf blk0; rw [dat0_A]; try rfl)

/-! ## The body obligation -/

def pre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d)))

def post0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t)
    ∗ owns (c : Thread nD τ) (st0_3 t) fullShare ((dat0 V c).after 3 t))

theorem body0_at (c : Dev nD) (t : Fin cfg0.N) :
    pre0 V c t ⊢ wp frame (wpE (defs₀ (F := F)) Variants.none c none) Set.univ (bodyAt0 t) (fun _ => post0 V c t) := by
  unfold pre0 post0 bodyAt0
  simp only [dat0_before0, dat0_before1, dat0_before2]
  rw [show (dat0 V c).Φ t.succ = (dat0 V c).Φ t.castSucc from rfl,
    show (dat0 V c).owesAt () t.succ = (dat0 V c).owesAt () t.castSucc from rfl,
    dat0_after0, dat0_after1, dat0_after2, dat0_after3]
  iintro ⟨HΦ, Ho, ⟨%d0, H0⟩, ⟨%d1, H1⟩, ⟨%d2, H2⟩, ⟨%d3, H3⟩⟩
  iapply (body0_run c Set.univ _ _ _ _ _ _ _ _ _ (blk0 V c 0 t) (blk0 V c 1 t) (blk0 V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

/-- The library's body obligation for the region, at every point. -/
theorem body0 (c : Dev nD) : BodyObligation (dat0 (F := F) V c) (defs₀ (F := F)) Variants.none () Set.univ := fun t => by
  rw [bigSep_W0, bigSep_W0]
  exact body0_at V c t

end Cert.Kernel.Hand

end
-- ==== Proof.K.Reg1.lean ====
/-
  Kernel region 1 (finish the previous layer, then the next layer's linear map with the degree scaling folded
  in), at any float instance: what its body leaves in the output block at a grid point, as one function of the four
  input blocks, and the region's proof data over arrays found at contents `V`.

  At a point the body reads a block of 5000 aggregated rows, the matching 5000 entries of the degree column, the
  bias row and the whole weight matrix, and stores `(relu (agg_blk ⊙ dinv_blk + bias) · W) ⊙ dinv_blk` over the
  whole output block. The degree column is loaded twice, both times whole and from the same buffer. Nothing is
  carried from point to point, so the region's invariant is the scoped buffers it never touches and the generator
  register.
-/
import proofs.«401627_j1056561955307_2_alg».proof.Proof.Gen.Kernel.Launch
import proofs.«401627_j1056561955307_2_alg».proof.Proof.Gen.Kernel.Skeleton
import proofs.«401627_j1056561955307_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the arrays' contents when the region is entered
variable (V : (c : Dev nD) → (b : Ref sig .tc) → Buf (Elt F) ((c : Thread nD τ).loc b))

/-! ## Blocks -/

/-- The block of window `w` at point `t`, read off the window's array at `V`. -/
def blk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- The whole-buffer rectangle of the aggregated block and of the output block. -/
abbrev whole1 : Rect S5000x128 := Rect.unit (s := S5000x128) ![0, 0] S5000x128.size inb_S5000x128_S5000x128_0_0

/-- The whole-buffer rectangles the degree column, the bias row and the weight matrix are loaded through. -/
abbrev wholeD1 : Rect S5000x1 := Rect.unit (s := S5000x1) ![0, 0] S5000x1.size inb_S5000x1_S5000x1_0_0
abbrev wholeB1 : Rect S1x128 := Rect.unit (s := S1x128) ![0, 0] S1x128.size inb_S1x128_S1x128_0_0
abbrev wholeW1 : Rect S128x128 := Rect.unit (s := S128x128) ![0, 0] S128x128.size inb_S128x128_S128x128_0_0

/-- What the body leaves in the output block: its one store, of the value computed from the four input blocks
    (each loaded whole; the degree column stands for both of its loads). -/
def res1 (a : Vec F S5000x128 .f32) (d : Vec F S5000x1 .f32) (b : Vec F S1x128 .f32) (w : Vec F S128x128 .f32) : Vec F S5000x128 .bf16 :=
  View.canon [⟨whole1, k1_pay1 (View.ld a whole1) (View.ld d wholeD1) (View.ld b wholeB1) (View.ld w wholeW1) (View.ld d wholeD1)⟩]

theorem res1_cover (p : Vec F S5000x128 .bf16) (y : S5000x128.Idx) :
    ∃ pc ∈ ([⟨whole1, p⟩] : List (View.Piece (Elt F) S5000x128 .bf16)), y ∈ pc.1.set :=
  View.cover_of_tiled [⟨whole1, p⟩] S5000x128.size (by rfl) y

/-! ## The body on whole staging buffers -/

set_option maxHeartbeats 1000000 in
/-- The body, run on whole staging buffers holding `a`, `d`, `b`, `w` and an output buffer at anything, returns
    the inputs as they were and the output at `res1 a d b w`. -/
theorem body1_run (c : Dev nD) (E : Set ℕ) (i : grid1.Coords)
    (a1 : Memref sig .tc .vmem S5000x128 .f32) (h1 : a1.IsWhole) (a2 : Memref sig .tc .vmem S5000x1 .f32) (h2 : a2.IsWhole)
    (a3 : Memref sig .tc .vmem S1x128 .f32) (h3 : a3.IsWhole) (a4 : Memref sig .tc .vmem S128x128 .f32) (h4 : a4.IsWhole)
    (a5 : Memref sig .tc .vmem S5000x128 .bf16) (h5 : a5.IsWhole)
    (a : Vec F S5000x128 .f32) (d : Vec F S5000x1 .f32) (b : Vec F S1x128 .f32) (w : Vec F S128x128 .f32) (K : PUnit → sProp 𝕄) :
    iprop(owns (c : Thread nD τ) a1 fullShare a ∗ owns (c : Thread nD τ) a2 fullShare d ∗ owns (c : Thread nD τ) a3 fullShare b
        ∗ owns (c : Thread nD τ) a4 fullShare w
        ∗ (∃ o, owns (c : Thread nD τ) a5 fullShare o)
        ∗ (iprop(owns (c : Thread nD τ) a1 fullShare a ∗ owns (c : Thread nD τ) a2 fullShare d ∗ owns (c : Thread nD τ) a3 fullShare b
            ∗ owns (c : Thread nD τ) a4 fullShare w
            ∗ owns (c : Thread nD τ) a5 fullShare (res1 a d b w)) -∗ K ⟨⟩))
      ⊢ wp frame (wpE (defs₀ (F := F)) Variants.none c none) E (cc1__kernel i a1 h1 a2 h2 a3 h3 a4 h4 a5 h5) K := by
  simp only [cc1__kernel_eq_skeleton]; unfold cc1__kernel_skel
  unfold owns
  iintro ⟨⟨%f1, %hf1, H1⟩, ⟨%f2, %hf2, H2⟩, ⟨%f3, %hf3, H3⟩, ⟨%f4, %hf4, H4⟩, ⟨%o, %f5, -, H5⟩, Hk⟩
  subst hf1; subst hf2; subst hf3; subst hf4
  sl_exec
  sl_step
  iapply Hk
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  iexists _; isplitr
  swap; · iexact H5
  ipureintro
  exact View.read_writes_eq_canon _ _ _ (res1_cover _)

/-! ## The proof data -/

/-- The region's proof data on core `c`: arrays as found; after the body each input buffer still at its block, the
    output buffer at `res1` of the four blocks; the untouched scoped buffers and the generator register as the
    invariant; nothing owed. -/
def dat1 (c : Dev nD) : Dat τ (Elt F) Unit ℕ (UR sig nD τ) ℕ cfg1 c where
  A w := V c (Pipeline.arrRef spec1 w)
  after w t := match w with
    | ⟨0, _⟩ => blk1 V c 0 t
    | ⟨1, _⟩ => blk1 V c 1 t
    | ⟨2, _⟩ => blk1 V c 2 t
    | ⟨3, _⟩ => blk1 V c 3 t
    | ⟨4, _⟩ => res1 (blk1 V c 0 t) (blk1 V c 1 t) (blk1 V c 2 t) (blk1 V c 3 t)
  Φ _ := Pipeline.ΦA spec1 c
  q _ := fullShare
  owed _ := 0

theorem dat1_A (c : Dev nD) (w : Fin cfg1.W) : (dat1 V c).A w = V c (Pipeline.arrRef spec1 w) := by
  dsimp only [dat1]

theorem dat1_after0 (c : Dev nD) (t : Fin cfg1.N) : (dat1 V c).after 0 t = blk1 V c 0 t := by dsimp only [dat1]
theorem dat1_after1 (c : Dev nD) (t : Fin cfg1.N) : (dat1 V c).after 1 t = blk1 V c 1 t := by dsimp only [dat1]
theorem dat1_after2 (c : Dev nD) (t : Fin cfg1.N) : (dat1 V c).after 2 t = blk1 V c 2 t := by dsimp only [dat1]
theorem dat1_after3 (c : Dev nD) (t : Fin cfg1.N) : (dat1 V c).after 3 t = blk1 V c 3 t := by dsimp only [dat1]
theorem dat1_after4 (c : Dev nD) (t : Fin cfg1.N) :
    (dat1 V c).after 4 t = res1 (blk1 V c 0 t) (blk1 V c 1 t) (blk1 V c 2 t) (blk1 V c 3 t) := by dsimp only [dat1]

/-- An input buffer holds its block whenever the body is called, fetched at that point or not. -/
theorem dat1_before0 (c : Dev nD) (t : Fin cfg1.N) (d) : (dat1 V c).before 0 t d = blk1 V c 0 t :=
  ((dat1 V c).before_in_eq_fetched 0 rfl (fun _ => rfl) (fun _ _ _ => rfl)
    (fun t => by rw [dat1_after0]; unfold Dat.blockOf blk1; rw [dat1_A]; try rfl) t d).trans
    (by unfold Dat.fetched Dat.blockOf blk1; rw [dat1_A]; try rfl)
theorem dat1_before1 (c : Dev nD) (t : Fin cfg1.N) (d) : (dat1 V c).before 1 t d = blk1 V c 1 t :=
  ((dat1 V c).before_in_eq_fetched 1 rfl (fun _ => rfl) (fun _ _ _ => rfl)
    (fun t => by rw [dat1_after1]; unfold Dat.blockOf blk1; rw [dat1_A]; try rfl) t d).trans
    (by unfold Dat.fetched Dat.blockOf blk1; rw [dat1_A]; try rfl)
theorem dat1_before2 (c : Dev nD) (t : Fin cfg1.N) (d) : (dat1 V c).before 2 t d = blk1 V c 2 t :=
  ((dat1 V c).before_in_eq_fetched 2 rfl (fun _ => rfl) (fun _ _ _ => rfl)
    (fun t => by rw [dat1_after2]; unfold Dat.blockOf blk1; rw [dat1_A]; try rfl) t d).trans
    (by unfold Dat.fetched Dat.blockOf blk1; rw [dat1_A]; try rfl)
theorem dat1_before3 (c : Dev nD) (t : Fin cfg1.N) (d) : (dat1 V c).before 3 t d = blk1 V c 3 t :=
  ((dat1 V c).before_in_eq_fetched 3 rfl (fun _ => rfl) (fun _ _ _ => rfl)
    (fun t => by rw [dat1_after3]; unfold Dat.blockOf blk1; rw [dat1_A]; try rfl) t d).trans
    (by unfold Dat.fetched Dat.blockOf blk1; rw [dat1_A]; try rfl)

/-! ## The body obligation -/

def pre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d))
    ∗ (∃ d, owns (c : Thread nD τ) (st1_4 t) fullShare ((dat1 V c).before 4 t d)))

def post1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t)
    ∗ owns (c : Thread nD τ) (st1_3 t) fullShare ((dat1 V c).after 3 t)
    ∗ owns (c : Thread nD τ) (st1_4 t) fullShare ((dat1 V c).after 4 t))

theorem body1_at (c : Dev nD) (t : Fin cfg1.N) :
    pre1 V c t ⊢ wp frame (wpE (defs₀ (F := F)) Variants.none c none) Set.univ (bodyAt1 t) (fun _ => post1 V c t) := by
  unfold pre1 post1 bodyAt1
  simp only [dat1_before0, dat1_before1, dat1_before2, dat1_before3]
  rw [show (dat1 V c).Φ t.succ = (dat1 V c).Φ t.castSucc from rfl,
    show (dat1 V c).owesAt () t.succ = (dat1 V c).owesAt () t.castSucc from rfl,
    dat1_after0, dat1_after1, dat1_after2, dat1_after3, dat1_after4]
  iintro ⟨HΦ, Ho, ⟨%d0, H0⟩, ⟨%d1, H1⟩, ⟨%d2, H2⟩, ⟨%d3, H3⟩, ⟨%d4, H4⟩⟩
  iapply (body1_run c Set.univ _ _ _ _ _ _ _ _ _ _ _ (blk1 V c 0 t) (blk1 V c 1 t) (blk1 V c 2 t) (blk1 V c 3 t) _)
  isplitl [H0]; · iexact H0
  isplitl [H1]; · iexact H1
  isplitl [H2]; · iexact H2
  isplitl [H3]; · iexact H3
  isplitl [H4]; · iexists _; iexact H4
  iintro ⟨H0, H1, H2, H3, H4⟩
  isplitl [HΦ]; · iexact HΦ
  isplitl [Ho]; · iexact Ho
  isplitl [H0]; · iexact H0
  isplitl [H1]; · iexact H1
  isplitl [H2]; · iexact H2
  isplitl [H3]; · iexact H3
  iexact H4

/-- The library's body obligation for the region, at every point. -/
theorem body1 (c : Dev nD) : BodyObligation (dat1 (F := F) V c) (defs₀ (F := F)) Variants.none () Set.univ := fun t => by
  rw [bigSep_W1, bigSep_W1]
  exact body1_at V c t

end Cert.Kernel.Hand

end
-- ==== Proof.K.Reg2.lean ====
/-
  Kernel region 2 (finish the previous layer, then the next layer's linear map with the degree scaling folded
  in), at any float instance: what its body leaves in the output block at a grid point, as one function of the four
  input blocks, and the region's proof data over arrays found at contents `V`.

  At a point the body reads a block of 5000 aggregated rows, the matching 5000 entries of the degree column, the
  bias row and the whole weight matrix, and stores `(relu (agg_blk ⊙ dinv_blk + bias) · W) ⊙ dinv_blk` over the
  whole output block. The degree column is loaded twice, both times whole and from the same buffer. Nothing is
  carried from point to point, so the region's invariant is the scoped buffers it never touches and the generator
  register.
-/
import proofs.«401627_j1056561955307_2_alg».proof.Proof.Gen.Kernel.Launch
import proofs.«401627_j1056561955307_2_alg».proof.Proof.Gen.Kernel.Skeleton
import proofs.«401627_j1056561955307_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the arrays' contents when the region is entered
variable (V : (c : Dev nD) → (b : Ref sig .tc) → Buf (Elt F) ((c : Thread nD τ).loc b))

/-! ## Blocks -/

/-- The block of window `w` at point `t`, read off the window's array at `V`. -/
def blk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

/-- The whole-buffer rectangle of the aggregated block and of the output block. -/
abbrev whole2 : Rect S5000x128 := Rect.unit (s := S5000x128) ![0, 0] S5000x128.size inb_S5000x128_S5000x128_0_0

/-- The whole-buffer rectangles the degree column, the bias row and the weight matrix are loaded through. -/
abbrev wholeD2 : Rect S5000x1 := Rect.unit (s := S5000x1) ![0, 0] S5000x1.size inb_S5000x1_S5000x1_0_0
abbrev wholeB2 : Rect S1x128 := Rect.unit (s := S1x128) ![0, 0] S1x128.size inb_S1x128_S1x128_0_0
abbrev wholeW2 : Rect S128x128 := Rect.unit (s := S128x128) ![0, 0] S128x128.size inb_S128x128_S128x128_0_0

/-- What the body leaves in the output block: its one store, of the value computed from the four input blocks
    (each loaded whole; the degree column stands for both of its loads). -/
def res2 (a : Vec F S5000x128 .f32) (d : Vec F S5000x1 .f32) (b : Vec F S1x128 .f32) (w : Vec F S128x128 .f32) : Vec F S5000x128 .bf16 :=
  View.canon [⟨whole2, k2_pay1 (View.ld a whole2) (View.ld d wholeD2) (View.ld b wholeB2) (View.ld w wholeW2) (View.ld d wholeD2)⟩]

theorem res2_cover (p : Vec F S5000x128 .bf16) (y : S5000x128.Idx) :
    ∃ pc ∈ ([⟨whole2, p⟩] : List (View.Piece (Elt F) S5000x128 .bf16)), y ∈ pc.1.set :=
  View.cover_of_tiled [⟨whole2, p⟩] S5000x128.size (by rfl) y

/-! ## The body on whole staging buffers -/

set_option maxHeartbeats 1000000 in
/-- The body, run on whole staging buffers holding `a`, `d`, `b`, `w` and an output buffer at anything, returns
    the inputs as they were and the output at `res2 a d b w`. -/
theorem body2_run (c : Dev nD) (E : Set ℕ) (i : grid2.Coords)
    (a1 : Memref sig .tc .vmem S5000x128 .f32) (h1 : a1.IsWhole) (a2 : Memref sig .tc .vmem S5000x1 .f32) (h2 : a2.IsWhole)
    (a3 : Memref sig .tc .vmem S1x128 .f32) (h3 : a3.IsWhole) (a4 : Memref sig .tc .vmem S128x128 .f32) (h4 : a4.IsWhole)
    (a5 : Memref sig .tc .vmem S5000x128 .bf16) (h5 : a5.IsWhole)
    (a : Vec F S5000x128 .f32) (d : Vec F S5000x1 .f32) (b : Vec F S1x128 .f32) (w : Vec F S128x128 .f32) (K : PUnit → sProp 𝕄) :
    iprop(owns (c : Thread nD τ) a1 fullShare a ∗ owns (c : Thread nD τ) a2 fullShare d ∗ owns (c : Thread nD τ) a3 fullShare b
        ∗ owns (c : Thread nD τ) a4 fullShare w
        ∗ (∃ o, owns (c : Thread nD τ) a5 fullShare o)
        ∗ (iprop(owns (c : Thread nD τ) a1 fullShare a ∗ owns (c : Thread nD τ) a2 fullShare d ∗ owns (c : Thread nD τ) a3 fullShare b
            ∗ owns (c : Thread nD τ) a4 fullShare w
            ∗ owns (c : Thread nD τ) a5 fullShare (res2 a d b w)) -∗ K ⟨⟩))
      ⊢ wp frame (wpE (defs₀ (F := F)) Variants.none c none) E (cc2__kernel i a1 h1 a2 h2 a3 h3 a4 h4 a5 h5) K := by
  simp only [cc2__kernel_eq_skeleton]; unfold cc2__kernel_skel
  unfold owns
  iintro ⟨⟨%f1, %hf1, H1⟩, ⟨%f2, %hf2, H2⟩, ⟨%f3, %hf3, H3⟩, ⟨%f4, %hf4, H4⟩, ⟨%o, %f5, -, H5⟩, Hk⟩
  subst hf1; subst hf2; subst hf3; subst hf4
  sl_exec
  sl_step
  iapply Hk
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  iexists _; isplitr
  swap; · iexact H5
  ipureintro
  exact View.read_writes_eq_canon _ _ _ (res2_cover _)

/-! ## The proof data -/

/-- The region's proof data on core `c`: arrays as found; after the body each input buffer still at its block, the
    output buffer at `res2` of the four blocks; the untouched scoped buffers and the generator register as the
    invariant; nothing owed. -/
def dat2 (c : Dev nD) : Dat τ (Elt F) Unit ℕ (UR sig nD τ) ℕ cfg2 c where
  A w := V c (Pipeline.arrRef spec2 w)
  after w t := match w with
    | ⟨0, _⟩ => blk2 V c 0 t
    | ⟨1, _⟩ => blk2 V c 1 t
    | ⟨2, _⟩ => blk2 V c 2 t
    | ⟨3, _⟩ => blk2 V c 3 t
    | ⟨4, _⟩ => res2 (blk2 V c 0 t) (blk2 V c 1 t) (blk2 V c 2 t) (blk2 V c 3 t)
  Φ _ := Pipeline.ΦA spec2 c
  q _ := fullShare
  owed _ := 0

theorem dat2_A (c : Dev nD) (w : Fin cfg2.W) : (dat2 V c).A w = V c (Pipeline.arrRef spec2 w) := by
  dsimp only [dat2]

theorem dat2_after0 (c : Dev nD) (t : Fin cfg2.N) : (dat2 V c).after 0 t = blk2 V c 0 t := by dsimp only [dat2]
theorem dat2_after1 (c : Dev nD) (t : Fin cfg2.N) : (dat2 V c).after 1 t = blk2 V c 1 t := by dsimp only [dat2]
theorem dat2_after2 (c : Dev nD) (t : Fin cfg2.N) : (dat2 V c).after 2 t = blk2 V c 2 t := by dsimp only [dat2]
theorem dat2_after3 (c : Dev nD) (t : Fin cfg2.N) : (dat2 V c).after 3 t = blk2 V c 3 t := by dsimp only [dat2]
theorem dat2_after4 (c : Dev nD) (t : Fin cfg2.N) :
    (dat2 V c).after 4 t = res2 (blk2 V c 0 t) (blk2 V c 1 t) (blk2 V c 2 t) (blk2 V c 3 t) := by dsimp only [dat2]

/-- An input buffer holds its block whenever the body is called, fetched at that point or not. -/
theorem dat2_before0 (c : Dev nD) (t : Fin cfg2.N) (d) : (dat2 V c).before 0 t d = blk2 V c 0 t :=
  ((dat2 V c).before_in_eq_fetched 0 rfl (fun _ => rfl) (fun _ _ _ => rfl)
    (fun t => by rw [dat2_after0]; unfold Dat.blockOf blk2; rw [dat2_A]; try rfl) t d).trans
    (by unfold Dat.fetched Dat.blockOf blk2; rw [dat2_A]; try rfl)
theorem dat2_before1 (c : Dev nD) (t : Fin cfg2.N) (d) : (dat2 V c).before 1 t d = blk2 V c 1 t :=
  ((dat2 V c).before_in_eq_fetched 1 rfl (fun _ => rfl) (fun _ _ _ => rfl)
    (fun t => by rw [dat2_after1]; unfold Dat.blockOf blk2; rw [dat2_A]; try rfl) t d).trans
    (by unfold Dat.fetched Dat.blockOf blk2; rw [dat2_A]; try rfl)
theorem dat2_before2 (c : Dev nD) (t : Fin cfg2.N) (d) : (dat2 V c).before 2 t d = blk2 V c 2 t :=
  ((dat2 V c).before_in_eq_fetched 2 rfl (fun _ => rfl) (fun _ _ _ => rfl)
    (fun t => by rw [dat2_after2]; unfold Dat.blockOf blk2; rw [dat2_A]; try rfl) t d).trans
    (by unfold Dat.fetched Dat.blockOf blk2; rw [dat2_A]; try rfl)
theorem dat2_before3 (c : Dev nD) (t : Fin cfg2.N) (d) : (dat2 V c).before 3 t d = blk2 V c 3 t :=
  ((dat2 V c).before_in_eq_fetched 3 rfl (fun _ => rfl) (fun _ _ _ => rfl)
    (fun t => by rw [dat2_after3]; unfold Dat.blockOf blk2; rw [dat2_A]; try rfl) t d).trans
    (by unfold Dat.fetched Dat.blockOf blk2; rw [dat2_A]; try rfl)

/-! ## The body obligation -/

def pre2 (c : Dev nD) (t : Fin cfg2.N) : sProp 𝕄 :=
  iprop((dat2 V c).Φ t.castSucc ∗ (dat2 V c).owesAt () t.castSucc
    ∗ (∃ d, owns (c : Thread nD τ) (st2_0 t) fullShare ((dat2 V c).before 0 t d))
    ∗ (∃ d, owns (c : Thread nD τ) (st2_1 t) fullShare ((dat2 V c).before 1 t d))
    ∗ (∃ d, owns (c : Thread nD τ) (st2_2 t) fullShare ((dat2 V c).before 2 t d))
    ∗ (∃ d, owns (c : Thread nD τ) (st2_3 t) fullShare ((dat2 V c).before 3 t d))
    ∗ (∃ d, owns (c : Thread nD τ) (st2_4 t) fullShare ((dat2 V c).before 4 t d)))

def post2 (c : Dev nD) (t : Fin cfg2.N) : sProp 𝕄 :=
  iprop((dat2 V c).Φ t.succ ∗ (dat2 V c).owesAt () t.succ
    ∗ owns (c : Thread nD τ) (st2_0 t) fullShare ((dat2 V c).after 0 t)
    ∗ owns (c : Thread nD τ) (st2_1 t) fullShare ((dat2 V c).after 1 t)
    ∗ owns (c : Thread nD τ) (st2_2 t) fullShare ((dat2 V c).after 2 t)
    ∗ owns (c : Thread nD τ) (st2_3 t) fullShare ((dat2 V c).after 3 t)
    ∗ owns (c : Thread nD τ) (st2_4 t) fullShare ((dat2 V c).after 4 t))

theorem body2_at (c : Dev nD) (t : Fin cfg2.N) :
    pre2 V c t ⊢ wp frame (wpE (defs₀ (F := F)) Variants.none c none) Set.univ (bodyAt2 t) (fun _ => post2 V c t) := by
  unfold pre2 post2 bodyAt2
  simp only [dat2_before0, dat2_before1, dat2_before2, dat2_before3]
  rw [show (dat2 V c).Φ t.succ = (dat2 V c).Φ t.castSucc from rfl,
    show (dat2 V c).owesAt () t.succ = (dat2 V c).owesAt () t.castSucc from rfl,
    dat2_after0, dat2_after1, dat2_after2, dat2_after3, dat2_after4]
  iintro ⟨HΦ, Ho, ⟨%d0, H0⟩, ⟨%d1, H1⟩, ⟨%d2, H2⟩, ⟨%d3, H3⟩, ⟨%d4, H4⟩⟩
  iapply (body2_run c Set.univ _ _ _ _ _ _ _ _ _ _ _ (blk2 V c 0 t) (blk2 V c 1 t) (blk2 V c 2 t) (blk2 V c 3 t) _)
  isplitl [H0]; · iexact H0
  isplitl [H1]; · iexact H1
  isplitl [H2]; · iexact H2
  isplitl [H3]; · iexact H3
  isplitl [H4]; · iexists _; iexact H4
  iintro ⟨H0, H1, H2, H3, H4⟩
  isplitl [HΦ]; · iexact HΦ
  isplitl [Ho]; · iexact Ho
  isplitl [H0]; · iexact H0
  isplitl [H1]; · iexact H1
  isplitl [H2]; · iexact H2
  isplitl [H3]; · iexact H3
  iexact H4

/-- The library's body obligation for the region, at every point. -/
theorem body2 (c : Dev nD) : BodyObligation (dat2 (F := F) V c) (defs₀ (F := F)) Variants.none () Set.univ := fun t => by
  rw [bigSep_W2, bigSep_W2]
  exact body2_at V c t

end Cert.Kernel.Hand

end
-- ==== Proof.K.Reg3.lean ====
/-
  The last kernel region (the last round finished, the node rows summed per graph, the mean and the last linear
  map), at any float instance: the accumulator it carries from grid point to grid point, what it leaves in the
  output block at the last point, and the region's proof data over arrays found at contents `V`.

  At a point the body reads a block of 5000 aggregated rows, the matching 5000 entries of the degree column, the
  bias row and the block's 5000 graph numbers. It keeps a 128×128 accumulator between points: at the first point
  it first stores zeros over it; at every point it adds (indicator of the graph numbers)ᵀ · (rows ⊙ degree + bias)
  to it; at the last point it divides it by the clamped counts, multiplies by the 128×3 matrix, adds the last bias
  row and stores the 128×3 output block. So the region's invariant names the accumulator: before the first point
  it is at anything; after point `n` it holds `sAt3 n`.
-/
import proofs.«401627_j1056561955307_2_alg».proof.Proof.Gen.Kernel.Launch
import proofs.«401627_j1056561955307_2_alg».proof.Proof.Gen.Kernel.Skeleton
import proofs.«401627_j1056561955307_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Pipeline.Value
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the arrays' contents when the region is entered
variable (V : (c : Dev nD) → (b : Ref sig .tc) → Buf (Elt F) ((c : Thread nD τ).loc b))

/-! ## Blocks -/

/-- The block of window `w` at point `t`, read off the window's array at `V`. -/
def blk3 (c : Dev nD) (w : Fin cfg3.W) (t : Fin cfg3.N) : ((cfg3.win w).xblock (cfg3.grid.coords t)).Idx → Elt F (cfg3.win w).elt :=
  ((cfg3.win w).blk t).view.read (Elt F) (V c (Pipeline.arrRef spec3 w))

/-- The whole-buffer rectangles the body loads and stores through: the aggregated block, a 5000-entry column (the
    degrees, the graph numbers), the bias row, the accumulator, the counts, the 128×3 matrix (and the output block),
    the last bias row. -/
abbrev wholeA3 : Rect S5000x128 := Rect.unit (s := S5000x128) ![0, 0] S5000x128.size inb_S5000x128_S5000x128_0_0
abbrev wholeD3 : Rect S5000x1 := Rect.unit (s := S5000x1) ![0, 0] S5000x1.size inb_S5000x1_S5000x1_0_0
abbrev wholeB3 : Rect S1x128 := Rect.unit (s := S1x128) ![0, 0] S1x128.size inb_S1x128_S1x128_0_0
abbrev wholeS3 : Rect S128x128 := Rect.unit (s := S128x128) ![0, 0] S128x128.size inb_S128x128_S128x128_0_0
abbrev wholeC3 : Rect S128x1 := Rect.unit (s := S128x1) ![0, 0] S128x1.size inb_S128x1_S128x1_0_0
abbrev wholeM3 : Rect S128x3 := Rect.unit (s := S128x3) ![0, 0] S128x3.size inb_S128x3_S128x3_0_0
abbrev wholeL3 : Rect S1x3 := Rect.unit (s := S1x3) ![0, 0] S1x3.size inb_S1x3_S1x3_0_0

/-! ## The accumulator -/

/-- What the first point's reset stores over the accumulator: zeros. -/
def zero3 : Vec F S128x128 .f32 := k3_pay1

/-- One point's update of the accumulator: its one store there, of the sum of what the accumulator held and the
    product read off the point's four input blocks (each loaded whole). -/
def acc3 (a : Vec F S5000x128 .f32) (d : Vec F S5000x1 .f32) (b : Vec F S1x128 .f32) (g : Vec F S5000x1 .i32)
    (s : Vec F S128x128 .f32) : Vec F S128x128 .f32 :=
  View.canon [⟨wholeS3, k3_pay2 (View.ld a wholeA3) (View.ld d wholeD3) (View.ld b wholeB3) (View.ld g wholeD3) (View.ld s wholeS3)⟩]

/-- The grid point at position `n` (positions past the grid wrap round: nothing reads them). -/
def pt3 (n : ℕ) : Fin cfg3.N := ⟨n % 10, lt_of_lt_of_eq (Nat.mod_lt n (by decide)) N_3.symm⟩

theorem pt3_val (t : Fin cfg3.N) : pt3 t.val = t :=
  Fin.ext (Nat.mod_eq_of_lt (lt_of_lt_of_eq t.isLt N_3))

/-- The update at point `t`, on that point's blocks. -/
def step3 (c : Dev nD) (t : Fin cfg3.N) (s : Vec F S128x128 .f32) : Vec F S128x128 .f32 :=
  acc3 (blk3 V c 0 t) (blk3 V c 1 t) (blk3 V c 2 t) (blk3 V c 3 t) s

/-- What point `n` leaves in the accumulator: the first point's update over zeros, each later point's over what
    the point before left. -/
def sAt3 (c : Dev nD) : ℕ → Vec F S128x128 .f32
  | 0 => step3 V c (pt3 0) zero3
  | n + 1 => step3 V c (pt3 (n + 1)) (sAt3 c n)

theorem sAt3_zero (c : Dev nD) : sAt3 V c 0 = step3 V c (pt3 0) zero3 := rfl
theorem sAt3_succ (c : Dev nD) (n : ℕ) : sAt3 V c (n + 1) = step3 V c (pt3 (n + 1)) (sAt3 V c n) := rfl

/-- What the last point stores over the output block: its one store there, of the mean of the accumulator by the
    clamped counts times the matrix plus the last bias row (each loaded whole). -/
def res3 (cnt : Vec F S128x1 .f32) (s : Vec F S128x128 .f32) (m : Vec F S128x3 .f32) (l : Vec F S1x3 .f32) : Vec F S128x3 .f32 :=
  View.canon [⟨wholeM3, k3_pay3 (View.ld cnt wholeC3) (View.ld s wholeS3) (View.ld m wholeM3) (View.ld l wholeL3)⟩]

/-! ## The invariant -/

/-- The scoped buffers of the core that are neither a staging buffer of the region nor its accumulator, unopened. -/
abbrev rest3 (c : Dev nD) : sProp 𝕄 :=
  Pipeline.scopedRestBut (Ix := Unit) (Name := ℕ) (U := UR sig nD τ) (Lvl := ℕ) (Val := Elt F) spec3 c [cc3_scratch0]

/-- The region's invariant before position `n`: before the first point the scoped buffers it does not stage (the
    accumulator among them) at anything and the generator register; after point `n` the accumulator at `sAt3 n`,
    the other scoped buffers unopened, the generator register. -/
def Phi3 (c : Dev nD) : ℕ → sProp 𝕄
  | 0 => Pipeline.ΦA spec3 c
  | n + 1 => iprop(owns (c : Thread nD τ) (Memref.whole cc3_scratch0) fullShare (sAt3 V c n) ∗ rest3 (F := F) c ∗ ∃ r, prngReg c r)

theorem Phi3_zero (c : Dev nD) : Phi3 V c 0 = Pipeline.ΦA spec3 c := rfl
theorem Phi3_succ (c : Dev nD) (n : ℕ) :
    Phi3 V c (n + 1) = iprop(owns (c : Thread nD τ) (Memref.whole cc3_scratch0) fullShare (sAt3 V c n) ∗ rest3 (F := F) c ∗ ∃ r, prngReg c r) := rfl

/-! ## The proof data -/

/-- The region's proof data on core `c`: arrays as found; after the body each input buffer still at its block, the
    output buffer at `res3` of the counts, the accumulator the point leaves, the matrix and the last bias row
    (consulted at the last point only: elsewhere the body leaves the output buffer as it found it); the invariant
    `Phi3`; nothing owed. -/
def dat3 (c : Dev nD) : Dat τ (Elt F) Unit ℕ (UR sig nD τ) ℕ cfg3 c where
  A w := V c (Pipeline.arrRef spec3 w)
  after w t := match w with
    | ⟨0, _⟩ => blk3 V c 0 t
    | ⟨1, _⟩ => blk3 V c 1 t
    | ⟨2, _⟩ => blk3 V c 2 t
    | ⟨3, _⟩ => blk3 V c 3 t
    | ⟨4, _⟩ => blk3 V c 4 t
    | ⟨5, _⟩ => blk3 V c 5 t
    | ⟨6, _⟩ => blk3 V c 6 t
    | ⟨7, _⟩ => res3 (blk3 V c 4 t) (sAt3 V c t.val) (blk3 V c 5 t) (blk3 V c 6 t)
  Φ t := Phi3 V c t.val
  q _ := fullShare
  owed _ := 0

theorem dat3_A (c : Dev nD) (w : Fin cfg3.W) : (dat3 V c).A w = V c (Pipeline.arrRef spec3 w) := by
  dsimp only [dat3]

theorem dat3_Phi (c : Dev nD) (t : Fin (cfg3.N + 1)) : (dat3 V c).Φ t = Phi3 V c t.val := by dsimp only [dat3]

theorem dat3_after0 (c : Dev nD) (t : Fin cfg3.N) : (dat3 V c).after 0 t = blk3 V c 0 t := by dsimp only [dat3]
theorem dat3_after1 (c : Dev nD) (t : Fin cfg3.N) : (dat3 V c).after 1 t = blk3 V c 1 t := by dsimp only [dat3]
theorem dat3_after2 (c : Dev nD) (t : Fin cfg3.N) : (dat3 V c).after 2 t = blk3 V c 2 t := by dsimp only [dat3]
theorem dat3_after3 (c : Dev nD) (t : Fin cfg3.N) : (dat3 V c).after 3 t = blk3 V c 3 t := by dsimp only [dat3]
theorem dat3_after4 (c : Dev nD) (t : Fin cfg3.N) : (dat3 V c).after 4 t = blk3 V c 4 t := by dsimp only [dat3]
theorem dat3_after5 (c : Dev nD) (t : Fin cfg3.N) : (dat3 V c).after 5 t = blk3 V c 5 t := by dsimp only [dat3]
theorem dat3_after6 (c : Dev nD) (t : Fin cfg3.N) : (dat3 V c).after 6 t = blk3 V c 6 t := by dsimp only [dat3]
theorem dat3_after7 (c : Dev nD) (t : Fin cfg3.N) :
    (dat3 V c).after 7 t = res3 (blk3 V c 4 t) (sAt3 V c t.val) (blk3 V c 5 t) (blk3 V c 6 t) := by dsimp only [dat3]

/-! ## The canon and the whole-rectangle loads removed -/

theorem zeros2 : (![0, 0] : Fin 2 → ℕ) = fun _ => 0 := by
  funext a; fin_cases a <;> rfl

/-- One point's update is the update's payload of the blocks and the accumulator themselves. -/
theorem acc3_eq (a : Vec F S5000x128 .f32) (d : Vec F S5000x1 .f32) (b : Vec F S1x128 .f32) (g : Vec F S5000x1 .i32)
    (s : Vec F S128x128 .f32) : acc3 a d b g s = k3_pay2 a d b g s := by
  unfold acc3
  rw [View.canon_unit_zero (S := S128x128) zeros2, View.ld_unit_zero (S := S5000x128) zeros2,
    View.ld_unit_zero (S := S5000x1) zeros2, View.ld_unit_zero (S := S1x128) zeros2, View.ld_unit_zero (S := S5000x1) zeros2,
    View.ld_unit_zero (S := S128x128) zeros2]

/-- The last point's store is its payload of the counts, the accumulator, the matrix and the last bias row themselves. -/
theorem res3_eq (cnt : Vec F S128x1 .f32) (s : Vec F S128x128 .f32) (m : Vec F S128x3 .f32) (l : Vec F S1x3 .f32) :
    res3 cnt s m l = k3_pay3 cnt s m l := by
  unfold res3
  rw [View.canon_unit_zero (S := S128x3) zeros2, View.ld_unit_zero (S := S128x1) zeros2,
    View.ld_unit_zero (S := S128x128) zeros2, View.ld_unit_zero (S := S128x3) zeros2, View.ld_unit_zero (S := S1x3) zeros2]

/-! ## The class's invariant with the accumulator split off -/

/-- The class's invariant: the accumulator at anything, the other scoped buffers unopened, the generator register. -/
theorem PhiA3_eq (c : Dev nD) :
    (Pipeline.ΦA spec3 c : sProp 𝕄)
      = iprop(((∃ d, owns (c : Thread nD τ) (Memref.whole cc3_scratch0) fullShare d) ∗ rest3 (F := F) c) ∗ ∃ r, prngReg c r) := by
  unfold Pipeline.ΦA
  rw [Pipeline.scopedRest_split_of_list spec3 c [cc3_scratch0] (by decide) (by decide)]
  simp only [bigSepL_singleton, owns_whole]; try rfl

/-- An input buffer holds its block whenever the body is called, fetched at that point or not. -/
theorem dat3_before0 (c : Dev nD) (t : Fin cfg3.N) (d) : (dat3 V c).before 0 t d = blk3 V c 0 t :=
  ((dat3 V c).before_in_eq_fetched 0 rfl (fun _ => rfl) (fun _ _ _ => rfl)
    (fun t => by rw [dat3_after0]; unfold Dat.blockOf blk3; rw [dat3_A]; try rfl) t d).trans
    (by unfold Dat.fetched Dat.blockOf blk3; rw [dat3_A]; try rfl)
theorem dat3_before1 (c : Dev nD) (t : Fin cfg3.N) (d) : (dat3 V c).before 1 t d = blk3 V c 1 t :=
  ((dat3 V c).before_in_eq_fetched 1 rfl (fun _ => rfl) (fun _ _ _ => rfl)
    (fun t => by rw [dat3_after1]; unfold Dat.blockOf blk3; rw [dat3_A]; try rfl) t d).trans
    (by unfold Dat.fetched Dat.blockOf blk3; rw [dat3_A]; try rfl)
theorem dat3_before2 (c : Dev nD) (t : Fin cfg3.N) (d) : (dat3 V c).before 2 t d = blk3 V c 2 t :=
  ((dat3 V c).before_in_eq_fetched 2 rfl (fun _ => rfl) (fun _ _ _ => rfl)
    (fun t => by rw [dat3_after2]; unfold Dat.blockOf blk3; rw [dat3_A]; try rfl) t d).trans
    (by unfold Dat.fetched Dat.blockOf blk3; rw [dat3_A]; try rfl)
theorem dat3_before3 (c : Dev nD) (t : Fin cfg3.N) (d) : (dat3 V c).before 3 t d = blk3 V c 3 t :=
  ((dat3 V c).before_in_eq_fetched 3 rfl (fun _ => rfl) (fun _ _ _ => rfl)
    (fun t => by rw [dat3_after3]; unfold Dat.blockOf blk3; rw [dat3_A]; try rfl) t d).trans
    (by unfold Dat.fetched Dat.blockOf blk3; rw [dat3_A]; try rfl)
theorem dat3_before4 (c : Dev nD) (t : Fin cfg3.N) (d) : (dat3 V c).before 4 t d = blk3 V c 4 t :=
  ((dat3 V c).before_in_eq_fetched 4 rfl (fun _ => rfl) (fun _ _ _ => rfl)
    (fun t => by rw [dat3_after4]; unfold Dat.blockOf blk3; rw [dat3_A]; try rfl) t d).trans
    (by unfold Dat.fetched Dat.blockOf blk3; rw [dat3_A]; try rfl)
theorem dat3_before5 (c : Dev nD) (t : Fin cfg3.N) (d) : (dat3 V c).before 5 t d = blk3 V c 5 t :=
  ((dat3 V c).before_in_eq_fetched 5 rfl (fun _ => rfl) (fun _ _ _ => rfl)
    (fun t => by rw [dat3_after5]; unfold Dat.blockOf blk3; rw [dat3_A]; try rfl) t d).trans
    (by unfold Dat.fetched Dat.blockOf blk3; rw [dat3_A]; try rfl)
theorem dat3_before6 (c : Dev nD) (t : Fin cfg3.N) (d) : (dat3 V c).before 6 t d = blk3 V c 6 t :=
  ((dat3 V c).before_in_eq_fetched 6 rfl (fun _ => rfl) (fun _ _ _ => rfl)
    (fun t => by rw [dat3_after6]; unfold Dat.blockOf blk3; rw [dat3_A]; try rfl) t d).trans
    (by unfold Dat.fetched Dat.blockOf blk3; rw [dat3_A]; try rfl)

/-- Before the first point the invariant is the class's. -/
theorem dat3_Phi0 (c : Dev nD) : (dat3 V c).Φ 0 = Pipeline.ΦA spec3 c := by
  rw [dat3_Phi]; rfl

/-- After the last point the accumulator's contents are forgotten back into the scoped buffers at anything. -/
theorem dat3_PhiLast (c : Dev nD) : (dat3 V c).Φ (Fin.last cfg3.N) ⊢ Pipeline.ΦA spec3 c := by
  rw [dat3_Phi, Fin.val_last, show cfg3.N = 9 + 1 from N_3, Phi3_succ, PhiA3_eq]
  iintro ⟨HS, HR, Hg⟩
  isplitl [HS HR]
  · isplitl [HS]
    · iexists _; iexact HS
    iexact HR
  iexact Hg

end Cert.Kernel.Hand

end
-- ==== Proof.K.RunDefs.lean ====
/-
  The hypotheses under which the run of the whole program is stated: the contents the four regions leave in their
  output arrays, as unknowns, each pinned to the fold of its region's write-backs.
-/
import proofs.«401627_j1056561955307_2_alg».proof.Proof.Gen.Kernel.Regions
import proofs.«401627_j1056561955307_2_alg».proof.Proof.K.Reg0
import proofs.«401627_j1056561955307_2_alg».proof.Proof.K.Reg1
import proofs.«401627_j1056561955307_2_alg».proof.Proof.K.Reg2
import proofs.«401627_j1056561955307_2_alg».proof.Proof.K.Reg3

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (outs : Outs (F := F))

/-- A family of valuations read at the TensorCore's references. -/
abbrev Vr (W : Dev nD → Valuation τ sig (Elt F)) : (c : Dev nD) → (b : Ref sig .tc) → Buf (Elt F) ((c : Thread nD τ).loc b) :=
  fun c b => W c b

/-- The unknown contents are what the four regions leave: each region's output array holds the fold of that
    region's write-backs over the array as the region found it. -/
structure OutsOk : Prop where
  H4 : ∀ c : Dev nD, outs 4 main_v16 c = (dat0 (Vr (V3 m)) c).arrAt 3 cfg0.N
  H6 : ∀ c : Dev nD, outs 6 main_v29 c = (dat1 (Vr (V5 m outs)) c).arrAt 4 cfg1.N
  H8 : ∀ c : Dev nD, outs 8 main_v42 c = (dat2 (Vr (V7 m outs)) c).arrAt 4 cfg2.N
  H10 : ∀ c : Dev nD, outs 10 main_v62 c = (dat3 (Vr (V9 m outs)) c).arrAt 7 cfg3.N

end Cert.Kernel.Hand

end
-- ==== Proof.K.Reg3Runs.lean ====
/-
  The last kernel region's body, run on whole staging buffers in each of its three control cases: at the first
  point (the accumulator reset, then updated), at a point between (updated), at the last point (updated, then the
  output block computed from it and stored). The conditions of the body's two `if`s are decided over the grid in
  closed form.
-/
import proofs.«401627_j1056561955307_2_alg».proof.Proof.K.Reg3
import Idealize.ShloMosaic.Lib.Pipeline.FrameBody
import Idealize.ShloMosaic.Lib.Pipeline.RegionsLoop
import Idealize.ShloMosaic.Lib.Pipeline.FrameSuffix
import Idealize.ShloMosaic.Lib.Pipeline.Value
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## The body's branch conditions -/

/-- The condition of the body's first `if` (the reset), from the grid coordinates. -/
abbrev cond3_1 (i : grid3.Coords) : Prop :=
  (Scalar.cmpi .ne (Scalar.extui (Scalar.cmpi .eq (BitVec.ofNat 32 (i 0).val) 0#32)) 0#32) = 1#1
/-- It holds at the first point only. -/
theorem hcond3_1 : ∀ t : Fin cfg3.N, cond3_1 (grid3.coords t) ↔ t.val = 0 :=
  (by decide +kernel : ∀ t : Fin grid3.N, cond3_1 (grid3.coords t) ↔ t.val = 0)

/-- The condition of the body's second `if` (the finish), from the grid coordinates. -/
abbrev cond3_2 (i : grid3.Coords) : Prop := k3_cond2 i = 1#1
/-- It holds at the last point only. -/
theorem hcond3_2 : ∀ t : Fin cfg3.N, cond3_2 (grid3.coords t) ↔ t.val = 9 :=
  (by decide +kernel : ∀ t : Fin grid3.N, cond3_2 (grid3.coords t) ↔ t.val = 9)

theorem acc3_cover (p : Vec F S128x128 .f32) (L : List (View.Piece (Elt F) S128x128 .f32)) (y : S128x128.Idx) :
    ∃ pc ∈ ((⟨wholeS3, p⟩ : View.Piece (Elt F) S128x128 .f32) :: L), y ∈ pc.1.set :=
  ⟨_, List.mem_cons_self, View.mem_set_unit_zero (S := S128x128) zeros2 inb_S128x128_S128x128_0_0 y⟩

theorem res3_cover (p : Vec F S128x3 .f32) (L : List (View.Piece (Elt F) S128x3 .f32)) (y : S128x3.Idx) :
    ∃ pc ∈ ((⟨wholeM3, p⟩ : View.Piece (Elt F) S128x3 .f32) :: L), y ∈ pc.1.set :=
  ⟨_, List.mem_cons_self, View.mem_set_unit_zero (S := S128x3) zeros2 inb_S128x3_S128x3_0_0 y⟩

/-! ## What the stores leave, read back -/

/-- The first point's two stores over the accumulator — zeros, then the update over the zeros read back — leave the
    update over zeros. -/
theorem accA_eq {sg : RefSig} {κ : Kind} {sp : Space} (v : View sg κ sp S128x128 .f32)
    (A : Vec F S5000x128 .f32) (D : Vec F S5000x1 .f32) (B : Vec F S1x128 .f32) (G : Vec F S5000x1 .i32) :
    View.canon [(⟨wholeS3, k3_pay2 A D B G (v.readCov [(⟨wholeS3, k3_pay1⟩ : View.Piece (Elt F) S128x128 .f32)] wholeS3.toLoadRect)⟩ : View.Piece (Elt F) S128x128 .f32),
        ⟨wholeS3, k3_pay1⟩]
      = View.canon [(⟨wholeS3, k3_pay2 A D B G (View.ld (zero3 (F := F)) wholeS3)⟩ : View.Piece (Elt F) S128x128 .f32)] := by
  rw [View.canon_cons_unit_zero (S := S128x128) zeros2, View.canon_unit_zero (S := S128x128) zeros2,
    View.readCov_unit_zero (S := S128x128) v zeros2, View.ld_unit_zero (S := S128x128) zeros2]
  rfl

/-- The last point's load of the accumulator after its update reads the update. -/
theorem resC_eq {sg : RefSig} {κ : Kind} {sp : Space} (v : View sg κ sp S128x128 .f32)
    (C : Vec F S128x1 .f32) (P : Vec F S128x128 .f32) (M : Vec F S128x3 .f32) (L : Vec F S1x3 .f32) :
    View.canon [(⟨wholeM3, k3_pay3 C (v.readCov [(⟨wholeS3, P⟩ : View.Piece (Elt F) S128x128 .f32)] wholeS3.toLoadRect) M L⟩ : View.Piece (Elt F) S128x3 .f32)]
      = View.canon [(⟨wholeM3, k3_pay3 C (View.ld (View.canon [(⟨wholeS3, P⟩ : View.Piece (Elt F) S128x128 .f32)]) wholeS3) M L⟩ : View.Piece (Elt F) S128x3 .f32)] := by
  rw [View.readCov_eq_canon_ld v _ wholeS3 (acc3_cover _ _)]

set_option maxHeartbeats 1000000 in
/-- The body at the first point, on whole staging buffers holding the seven input blocks, the output buffer at `o`
    and the accumulator at anything: it returns the inputs and the output buffer as they were and the accumulator at
    `acc3` of the four blocks and zeros. -/
theorem body3_runA (c : Dev nD) (E : Set ℕ) (i : grid3.Coords) (hc1 : cond3_1 i) (hc2 : ¬cond3_2 i)
    (a1 : Memref sig .tc .vmem S5000x128 .f32) (h1 : a1.IsWhole) (a2 : Memref sig .tc .vmem S5000x1 .f32) (h2 : a2.IsWhole)
    (a3 : Memref sig .tc .vmem S1x128 .f32) (h3 : a3.IsWhole) (a4 : Memref sig .tc .vmem S5000x1 .i32) (h4 : a4.IsWhole)
    (a5 : Memref sig .tc .vmem S128x1 .f32) (h5 : a5.IsWhole) (a6 : Memref sig .tc .vmem S128x3 .f32) (h6 : a6.IsWhole)
    (a7 : Memref sig .tc .vmem S1x3 .f32) (h7 : a7.IsWhole) (a8 : Memref sig .tc .vmem S128x3 .f32) (h8 : a8.IsWhole)
    (a9 : Memref sig .tc .vmem S128x128 .f32) (h9 : a9.IsWhole)
    (x0 : Vec F S5000x128 .f32) (x1 : Vec F S5000x1 .f32) (x2 : Vec F S1x128 .f32) (x3 : Vec F S5000x1 .i32)
    (x4 : Vec F S128x1 .f32) (x5 : Vec F S128x3 .f32) (x6 : Vec F S1x3 .f32)
    (o : Vec F S128x3 .f32) (K : PUnit → sProp 𝕄) :
    iprop(owns (c : Thread nD τ) a1 fullShare x0 ∗ owns (c : Thread nD τ) a2 fullShare x1 ∗ owns (c : Thread nD τ) a3 fullShare x2
        ∗ owns (c : Thread nD τ) a4 fullShare x3 ∗ owns (c : Thread nD τ) a5 fullShare x4 ∗ owns (c : Thread nD τ) a6 fullShare x5
        ∗ owns (c : Thread nD τ) a7 fullShare x6
        ∗ owns (c : Thread nD τ) a8 fullShare o ∗ (∃ s, owns (c : Thread nD τ) a9 fullShare s)
        ∗ (iprop(owns (c : Thread nD τ) a1 fullShare x0 ∗ owns (c : Thread nD τ) a2 fullShare x1 ∗ owns (c : Thread nD τ) a3 fullShare x2
        ∗ owns (c : Thread nD τ) a4 fullShare x3 ∗ owns (c : Thread nD τ) a5 fullShare x4 ∗ owns (c : Thread nD τ) a6 fullShare x5
        ∗ owns (c : Thread nD τ) a7 fullShare x6
            ∗ owns (c : Thread nD τ) a8 fullShare o ∗ owns (c : Thread nD τ) a9 fullShare (acc3 x0 x1 x2 x3 zero3)) -∗ K ⟨⟩))
      ⊢ wp frame (wpE (defs₀ (F := F)) Variants.none c none) E (cc3__pool_final_kernel i a1 h1 a2 h2 a3 h3 a4 h4 a5 h5 a6 h6 a7 h7 a8 h8 a9 h9) K := by
  simp only [cc3__pool_final_kernel_eq_skeleton]; unfold cc3__pool_final_kernel_skel
  unfold owns
  iintro ⟨⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%s, %f9, -, H9⟩, Hk⟩
  subst hf1; subst hf2; subst hf3; subst hf4; subst hf5; subst hf6; subst hf7; subst hf8
  sl_exec (disch := first | exact hc1 | exact hc2)
  sl_step
  iapply Hk
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists f7; isplitr; · ipureintro; rfl
    iexact H7
  isplitl [H8]
  · iexists f8; isplitr; · ipureintro; rfl
    iexact H8
  iexists _; isplitr
  swap; · iexact H9
  ipureintro
  exact (View.read_writes_eq_canon _ _ _ (acc3_cover _ _)).trans (accA_eq _ _ _ _ _)

set_option maxHeartbeats 1000000 in
/-- The body at a point that is neither the first nor the last, on whole staging buffers holding the seven input
    blocks, the output buffer at `o` and the accumulator at `s`: it returns the inputs and the output buffer as they
    were and the accumulator at `acc3` of the four blocks and `s`. -/
theorem body3_runB (c : Dev nD) (E : Set ℕ) (i : grid3.Coords) (hc1 : ¬cond3_1 i) (hc2 : ¬cond3_2 i)
    (a1 : Memref sig .tc .vmem S5000x128 .f32) (h1 : a1.IsWhole) (a2 : Memref sig .tc .vmem S5000x1 .f32) (h2 : a2.IsWhole)
    (a3 : Memref sig .tc .vmem S1x128 .f32) (h3 : a3.IsWhole) (a4 : Memref sig .tc .vmem S5000x1 .i32) (h4 : a4.IsWhole)
    (a5 : Memref sig .tc .vmem S128x1 .f32) (h5 : a5.IsWhole) (a6 : Memref sig .tc .vmem S128x3 .f32) (h6 : a6.IsWhole)
    (a7 : Memref sig .tc .vmem S1x3 .f32) (h7 : a7.IsWhole) (a8 : Memref sig .tc .vmem S128x3 .f32) (h8 : a8.IsWhole)
    (a9 : Memref sig .tc .vmem S128x128 .f32) (h9 : a9.IsWhole)
    (x0 : Vec F S5000x128 .f32) (x1 : Vec F S5000x1 .f32) (x2 : Vec F S1x128 .f32) (x3 : Vec F S5000x1 .i32)
    (x4 : Vec F S128x1 .f32) (x5 : Vec F S128x3 .f32) (x6 : Vec F S1x3 .f32)
    (o : Vec F S128x3 .f32) (s : Vec F S128x128 .f32) (K : PUnit → sProp 𝕄) :
    iprop(owns (c : Thread nD τ) a1 fullShare x0 ∗ owns (c : Thread nD τ) a2 fullShare x1 ∗ owns (c : Thread nD τ) a3 fullShare x2
        ∗ owns (c : Thread nD τ) a4 fullShare x3 ∗ owns (c : Thread nD τ) a5 fullShare x4 ∗ owns (c : Thread nD τ) a6 fullShare x5
        ∗ owns (c : Thread nD τ) a7 fullShare x6
        ∗ owns (c : Thread nD τ) a8 fullShare o ∗ owns (c : Thread nD τ) a9 fullShare s
        ∗ (iprop(owns (c : Thread nD τ) a1 fullShare x0 ∗ owns (c : Thread nD τ) a2 fullShare x1 ∗ owns (c : Thread nD τ) a3 fullShare x2
        ∗ owns (c : Thread nD τ) a4 fullShare x3 ∗ owns (c : Thread nD τ) a5 fullShare x4 ∗ owns (c : Thread nD τ) a6 fullShare x5
        ∗ owns (c : Thread nD τ) a7 fullShare x6
            ∗ owns (c : Thread nD τ) a8 fullShare o ∗ owns (c : Thread nD τ) a9 fullShare (acc3 x0 x1 x2 x3 s)) -∗ K ⟨⟩))
      ⊢ wp frame (wpE (defs₀ (F := F)) Variants.none c none) E (cc3__pool_final_kernel i a1 h1 a2 h2 a3 h3 a4 h4 a5 h5 a6 h6 a7 h7 a8 h8 a9 h9) K := by
  simp only [cc3__pool_final_kernel_eq_skeleton]; unfold cc3__pool_final_kernel_skel
  unfold owns
  iintro ⟨⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, Hk⟩
  subst hf1; subst hf2; subst hf3; subst hf4; subst hf5; subst hf6; subst hf7; subst hf8; subst hf9
  sl_exec (disch := first | exact hc1 | exact hc2)
  sl_step
  iapply Hk
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists f7; isplitr; · ipureintro; rfl
    iexact H7
  isplitl [H8]
  · iexists f8; isplitr; · ipureintro; rfl
    iexact H8
  iexists _; isplitr
  swap; · iexact H9
  ipureintro
  exact View.read_writes_eq_canon _ _ _ (acc3_cover _ _)

set_option maxHeartbeats 1000000 in
/-- The body at the last point, on whole staging buffers holding the seven input blocks, the output buffer at
    anything and the accumulator at `s`: it returns the inputs as they were, the accumulator at `acc3` of the four
    blocks and `s`, and the output buffer at `res3` of the counts, that accumulator, the matrix and the last bias row. -/
theorem body3_runC (c : Dev nD) (E : Set ℕ) (i : grid3.Coords) (hc1 : ¬cond3_1 i) (hc2 : cond3_2 i)
    (a1 : Memref sig .tc .vmem S5000x128 .f32) (h1 : a1.IsWhole) (a2 : Memref sig .tc .vmem S5000x1 .f32) (h2 : a2.IsWhole)
    (a3 : Memref sig .tc .vmem S1x128 .f32) (h3 : a3.IsWhole) (a4 : Memref sig .tc .vmem S5000x1 .i32) (h4 : a4.IsWhole)
    (a5 : Memref sig .tc .vmem S128x1 .f32) (h5 : a5.IsWhole) (a6 : Memref sig .tc .vmem S128x3 .f32) (h6 : a6.IsWhole)
    (a7 : Memref sig .tc .vmem S1x3 .f32) (h7 : a7.IsWhole) (a8 : Memref sig .tc .vmem S128x3 .f32) (h8 : a8.IsWhole)
    (a9 : Memref sig .tc .vmem S128x128 .f32) (h9 : a9.IsWhole)
    (x0 : Vec F S5000x128 .f32) (x1 : Vec F S5000x1 .f32) (x2 : Vec F S1x128 .f32) (x3 : Vec F S5000x1 .i32)
    (x4 : Vec F S128x1 .f32) (x5 : Vec F S128x3 .f32) (x6 : Vec F S1x3 .f32)
    (s : Vec F S128x128 .f32) (K : PUnit → sProp 𝕄) :
    iprop(owns (c : Thread nD τ) a1 fullShare x0 ∗ owns (c : Thread nD τ) a2 fullShare x1 ∗ owns (c : Thread nD τ) a3 fullShare x2
        ∗ owns (c : Thread nD τ) a4 fullShare x3 ∗ owns (c : Thread nD τ) a5 fullShare x4 ∗ owns (c : Thread nD τ) a6 fullShare x5
        ∗ owns (c : Thread nD τ) a7 fullShare x6
        ∗ (∃ o, owns (c : Thread nD τ) a8 fullShare o) ∗ owns (c : Thread nD τ) a9 fullShare s
        ∗ (iprop(owns (c : Thread nD τ) a1 fullShare x0 ∗ owns (c : Thread nD τ) a2 fullShare x1 ∗ owns (c : Thread nD τ) a3 fullShare x2
        ∗ owns (c : Thread nD τ) a4 fullShare x3 ∗ owns (c : Thread nD τ) a5 fullShare x4 ∗ owns (c : Thread nD τ) a6 fullShare x5
        ∗ owns (c : Thread nD τ) a7 fullShare x6
            ∗ owns (c : Thread nD τ) a8 fullShare (res3 x4 (acc3 x0 x1 x2 x3 s) x5 x6)
            ∗ owns (c : Thread nD τ) a9 fullShare (acc3 x0 x1 x2 x3 s)) -∗ K ⟨⟩))
      ⊢ wp frame (wpE (defs₀ (F := F)) Variants.none c none) E (cc3__pool_final_kernel i a1 h1 a2 h2 a3 h3 a4 h4 a5 h5 a6 h6 a7 h7 a8 h8 a9 h9) K := by
  simp only [cc3__pool_final_kernel_eq_skeleton]; unfold cc3__pool_final_kernel_skel
  unfold owns
  iintro ⟨⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%o, %f8, -, H8⟩, ⟨%f9, %hf9, H9⟩, Hk⟩
  subst hf1; subst hf2; subst hf3; subst hf4; subst hf5; subst hf6; subst hf7; subst hf9
  sl_exec (disch := first | exact hc1 | exact hc2)
  sl_step
  iapply Hk
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists f7; isplitr; · ipureintro; rfl
    iexact H7
  isplitl [H8]
  · iexists _; isplitr
    swap; · iexact H8
    ipureintro
    exact (View.read_writes_eq_canon _ _ _ (res3_cover _ _)).trans (resC_eq _ _ _ _ _)
  iexists _; isplitr
  swap; · iexact H9
  ipureintro
  exact View.read_writes_eq_canon _ _ _ (acc3_cover _ _)

end Cert.Kernel.Hand

end
-- ==== Proof.K.Reg3Body.lean ====
/-
  The last kernel region's body obligation: at every grid point, from the region's invariant (the accumulator at
  what the point before left, at anything before the first point) and the eight staging buffers at what the
  pipeline hands the body, the body runs to the invariant at the next point, the inputs' buffers at their blocks,
  and the output buffer as it was found — at the last point, at the stored result. The three control cases are
  taken by the point's position.
-/
import proofs.«401627_j1056561955307_2_alg».proof.Proof.K.Reg3Runs
import Idealize.ShloMosaic.Lib.Pipeline.FrameBody
import Idealize.ShloMosaic.Lib.Pipeline.RegionsLoop
import Idealize.ShloMosaic.Lib.Pipeline.FrameSuffix
import Idealize.ShloMosaic.Lib.Pipeline.Value
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the arrays' contents when the region is entered
variable (V : (c : Dev nD) → (b : Ref sig .tc) → Buf (Elt F) ((c : Thread nD τ).loc b))

/-! ## Where the output window is idle, and where it is written back -/

/-- Off the last point the configuration calls the output window idle: the body stores nothing into it there. -/
theorem idleAt3_7 : ∀ t : Fin cfg3.N, ¬cond3_2 (grid3.coords t) → cfg3.idle 7 (grid3.coords t) = true := by decide +kernel
/-- At the last point it is live. -/
theorem liveAt3_7 : ∀ t : Fin cfg3.N, cond3_2 (grid3.coords t) → cfg3.idle 7 (grid3.coords t) = false := by decide +kernel
/-- Off the last point the pipeline does not write the output block back. -/
theorem noFlush3_7 (t : Fin cfg3.N) (h : t.val ≠ 9) : (cfg3.win 7).flush t = false := by
  have hN : t.val < 10 := lt_of_lt_of_eq t.isLt N_3
  cases hf : (cfg3.win 7).flush t
  · rfl
  · exfalso; have := (flush3_7 t).mp hf; omega

/-! ## The accumulator and the invariant at a point -/

/-- At the first point the accumulator is left at the update over zeros. -/
theorem sAt3_first (c : Dev nD) (t : Fin cfg3.N) (h : t.val = 0) : sAt3 V c t.val = step3 V c t zero3 := by
  have e : pt3 0 = t := by rw [← h, pt3_val]
  rw [h, sAt3_zero, e]

/-- At a later point, at the update over what the point before left. -/
theorem sAt3_next (c : Dev nD) (t : Fin cfg3.N) (h : t.val ≠ 0) : sAt3 V c t.val = step3 V c t (sAt3 V c (t.val - 1)) := by
  obtain ⟨n, hn⟩ := Nat.exists_eq_succ_of_ne_zero h
  have e : pt3 (n + 1) = t := by rw [← Nat.succ_eq_add_one, ← hn, pt3_val]
  rw [hn, Nat.succ_eq_add_one, sAt3_succ, e, Nat.add_sub_cancel]

theorem Phi3_first (c : Dev nD) (n : ℕ) (h : n = 0) : Phi3 V c n = Pipeline.ΦA spec3 c := by
  subst h; rfl

theorem Phi3_pos (c : Dev nD) (n : ℕ) (h : n ≠ 0) :
    Phi3 V c n = iprop(owns (c : Thread nD τ) (Memref.whole cc3_scratch0) fullShare (sAt3 V c (n - 1)) ∗ rest3 (F := F) c ∗ ∃ r, prngReg c r) := by
  cases n with
  | zero => exact absurd rfl h
  | succ n => rfl

/-! ## The body obligation -/

def pre3 (c : Dev nD) (t : Fin cfg3.N) : sProp 𝕄 :=
  iprop((dat3 V c).Φ t.castSucc ∗ (dat3 V c).owesAt () t.castSucc
    ∗ (∃ d, owns (c : Thread nD τ) (st3_0 t) fullShare ((dat3 V c).before 0 t d))
    ∗ (∃ d, owns (c : Thread nD τ) (st3_1 t) fullShare ((dat3 V c).before 1 t d))
    ∗ (∃ d, owns (c : Thread nD τ) (st3_2 t) fullShare ((dat3 V c).before 2 t d))
    ∗ (∃ d, owns (c : Thread nD τ) (st3_3 t) fullShare ((dat3 V c).before 3 t d))
    ∗ (∃ d, owns (c : Thread nD τ) (st3_4 t) fullShare ((dat3 V c).before 4 t d))
    ∗ (∃ d, owns (c : Thread nD τ) (st3_5 t) fullShare ((dat3 V c).before 5 t d))
    ∗ (∃ d, owns (c : Thread nD τ) (st3_6 t) fullShare ((dat3 V c).before 6 t d))
    ∗ (∃ d, owns (c : Thread nD τ) (st3_7 t) fullShare ((dat3 V c).before 7 t d)))

def post3 (c : Dev nD) (t : Fin cfg3.N) : sProp 𝕄 :=
  iprop((dat3 V c).Φ t.succ ∗ (dat3 V c).owesAt () t.succ
    ∗ owns (c : Thread nD τ) (st3_0 t) fullShare ((dat3 V c).after 0 t)
    ∗ owns (c : Thread nD τ) (st3_1 t) fullShare ((dat3 V c).after 1 t)
    ∗ owns (c : Thread nD τ) (st3_2 t) fullShare ((dat3 V c).after 2 t)
    ∗ owns (c : Thread nD τ) (st3_3 t) fullShare ((dat3 V c).after 3 t)
    ∗ owns (c : Thread nD τ) (st3_4 t) fullShare ((dat3 V c).after 4 t)
    ∗ owns (c : Thread nD τ) (st3_5 t) fullShare ((dat3 V c).after 5 t)
    ∗ owns (c : Thread nD τ) (st3_6 t) fullShare ((dat3 V c).after 6 t)
    ∗ (dat3 V c).leavesExact 7 t)

set_option maxHeartbeats 1000000 in
theorem body3_at (c : Dev nD) (t : Fin cfg3.N) :
    pre3 V c t ⊢ wp frame (wpE (defs₀ (F := F)) Variants.none c none) Set.univ (bodyAt3 t) (fun _ => post3 V c t) := by
  unfold pre3 post3 bodyAt3
  simp only [dat3_before0, dat3_before1, dat3_before2, dat3_before3, dat3_before4, dat3_before5, dat3_before6]
  rw [show (dat3 V c).owesAt () t.succ = (dat3 V c).owesAt () t.castSucc from rfl,
    dat3_after0, dat3_after1, dat3_after2, dat3_after3, dat3_after4, dat3_after5, dat3_after6,
    dat3_Phi, dat3_Phi, Fin.coe_castSucc, Fin.val_succ, Phi3_succ]
  have hN : t.val < 10 := lt_of_lt_of_eq t.isLt N_3
  by_cases h0 : t.val = 0
  · -- the first point: reset, then update
    have hc1 : cond3_1 (grid3.coords t) := (hcond3_1 t).mpr h0
    have hc2 : ¬cond3_2 (grid3.coords t) := fun h => by have := (hcond3_2 t).mp h; omega
    rw [Dat.leavesExact_idle (dat3 V c) 7 t (idleAt3_7 t hc2) (noFlush3_7 t (by omega)),
      sAt3_first V c t h0, Phi3_first V c _ h0, PhiA3_eq]
    unfold step3
    iintro ⟨⟨⟨HS, HR⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩⟩
    iapply (body3_runA c Set.univ _ hc1 hc2 _ _ _ _ _ _ _ _ _ _ _ _ _ _ _ _ _ _ (blk3 V c 0 t) (blk3 V c 1 t) (blk3 V c 2 t) (blk3 V c 3 t) (blk3 V c 4 t) (blk3 V c 5 t) (blk3 V c 6 t) ((dat3 V c).before 7 t d7) _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [HS]; · iexact HS
    iintro ⟨H0, H1, H2, H3, H4, H5, H6, H7, HS⟩
    isplitl [HS HR Hg]
    · isplitl [HS]; · iexact HS
      isplitl [HR]; · iexact HR
      iexact Hg
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    iexists _; iexact H7
  · by_cases h9 : t.val = 9
    · -- the last point: update, then finish
      have hc1 : ¬cond3_1 (grid3.coords t) := fun h => h0 ((hcond3_1 t).mp h)
      have hc2 : cond3_2 (grid3.coords t) := (hcond3_2 t).mpr h9
      rw [show (dat3 V c).leavesExact 7 t = owns (c : Thread nD τ) (st3_7 t) fullShare ((dat3 V c).after 7 t) from by
          unfold Dat.leavesExact; rw [liveAt3_7 t hc2],
        dat3_after7, sAt3_next V c t h0, Phi3_pos V c _ h0]
      unfold step3
      iintro ⟨⟨HS, HR, Hg⟩, Ho, ⟨%d0, H0⟩, ⟨%d1, H1⟩, ⟨%d2, H2⟩, ⟨%d3, H3⟩, ⟨%d4, H4⟩, ⟨%d5, H5⟩, ⟨%d6, H6⟩, ⟨%d7, H7⟩⟩
      iapply (body3_runC c Set.univ _ hc1 hc2 _ _ _ _ _ _ _ _ _ _ _ _ _ _ _ _ _ _ (blk3 V c 0 t) (blk3 V c 1 t) (blk3 V c 2 t) (blk3 V c 3 t) (blk3 V c 4 t) (blk3 V c 5 t) (blk3 V c 6 t) (sAt3 V c (t.val - 1)) _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexists _; iexact H7
      isplitl [HS]; · iexact HS
      iintro ⟨H0, H1, H2, H3, H4, H5, H6, H7, HS⟩
      isplitl [HS HR Hg]
      · isplitl [HS]; · iexact HS
        isplitl [HR]; · iexact HR
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexact H6
      iexact H7
    · -- a point between: update only
      have hc1 : ¬cond3_1 (grid3.coords t) := fun h => h0 ((hcond3_1 t).mp h)
      have hc2 : ¬cond3_2 (grid3.coords t) := fun h => h9 ((hcond3_2 t).mp h)
      rw [Dat.leavesExact_idle (dat3 V c) 7 t (idleAt3_7 t hc2) (noFlush3_7 t h9),
        sAt3_next V c t h0, Phi3_pos V c _ h0]
      unfold step3
      iintro ⟨⟨HS, HR, Hg⟩, Ho, ⟨%d0, H0⟩, ⟨%d1, H1⟩, ⟨%d2, H2⟩, ⟨%d3, H3⟩, ⟨%d4, H4⟩, ⟨%d5, H5⟩, ⟨%d6, H6⟩, ⟨%d7, H7⟩⟩
      iapply (body3_runB c Set.univ _ hc1 hc2 _ _ _ _ _ _ _ _ _ _ _ _ _ _ _ _ _ _ (blk3 V c 0 t) (blk3 V c 1 t) (blk3 V c 2 t) (blk3 V c 3 t) (blk3 V c 4 t) (blk3 V c 5 t) (blk3 V c 6 t) ((dat3 V c).before 7 t d7) (sAt3 V c (t.val - 1)) _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [HS]; · iexact HS
      iintro ⟨H0, H1, H2, H3, H4, H5, H6, H7, HS⟩
      isplitl [HS HR Hg]
      · isplitl [HS]; · iexact HS
        isplitl [HR]; · iexact HR
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexact H6
      iexists _; iexact H7

/-- The library's body obligation for the region, at every point. -/
theorem body3 (c : Dev nD) : BodyObligation (dat3 (F := F) V c) (defs₀ (F := F)) Variants.none () Set.univ := fun t => by
  rw [bigSep_W3, bigSep_W3]
  exact body3_at V c t

end Cert.Kernel.Hand

end
-- ==== Proof.K.Run.lean ====
/-
  The run of the whole program, assembled from the four kernel regions.

  Between two items of the program a core holds every unscoped buffer at a known valuation, its generator register at
  some state, and owes nothing. A host stretch moves the valuation by its operations. A region splits its arrays
  out of the unscoped buffers, runs its pipeline over its proof data, and puts the arrays back: the input arrays as
  found, the output array at the fold of the region's write-backs, which the hypotheses name. At the end the result
  buffer and the eleven arguments are read off the last valuation.
-/
import proofs.«401627_j1056561955307_2_alg».proof.Proof.Gen.Kernel.Launch
import proofs.«401627_j1056561955307_2_alg».proof.Proof.Gen.Kernel.Skeleton
import proofs.«401627_j1056561955307_2_alg».proof.Proof.Gen.Kernel.Points
import proofs.«401627_j1056561955307_2_alg».proof.Proof.Gen.Kernel.Regions
import Idealize.ShloMosaic.Lib.Pipeline.FrameBody
import Idealize.ShloMosaic.Lib.Pipeline.Regions
import Idealize.ShloMosaic.Lib.Pipeline.RegionsLoop
import Idealize.ShloMosaic.Lib.Pipeline.FrameSuffix
import Idealize.ShloMosaic.Lib.Ring
import Idealize.ShloMosaic.Lib.Tactic
import proofs.«401627_j1056561955307_2_alg».proof.Proof.K.RunDefs
import proofs.«401627_j1056561955307_2_alg».proof.Proof.K.Reg3Body

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section Records

variable (m : (ℓ : Loc nD τ sig) → Buf (Elt F) ℓ) (outs : Outs (F := F))

/-! ## The proof data family -/

/-- Every region's proof data, each at the contents its region is entered from: a literal match, so that the
    family at a numeral reduces to that region's data. -/
def pdats : (p : Fin 4) → (c : Dev nD) → Dat τ (Elt F) Unit ℕ (UR sig nD τ) ℕ (cfgs p) c
  | ⟨0, _⟩ => fun c => dat0 (Vr (V3 m)) c
  | ⟨1, _⟩ => fun c => dat1 (Vr (V5 m outs)) c
  | ⟨2, _⟩ => fun c => dat2 (Vr (V7 m outs)) c
  | ⟨3, _⟩ => fun c => dat3 (Vr (V9 m outs)) c

/-! ## The state that rides beside the buffers -/

/-- No core owes another anything: no level is assigned. -/
abbrev runL : GSem nD τ sig → Finset Unit := fun _ => ∅
abbrev runLv : GSem nD τ sig → Unit → ℕ := fun _ _ => 0

/-- Beside the unscoped buffers a core holds its generator register at some state and owes nothing. -/
abbrev restR (c : Dev nD) : sProp 𝕄 :=
  iprop((∃ r, prngReg c r) ∗ ∃ W, owes (c : Thread nD τ) (0 : CellTallies nD τ sig Unit) W)
/-- The same rest between any two items. -/
abbrev restE : Fin 5 → Dev nD → sProp 𝕄 := fun _ c => restR c

/-! ## Region 0 -/

/-- At region 0's exit each of its arrays holds what the write-backs leave: an input array what it held at entry,
    the output array the hypothesis' contents. -/
theorem hF0 (hok : OutsOk m outs) (c : Dev nD) (w : Fin cfg0.W) :
    (dat0 (Vr (V3 m)) c).arrAt w cfg0.N = Vr (V4 m outs) c (Pipeline.arrRef spec0 w) := by
  by_cases hw : w = 3
  · subst hw
    exact (hok.H4 c).symm.trans
      (Function.update_self (Proc.devRef .tc main_v16 : DevRef τ sig) (outs 4 main_v16 c) (V3 m c)).symm
  · have hin : (cfg0.win w).isOut = false := by revert w; decide
    have hne : Pipeline.arrRef spec0 w ∉ ([main_v16] : List (Ref sig .tc)) := by revert w; decide
    exact ((dat0 (Vr (V3 m)) c).arrAt_in w hin _).trans ((dat0_A (Vr (V3 m)) c w).trans (V4_of m outs c _ hne).symm)

/-- Off region 0's arrays nothing changes. -/
theorem hrest0 (c : Dev nD) (b : Ref sig .tc) (hb : b ∉ Finset.univ.image (Pipeline.arrRef spec0)) :
    Vr (V4 m outs) c b = Vr (V3 m) c b :=
  V4_of m outs c b fun hmem => hb (by
    rw [List.mem_singleton] at hmem; subst hmem
    exact Finset.mem_image.mpr ⟨3, Finset.mem_univ _, rfl⟩)

-- a library lemma stated over the pinned configuration unifies with the printed one only when unification may
-- unfold plain definitions in a metavariable's type
set_option backward.isDefEq.respectTransparency.types false in
/-- Region 0 over the thread state: entered from every unscoped buffer at the contents before it, left at the
    contents after it. Its arrays are split out of the unscoped buffers and put back at the exit contents; the
    generator register goes into the invariant and comes out; nothing is owed; the kernel has no semaphore of its own. -/
def reg0 (hok : OutsOk m outs) :
    Pipeline.RegionSeg (pcfgs (F := F)) adm (pdats m outs) () defs₀ Variants.none runL runLv 0 where
  win := launch0.win.to₀
  block_pos := launch0.block_pos
  stage_whole := launch0.stage_whole
  K := PEmpty
  osem k := k.elim
  ho := Pipeline.OwnSemFacts.none _
  hbody c := (body0 (Vr (V3 m)) c).loose
  hwaits := Pipeline.hwaits_of_owed_zero _ _ _ _ runL runLv 0 fun _ _ => rfl
  pre c := iprop(StableHlo.held (c : Thread nD τ) (Pipeline.ucRefs τ sig) (V3 m c) ∗ restR c)
  post c := iprop(StableHlo.held (c : Thread nD τ) (Pipeline.ucRefs τ sig) (V4 m outs c) ∗ restR c)
  X c := iprop(∃ r, prngReg c r)
  Y c := iprop(∃ r, prngReg c r)
  Z c := Pipeline.unscopedRest (Ix := Unit) (Name := ℕ) (U := UR sig nD τ) (Lvl := ℕ) spec0 c (Vr (V3 m) c)
  hentry c := by
    rw [Pipeline.ownSems0_none]
    have hsplit := Pipeline.arrays_of_unscopedBufs (p := 0) (pcfgs (F := F)) adm (pdats m outs) launch0.win launch0.arr_whole c
      ((pdats m outs 0 c).share_full fun _ => rfl) (Vr (V3 m) c) fun w => dat0_A (Vr (V3 m)) c w
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m outs 0 c).Φ 0 = Pipeline.ΦA spec0 c from rfl]; unfold Pipeline.ΦA
    iintro ⟨Hp, -, Hr⟩
    isplitl [Hr]; · iexact Hr
    iexact Hp
  hout c := by
    rw [Pipeline.ownSems0_none]
    refine (show (pdats m outs 0 c).Φ (Fin.last _) ⊢ Pipeline.ΦA spec0 c from .rfl).trans ?_
    unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m outs) ((pdats m outs 0 c).share_full fun _ => rfl)
      (Vr (V3 m) c) (Vr (V4 m outs) c) ((pdats m outs 0 c).arrAt · cfg0.N) (hF0 m outs hok c) (hrest0 m outs c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-! ## Region 1 -/

/-- At region 1's exit each of its arrays holds what the write-backs leave: an input array what it held at entry,
    the output array the hypothesis' contents. -/
theorem hF1 (hok : OutsOk m outs) (c : Dev nD) (w : Fin cfg1.W) :
    (dat1 (Vr (V5 m outs)) c).arrAt w cfg1.N = Vr (V6 m outs) c (Pipeline.arrRef spec1 w) := by
  by_cases hw : w = 4
  · subst hw
    exact (hok.H6 c).symm.trans
      (Function.update_self (Proc.devRef .tc main_v29 : DevRef τ sig) (outs 6 main_v29 c) (V5 m outs c)).symm
  · have hin : (cfg1.win w).isOut = false := by revert w; decide
    have hne : Pipeline.arrRef spec1 w ∉ ([main_v29] : List (Ref sig .tc)) := by revert w; decide
    exact ((dat1 (Vr (V5 m outs)) c).arrAt_in w hin _).trans ((dat1_A (Vr (V5 m outs)) c w).trans (V6_of m outs c _ hne).symm)

/-- Off region 1's arrays nothing changes. -/
theorem hrest1 (c : Dev nD) (b : Ref sig .tc) (hb : b ∉ Finset.univ.image (Pipeline.arrRef spec1)) :
    Vr (V6 m outs) c b = Vr (V5 m outs) c b :=
  V6_of m outs c b fun hmem => hb (by
    rw [List.mem_singleton] at hmem; subst hmem
    exact Finset.mem_image.mpr ⟨4, Finset.mem_univ _, rfl⟩)

-- a library lemma stated over the pinned configuration unifies with the printed one only when unification may
-- unfold plain definitions in a metavariable's type
set_option backward.isDefEq.respectTransparency.types false in
/-- Region 1 over the thread state: entered from every unscoped buffer at the contents before it, left at the
    contents after it. Its arrays are split out of the unscoped buffers and put back at the exit contents; the
    generator register goes into the invariant and comes out; nothing is owed; the kernel has no semaphore of its own. -/
def reg1 (hok : OutsOk m outs) :
    Pipeline.RegionSeg (pcfgs (F := F)) adm (pdats m outs) () defs₀ Variants.none runL runLv 1 where
  win := launch1.win.to₀
  block_pos := launch1.block_pos
  stage_whole := launch1.stage_whole
  K := PEmpty
  osem k := k.elim
  ho := Pipeline.OwnSemFacts.none _
  hbody c := (body1 (Vr (V5 m outs)) c).loose
  hwaits := Pipeline.hwaits_of_owed_zero _ _ _ _ runL runLv 1 fun _ _ => rfl
  pre c := iprop(StableHlo.held (c : Thread nD τ) (Pipeline.ucRefs τ sig) (V5 m outs c) ∗ restR c)
  post c := iprop(StableHlo.held (c : Thread nD τ) (Pipeline.ucRefs τ sig) (V6 m outs c) ∗ restR c)
  X c := iprop(∃ r, prngReg c r)
  Y c := iprop(∃ r, prngReg c r)
  Z c := Pipeline.unscopedRest (Ix := Unit) (Name := ℕ) (U := UR sig nD τ) (Lvl := ℕ) spec1 c (Vr (V5 m outs) c)
  hentry c := by
    rw [Pipeline.ownSems0_none]
    have hsplit := Pipeline.arrays_of_unscopedBufs (p := 1) (pcfgs (F := F)) adm (pdats m outs) launch1.win launch1.arr_whole c
      ((pdats m outs 1 c).share_full fun _ => rfl) (Vr (V5 m outs) c) fun w => dat1_A (Vr (V5 m outs)) c w
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m outs 1 c).Φ 0 = Pipeline.ΦA spec1 c from rfl]; unfold Pipeline.ΦA
    iintro ⟨Hp, -, Hr⟩
    isplitl [Hr]; · iexact Hr
    iexact Hp
  hout c := by
    rw [Pipeline.ownSems0_none]
    refine (show (pdats m outs 1 c).Φ (Fin.last _) ⊢ Pipeline.ΦA spec1 c from .rfl).trans ?_
    unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m outs) ((pdats m outs 1 c).share_full fun _ => rfl)
      (Vr (V5 m outs) c) (Vr (V6 m outs) c) ((pdats m outs 1 c).arrAt · cfg1.N) (hF1 m outs hok c) (hrest1 m outs c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-! ## Region 2 -/

/-- At region 2's exit each of its arrays holds what the write-backs leave: an input array what it held at entry,
    the output array the hypothesis' contents. -/
theorem hF2 (hok : OutsOk m outs) (c : Dev nD) (w : Fin cfg2.W) :
    (dat2 (Vr (V7 m outs)) c).arrAt w cfg2.N = Vr (V8 m outs) c (Pipeline.arrRef spec2 w) := by
  by_cases hw : w = 4
  · subst hw
    exact (hok.H8 c).symm.trans
      (Function.update_self (Proc.devRef .tc main_v42 : DevRef τ sig) (outs 8 main_v42 c) (V7 m outs c)).symm
  · have hin : (cfg2.win w).isOut = false := by revert w; decide
    have hne : Pipeline.arrRef spec2 w ∉ ([main_v42] : List (Ref sig .tc)) := by revert w; decide
    exact ((dat2 (Vr (V7 m outs)) c).arrAt_in w hin _).trans ((dat2_A (Vr (V7 m outs)) c w).trans (V8_of m outs c _ hne).symm)

/-- Off region 2's arrays nothing changes. -/
theorem hrest2 (c : Dev nD) (b : Ref sig .tc) (hb : b ∉ Finset.univ.image (Pipeline.arrRef spec2)) :
    Vr (V8 m outs) c b = Vr (V7 m outs) c b :=
  V8_of m outs c b fun hmem => hb (by
    rw [List.mem_singleton] at hmem; subst hmem
    exact Finset.mem_image.mpr ⟨4, Finset.mem_univ _, rfl⟩)

-- a library lemma stated over the pinned configuration unifies with the printed one only when unification may
-- unfold plain definitions in a metavariable's type
set_option backward.isDefEq.respectTransparency.types false in
/-- Region 2 over the thread state: entered from every unscoped buffer at the contents before it, left at the
    contents after it. Its arrays are split out of the unscoped buffers and put back at the exit contents; the
    generator register goes into the invariant and comes out; nothing is owed; the kernel has no semaphore of its own. -/
def reg2 (hok : OutsOk m outs) :
    Pipeline.RegionSeg (pcfgs (F := F)) adm (pdats m outs) () defs₀ Variants.none runL runLv 2 where
  win := launch2.win.to₀
  block_pos := launch2.block_pos
  stage_whole := launch2.stage_whole
  K := PEmpty
  osem k := k.elim
  ho := Pipeline.OwnSemFacts.none _
  hbody c := (body2 (Vr (V7 m outs)) c).loose
  hwaits := Pipeline.hwaits_of_owed_zero _ _ _ _ runL runLv 2 fun _ _ => rfl
  pre c := iprop(StableHlo.held (c : Thread nD τ) (Pipeline.ucRefs τ sig) (V7 m outs c) ∗ restR c)
  post c := iprop(StableHlo.held (c : Thread nD τ) (Pipeline.ucRefs τ sig) (V8 m outs c) ∗ restR c)
  X c := iprop(∃ r, prngReg c r)
  Y c := iprop(∃ r, prngReg c r)
  Z c := Pipeline.unscopedRest (Ix := Unit) (Name := ℕ) (U := UR sig nD τ) (Lvl := ℕ) spec2 c (Vr (V7 m outs) c)
  hentry c := by
    rw [Pipeline.ownSems0_none]
    have hsplit := Pipeline.arrays_of_unscopedBufs (p := 2) (pcfgs (F := F)) adm (pdats m outs) launch2.win launch2.arr_whole c
      ((pdats m outs 2 c).share_full fun _ => rfl) (Vr (V7 m outs) c) fun w => dat2_A (Vr (V7 m outs)) c w
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m outs 2 c).Φ 0 = Pipeline.ΦA spec2 c from rfl]; unfold Pipeline.ΦA
    iintro ⟨Hp, -, Hr⟩
    isplitl [Hr]; · iexact Hr
    iexact Hp
  hout c := by
    rw [Pipeline.ownSems0_none]
    refine (show (pdats m outs 2 c).Φ (Fin.last _) ⊢ Pipeline.ΦA spec2 c from .rfl).trans ?_
    unfold Pipeline.ΦA
    iintro ⟨Hr, Hp⟩
    isplitl [Hp]; · iexact Hp
    isplitr; · iempintro
    iexact Hr
  hexit c := by
    have hjoin := Pipeline.unscopedBufs_of_arrays (p := 2) (pcfgs (F := F)) adm (Ix := Unit) (Name := ℕ) (U := UR sig nD τ) (Lvl := ℕ)
      launch2.win launch2.arr_whole c (pdats m outs) ((pdats m outs 2 c).share_full fun _ => rfl)
      (Vr (V7 m outs) c) (Vr (V8 m outs) c) ((pdats m outs 2 c).arrAt · cfg2.N) (hF2 m outs hok c) (hrest2 m outs c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-! ## Region 3 -/

/-- At region 3's exit each of its arrays holds what the write-backs leave: an input array what it held at entry,
    the output array the hypothesis' contents. -/
theorem hF3 (hok : OutsOk m outs) (c : Dev nD) (w : Fin cfg3.W) :
    (dat3 (Vr (V9 m outs)) c).arrAt w cfg3.N = Vr (V10 m outs) c (Pipeline.arrRef spec3 w) := by
  by_cases hw : w = 7
  · subst hw
    exact (hok.H10 c).symm.trans
      (Function.update_self (Proc.devRef .tc main_v62 : DevRef τ sig) (outs 10 main_v62 c) (V9 m outs c)).symm
  · have hin : (cfg3.win w).isOut = false := by revert w; decide
    have hne : Pipeline.arrRef spec3 w ∉ ([main_v62] : List (Ref sig .tc)) := by revert w; decide
    exact ((dat3 (Vr (V9 m outs)) c).arrAt_in w hin _).trans ((dat3_A (Vr (V9 m outs)) c w).trans (V10_of m outs c _ hne).symm)

/-- Off region 3's arrays nothing changes. -/
theorem hrest3 (c : Dev nD) (b : Ref sig .tc) (hb : b ∉ Finset.univ.image (Pipeline.arrRef spec3)) :
    Vr (V10 m outs) c b = Vr (V9 m outs) c b :=
  V10_of m outs c b fun hmem => hb (by
    rw [List.mem_singleton] at hmem; subst hmem
    exact Finset.mem_image.mpr ⟨7, Finset.mem_univ _, rfl⟩)

-- a library lemma stated over the pinned configuration unifies with the printed one only when unification may
-- unfold plain definitions in a metavariable's type
set_option backward.isDefEq.respectTransparency.types false in
/-- Region 3 over the thread state: entered from every unscoped buffer at the contents before it, left at the
    contents after it. Its arrays are split out of the unscoped buffers and put back at the exit contents; the
    generator register goes into the invariant and comes out; nothing is owed; the kernel has no semaphore of its own. -/
def reg3 (hok : OutsOk m outs) :
    Pipeline.RegionSeg (pcfgs (F := F)) adm (pdats m outs) () defs₀ Variants.none runL runLv 3 where
  win := launch3.win.to₀
  block_pos := launch3.block_pos
  stage_whole := launch3.stage_whole
  K := PEmpty
  osem k := k.elim
  ho := Pipeline.OwnSemFacts.none _
  hbody c := (body3 (Vr (V9 m outs)) c).loose
  hwaits := Pipeline.hwaits_of_owed_zero _ _ _ _ runL runLv 3 fun _ _ => rfl
  pre c := iprop(StableHlo.held (c : Thread nD τ) (Pipeline.ucRefs τ sig) (V9 m outs c) ∗ restR c)
  post c := iprop((StableHlo.held (c : Thread nD τ) (Pipeline.ucRefs τ sig) (V10 m outs c) ∗ ∃ r, prngReg c r)
    ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := UR sig nD τ) (Lvl := ℕ) spec3 c (Vr (V9 m outs) c)
  hentry c := by
    rw [Pipeline.ownSems0_none]
    have hsplit := Pipeline.arrays_of_unscopedBufs (p := 3) (pcfgs (F := F)) adm (pdats m outs) launch3.win launch3.arr_whole c
      ((pdats m outs 3 c).share_full fun _ => rfl) (Vr (V9 m outs) c) fun w => dat3_A (Vr (V9 m outs)) c w
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m outs 3 c).Φ 0 = Pipeline.ΦA spec3 c from dat3_Phi0 (Vr (V9 m outs)) c]; unfold Pipeline.ΦA
    iintro ⟨Hp, -, Hr⟩
    isplitl [Hr]; · iexact Hr
    iexact Hp
  hout c := by
    rw [Pipeline.ownSems0_none]
    refine (show (pdats m outs 3 c).Φ (Fin.last _) ⊢ Pipeline.ΦA spec3 c from dat3_PhiLast (Vr (V9 m outs)) c).trans ?_
    unfold Pipeline.ΦA
    iintro ⟨Hr, Hp⟩
    isplitl [Hp]; · iexact Hp
    isplitr; · iempintro
    iexact Hr
  hexit c := by
    have hjoin := Pipeline.unscopedBufs_of_arrays (p := 3) (pcfgs (F := F)) adm (Ix := Unit) (Name := ℕ) (U := UR sig nD τ) (Lvl := ℕ)
      launch3.win launch3.arr_whole c (pdats m outs) ((pdats m outs 3 c).share_full fun _ => rfl)
      (Vr (V9 m outs) c) (Vr (V10 m outs) c) ((pdats m outs 3 c).arrAt · cfg3.N) (hF3 m outs hok c) (hrest3 m outs c)
    rw [Pipeline.unscopedBufs_held] at hjoin
    iintro ⟨Ha, HO, HY, Hrest⟩
    imodintro
    isplitl [Ha Hrest HY]
    · isplitl [Ha Hrest]
      · iapply hjoin; isplitl [Ha] <;> iassumption
      iexact HY
    unfold Pipeline.Dat.owesAt Pipeline.owesWithin
    icases HO with ⟨%W, -, HO⟩; iexists W; iexact HO

end Records

/-! ## The run -/

-- the launch theorem's implicit arguments are found by unifying its conclusion with this one, which takes unfolding
-- plain definitions in a metavariable's type
set_option backward.isDefEq.respectTransparency.types false in
/-- From any memory with zero counters every weakly fair execution of the program terminates; the result buffer
    then holds what the last region's write-backs leave, and every argument is as launched. -/
theorem run_of (m : (ℓ : Loc nD τ sig) → Buf (Elt F) ℓ) (ρ : Dev nD → PrngReg) (outs : Outs (F := F)) (hok : OutsOk m outs) :
    θ_run defs (onTc (τ := τ) (main (F := F))) ⟨m, fun _ => 0, ρ⟩ (fun r => ∀ c : Dev nD,
      r.2.mem ((c.tc : Thread nD τ).loc main_v62) = outs 10 main_v62 c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)) := by
  refine Pipeline.θ_run_regions_kit_dev (pcfgs (F := F)) adm (pdats m outs) () cellOf_inj emb₁ defs₀ Variants.none runL runLv m ρ main
    (segs m outs Variants.none runL runLv restE () (pdats m outs) (reg0 m outs hok) (reg1 m outs hok) (reg2 m outs hok) (reg3 m outs hok))
    (fun c Q => by
      rewrite [main_chain c, Pipeline.Seg.run_eq_chain,
        show (segs m outs Variants.none runL runLv restE () (pdats m outs) (reg0 m outs hok) (reg1 m outs hok) (reg2 m outs hok) (reg3 m outs hok) c).map Pipeline.Seg.prog = [
          StableHlo.seq hostOps0,
          StableHlo.seq hostOps0_1,
          StableHlo.seq hostOps0_2,
          Prog.lift (.customCall (Pipeline.entry 0) ()),
          StableHlo.seq hostOps1,
          Prog.lift (.customCall (Pipeline.entry 1) ()),
          StableHlo.seq hostOps2,
          Prog.lift (.customCall (Pipeline.entry 2) ()),
          StableHlo.seq hostOps3,
          Prog.lift (.customCall (Pipeline.entry 3) ()) ] from rfl]
      exact .rfl)
    (fun c => by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (V0 m c) ∗ restR c))
    (Tₙ := fun c => iprop(StableHlo.held (c : Thread nD τ) (Pipeline.ucRefs τ sig) (V10 m outs c) ∗ ∃ r, prngReg c r))
    (hch := fun c => ⟨.rfl, .rfl, .rfl, .rfl, .rfl, .rfl, .rfl, .rfl, .rfl, .rfl, .rfl⟩)
    (hinit := ?_)
    (QY := fun c s => s.mem ((c.tc : Thread nD τ).loc main_v62) = outs 10 main_v62 c
      ∧ s.mem ((c.tc : Thread nD τ).loc main_arg0) = m ((c.tc : Thread nD τ).loc main_arg0)
      ∧ s.mem ((c.tc : Thread nD τ).loc main_arg1) = m ((c.tc : Thread nD τ).loc main_arg1)
      ∧ s.mem ((c.tc : Thread nD τ).loc main_arg2) = m ((c.tc : Thread nD τ).loc main_arg2)
      ∧ s.mem ((c.tc : Thread nD τ).loc main_arg3) = m ((c.tc : Thread nD τ).loc main_arg3)
      ∧ s.mem ((c.tc : Thread nD τ).loc main_arg4) = m ((c.tc : Thread nD τ).loc main_arg4)
      ∧ s.mem ((c.tc : Thread nD τ).loc main_arg5) = m ((c.tc : Thread nD τ).loc main_arg5)
      ∧ s.mem ((c.tc : Thread nD τ).loc main_arg6) = m ((c.tc : Thread nD τ).loc main_arg6)
      ∧ s.mem ((c.tc : Thread nD τ).loc main_arg7) = m ((c.tc : Thread nD τ).loc main_arg7)
      ∧ s.mem ((c.tc : Thread nD τ).loc main_arg8) = m ((c.tc : Thread nD τ).loc main_arg8)
      ∧ s.mem ((c.tc : Thread nD τ).loc main_arg9) = m ((c.tc : Thread nD τ).loc main_arg9)
      ∧ s.mem ((c.tc : Thread nD τ).loc main_arg10) = m ((c.tc : Thread nD τ).loc main_arg10))
    (hfin := fun c s' => ?_) (hQ := fun _ hq => hq)
  · -- the launch: on each core the unscoped buffers are held at the launch contents, the register and the empty debt beside them
    refine Pipeline.initEach runL runLv fun c => ?_
    rw [show unscopedBufs c (fun b => m ((c : Thread nD τ).loc b)) = StableHlo.held (c : Thread nD τ) (Pipeline.ucRefs τ sig) (V0 m c)
      from Pipeline.unscopedBufs_held c (V0 m c)]
    iintro ⟨⟨Hh, -, HO, -, Hp, -⟩, -⟩
    imodintro
    isplitl [Hh]; · iexact Hh
    isplitl [Hp]; · iexists _; iexact Hp
    iexists ∅; iexact HO
  · -- the end: the result buffer and each argument's buffer read off the last valuation
    unfold StableHlo.held
    iintro ⟨⟨Hh, -⟩, HSI⟩
    ihave Hr := (pointsTo_read_all (Pipeline.ucRefs τ sig) (fun b => ((c : Thread nD τ).1, b)) (V10 m outs c) s') $$ [Hh HSI]
    · isplitl [Hh] <;> iassumption
    icases Hr with ⟨%hr, HSI⟩
    imodintro
    isplitr
    · ipureintro
      exact ⟨(hr (Proc.devRef .tc main_v62) (Finset.mem_filter.mpr ⟨StableHlo.devRef_mem_tcRefs main_v62, by decide⟩)).trans
          (Function.update_self (Proc.devRef .tc main_v62 : DevRef τ sig) (outs 10 main_v62 c) (V9 m outs c)),
        (hr (Proc.devRef .tc main_arg0) (Finset.mem_filter.mpr ⟨StableHlo.devRef_mem_tcRefs main_arg0, by decide⟩)).trans (V10_main_arg0 m outs c),
        (hr (Proc.devRef .tc main_arg1) (Finset.mem_filter.mpr ⟨StableHlo.devRef_mem_tcRefs main_arg1, by decide⟩)).trans (V10_main_arg1 m outs c),
        (hr (Proc.devRef .tc main_arg2) (Finset.mem_filter.mpr ⟨StableHlo.devRef_mem_tcRefs main_arg2, by decide⟩)).trans (V10_main_arg2 m outs c),
        (hr (Proc.devRef .tc main_arg3) (Finset.mem_filter.mpr ⟨StableHlo.devRef_mem_tcRefs main_arg3, by decide⟩)).trans (V10_main_arg3 m outs c),
        (hr (Proc.devRef .tc main_arg4) (Finset.mem_filter.mpr ⟨StableHlo.devRef_mem_tcRefs main_arg4, by decide⟩)).trans (V10_main_arg4 m outs c),
        (hr (Proc.devRef .tc main_arg5) (Finset.mem_filter.mpr ⟨StableHlo.devRef_mem_tcRefs main_arg5, by decide⟩)).trans (V10_main_arg5 m outs c),
        (hr (Proc.devRef .tc main_arg6) (Finset.mem_filter.mpr ⟨StableHlo.devRef_mem_tcRefs main_arg6, by decide⟩)).trans (V10_main_arg6 m outs c),
        (hr (Proc.devRef .tc main_arg7) (Finset.mem_filter.mpr ⟨StableHlo.devRef_mem_tcRefs main_arg7, by decide⟩)).trans (V10_main_arg7 m outs c),
        (hr (Proc.devRef .tc main_arg8) (Finset.mem_filter.mpr ⟨StableHlo.devRef_mem_tcRefs main_arg8, by decide⟩)).trans (V10_main_arg8 m outs c),
        (hr (Proc.devRef .tc main_arg9) (Finset.mem_filter.mpr ⟨StableHlo.devRef_mem_tcRefs main_arg9, by decide⟩)).trans (V10_main_arg9 m outs c),
        (hr (Proc.devRef .tc main_arg10) (Finset.mem_filter.mpr ⟨StableHlo.devRef_mem_tcRefs main_arg10, by decide⟩)).trans (V10_main_arg10 m outs c)⟩
    · iexact HSI

end Cert.Kernel.Hand

end
-- ==== Proof.K.Outs.lean ====
/-
  The contents the four regions leave in their output arrays exist as one family: each region's output is a
  function of the arrays the region finds, and those depend only on the outputs of the regions before it, so the
  four unknowns are solved in order, each from the ones already fixed.
-/
import proofs.«401627_j1056561955307_2_alg».proof.Proof.K.RunDefs

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

variable (m : (ℓ : Loc nD τ sig) → Buf (Elt F) ℓ)

/-! ## A family from four chosen output contents -/

/-- The family that holds `o4`, `o6`, `o8`, `o10` at the four entries the valuations read, and the arrays'
    contents before the first region at every other reference. -/
def famOuts (o4 : (c : Dev nD) → Buf (Elt F) ((c : Thread nD τ).loc main_v16))
    (o6 : (c : Dev nD) → Buf (Elt F) ((c : Thread nD τ).loc main_v29))
    (o8 : (c : Dev nD) → Buf (Elt F) ((c : Thread nD τ).loc main_v42))
    (o10 : (c : Dev nD) → Buf (Elt F) ((c : Thread nD τ).loc main_v62)) : Outs (F := F) :=
  fun j r c =>
    if j = 4 then Function.update (V3 m c) main_v16 (o4 c) r
    else if j = 6 then Function.update (V3 m c) main_v29 (o6 c) r
    else if j = 8 then Function.update (V3 m c) main_v42 (o8 c) r
    else Function.update (V3 m c) main_v62 (o10 c) r

theorem famOuts_4 (o4 o6 o8 o10) (c : Dev nD) : famOuts m o4 o6 o8 o10 4 main_v16 c = o4 c := by
  unfold famOuts; rw [if_pos rfl]; exact Function.update_self _ _ _
theorem famOuts_6 (o4 o6 o8 o10) (c : Dev nD) : famOuts m o4 o6 o8 o10 6 main_v29 c = o6 c := by
  unfold famOuts; rw [if_neg (by decide), if_pos rfl]; exact Function.update_self _ _ _
theorem famOuts_8 (o4 o6 o8 o10) (c : Dev nD) : famOuts m o4 o6 o8 o10 8 main_v42 c = o8 c := by
  unfold famOuts; rw [if_neg (by decide), if_neg (by decide), if_pos rfl]; exact Function.update_self _ _ _
theorem famOuts_10 (o4 o6 o8 o10) (c : Dev nD) : famOuts m o4 o6 o8 o10 10 main_v62 c = o10 c := by
  unfold famOuts; rw [if_neg (by decide), if_neg (by decide), if_neg (by decide)]; exact Function.update_self _ _ _

/-! ## The valuations read the family only at those entries -/

theorem V5_congr {outs outs' : Outs (F := F)} (h4 : ∀ c, outs 4 main_v16 c = outs' 4 main_v16 c) :
    V5 m outs = V5 m outs' := by
  funext c; show StableHlo.after hostOps1 (Function.update (V3 m c) main_v16 (outs 4 main_v16 c)) = _
  rw [h4 c]

theorem V7_congr {outs outs' : Outs (F := F)} (h4 : ∀ c, outs 4 main_v16 c = outs' 4 main_v16 c)
    (h6 : ∀ c, outs 6 main_v29 c = outs' 6 main_v29 c) : V7 m outs = V7 m outs' := by
  funext c; show StableHlo.after hostOps2 (Function.update (V5 m outs c) main_v29 (outs 6 main_v29 c)) = _
  rw [h6 c, V5_congr m h4]

theorem V9_congr {outs outs' : Outs (F := F)} (h4 : ∀ c, outs 4 main_v16 c = outs' 4 main_v16 c)
    (h6 : ∀ c, outs 6 main_v29 c = outs' 6 main_v29 c) (h8 : ∀ c, outs 8 main_v42 c = outs' 8 main_v42 c) :
    V9 m outs = V9 m outs' := by
  funext c; show StableHlo.after hostOps3 (Function.update (V7 m outs c) main_v42 (outs 8 main_v42 c)) = _
  rw [h8 c, V7_congr m h4 h6]

/-! ## The four contents, in order -/

/-- What region 0 leaves in its output array: it finds the arrays as the first host stretches leave them. -/
def out4 (c : Dev nD) : Buf (Elt F) ((c : Thread nD τ).loc main_v16) := (dat0 (Vr (V3 m)) c).arrAt 3 cfg0.N

/-- The family once region 0's output is fixed. -/
def outsA : Outs (F := F) :=
  famOuts m (out4 m) (fun c => Vr (V3 m) c main_v29) (fun c => Vr (V3 m) c main_v42) (fun c => Vr (V3 m) c main_v62)

/-- What region 1 leaves, its arrays found after region 0's output is in place. -/
def out6 (c : Dev nD) : Buf (Elt F) ((c : Thread nD τ).loc main_v29) := (dat1 (Vr (V5 m (outsA m))) c).arrAt 4 cfg1.N

/-- The family once the outputs of regions 0 and 1 are fixed. -/
def outsB : Outs (F := F) :=
  famOuts m (out4 m) (out6 m) (fun c => Vr (V3 m) c main_v42) (fun c => Vr (V3 m) c main_v62)

/-- What region 2 leaves, its arrays found after the outputs of regions 0 and 1 are in place. -/
def out8 (c : Dev nD) : Buf (Elt F) ((c : Thread nD τ).loc main_v42) := (dat2 (Vr (V7 m (outsB m))) c).arrAt 4 cfg2.N

/-- The family once the outputs of regions 0, 1 and 2 are fixed. -/
def outsC : Outs (F := F) :=
  famOuts m (out4 m) (out6 m) (out8 m) (fun c => Vr (V3 m) c main_v62)

/-- What region 3 leaves, its arrays found after the outputs of regions 0, 1 and 2 are in place. -/
def out10 (c : Dev nD) : Buf (Elt F) ((c : Thread nD τ).loc main_v62) := (dat3 (Vr (V9 m (outsC m))) c).arrAt 7 cfg3.N

/-- The family of the four. -/
def theOuts : Outs (F := F) := famOuts m (out4 m) (out6 m) (out8 m) (out10 m)

theorem theOuts_4 (c : Dev nD) : theOuts m 4 main_v16 c = out4 m c := famOuts_4 m _ _ _ _ c
theorem theOuts_6 (c : Dev nD) : theOuts m 6 main_v29 c = out6 m c := famOuts_6 m _ _ _ _ c
theorem theOuts_8 (c : Dev nD) : theOuts m 8 main_v42 c = out8 m c := famOuts_8 m _ _ _ _ c
theorem theOuts_10 (c : Dev nD) : theOuts m 10 main_v62 c = out10 m c := famOuts_10 m _ _ _ _ c
theorem outsA_4 (c : Dev nD) : outsA m 4 main_v16 c = out4 m c := famOuts_4 m _ _ _ _ c
theorem outsB_4 (c : Dev nD) : outsB m 4 main_v16 c = out4 m c := famOuts_4 m _ _ _ _ c
theorem outsB_6 (c : Dev nD) : outsB m 6 main_v29 c = out6 m c := famOuts_6 m _ _ _ _ c
theorem outsC_4 (c : Dev nD) : outsC m 4 main_v16 c = out4 m c := famOuts_4 m _ _ _ _ c
theorem outsC_6 (c : Dev nD) : outsC m 6 main_v29 c = out6 m c := famOuts_6 m _ _ _ _ c
theorem outsC_8 (c : Dev nD) : outsC m 8 main_v42 c = out8 m c := famOuts_8 m _ _ _ _ c

/-- Each region finds, under the final family, the arrays it found when its output was fixed. -/
theorem V5_theOuts : V5 m (theOuts m) = V5 m (outsA m) :=
  V5_congr m (fun c => (theOuts_4 m c).trans (outsA_4 m c).symm)
theorem V7_theOuts : V7 m (theOuts m) = V7 m (outsB m) :=
  V7_congr m (fun c => (theOuts_4 m c).trans (outsB_4 m c).symm) (fun c => (theOuts_6 m c).trans (outsB_6 m c).symm)
theorem V9_theOuts : V9 m (theOuts m) = V9 m (outsC m) :=
  V9_congr m (fun c => (theOuts_4 m c).trans (outsC_4 m c).symm) (fun c => (theOuts_6 m c).trans (outsC_6 m c).symm)
    (fun c => (theOuts_8 m c).trans (outsC_8 m c).symm)

/-! ## Existence -/

theorem theOuts_ok : OutsOk m (theOuts m) where
  H4 c := theOuts_4 m c
  H6 c := by rw [V5_theOuts]; exact theOuts_6 m c
  H8 c := by rw [V7_theOuts]; exact theOuts_8 m c
  H10 c := by rw [V9_theOuts]; exact theOuts_10 m c

/-- Contents for the four regions' output arrays exist, each the fold of its region's write-backs over the array as
    that region finds it. -/
theorem exists_outs (m : (ℓ : Loc nD τ sig) → Buf (Elt F) ℓ) : ∃ outs : Outs (F := F), OutsOk m outs :=
  ⟨theOuts m, theOuts_ok m⟩

end Cert.Kernel.Hand

end
-- ==== Proof.KI.Reg0.lean ====
/-
  The first kernel region (the linear map of the first layer with the degree scaling folded in), at any float
  instance: what its body leaves in the output block at a grid point, as one function of the three input blocks,
  and the region's proof data over arrays found at contents `V`.

  At a point the body reads a block of 5000 rows of `x`, the whole weight matrix and the matching 5000 entries of
  the degree column, and stores `(x_blk · W) ⊙ dinv_blk` over the whole output block. Nothing is carried from
  point to point, so the region's invariant is the scoped buffers it never touches and the generator register.
-/
import proofs.«401627_j1056561955307_2_alg».proof.Proof.Gen.KernelIdeal.Launch
import proofs.«401627_j1056561955307_2_alg».proof.Proof.Gen.KernelIdeal.Skeleton
import proofs.«401627_j1056561955307_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the arrays' contents when the region is entered
variable (V : (c : Dev nD) → (b : Ref sig .tc) → Buf (Elt F) ((c : Thread nD τ).loc b))

/-! ## Blocks -/

/-- The block of window `w` at point `t`, read off the window's array at `V`. -/
def blk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- The whole-buffer rectangle of the output block. -/
abbrev whole0 : Rect S5000x128 := Rect.unit (s := S5000x128) ![0, 0] S5000x128.size inb_S5000x128_S5000x128_0_0

/-- The whole-buffer rectangles the weight matrix and the degree column are loaded through. -/
abbrev wholeW0 : Rect S128x128 := Rect.unit (s := S128x128) ![0, 0] S128x128.size inb_S128x128_S128x128_0_0
abbrev wholeD0 : Rect S5000x1 := Rect.unit (s := S5000x1) ![0, 0] S5000x1.size inb_S5000x1_S5000x1_0_0

/-- What the body leaves in the output block: its one store, of the product read off the three input blocks
    (each loaded whole). -/
def res0 (x : Vec F S5000x128 .f32) (w : Vec F S128x128 .f32) (d : Vec F S5000x1 .f32) : Vec F S5000x128 .bf16 :=
  View.canon [⟨whole0, k0_pay1 (View.ld x whole0) (View.ld w wholeW0) (View.ld d wholeD0)⟩]

theorem res0_cover (p : Vec F S5000x128 .bf16) (y : S5000x128.Idx) :
    ∃ pc ∈ ([⟨whole0, p⟩] : List (View.Piece (Elt F) S5000x128 .bf16)), y ∈ pc.1.set :=
  View.cover_of_tiled [⟨whole0, p⟩] S5000x128.size (by rfl) y

/-! ## The body on whole staging buffers -/

set_option maxHeartbeats 1000000 in
/-- The body, run on whole staging buffers holding `x`, `w`, `d` and an output buffer at anything, returns the
    inputs as they were and the output at `res0 x w d`. -/
theorem body0_run (c : Dev nD) (E : Set ℕ) (i : grid0.Coords)
    (a1 : Memref sig .tc .vmem S5000x128 .f32) (h1 : a1.IsWhole) (a2 : Memref sig .tc .vmem S128x128 .f32) (h2 : a2.IsWhole)
    (a3 : Memref sig .tc .vmem S5000x1 .f32) (h3 : a3.IsWhole) (a4 : Memref sig .tc .vmem S5000x128 .bf16) (h4 : a4.IsWhole)
    (x : Vec F S5000x128 .f32) (w : Vec F S128x128 .f32) (d : Vec F S5000x1 .f32) (K : PUnit → sProp 𝕄) :
    iprop(owns (c : Thread nD τ) a1 fullShare x ∗ owns (c : Thread nD τ) a2 fullShare w ∗ owns (c : Thread nD τ) a3 fullShare d
        ∗ (∃ o, owns (c : Thread nD τ) a4 fullShare o)
        ∗ (iprop(owns (c : Thread nD τ) a1 fullShare x ∗ owns (c : Thread nD τ) a2 fullShare w ∗ owns (c : Thread nD τ) a3 fullShare d
            ∗ owns (c : Thread nD τ) a4 fullShare (res0 x w d)) -∗ K ⟨⟩))
      ⊢ wp frame (wpE (defs₀ (F := F)) Variants.none c none) E (cc0__linear_scale_kernel i a1 h1 a2 h2 a3 h3 a4 h4) K := by
  simp only [cc0__linear_scale_kernel_eq_skeleton]; unfold cc0__linear_scale_kernel_skel
  unfold owns
  iintro ⟨⟨%f1, %hf1, H1⟩, ⟨%f2, %hf2, H2⟩, ⟨%f3, %hf3, H3⟩, ⟨%o, %f4, -, H4⟩, Hk⟩
  subst hf1; subst hf2; subst hf3
  sl_exec
  sl_step
  iapply Hk
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  iexists _; isplitr
  swap; · iexact H4
  ipureintro
  exact View.read_writes_eq_canon _ _ _ (res0_cover _)

/-! ## The proof data -/

/-- The region's proof data on core `c`: arrays as found; after the body each input buffer still at its block, the
    output buffer at `res0` of the three blocks; the untouched scoped buffers and the generator register as the
    invariant; nothing owed. -/
def dat0 (c : Dev nD) : Dat τ (Elt F) Unit ℕ (UR sig nD τ) ℕ cfg0 c where
  A w := V c (Pipeline.arrRef spec0 w)
  after w t := match w with
    | ⟨0, _⟩ => blk0 V c 0 t
    | ⟨1, _⟩ => blk0 V c 1 t
    | ⟨2, _⟩ => blk0 V c 2 t
    | ⟨3, _⟩ => res0 (blk0 V c 0 t) (blk0 V c 1 t) (blk0 V c 2 t)
  Φ _ := Pipeline.ΦA spec0 c
  q _ := fullShare
  owed _ := 0

theorem dat0_A (c : Dev nD) (w : Fin cfg0.W) : (dat0 V c).A w = V c (Pipeline.arrRef spec0 w) := by
  dsimp only [dat0]

theorem dat0_after0 (c : Dev nD) (t : Fin cfg0.N) : (dat0 V c).after 0 t = blk0 V c 0 t := by dsimp only [dat0]
theorem dat0_after1 (c : Dev nD) (t : Fin cfg0.N) : (dat0 V c).after 1 t = blk0 V c 1 t := by dsimp only [dat0]
theorem dat0_after2 (c : Dev nD) (t : Fin cfg0.N) : (dat0 V c).after 2 t = blk0 V c 2 t := by dsimp only [dat0]
theorem dat0_after3 (c : Dev nD) (t : Fin cfg0.N) :
    (dat0 V c).after 3 t = res0 (blk0 V c 0 t) (blk0 V c 1 t) (blk0 V c 2 t) := by dsimp only [dat0]

/-- An input buffer holds its block whenever the body is called, fetched at that point or not. -/
theorem dat0_before0 (c : Dev nD) (t : Fin cfg0.N) (d) : (dat0 V c).before 0 t d = blk0 V c 0 t :=
  ((dat0 V c).before_in_eq_fetched 0 rfl (fun _ => rfl) (fun _ _ _ => rfl)
    (fun t => by rw [dat0_after0]; unfold Dat.blockOf blk0; rw [dat0_A]; try rfl) t d).trans
    (by unfold Dat.fetched Dat.blockOf blk0; rw [dat0_A]; try rfl)
theorem dat0_before1 (c : Dev nD) (t : Fin cfg0.N) (d) : (dat0 V c).before 1 t d = blk0 V c 1 t :=
  ((dat0 V c).before_in_eq_fetched 1 rfl (fun _ => rfl) (fun _ _ _ => rfl)
    (fun t => by rw [dat0_after1]; unfold Dat.blockOf blk0; rw [dat0_A]; try rfl) t d).trans
    (by unfold Dat.fetched Dat.blockOf blk0; rw [dat0_A]; try rfl)
theorem dat0_before2 (c : Dev nD) (t : Fin cfg0.N) (d) : (dat0 V c).before 2 t d = blk0 V c 2 t :=
  ((dat0 V c).before_in_eq_fetched 2 rfl (fun _ => rfl) (fun _ _ _ => rfl)
    (fun t => by rw [dat0_after2]; unfold Dat.blockOf blk0; rw [dat0_A]; try rfl) t d).trans
    (by unfold Dat.fetched Dat.blockOf blk0; rw [dat0_A]; try rfl)

/-! ## The body obligation -/

def pre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d)))

def post0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t)
    ∗ owns (c : Thread nD τ) (st0_3 t) fullShare ((dat0 V c).after 3 t))

theorem body0_at (c : Dev nD) (t : Fin cfg0.N) :
    pre0 V c t ⊢ wp frame (wpE (defs₀ (F := F)) Variants.none c none) Set.univ (bodyAt0 t) (fun _ => post0 V c t) := by
  unfold pre0 post0 bodyAt0
  simp only [dat0_before0, dat0_before1, dat0_before2]
  rw [show (dat0 V c).Φ t.succ = (dat0 V c).Φ t.castSucc from rfl,
    show (dat0 V c).owesAt () t.succ = (dat0 V c).owesAt () t.castSucc from rfl,
    dat0_after0, dat0_after1, dat0_after2, dat0_after3]
  iintro ⟨HΦ, Ho, ⟨%d0, H0⟩, ⟨%d1, H1⟩, ⟨%d2, H2⟩, ⟨%d3, H3⟩⟩
  iapply (body0_run c Set.univ _ _ _ _ _ _ _ _ _ (blk0 V c 0 t) (blk0 V c 1 t) (blk0 V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

/-- The library's body obligation for the region, at every point. -/
theorem body0 (c : Dev nD) : BodyObligation (dat0 (F := F) V c) (defs₀ (F := F)) Variants.none () Set.univ := fun t => by
  rw [bigSep_W0, bigSep_W0]
  exact body0_at V c t

end Cert.KernelIdeal.Hand

end
-- ==== Proof.KI.Reg1.lean ====
/-
  Kernel region 1 (finish the previous layer, then the next layer's linear map with the degree scaling folded
  in), at any float instance: what its body leaves in the output block at a grid point, as one function of the four
  input blocks, and the region's proof data over arrays found at contents `V`.

  At a point the body reads a block of 5000 aggregated rows, the matching 5000 entries of the degree column, the
  bias row and the whole weight matrix, and stores `(relu (agg_blk ⊙ dinv_blk + bias) · W) ⊙ dinv_blk` over the
  whole output block. The degree column is loaded twice, both times whole and from the same buffer. Nothing is
  carried from point to point, so the region's invariant is the scoped buffers it never touches and the generator
  register.
-/
import proofs.«401627_j1056561955307_2_alg».proof.Proof.Gen.KernelIdeal.Launch
import proofs.«401627_j1056561955307_2_alg».proof.Proof.Gen.KernelIdeal.Skeleton
import proofs.«401627_j1056561955307_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the arrays' contents when the region is entered
variable (V : (c : Dev nD) → (b : Ref sig .tc) → Buf (Elt F) ((c : Thread nD τ).loc b))

/-! ## Blocks -/

/-- The block of window `w` at point `t`, read off the window's array at `V`. -/
def blk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- The whole-buffer rectangle of the aggregated block and of the output block. -/
abbrev whole1 : Rect S5000x128 := Rect.unit (s := S5000x128) ![0, 0] S5000x128.size inb_S5000x128_S5000x128_0_0

/-- The whole-buffer rectangles the degree column, the bias row and the weight matrix are loaded through. -/
abbrev wholeD1 : Rect S5000x1 := Rect.unit (s := S5000x1) ![0, 0] S5000x1.size inb_S5000x1_S5000x1_0_0
abbrev wholeB1 : Rect S1x128 := Rect.unit (s := S1x128) ![0, 0] S1x128.size inb_S1x128_S1x128_0_0
abbrev wholeW1 : Rect S128x128 := Rect.unit (s := S128x128) ![0, 0] S128x128.size inb_S128x128_S128x128_0_0

/-- What the body leaves in the output block: its one store, of the value computed from the four input blocks
    (each loaded whole; the degree column stands for both of its loads). -/
def res1 (a : Vec F S5000x128 .f32) (d : Vec F S5000x1 .f32) (b : Vec F S1x128 .f32) (w : Vec F S128x128 .f32) : Vec F S5000x128 .bf16 :=
  View.canon [⟨whole1, k1_pay1 (View.ld a whole1) (View.ld d wholeD1) (View.ld b wholeB1) (View.ld w wholeW1) (View.ld d wholeD1)⟩]

theorem res1_cover (p : Vec F S5000x128 .bf16) (y : S5000x128.Idx) :
    ∃ pc ∈ ([⟨whole1, p⟩] : List (View.Piece (Elt F) S5000x128 .bf16)), y ∈ pc.1.set :=
  View.cover_of_tiled [⟨whole1, p⟩] S5000x128.size (by rfl) y

/-! ## The body on whole staging buffers -/

set_option maxHeartbeats 1000000 in
/-- The body, run on whole staging buffers holding `a`, `d`, `b`, `w` and an output buffer at anything, returns
    the inputs as they were and the output at `res1 a d b w`. -/
theorem body1_run (c : Dev nD) (E : Set ℕ) (i : grid1.Coords)
    (a1 : Memref sig .tc .vmem S5000x128 .f32) (h1 : a1.IsWhole) (a2 : Memref sig .tc .vmem S5000x1 .f32) (h2 : a2.IsWhole)
    (a3 : Memref sig .tc .vmem S1x128 .f32) (h3 : a3.IsWhole) (a4 : Memref sig .tc .vmem S128x128 .f32) (h4 : a4.IsWhole)
    (a5 : Memref sig .tc .vmem S5000x128 .bf16) (h5 : a5.IsWhole)
    (a : Vec F S5000x128 .f32) (d : Vec F S5000x1 .f32) (b : Vec F S1x128 .f32) (w : Vec F S128x128 .f32) (K : PUnit → sProp 𝕄) :
    iprop(owns (c : Thread nD τ) a1 fullShare a ∗ owns (c : Thread nD τ) a2 fullShare d ∗ owns (c : Thread nD τ) a3 fullShare b
        ∗ owns (c : Thread nD τ) a4 fullShare w
        ∗ (∃ o, owns (c : Thread nD τ) a5 fullShare o)
        ∗ (iprop(owns (c : Thread nD τ) a1 fullShare a ∗ owns (c : Thread nD τ) a2 fullShare d ∗ owns (c : Thread nD τ) a3 fullShare b
            ∗ owns (c : Thread nD τ) a4 fullShare w
            ∗ owns (c : Thread nD τ) a5 fullShare (res1 a d b w)) -∗ K ⟨⟩))
      ⊢ wp frame (wpE (defs₀ (F := F)) Variants.none c none) E (cc1__kernel i a1 h1 a2 h2 a3 h3 a4 h4 a5 h5) K := by
  simp only [cc1__kernel_eq_skeleton]; unfold cc1__kernel_skel
  unfold owns
  iintro ⟨⟨%f1, %hf1, H1⟩, ⟨%f2, %hf2, H2⟩, ⟨%f3, %hf3, H3⟩, ⟨%f4, %hf4, H4⟩, ⟨%o, %f5, -, H5⟩, Hk⟩
  subst hf1; subst hf2; subst hf3; subst hf4
  sl_exec
  sl_step
  iapply Hk
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  iexists _; isplitr
  swap; · iexact H5
  ipureintro
  exact View.read_writes_eq_canon _ _ _ (res1_cover _)

/-! ## The proof data -/

/-- The region's proof data on core `c`: arrays as found; after the body each input buffer still at its block, the
    output buffer at `res1` of the four blocks; the untouched scoped buffers and the generator register as the
    invariant; nothing owed. -/
def dat1 (c : Dev nD) : Dat τ (Elt F) Unit ℕ (UR sig nD τ) ℕ cfg1 c where
  A w := V c (Pipeline.arrRef spec1 w)
  after w t := match w with
    | ⟨0, _⟩ => blk1 V c 0 t
    | ⟨1, _⟩ => blk1 V c 1 t
    | ⟨2, _⟩ => blk1 V c 2 t
    | ⟨3, _⟩ => blk1 V c 3 t
    | ⟨4, _⟩ => res1 (blk1 V c 0 t) (blk1 V c 1 t) (blk1 V c 2 t) (blk1 V c 3 t)
  Φ _ := Pipeline.ΦA spec1 c
  q _ := fullShare
  owed _ := 0

theorem dat1_A (c : Dev nD) (w : Fin cfg1.W) : (dat1 V c).A w = V c (Pipeline.arrRef spec1 w) := by
  dsimp only [dat1]

theorem dat1_after0 (c : Dev nD) (t : Fin cfg1.N) : (dat1 V c).after 0 t = blk1 V c 0 t := by dsimp only [dat1]
theorem dat1_after1 (c : Dev nD) (t : Fin cfg1.N) : (dat1 V c).after 1 t = blk1 V c 1 t := by dsimp only [dat1]
theorem dat1_after2 (c : Dev nD) (t : Fin cfg1.N) : (dat1 V c).after 2 t = blk1 V c 2 t := by dsimp only [dat1]
theorem dat1_after3 (c : Dev nD) (t : Fin cfg1.N) : (dat1 V c).after 3 t = blk1 V c 3 t := by dsimp only [dat1]
theorem dat1_after4 (c : Dev nD) (t : Fin cfg1.N) :
    (dat1 V c).after 4 t = res1 (blk1 V c 0 t) (blk1 V c 1 t) (blk1 V c 2 t) (blk1 V c 3 t) := by dsimp only [dat1]

/-- An input buffer holds its block whenever the body is called, fetched at that point or not. -/
theorem dat1_before0 (c : Dev nD) (t : Fin cfg1.N) (d) : (dat1 V c).before 0 t d = blk1 V c 0 t :=
  ((dat1 V c).before_in_eq_fetched 0 rfl (fun _ => rfl) (fun _ _ _ => rfl)
    (fun t => by rw [dat1_after0]; unfold Dat.blockOf blk1; rw [dat1_A]; try rfl) t d).trans
    (by unfold Dat.fetched Dat.blockOf blk1; rw [dat1_A]; try rfl)
theorem dat1_before1 (c : Dev nD) (t : Fin cfg1.N) (d) : (dat1 V c).before 1 t d = blk1 V c 1 t :=
  ((dat1 V c).before_in_eq_fetched 1 rfl (fun _ => rfl) (fun _ _ _ => rfl)
    (fun t => by rw [dat1_after1]; unfold Dat.blockOf blk1; rw [dat1_A]; try rfl) t d).trans
    (by unfold Dat.fetched Dat.blockOf blk1; rw [dat1_A]; try rfl)
theorem dat1_before2 (c : Dev nD) (t : Fin cfg1.N) (d) : (dat1 V c).before 2 t d = blk1 V c 2 t :=
  ((dat1 V c).before_in_eq_fetched 2 rfl (fun _ => rfl) (fun _ _ _ => rfl)
    (fun t => by rw [dat1_after2]; unfold Dat.blockOf blk1; rw [dat1_A]; try rfl) t d).trans
    (by unfold Dat.fetched Dat.blockOf blk1; rw [dat1_A]; try rfl)
theorem dat1_before3 (c : Dev nD) (t : Fin cfg1.N) (d) : (dat1 V c).before 3 t d = blk1 V c 3 t :=
  ((dat1 V c).before_in_eq_fetched 3 rfl (fun _ => rfl) (fun _ _ _ => rfl)
    (fun t => by rw [dat1_after3]; unfold Dat.blockOf blk1; rw [dat1_A]; try rfl) t d).trans
    (by unfold Dat.fetched Dat.blockOf blk1; rw [dat1_A]; try rfl)

/-! ## The body obligation -/

def pre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d))
    ∗ (∃ d, owns (c : Thread nD τ) (st1_4 t) fullShare ((dat1 V c).before 4 t d)))

def post1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t)
    ∗ owns (c : Thread nD τ) (st1_3 t) fullShare ((dat1 V c).after 3 t)
    ∗ owns (c : Thread nD τ) (st1_4 t) fullShare ((dat1 V c).after 4 t))

theorem body1_at (c : Dev nD) (t : Fin cfg1.N) :
    pre1 V c t ⊢ wp frame (wpE (defs₀ (F := F)) Variants.none c none) Set.univ (bodyAt1 t) (fun _ => post1 V c t) := by
  unfold pre1 post1 bodyAt1
  simp only [dat1_before0, dat1_before1, dat1_before2, dat1_before3]
  rw [show (dat1 V c).Φ t.succ = (dat1 V c).Φ t.castSucc from rfl,
    show (dat1 V c).owesAt () t.succ = (dat1 V c).owesAt () t.castSucc from rfl,
    dat1_after0, dat1_after1, dat1_after2, dat1_after3, dat1_after4]
  iintro ⟨HΦ, Ho, ⟨%d0, H0⟩, ⟨%d1, H1⟩, ⟨%d2, H2⟩, ⟨%d3, H3⟩, ⟨%d4, H4⟩⟩
  iapply (body1_run c Set.univ _ _ _ _ _ _ _ _ _ _ _ (blk1 V c 0 t) (blk1 V c 1 t) (blk1 V c 2 t) (blk1 V c 3 t) _)
  isplitl [H0]; · iexact H0
  isplitl [H1]; · iexact H1
  isplitl [H2]; · iexact H2
  isplitl [H3]; · iexact H3
  isplitl [H4]; · iexists _; iexact H4
  iintro ⟨H0, H1, H2, H3, H4⟩
  isplitl [HΦ]; · iexact HΦ
  isplitl [Ho]; · iexact Ho
  isplitl [H0]; · iexact H0
  isplitl [H1]; · iexact H1
  isplitl [H2]; · iexact H2
  isplitl [H3]; · iexact H3
  iexact H4

/-- The library's body obligation for the region, at every point. -/
theorem body1 (c : Dev nD) : BodyObligation (dat1 (F := F) V c) (defs₀ (F := F)) Variants.none () Set.univ := fun t => by
  rw [bigSep_W1, bigSep_W1]
  exact body1_at V c t

end Cert.KernelIdeal.Hand

end
-- ==== Proof.KI.Reg2.lean ====
/-
  Kernel region 2 (finish the previous layer, then the next layer's linear map with the degree scaling folded
  in), at any float instance: what its body leaves in the output block at a grid point, as one function of the four
  input blocks, and the region's proof data over arrays found at contents `V`.

  At a point the body reads a block of 5000 aggregated rows, the matching 5000 entries of the degree column, the
  bias row and the whole weight matrix, and stores `(relu (agg_blk ⊙ dinv_blk + bias) · W) ⊙ dinv_blk` over the
  whole output block. The degree column is loaded twice, both times whole and from the same buffer. Nothing is
  carried from point to point, so the region's invariant is the scoped buffers it never touches and the generator
  register.
-/
import proofs.«401627_j1056561955307_2_alg».proof.Proof.Gen.KernelIdeal.Launch
import proofs.«401627_j1056561955307_2_alg».proof.Proof.Gen.KernelIdeal.Skeleton
import proofs.«401627_j1056561955307_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the arrays' contents when the region is entered
variable (V : (c : Dev nD) → (b : Ref sig .tc) → Buf (Elt F) ((c : Thread nD τ).loc b))

/-! ## Blocks -/

/-- The block of window `w` at point `t`, read off the window's array at `V`. -/
def blk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

/-- The whole-buffer rectangle of the aggregated block and of the output block. -/
abbrev whole2 : Rect S5000x128 := Rect.unit (s := S5000x128) ![0, 0] S5000x128.size inb_S5000x128_S5000x128_0_0

/-- The whole-buffer rectangles the degree column, the bias row and the weight matrix are loaded through. -/
abbrev wholeD2 : Rect S5000x1 := Rect.unit (s := S5000x1) ![0, 0] S5000x1.size inb_S5000x1_S5000x1_0_0
abbrev wholeB2 : Rect S1x128 := Rect.unit (s := S1x128) ![0, 0] S1x128.size inb_S1x128_S1x128_0_0
abbrev wholeW2 : Rect S128x128 := Rect.unit (s := S128x128) ![0, 0] S128x128.size inb_S128x128_S128x128_0_0

/-- What the body leaves in the output block: its one store, of the value computed from the four input blocks
    (each loaded whole; the degree column stands for both of its loads). -/
def res2 (a : Vec F S5000x128 .f32) (d : Vec F S5000x1 .f32) (b : Vec F S1x128 .f32) (w : Vec F S128x128 .f32) : Vec F S5000x128 .bf16 :=
  View.canon [⟨whole2, k2_pay1 (View.ld a whole2) (View.ld d wholeD2) (View.ld b wholeB2) (View.ld w wholeW2) (View.ld d wholeD2)⟩]

theorem res2_cover (p : Vec F S5000x128 .bf16) (y : S5000x128.Idx) :
    ∃ pc ∈ ([⟨whole2, p⟩] : List (View.Piece (Elt F) S5000x128 .bf16)), y ∈ pc.1.set :=
  View.cover_of_tiled [⟨whole2, p⟩] S5000x128.size (by rfl) y

/-! ## The body on whole staging buffers -/

set_option maxHeartbeats 1000000 in
/-- The body, run on whole staging buffers holding `a`, `d`, `b`, `w` and an output buffer at anything, returns
    the inputs as they were and the output at `res2 a d b w`. -/
theorem body2_run (c : Dev nD) (E : Set ℕ) (i : grid2.Coords)
    (a1 : Memref sig .tc .vmem S5000x128 .f32) (h1 : a1.IsWhole) (a2 : Memref sig .tc .vmem S5000x1 .f32) (h2 : a2.IsWhole)
    (a3 : Memref sig .tc .vmem S1x128 .f32) (h3 : a3.IsWhole) (a4 : Memref sig .tc .vmem S128x128 .f32) (h4 : a4.IsWhole)
    (a5 : Memref sig .tc .vmem S5000x128 .bf16) (h5 : a5.IsWhole)
    (a : Vec F S5000x128 .f32) (d : Vec F S5000x1 .f32) (b : Vec F S1x128 .f32) (w : Vec F S128x128 .f32) (K : PUnit → sProp 𝕄) :
    iprop(owns (c : Thread nD τ) a1 fullShare a ∗ owns (c : Thread nD τ) a2 fullShare d ∗ owns (c : Thread nD τ) a3 fullShare b
        ∗ owns (c : Thread nD τ) a4 fullShare w
        ∗ (∃ o, owns (c : Thread nD τ) a5 fullShare o)
        ∗ (iprop(owns (c : Thread nD τ) a1 fullShare a ∗ owns (c : Thread nD τ) a2 fullShare d ∗ owns (c : Thread nD τ) a3 fullShare b
            ∗ owns (c : Thread nD τ) a4 fullShare w
            ∗ owns (c : Thread nD τ) a5 fullShare (res2 a d b w)) -∗ K ⟨⟩))
      ⊢ wp frame (wpE (defs₀ (F := F)) Variants.none c none) E (cc2__kernel i a1 h1 a2 h2 a3 h3 a4 h4 a5 h5) K := by
  simp only [cc2__kernel_eq_skeleton]; unfold cc2__kernel_skel
  unfold owns
  iintro ⟨⟨%f1, %hf1, H1⟩, ⟨%f2, %hf2, H2⟩, ⟨%f3, %hf3, H3⟩, ⟨%f4, %hf4, H4⟩, ⟨%o, %f5, -, H5⟩, Hk⟩
  subst hf1; subst hf2; subst hf3; subst hf4
  sl_exec
  sl_step
  iapply Hk
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  iexists _; isplitr
  swap; · iexact H5
  ipureintro
  exact View.read_writes_eq_canon _ _ _ (res2_cover _)

/-! ## The proof data -/

/-- The region's proof data on core `c`: arrays as found; after the body each input buffer still at its block, the
    output buffer at `res2` of the four blocks; the untouched scoped buffers and the generator register as the
    invariant; nothing owed. -/
def dat2 (c : Dev nD) : Dat τ (Elt F) Unit ℕ (UR sig nD τ) ℕ cfg2 c where
  A w := V c (Pipeline.arrRef spec2 w)
  after w t := match w with
    | ⟨0, _⟩ => blk2 V c 0 t
    | ⟨1, _⟩ => blk2 V c 1 t
    | ⟨2, _⟩ => blk2 V c 2 t
    | ⟨3, _⟩ => blk2 V c 3 t
    | ⟨4, _⟩ => res2 (blk2 V c 0 t) (blk2 V c 1 t) (blk2 V c 2 t) (blk2 V c 3 t)
  Φ _ := Pipeline.ΦA spec2 c
  q _ := fullShare
  owed _ := 0

theorem dat2_A (c : Dev nD) (w : Fin cfg2.W) : (dat2 V c).A w = V c (Pipeline.arrRef spec2 w) := by
  dsimp only [dat2]

theorem dat2_after0 (c : Dev nD) (t : Fin cfg2.N) : (dat2 V c).after 0 t = blk2 V c 0 t := by dsimp only [dat2]
theorem dat2_after1 (c : Dev nD) (t : Fin cfg2.N) : (dat2 V c).after 1 t = blk2 V c 1 t := by dsimp only [dat2]
theorem dat2_after2 (c : Dev nD) (t : Fin cfg2.N) : (dat2 V c).after 2 t = blk2 V c 2 t := by dsimp only [dat2]
theorem dat2_after3 (c : Dev nD) (t : Fin cfg2.N) : (dat2 V c).after 3 t = blk2 V c 3 t := by dsimp only [dat2]
theorem dat2_after4 (c : Dev nD) (t : Fin cfg2.N) :
    (dat2 V c).after 4 t = res2 (blk2 V c 0 t) (blk2 V c 1 t) (blk2 V c 2 t) (blk2 V c 3 t) := by dsimp only [dat2]

/-- An input buffer holds its block whenever the body is called, fetched at that point or not. -/
theorem dat2_before0 (c : Dev nD) (t : Fin cfg2.N) (d) : (dat2 V c).before 0 t d = blk2 V c 0 t :=
  ((dat2 V c).before_in_eq_fetched 0 rfl (fun _ => rfl) (fun _ _ _ => rfl)
    (fun t => by rw [dat2_after0]; unfold Dat.blockOf blk2; rw [dat2_A]; try rfl) t d).trans
    (by unfold Dat.fetched Dat.blockOf blk2; rw [dat2_A]; try rfl)
theorem dat2_before1 (c : Dev nD) (t : Fin cfg2.N) (d) : (dat2 V c).before 1 t d = blk2 V c 1 t :=
  ((dat2 V c).before_in_eq_fetched 1 rfl (fun _ => rfl) (fun _ _ _ => rfl)
    (fun t => by rw [dat2_after1]; unfold Dat.blockOf blk2; rw [dat2_A]; try rfl) t d).trans
    (by unfold Dat.fetched Dat.blockOf blk2; rw [dat2_A]; try rfl)
theorem dat2_before2 (c : Dev nD) (t : Fin cfg2.N) (d) : (dat2 V c).before 2 t d = blk2 V c 2 t :=
  ((dat2 V c).before_in_eq_fetched 2 rfl (fun _ => rfl) (fun _ _ _ => rfl)
    (fun t => by rw [dat2_after2]; unfold Dat.blockOf blk2; rw [dat2_A]; try rfl) t d).trans
    (by unfold Dat.fetched Dat.blockOf blk2; rw [dat2_A]; try rfl)
theorem dat2_before3 (c : Dev nD) (t : Fin cfg2.N) (d) : (dat2 V c).before 3 t d = blk2 V c 3 t :=
  ((dat2 V c).before_in_eq_fetched 3 rfl (fun _ => rfl) (fun _ _ _ => rfl)
    (fun t => by rw [dat2_after3]; unfold Dat.blockOf blk2; rw [dat2_A]; try rfl) t d).trans
    (by unfold Dat.fetched Dat.blockOf blk2; rw [dat2_A]; try rfl)

/-! ## The body obligation -/

def pre2 (c : Dev nD) (t : Fin cfg2.N) : sProp 𝕄 :=
  iprop((dat2 V c).Φ t.castSucc ∗ (dat2 V c).owesAt () t.castSucc
    ∗ (∃ d, owns (c : Thread nD τ) (st2_0 t) fullShare ((dat2 V c).before 0 t d))
    ∗ (∃ d, owns (c : Thread nD τ) (st2_1 t) fullShare ((dat2 V c).before 1 t d))
    ∗ (∃ d, owns (c : Thread nD τ) (st2_2 t) fullShare ((dat2 V c).before 2 t d))
    ∗ (∃ d, owns (c : Thread nD τ) (st2_3 t) fullShare ((dat2 V c).before 3 t d))
    ∗ (∃ d, owns (c : Thread nD τ) (st2_4 t) fullShare ((dat2 V c).before 4 t d)))

def post2 (c : Dev nD) (t : Fin cfg2.N) : sProp 𝕄 :=
  iprop((dat2 V c).Φ t.succ ∗ (dat2 V c).owesAt () t.succ
    ∗ owns (c : Thread nD τ) (st2_0 t) fullShare ((dat2 V c).after 0 t)
    ∗ owns (c : Thread nD τ) (st2_1 t) fullShare ((dat2 V c).after 1 t)
    ∗ owns (c : Thread nD τ) (st2_2 t) fullShare ((dat2 V c).after 2 t)
    ∗ owns (c : Thread nD τ) (st2_3 t) fullShare ((dat2 V c).after 3 t)
    ∗ owns (c : Thread nD τ) (st2_4 t) fullShare ((dat2 V c).after 4 t))

theorem body2_at (c : Dev nD) (t : Fin cfg2.N) :
    pre2 V c t ⊢ wp frame (wpE (defs₀ (F := F)) Variants.none c none) Set.univ (bodyAt2 t) (fun _ => post2 V c t) := by
  unfold pre2 post2 bodyAt2
  simp only [dat2_before0, dat2_before1, dat2_before2, dat2_before3]
  rw [show (dat2 V c).Φ t.succ = (dat2 V c).Φ t.castSucc from rfl,
    show (dat2 V c).owesAt () t.succ = (dat2 V c).owesAt () t.castSucc from rfl,
    dat2_after0, dat2_after1, dat2_after2, dat2_after3, dat2_after4]
  iintro ⟨HΦ, Ho, ⟨%d0, H0⟩, ⟨%d1, H1⟩, ⟨%d2, H2⟩, ⟨%d3, H3⟩, ⟨%d4, H4⟩⟩
  iapply (body2_run c Set.univ _ _ _ _ _ _ _ _ _ _ _ (blk2 V c 0 t) (blk2 V c 1 t) (blk2 V c 2 t) (blk2 V c 3 t) _)
  isplitl [H0]; · iexact H0
  isplitl [H1]; · iexact H1
  isplitl [H2]; · iexact H2
  isplitl [H3]; · iexact H3
  isplitl [H4]; · iexists _; iexact H4
  iintro ⟨H0, H1, H2, H3, H4⟩
  isplitl [HΦ]; · iexact HΦ
  isplitl [Ho]; · iexact Ho
  isplitl [H0]; · iexact H0
  isplitl [H1]; · iexact H1
  isplitl [H2]; · iexact H2
  isplitl [H3]; · iexact H3
  iexact H4

/-- The library's body obligation for the region, at every point. -/
theorem body2 (c : Dev nD) : BodyObligation (dat2 (F := F) V c) (defs₀ (F := F)) Variants.none () Set.univ := fun t => by
  rw [bigSep_W2, bigSep_W2]
  exact body2_at V c t

end Cert.KernelIdeal.Hand

end
-- ==== Proof.KI.Reg3.lean ====
/-
  The last kernel region (the last round finished, the node rows summed per graph, the mean and the last linear
  map), at any float instance: the accumulator it carries from grid point to grid point, what it leaves in the
  output block at the last point, and the region's proof data over arrays found at contents `V`.

  At a point the body reads a block of 5000 aggregated rows, the matching 5000 entries of the degree column, the
  bias row and the block's 5000 graph numbers. It keeps a 128×128 accumulator between points: at the first point
  it first stores zeros over it; at every point it adds (indicator of the graph numbers)ᵀ · (rows ⊙ degree + bias)
  to it; at the last point it divides it by the clamped counts, multiplies by the 128×3 matrix, adds the last bias
  row and stores the 128×3 output block. So the region's invariant names the accumulator: before the first point
  it is at anything; after point `n` it holds `sAt3 n`.
-/
import proofs.«401627_j1056561955307_2_alg».proof.Proof.Gen.KernelIdeal.Launch
import proofs.«401627_j1056561955307_2_alg».proof.Proof.Gen.KernelIdeal.Skeleton
import proofs.«401627_j1056561955307_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Pipeline.Value
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the arrays' contents when the region is entered
variable (V : (c : Dev nD) → (b : Ref sig .tc) → Buf (Elt F) ((c : Thread nD τ).loc b))

/-! ## Blocks -/

/-- The block of window `w` at point `t`, read off the window's array at `V`. -/
def blk3 (c : Dev nD) (w : Fin cfg3.W) (t : Fin cfg3.N) : ((cfg3.win w).xblock (cfg3.grid.coords t)).Idx → Elt F (cfg3.win w).elt :=
  ((cfg3.win w).blk t).view.read (Elt F) (V c (Pipeline.arrRef spec3 w))

/-- The whole-buffer rectangles the body loads and stores through: the aggregated block, a 5000-entry column (the
    degrees, the graph numbers), the bias row, the accumulator, the counts, the 128×3 matrix (and the output block),
    the last bias row. -/
abbrev wholeA3 : Rect S5000x128 := Rect.unit (s := S5000x128) ![0, 0] S5000x128.size inb_S5000x128_S5000x128_0_0
abbrev wholeD3 : Rect S5000x1 := Rect.unit (s := S5000x1) ![0, 0] S5000x1.size inb_S5000x1_S5000x1_0_0
abbrev wholeB3 : Rect S1x128 := Rect.unit (s := S1x128) ![0, 0] S1x128.size inb_S1x128_S1x128_0_0
abbrev wholeS3 : Rect S128x128 := Rect.unit (s := S128x128) ![0, 0] S128x128.size inb_S128x128_S128x128_0_0
abbrev wholeC3 : Rect S128x1 := Rect.unit (s := S128x1) ![0, 0] S128x1.size inb_S128x1_S128x1_0_0
abbrev wholeM3 : Rect S128x3 := Rect.unit (s := S128x3) ![0, 0] S128x3.size inb_S128x3_S128x3_0_0
abbrev wholeL3 : Rect S1x3 := Rect.unit (s := S1x3) ![0, 0] S1x3.size inb_S1x3_S1x3_0_0

/-! ## The accumulator -/

/-- What the first point's reset stores over the accumulator: zeros. -/
def zero3 : Vec F S128x128 .f32 := k3_pay1

/-- One point's update of the accumulator: its one store there, of the sum of what the accumulator held and the
    product read off the point's four input blocks (each loaded whole). -/
def acc3 (a : Vec F S5000x128 .f32) (d : Vec F S5000x1 .f32) (b : Vec F S1x128 .f32) (g : Vec F S5000x1 .i32)
    (s : Vec F S128x128 .f32) : Vec F S128x128 .f32 :=
  View.canon [⟨wholeS3, k3_pay2 (View.ld a wholeA3) (View.ld d wholeD3) (View.ld b wholeB3) (View.ld g wholeD3) (View.ld s wholeS3)⟩]

/-- The grid point at position `n` (positions past the grid wrap round: nothing reads them). -/
def pt3 (n : ℕ) : Fin cfg3.N := ⟨n % 10, lt_of_lt_of_eq (Nat.mod_lt n (by decide)) N_3.symm⟩

theorem pt3_val (t : Fin cfg3.N) : pt3 t.val = t :=
  Fin.ext (Nat.mod_eq_of_lt (lt_of_lt_of_eq t.isLt N_3))

/-- The update at point `t`, on that point's blocks. -/
def step3 (c : Dev nD) (t : Fin cfg3.N) (s : Vec F S128x128 .f32) : Vec F S128x128 .f32 :=
  acc3 (blk3 V c 0 t) (blk3 V c 1 t) (blk3 V c 2 t) (blk3 V c 3 t) s

/-- What point `n` leaves in the accumulator: the first point's update over zeros, each later point's over what
    the point before left. -/
def sAt3 (c : Dev nD) : ℕ → Vec F S128x128 .f32
  | 0 => step3 V c (pt3 0) zero3
  | n + 1 => step3 V c (pt3 (n + 1)) (sAt3 c n)

theorem sAt3_zero (c : Dev nD) : sAt3 V c 0 = step3 V c (pt3 0) zero3 := rfl
theorem sAt3_succ (c : Dev nD) (n : ℕ) : sAt3 V c (n + 1) = step3 V c (pt3 (n + 1)) (sAt3 V c n) := rfl

/-- What the last point stores over the output block: its one store there, of the mean of the accumulator by the
    clamped counts times the matrix plus the last bias row (each loaded whole). -/
def res3 (cnt : Vec F S128x1 .f32) (s : Vec F S128x128 .f32) (m : Vec F S128x3 .f32) (l : Vec F S1x3 .f32) : Vec F S128x3 .f32 :=
  View.canon [⟨wholeM3, k3_pay3 (View.ld cnt wholeC3) (View.ld s wholeS3) (View.ld m wholeM3) (View.ld l wholeL3)⟩]

/-! ## The invariant -/

/-- The scoped buffers of the core that are neither a staging buffer of the region nor its accumulator, unopened. -/
abbrev rest3 (c : Dev nD) : sProp 𝕄 :=
  Pipeline.scopedRestBut (Ix := Unit) (Name := ℕ) (U := UR sig nD τ) (Lvl := ℕ) (Val := Elt F) spec3 c [cc3_scratch0]

/-- The region's invariant before position `n`: before the first point the scoped buffers it does not stage (the
    accumulator among them) at anything and the generator register; after point `n` the accumulator at `sAt3 n`,
    the other scoped buffers unopened, the generator register. -/
def Phi3 (c : Dev nD) : ℕ → sProp 𝕄
  | 0 => Pipeline.ΦA spec3 c
  | n + 1 => iprop(owns (c : Thread nD τ) (Memref.whole cc3_scratch0) fullShare (sAt3 V c n) ∗ rest3 (F := F) c ∗ ∃ r, prngReg c r)

theorem Phi3_zero (c : Dev nD) : Phi3 V c 0 = Pipeline.ΦA spec3 c := rfl
theorem Phi3_succ (c : Dev nD) (n : ℕ) :
    Phi3 V c (n + 1) = iprop(owns (c : Thread nD τ) (Memref.whole cc3_scratch0) fullShare (sAt3 V c n) ∗ rest3 (F := F) c ∗ ∃ r, prngReg c r) := rfl

/-! ## The proof data -/

/-- The region's proof data on core `c`: arrays as found; after the body each input buffer still at its block, the
    output buffer at `res3` of the counts, the accumulator the point leaves, the matrix and the last bias row
    (consulted at the last point only: elsewhere the body leaves the output buffer as it found it); the invariant
    `Phi3`; nothing owed. -/
def dat3 (c : Dev nD) : Dat τ (Elt F) Unit ℕ (UR sig nD τ) ℕ cfg3 c where
  A w := V c (Pipeline.arrRef spec3 w)
  after w t := match w with
    | ⟨0, _⟩ => blk3 V c 0 t
    | ⟨1, _⟩ => blk3 V c 1 t
    | ⟨2, _⟩ => blk3 V c 2 t
    | ⟨3, _⟩ => blk3 V c 3 t
    | ⟨4, _⟩ => blk3 V c 4 t
    | ⟨5, _⟩ => blk3 V c 5 t
    | ⟨6, _⟩ => blk3 V c 6 t
    | ⟨7, _⟩ => res3 (blk3 V c 4 t) (sAt3 V c t.val) (blk3 V c 5 t) (blk3 V c 6 t)
  Φ t := Phi3 V c t.val
  q _ := fullShare
  owed _ := 0

theorem dat3_A (c : Dev nD) (w : Fin cfg3.W) : (dat3 V c).A w = V c (Pipeline.arrRef spec3 w) := by
  dsimp only [dat3]

theorem dat3_Phi (c : Dev nD) (t : Fin (cfg3.N + 1)) : (dat3 V c).Φ t = Phi3 V c t.val := by dsimp only [dat3]

theorem dat3_after0 (c : Dev nD) (t : Fin cfg3.N) : (dat3 V c).after 0 t = blk3 V c 0 t := by dsimp only [dat3]
theorem dat3_after1 (c : Dev nD) (t : Fin cfg3.N) : (dat3 V c).after 1 t = blk3 V c 1 t := by dsimp only [dat3]
theorem dat3_after2 (c : Dev nD) (t : Fin cfg3.N) : (dat3 V c).after 2 t = blk3 V c 2 t := by dsimp only [dat3]
theorem dat3_after3 (c : Dev nD) (t : Fin cfg3.N) : (dat3 V c).after 3 t = blk3 V c 3 t := by dsimp only [dat3]
theorem dat3_after4 (c : Dev nD) (t : Fin cfg3.N) : (dat3 V c).after 4 t = blk3 V c 4 t := by dsimp only [dat3]
theorem dat3_after5 (c : Dev nD) (t : Fin cfg3.N) : (dat3 V c).after 5 t = blk3 V c 5 t := by dsimp only [dat3]
theorem dat3_after6 (c : Dev nD) (t : Fin cfg3.N) : (dat3 V c).after 6 t = blk3 V c 6 t := by dsimp only [dat3]
theorem dat3_after7 (c : Dev nD) (t : Fin cfg3.N) :
    (dat3 V c).after 7 t = res3 (blk3 V c 4 t) (sAt3 V c t.val) (blk3 V c 5 t) (blk3 V c 6 t) := by dsimp only [dat3]

/-! ## The canon and the whole-rectangle loads removed -/

theorem zeros2 : (![0, 0] : Fin 2 → ℕ) = fun _ => 0 := by
  funext a; fin_cases a <;> rfl

/-- One point's update is the update's payload of the blocks and the accumulator themselves. -/
theorem acc3_eq (a : Vec F S5000x128 .f32) (d : Vec F S5000x1 .f32) (b : Vec F S1x128 .f32) (g : Vec F S5000x1 .i32)
    (s : Vec F S128x128 .f32) : acc3 a d b g s = k3_pay2 a d b g s := by
  unfold acc3
  rw [View.canon_unit_zero (S := S128x128) zeros2, View.ld_unit_zero (S := S5000x128) zeros2,
    View.ld_unit_zero (S := S5000x1) zeros2, View.ld_unit_zero (S := S1x128) zeros2, View.ld_unit_zero (S := S5000x1) zeros2,
    View.ld_unit_zero (S := S128x128) zeros2]

/-- The last point's store is its payload of the counts, the accumulator, the matrix and the last bias row themselves. -/
theorem res3_eq (cnt : Vec F S128x1 .f32) (s : Vec F S128x128 .f32) (m : Vec F S128x3 .f32) (l : Vec F S1x3 .f32) :
    res3 cnt s m l = k3_pay3 cnt s m l := by
  unfold res3
  rw [View.canon_unit_zero (S := S128x3) zeros2, View.ld_unit_zero (S := S128x1) zeros2,
    View.ld_unit_zero (S := S128x128) zeros2, View.ld_unit_zero (S := S128x3) zeros2, View.ld_unit_zero (S := S1x3) zeros2]

/-! ## The class's invariant with the accumulator split off -/

/-- The class's invariant: the accumulator at anything, the other scoped buffers unopened, the generator register. -/
theorem PhiA3_eq (c : Dev nD) :
    (Pipeline.ΦA spec3 c : sProp 𝕄)
      = iprop(((∃ d, owns (c : Thread nD τ) (Memref.whole cc3_scratch0) fullShare d) ∗ rest3 (F := F) c) ∗ ∃ r, prngReg c r) := by
  unfold Pipeline.ΦA
  rw [Pipeline.scopedRest_split_of_list spec3 c [cc3_scratch0] (by decide) (by decide)]
  simp only [bigSepL_singleton, owns_whole]; try rfl

/-- An input buffer holds its block whenever the body is called, fetched at that point or not. -/
theorem dat3_before0 (c : Dev nD) (t : Fin cfg3.N) (d) : (dat3 V c).before 0 t d = blk3 V c 0 t :=
  ((dat3 V c).before_in_eq_fetched 0 rfl (fun _ => rfl) (fun _ _ _ => rfl)
    (fun t => by rw [dat3_after0]; unfold Dat.blockOf blk3; rw [dat3_A]; try rfl) t d).trans
    (by unfold Dat.fetched Dat.blockOf blk3; rw [dat3_A]; try rfl)
theorem dat3_before1 (c : Dev nD) (t : Fin cfg3.N) (d) : (dat3 V c).before 1 t d = blk3 V c 1 t :=
  ((dat3 V c).before_in_eq_fetched 1 rfl (fun _ => rfl) (fun _ _ _ => rfl)
    (fun t => by rw [dat3_after1]; unfold Dat.blockOf blk3; rw [dat3_A]; try rfl) t d).trans
    (by unfold Dat.fetched Dat.blockOf blk3; rw [dat3_A]; try rfl)
theorem dat3_before2 (c : Dev nD) (t : Fin cfg3.N) (d) : (dat3 V c).before 2 t d = blk3 V c 2 t :=
  ((dat3 V c).before_in_eq_fetched 2 rfl (fun _ => rfl) (fun _ _ _ => rfl)
    (fun t => by rw [dat3_after2]; unfold Dat.blockOf blk3; rw [dat3_A]; try rfl) t d).trans
    (by unfold Dat.fetched Dat.blockOf blk3; rw [dat3_A]; try rfl)
theorem dat3_before3 (c : Dev nD) (t : Fin cfg3.N) (d) : (dat3 V c).before 3 t d = blk3 V c 3 t :=
  ((dat3 V c).before_in_eq_fetched 3 rfl (fun _ => rfl) (fun _ _ _ => rfl)
    (fun t => by rw [dat3_after3]; unfold Dat.blockOf blk3; rw [dat3_A]; try rfl) t d).trans
    (by unfold Dat.fetched Dat.blockOf blk3; rw [dat3_A]; try rfl)
theorem dat3_before4 (c : Dev nD) (t : Fin cfg3.N) (d) : (dat3 V c).before 4 t d = blk3 V c 4 t :=
  ((dat3 V c).before_in_eq_fetched 4 rfl (fun _ => rfl) (fun _ _ _ => rfl)
    (fun t => by rw [dat3_after4]; unfold Dat.blockOf blk3; rw [dat3_A]; try rfl) t d).trans
    (by unfold Dat.fetched Dat.blockOf blk3; rw [dat3_A]; try rfl)
theorem dat3_before5 (c : Dev nD) (t : Fin cfg3.N) (d) : (dat3 V c).before 5 t d = blk3 V c 5 t :=
  ((dat3 V c).before_in_eq_fetched 5 rfl (fun _ => rfl) (fun _ _ _ => rfl)
    (fun t => by rw [dat3_after5]; unfold Dat.blockOf blk3; rw [dat3_A]; try rfl) t d).trans
    (by unfold Dat.fetched Dat.blockOf blk3; rw [dat3_A]; try rfl)
theorem dat3_before6 (c : Dev nD) (t : Fin cfg3.N) (d) : (dat3 V c).before 6 t d = blk3 V c 6 t :=
  ((dat3 V c).before_in_eq_fetched 6 rfl (fun _ => rfl) (fun _ _ _ => rfl)
    (fun t => by rw [dat3_after6]; unfold Dat.blockOf blk3; rw [dat3_A]; try rfl) t d).trans
    (by unfold Dat.fetched Dat.blockOf blk3; rw [dat3_A]; try rfl)

/-- Before the first point the invariant is the class's. -/
theorem dat3_Phi0 (c : Dev nD) : (dat3 V c).Φ 0 = Pipeline.ΦA spec3 c := by
  rw [dat3_Phi]; rfl

/-- After the last point the accumulator's contents are forgotten back into the scoped buffers at anything. -/
theorem dat3_PhiLast (c : Dev nD) : (dat3 V c).Φ (Fin.last cfg3.N) ⊢ Pipeline.ΦA spec3 c := by
  rw [dat3_Phi, Fin.val_last, show cfg3.N = 9 + 1 from N_3, Phi3_succ, PhiA3_eq]
  iintro ⟨HS, HR, Hg⟩
  isplitl [HS HR]
  · isplitl [HS]
    · iexists _; iexact HS
    iexact HR
  iexact Hg

end Cert.KernelIdeal.Hand

end
-- ==== Proof.KI.RunDefs.lean ====
/-
  The hypotheses under which the run of the whole program is stated: the contents the four regions leave in their
  output arrays, as unknowns, each pinned to the fold of its region's write-backs.
-/
import proofs.«401627_j1056561955307_2_alg».proof.Proof.Gen.KernelIdeal.Regions
import proofs.«401627_j1056561955307_2_alg».proof.Proof.KI.Reg0
import proofs.«401627_j1056561955307_2_alg».proof.Proof.KI.Reg1
import proofs.«401627_j1056561955307_2_alg».proof.Proof.KI.Reg2
import proofs.«401627_j1056561955307_2_alg».proof.Proof.KI.Reg3

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (outs : Outs (F := F))

/-- A family of valuations read at the TensorCore's references. -/
abbrev Vr (W : Dev nD → Valuation τ sig (Elt F)) : (c : Dev nD) → (b : Ref sig .tc) → Buf (Elt F) ((c : Thread nD τ).loc b) :=
  fun c b => W c b

/-- The unknown contents are what the four regions leave: each region's output array holds the fold of that
    region's write-backs over the array as the region found it. -/
structure OutsOk : Prop where
  H4 : ∀ c : Dev nD, outs 4 main_v16 c = (dat0 (Vr (V3 m)) c).arrAt 3 cfg0.N
  H6 : ∀ c : Dev nD, outs 6 main_v29 c = (dat1 (Vr (V5 m outs)) c).arrAt 4 cfg1.N
  H8 : ∀ c : Dev nD, outs 8 main_v42 c = (dat2 (Vr (V7 m outs)) c).arrAt 4 cfg2.N
  H10 : ∀ c : Dev nD, outs 10 main_v62 c = (dat3 (Vr (V9 m outs)) c).arrAt 7 cfg3.N

end Cert.KernelIdeal.Hand

end
-- ==== Proof.KI.Reg3Runs.lean ====
/-
  The last kernel region's body, run on whole staging buffers in each of its three control cases: at the first
  point (the accumulator reset, then updated), at a point between (updated), at the last point (updated, then the
  output block computed from it and stored). The conditions of the body's two `if`s are decided over the grid in
  closed form.
-/
import proofs.«401627_j1056561955307_2_alg».proof.Proof.KI.Reg3
import Idealize.ShloMosaic.Lib.Pipeline.FrameBody
import Idealize.ShloMosaic.Lib.Pipeline.RegionsLoop
import Idealize.ShloMosaic.Lib.Pipeline.FrameSuffix
import Idealize.ShloMosaic.Lib.Pipeline.Value
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## The body's branch conditions -/

/-- The condition of the body's first `if` (the reset), from the grid coordinates. -/
abbrev cond3_1 (i : grid3.Coords) : Prop :=
  (Scalar.cmpi .ne (Scalar.extui (Scalar.cmpi .eq (BitVec.ofNat 32 (i 0).val) 0#32)) 0#32) = 1#1
/-- It holds at the first point only. -/
theorem hcond3_1 : ∀ t : Fin cfg3.N, cond3_1 (grid3.coords t) ↔ t.val = 0 :=
  (by decide +kernel : ∀ t : Fin grid3.N, cond3_1 (grid3.coords t) ↔ t.val = 0)

/-- The condition of the body's second `if` (the finish), from the grid coordinates. -/
abbrev cond3_2 (i : grid3.Coords) : Prop := k3_cond2 i = 1#1
/-- It holds at the last point only. -/
theorem hcond3_2 : ∀ t : Fin cfg3.N, cond3_2 (grid3.coords t) ↔ t.val = 9 :=
  (by decide +kernel : ∀ t : Fin grid3.N, cond3_2 (grid3.coords t) ↔ t.val = 9)

theorem acc3_cover (p : Vec F S128x128 .f32) (L : List (View.Piece (Elt F) S128x128 .f32)) (y : S128x128.Idx) :
    ∃ pc ∈ ((⟨wholeS3, p⟩ : View.Piece (Elt F) S128x128 .f32) :: L), y ∈ pc.1.set :=
  ⟨_, List.mem_cons_self, View.mem_set_unit_zero (S := S128x128) zeros2 inb_S128x128_S128x128_0_0 y⟩

theorem res3_cover (p : Vec F S128x3 .f32) (L : List (View.Piece (Elt F) S128x3 .f32)) (y : S128x3.Idx) :
    ∃ pc ∈ ((⟨wholeM3, p⟩ : View.Piece (Elt F) S128x3 .f32) :: L), y ∈ pc.1.set :=
  ⟨_, List.mem_cons_self, View.mem_set_unit_zero (S := S128x3) zeros2 inb_S128x3_S128x3_0_0 y⟩

/-! ## What the stores leave, read back -/

/-- The first point's two stores over the accumulator — zeros, then the update over the zeros read back — leave the
    update over zeros. -/
theorem accA_eq {sg : RefSig} {κ : Kind} {sp : Space} (v : View sg κ sp S128x128 .f32)
    (A : Vec F S5000x128 .f32) (D : Vec F S5000x1 .f32) (B : Vec F S1x128 .f32) (G : Vec F S5000x1 .i32) :
    View.canon [(⟨wholeS3, k3_pay2 A D B G (v.readCov [(⟨wholeS3, k3_pay1⟩ : View.Piece (Elt F) S128x128 .f32)] wholeS3.toLoadRect)⟩ : View.Piece (Elt F) S128x128 .f32),
        ⟨wholeS3, k3_pay1⟩]
      = View.canon [(⟨wholeS3, k3_pay2 A D B G (View.ld (zero3 (F := F)) wholeS3)⟩ : View.Piece (Elt F) S128x128 .f32)] := by
  rw [View.canon_cons_unit_zero (S := S128x128) zeros2, View.canon_unit_zero (S := S128x128) zeros2,
    View.readCov_unit_zero (S := S128x128) v zeros2, View.ld_unit_zero (S := S128x128) zeros2]
  rfl

/-- The last point's load of the accumulator after its update reads the update. -/
theorem resC_eq {sg : RefSig} {κ : Kind} {sp : Space} (v : View sg κ sp S128x128 .f32)
    (C : Vec F S128x1 .f32) (P : Vec F S128x128 .f32) (M : Vec F S128x3 .f32) (L : Vec F S1x3 .f32) :
    View.canon [(⟨wholeM3, k3_pay3 C (v.readCov [(⟨wholeS3, P⟩ : View.Piece (Elt F) S128x128 .f32)] wholeS3.toLoadRect) M L⟩ : View.Piece (Elt F) S128x3 .f32)]
      = View.canon [(⟨wholeM3, k3_pay3 C (View.ld (View.canon [(⟨wholeS3, P⟩ : View.Piece (Elt F) S128x128 .f32)]) wholeS3) M L⟩ : View.Piece (Elt F) S128x3 .f32)] := by
  rw [View.readCov_eq_canon_ld v _ wholeS3 (acc3_cover _ _)]

set_option maxHeartbeats 1000000 in
/-- The body at the first point, on whole staging buffers holding the seven input blocks, the output buffer at `o`
    and the accumulator at anything: it returns the inputs and the output buffer as they were and the accumulator at
    `acc3` of the four blocks and zeros. -/
theorem body3_runA (c : Dev nD) (E : Set ℕ) (i : grid3.Coords) (hc1 : cond3_1 i) (hc2 : ¬cond3_2 i)
    (a1 : Memref sig .tc .vmem S5000x128 .f32) (h1 : a1.IsWhole) (a2 : Memref sig .tc .vmem S5000x1 .f32) (h2 : a2.IsWhole)
    (a3 : Memref sig .tc .vmem S1x128 .f32) (h3 : a3.IsWhole) (a4 : Memref sig .tc .vmem S5000x1 .i32) (h4 : a4.IsWhole)
    (a5 : Memref sig .tc .vmem S128x1 .f32) (h5 : a5.IsWhole) (a6 : Memref sig .tc .vmem S128x3 .f32) (h6 : a6.IsWhole)
    (a7 : Memref sig .tc .vmem S1x3 .f32) (h7 : a7.IsWhole) (a8 : Memref sig .tc .vmem S128x3 .f32) (h8 : a8.IsWhole)
    (a9 : Memref sig .tc .vmem S128x128 .f32) (h9 : a9.IsWhole)
    (x0 : Vec F S5000x128 .f32) (x1 : Vec F S5000x1 .f32) (x2 : Vec F S1x128 .f32) (x3 : Vec F S5000x1 .i32)
    (x4 : Vec F S128x1 .f32) (x5 : Vec F S128x3 .f32) (x6 : Vec F S1x3 .f32)
    (o : Vec F S128x3 .f32) (K : PUnit → sProp 𝕄) :
    iprop(owns (c : Thread nD τ) a1 fullShare x0 ∗ owns (c : Thread nD τ) a2 fullShare x1 ∗ owns (c : Thread nD τ) a3 fullShare x2
        ∗ owns (c : Thread nD τ) a4 fullShare x3 ∗ owns (c : Thread nD τ) a5 fullShare x4 ∗ owns (c : Thread nD τ) a6 fullShare x5
        ∗ owns (c : Thread nD τ) a7 fullShare x6
        ∗ owns (c : Thread nD τ) a8 fullShare o ∗ (∃ s, owns (c : Thread nD τ) a9 fullShare s)
        ∗ (iprop(owns (c : Thread nD τ) a1 fullShare x0 ∗ owns (c : Thread nD τ) a2 fullShare x1 ∗ owns (c : Thread nD τ) a3 fullShare x2
        ∗ owns (c : Thread nD τ) a4 fullShare x3 ∗ owns (c : Thread nD τ) a5 fullShare x4 ∗ owns (c : Thread nD τ) a6 fullShare x5
        ∗ owns (c : Thread nD τ) a7 fullShare x6
            ∗ owns (c : Thread nD τ) a8 fullShare o ∗ owns (c : Thread nD τ) a9 fullShare (acc3 x0 x1 x2 x3 zero3)) -∗ K ⟨⟩))
      ⊢ wp frame (wpE (defs₀ (F := F)) Variants.none c none) E (cc3__pool_final_kernel i a1 h1 a2 h2 a3 h3 a4 h4 a5 h5 a6 h6 a7 h7 a8 h8 a9 h9) K := by
  simp only [cc3__pool_final_kernel_eq_skeleton]; unfold cc3__pool_final_kernel_skel
  unfold owns
  iintro ⟨⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%s, %f9, -, H9⟩, Hk⟩
  subst hf1; subst hf2; subst hf3; subst hf4; subst hf5; subst hf6; subst hf7; subst hf8
  sl_exec (disch := first | exact hc1 | exact hc2)
  sl_step
  iapply Hk
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists f7; isplitr; · ipureintro; rfl
    iexact H7
  isplitl [H8]
  · iexists f8; isplitr; · ipureintro; rfl
    iexact H8
  iexists _; isplitr
  swap; · iexact H9
  ipureintro
  exact (View.read_writes_eq_canon _ _ _ (acc3_cover _ _)).trans (accA_eq _ _ _ _ _)

set_option maxHeartbeats 1000000 in
/-- The body at a point that is neither the first nor the last, on whole staging buffers holding the seven input
    blocks, the output buffer at `o` and the accumulator at `s`: it returns the inputs and the output buffer as they
    were and the accumulator at `acc3` of the four blocks and `s`. -/
theorem body3_runB (c : Dev nD) (E : Set ℕ) (i : grid3.Coords) (hc1 : ¬cond3_1 i) (hc2 : ¬cond3_2 i)
    (a1 : Memref sig .tc .vmem S5000x128 .f32) (h1 : a1.IsWhole) (a2 : Memref sig .tc .vmem S5000x1 .f32) (h2 : a2.IsWhole)
    (a3 : Memref sig .tc .vmem S1x128 .f32) (h3 : a3.IsWhole) (a4 : Memref sig .tc .vmem S5000x1 .i32) (h4 : a4.IsWhole)
    (a5 : Memref sig .tc .vmem S128x1 .f32) (h5 : a5.IsWhole) (a6 : Memref sig .tc .vmem S128x3 .f32) (h6 : a6.IsWhole)
    (a7 : Memref sig .tc .vmem S1x3 .f32) (h7 : a7.IsWhole) (a8 : Memref sig .tc .vmem S128x3 .f32) (h8 : a8.IsWhole)
    (a9 : Memref sig .tc .vmem S128x128 .f32) (h9 : a9.IsWhole)
    (x0 : Vec F S5000x128 .f32) (x1 : Vec F S5000x1 .f32) (x2 : Vec F S1x128 .f32) (x3 : Vec F S5000x1 .i32)
    (x4 : Vec F S128x1 .f32) (x5 : Vec F S128x3 .f32) (x6 : Vec F S1x3 .f32)
    (o : Vec F S128x3 .f32) (s : Vec F S128x128 .f32) (K : PUnit → sProp 𝕄) :
    iprop(owns (c : Thread nD τ) a1 fullShare x0 ∗ owns (c : Thread nD τ) a2 fullShare x1 ∗ owns (c : Thread nD τ) a3 fullShare x2
        ∗ owns (c : Thread nD τ) a4 fullShare x3 ∗ owns (c : Thread nD τ) a5 fullShare x4 ∗ owns (c : Thread nD τ) a6 fullShare x5
        ∗ owns (c : Thread nD τ) a7 fullShare x6
        ∗ owns (c : Thread nD τ) a8 fullShare o ∗ owns (c : Thread nD τ) a9 fullShare s
        ∗ (iprop(owns (c : Thread nD τ) a1 fullShare x0 ∗ owns (c : Thread nD τ) a2 fullShare x1 ∗ owns (c : Thread nD τ) a3 fullShare x2
        ∗ owns (c : Thread nD τ) a4 fullShare x3 ∗ owns (c : Thread nD τ) a5 fullShare x4 ∗ owns (c : Thread nD τ) a6 fullShare x5
        ∗ owns (c : Thread nD τ) a7 fullShare x6
            ∗ owns (c : Thread nD τ) a8 fullShare o ∗ owns (c : Thread nD τ) a9 fullShare (acc3 x0 x1 x2 x3 s)) -∗ K ⟨⟩))
      ⊢ wp frame (wpE (defs₀ (F := F)) Variants.none c none) E (cc3__pool_final_kernel i a1 h1 a2 h2 a3 h3 a4 h4 a5 h5 a6 h6 a7 h7 a8 h8 a9 h9) K := by
  simp only [cc3__pool_final_kernel_eq_skeleton]; unfold cc3__pool_final_kernel_skel
  unfold owns
  iintro ⟨⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, Hk⟩
  subst hf1; subst hf2; subst hf3; subst hf4; subst hf5; subst hf6; subst hf7; subst hf8; subst hf9
  sl_exec (disch := first | exact hc1 | exact hc2)
  sl_step
  iapply Hk
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists f7; isplitr; · ipureintro; rfl
    iexact H7
  isplitl [H8]
  · iexists f8; isplitr; · ipureintro; rfl
    iexact H8
  iexists _; isplitr
  swap; · iexact H9
  ipureintro
  exact View.read_writes_eq_canon _ _ _ (acc3_cover _ _)

set_option maxHeartbeats 1000000 in
/-- The body at the last point, on whole staging buffers holding the seven input blocks, the output buffer at
    anything and the accumulator at `s`: it returns the inputs as they were, the accumulator at `acc3` of the four
    blocks and `s`, and the output buffer at `res3` of the counts, that accumulator, the matrix and the last bias row. -/
theorem body3_runC (c : Dev nD) (E : Set ℕ) (i : grid3.Coords) (hc1 : ¬cond3_1 i) (hc2 : cond3_2 i)
    (a1 : Memref sig .tc .vmem S5000x128 .f32) (h1 : a1.IsWhole) (a2 : Memref sig .tc .vmem S5000x1 .f32) (h2 : a2.IsWhole)
    (a3 : Memref sig .tc .vmem S1x128 .f32) (h3 : a3.IsWhole) (a4 : Memref sig .tc .vmem S5000x1 .i32) (h4 : a4.IsWhole)
    (a5 : Memref sig .tc .vmem S128x1 .f32) (h5 : a5.IsWhole) (a6 : Memref sig .tc .vmem S128x3 .f32) (h6 : a6.IsWhole)
    (a7 : Memref sig .tc .vmem S1x3 .f32) (h7 : a7.IsWhole) (a8 : Memref sig .tc .vmem S128x3 .f32) (h8 : a8.IsWhole)
    (a9 : Memref sig .tc .vmem S128x128 .f32) (h9 : a9.IsWhole)
    (x0 : Vec F S5000x128 .f32) (x1 : Vec F S5000x1 .f32) (x2 : Vec F S1x128 .f32) (x3 : Vec F S5000x1 .i32)
    (x4 : Vec F S128x1 .f32) (x5 : Vec F S128x3 .f32) (x6 : Vec F S1x3 .f32)
    (s : Vec F S128x128 .f32) (K : PUnit → sProp 𝕄) :
    iprop(owns (c : Thread nD τ) a1 fullShare x0 ∗ owns (c : Thread nD τ) a2 fullShare x1 ∗ owns (c : Thread nD τ) a3 fullShare x2
        ∗ owns (c : Thread nD τ) a4 fullShare x3 ∗ owns (c : Thread nD τ) a5 fullShare x4 ∗ owns (c : Thread nD τ) a6 fullShare x5
        ∗ owns (c : Thread nD τ) a7 fullShare x6
        ∗ (∃ o, owns (c : Thread nD τ) a8 fullShare o) ∗ owns (c : Thread nD τ) a9 fullShare s
        ∗ (iprop(owns (c : Thread nD τ) a1 fullShare x0 ∗ owns (c : Thread nD τ) a2 fullShare x1 ∗ owns (c : Thread nD τ) a3 fullShare x2
        ∗ owns (c : Thread nD τ) a4 fullShare x3 ∗ owns (c : Thread nD τ) a5 fullShare x4 ∗ owns (c : Thread nD τ) a6 fullShare x5
        ∗ owns (c : Thread nD τ) a7 fullShare x6
            ∗ owns (c : Thread nD τ) a8 fullShare (res3 x4 (acc3 x0 x1 x2 x3 s) x5 x6)
            ∗ owns (c : Thread nD τ) a9 fullShare (acc3 x0 x1 x2 x3 s)) -∗ K ⟨⟩))
      ⊢ wp frame (wpE (defs₀ (F := F)) Variants.none c none) E (cc3__pool_final_kernel i a1 h1 a2 h2 a3 h3 a4 h4 a5 h5 a6 h6 a7 h7 a8 h8 a9 h9) K := by
  simp only [cc3__pool_final_kernel_eq_skeleton]; unfold cc3__pool_final_kernel_skel
  unfold owns
  iintro ⟨⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%o, %f8, -, H8⟩, ⟨%f9, %hf9, H9⟩, Hk⟩
  subst hf1; subst hf2; subst hf3; subst hf4; subst hf5; subst hf6; subst hf7; subst hf9
  sl_exec (disch := first | exact hc1 | exact hc2)
  sl_step
  iapply Hk
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists f7; isplitr; · ipureintro; rfl
    iexact H7
  isplitl [H8]
  · iexists _; isplitr
    swap; · iexact H8
    ipureintro
    exact (View.read_writes_eq_canon _ _ _ (res3_cover _ _)).trans (resC_eq _ _ _ _ _)
  iexists _; isplitr
  swap; · iexact H9
  ipureintro
  exact View.read_writes_eq_canon _ _ _ (acc3_cover _ _)

end Cert.KernelIdeal.Hand

end
-- ==== Proof.KI.Reg3Body.lean ====
/-
  The last kernel region's body obligation: at every grid point, from the region's invariant (the accumulator at
  what the point before left, at anything before the first point) and the eight staging buffers at what the
  pipeline hands the body, the body runs to the invariant at the next point, the inputs' buffers at their blocks,
  and the output buffer as it was found — at the last point, at the stored result. The three control cases are
  taken by the point's position.
-/
import proofs.«401627_j1056561955307_2_alg».proof.Proof.KI.Reg3Runs
import Idealize.ShloMosaic.Lib.Pipeline.FrameBody
import Idealize.ShloMosaic.Lib.Pipeline.RegionsLoop
import Idealize.ShloMosaic.Lib.Pipeline.FrameSuffix
import Idealize.ShloMosaic.Lib.Pipeline.Value
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the arrays' contents when the region is entered
variable (V : (c : Dev nD) → (b : Ref sig .tc) → Buf (Elt F) ((c : Thread nD τ).loc b))

/-! ## Where the output window is idle, and where it is written back -/

/-- Off the last point the configuration calls the output window idle: the body stores nothing into it there. -/
theorem idleAt3_7 : ∀ t : Fin cfg3.N, ¬cond3_2 (grid3.coords t) → cfg3.idle 7 (grid3.coords t) = true := by decide +kernel
/-- At the last point it is live. -/
theorem liveAt3_7 : ∀ t : Fin cfg3.N, cond3_2 (grid3.coords t) → cfg3.idle 7 (grid3.coords t) = false := by decide +kernel
/-- Off the last point the pipeline does not write the output block back. -/
theorem noFlush3_7 (t : Fin cfg3.N) (h : t.val ≠ 9) : (cfg3.win 7).flush t = false := by
  have hN : t.val < 10 := lt_of_lt_of_eq t.isLt N_3
  cases hf : (cfg3.win 7).flush t
  · rfl
  · exfalso; have := (flush3_7 t).mp hf; omega

/-! ## The accumulator and the invariant at a point -/

/-- At the first point the accumulator is left at the update over zeros. -/
theorem sAt3_first (c : Dev nD) (t : Fin cfg3.N) (h : t.val = 0) : sAt3 V c t.val = step3 V c t zero3 := by
  have e : pt3 0 = t := by rw [← h, pt3_val]
  rw [h, sAt3_zero, e]

/-- At a later point, at the update over what the point before left. -/
theorem sAt3_next (c : Dev nD) (t : Fin cfg3.N) (h : t.val ≠ 0) : sAt3 V c t.val = step3 V c t (sAt3 V c (t.val - 1)) := by
  obtain ⟨n, hn⟩ := Nat.exists_eq_succ_of_ne_zero h
  have e : pt3 (n + 1) = t := by rw [← Nat.succ_eq_add_one, ← hn, pt3_val]
  rw [hn, Nat.succ_eq_add_one, sAt3_succ, e, Nat.add_sub_cancel]

theorem Phi3_first (c : Dev nD) (n : ℕ) (h : n = 0) : Phi3 V c n = Pipeline.ΦA spec3 c := by
  subst h; rfl

theorem Phi3_pos (c : Dev nD) (n : ℕ) (h : n ≠ 0) :
    Phi3 V c n = iprop(owns (c : Thread nD τ) (Memref.whole cc3_scratch0) fullShare (sAt3 V c (n - 1)) ∗ rest3 (F := F) c ∗ ∃ r, prngReg c r) := by
  cases n with
  | zero => exact absurd rfl h
  | succ n => rfl

/-! ## The body obligation -/

def pre3 (c : Dev nD) (t : Fin cfg3.N) : sProp 𝕄 :=
  iprop((dat3 V c).Φ t.castSucc ∗ (dat3 V c).owesAt () t.castSucc
    ∗ (∃ d, owns (c : Thread nD τ) (st3_0 t) fullShare ((dat3 V c).before 0 t d))
    ∗ (∃ d, owns (c : Thread nD τ) (st3_1 t) fullShare ((dat3 V c).before 1 t d))
    ∗ (∃ d, owns (c : Thread nD τ) (st3_2 t) fullShare ((dat3 V c).before 2 t d))
    ∗ (∃ d, owns (c : Thread nD τ) (st3_3 t) fullShare ((dat3 V c).before 3 t d))
    ∗ (∃ d, owns (c : Thread nD τ) (st3_4 t) fullShare ((dat3 V c).before 4 t d))
    ∗ (∃ d, owns (c : Thread nD τ) (st3_5 t) fullShare ((dat3 V c).before 5 t d))
    ∗ (∃ d, owns (c : Thread nD τ) (st3_6 t) fullShare ((dat3 V c).before 6 t d))
    ∗ (∃ d, owns (c : Thread nD τ) (st3_7 t) fullShare ((dat3 V c).before 7 t d)))

def post3 (c : Dev nD) (t : Fin cfg3.N) : sProp 𝕄 :=
  iprop((dat3 V c).Φ t.succ ∗ (dat3 V c).owesAt () t.succ
    ∗ owns (c : Thread nD τ) (st3_0 t) fullShare ((dat3 V c).after 0 t)
    ∗ owns (c : Thread nD τ) (st3_1 t) fullShare ((dat3 V c).after 1 t)
    ∗ owns (c : Thread nD τ) (st3_2 t) fullShare ((dat3 V c).after 2 t)
    ∗ owns (c : Thread nD τ) (st3_3 t) fullShare ((dat3 V c).after 3 t)
    ∗ owns (c : Thread nD τ) (st3_4 t) fullShare ((dat3 V c).after 4 t)
    ∗ owns (c : Thread nD τ) (st3_5 t) fullShare ((dat3 V c).after 5 t)
    ∗ owns (c : Thread nD τ) (st3_6 t) fullShare ((dat3 V c).after 6 t)
    ∗ (dat3 V c).leavesExact 7 t)

set_option maxHeartbeats 1000000 in
theorem body3_at (c : Dev nD) (t : Fin cfg3.N) :
    pre3 V c t ⊢ wp frame (wpE (defs₀ (F := F)) Variants.none c none) Set.univ (bodyAt3 t) (fun _ => post3 V c t) := by
  unfold pre3 post3 bodyAt3
  simp only [dat3_before0, dat3_before1, dat3_before2, dat3_before3, dat3_before4, dat3_before5, dat3_before6]
  rw [show (dat3 V c).owesAt () t.succ = (dat3 V c).owesAt () t.castSucc from rfl,
    dat3_after0, dat3_after1, dat3_after2, dat3_after3, dat3_after4, dat3_after5, dat3_after6,
    dat3_Phi, dat3_Phi, Fin.coe_castSucc, Fin.val_succ, Phi3_succ]
  have hN : t.val < 10 := lt_of_lt_of_eq t.isLt N_3
  by_cases h0 : t.val = 0
  · -- the first point: reset, then update
    have hc1 : cond3_1 (grid3.coords t) := (hcond3_1 t).mpr h0
    have hc2 : ¬cond3_2 (grid3.coords t) := fun h => by have := (hcond3_2 t).mp h; omega
    rw [Dat.leavesExact_idle (dat3 V c) 7 t (idleAt3_7 t hc2) (noFlush3_7 t (by omega)),
      sAt3_first V c t h0, Phi3_first V c _ h0, PhiA3_eq]
    unfold step3
    iintro ⟨⟨⟨HS, HR⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩⟩
    iapply (body3_runA c Set.univ _ hc1 hc2 _ _ _ _ _ _ _ _ _ _ _ _ _ _ _ _ _ _ (blk3 V c 0 t) (blk3 V c 1 t) (blk3 V c 2 t) (blk3 V c 3 t) (blk3 V c 4 t) (blk3 V c 5 t) (blk3 V c 6 t) ((dat3 V c).before 7 t d7) _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [HS]; · iexact HS
    iintro ⟨H0, H1, H2, H3, H4, H5, H6, H7, HS⟩
    isplitl [HS HR Hg]
    · isplitl [HS]; · iexact HS
      isplitl [HR]; · iexact HR
      iexact Hg
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    iexists _; iexact H7
  · by_cases h9 : t.val = 9
    · -- the last point: update, then finish
      have hc1 : ¬cond3_1 (grid3.coords t) := fun h => h0 ((hcond3_1 t).mp h)
      have hc2 : cond3_2 (grid3.coords t) := (hcond3_2 t).mpr h9
      rw [show (dat3 V c).leavesExact 7 t = owns (c : Thread nD τ) (st3_7 t) fullShare ((dat3 V c).after 7 t) from by
          unfold Dat.leavesExact; rw [liveAt3_7 t hc2],
        dat3_after7, sAt3_next V c t h0, Phi3_pos V c _ h0]
      unfold step3
      iintro ⟨⟨HS, HR, Hg⟩, Ho, ⟨%d0, H0⟩, ⟨%d1, H1⟩, ⟨%d2, H2⟩, ⟨%d3, H3⟩, ⟨%d4, H4⟩, ⟨%d5, H5⟩, ⟨%d6, H6⟩, ⟨%d7, H7⟩⟩
      iapply (body3_runC c Set.univ _ hc1 hc2 _ _ _ _ _ _ _ _ _ _ _ _ _ _ _ _ _ _ (blk3 V c 0 t) (blk3 V c 1 t) (blk3 V c 2 t) (blk3 V c 3 t) (blk3 V c 4 t) (blk3 V c 5 t) (blk3 V c 6 t) (sAt3 V c (t.val - 1)) _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexists _; iexact H7
      isplitl [HS]; · iexact HS
      iintro ⟨H0, H1, H2, H3, H4, H5, H6, H7, HS⟩
      isplitl [HS HR Hg]
      · isplitl [HS]; · iexact HS
        isplitl [HR]; · iexact HR
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexact H6
      iexact H7
    · -- a point between: update only
      have hc1 : ¬cond3_1 (grid3.coords t) := fun h => h0 ((hcond3_1 t).mp h)
      have hc2 : ¬cond3_2 (grid3.coords t) := fun h => h9 ((hcond3_2 t).mp h)
      rw [Dat.leavesExact_idle (dat3 V c) 7 t (idleAt3_7 t hc2) (noFlush3_7 t h9),
        sAt3_next V c t h0, Phi3_pos V c _ h0]
      unfold step3
      iintro ⟨⟨HS, HR, Hg⟩, Ho, ⟨%d0, H0⟩, ⟨%d1, H1⟩, ⟨%d2, H2⟩, ⟨%d3, H3⟩, ⟨%d4, H4⟩, ⟨%d5, H5⟩, ⟨%d6, H6⟩, ⟨%d7, H7⟩⟩
      iapply (body3_runB c Set.univ _ hc1 hc2 _ _ _ _ _ _ _ _ _ _ _ _ _ _ _ _ _ _ (blk3 V c 0 t) (blk3 V c 1 t) (blk3 V c 2 t) (blk3 V c 3 t) (blk3 V c 4 t) (blk3 V c 5 t) (blk3 V c 6 t) ((dat3 V c).before 7 t d7) (sAt3 V c (t.val - 1)) _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [HS]; · iexact HS
      iintro ⟨H0, H1, H2, H3, H4, H5, H6, H7, HS⟩
      isplitl [HS HR Hg]
      · isplitl [HS]; · iexact HS
        isplitl [HR]; · iexact HR
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexact H6
      iexists _; iexact H7

/-- The library's body obligation for the region, at every point. -/
theorem body3 (c : Dev nD) : BodyObligation (dat3 (F := F) V c) (defs₀ (F := F)) Variants.none () Set.univ := fun t => by
  rw [bigSep_W3, bigSep_W3]
  exact body3_at V c t

end Cert.KernelIdeal.Hand

end
-- ==== Proof.KI.Run.lean ====
/-
  The run of the whole program, assembled from the four kernel regions.

  Between two items of the program a core holds every unscoped buffer at a known valuation, its generator register at
  some state, and owes nothing. A host stretch moves the valuation by its operations. A region splits its arrays
  out of the unscoped buffers, runs its pipeline over its proof data, and puts the arrays back: the input arrays as
  found, the output array at the fold of the region's write-backs, which the hypotheses name. At the end the result
  buffer and the eleven arguments are read off the last valuation.
-/
import proofs.«401627_j1056561955307_2_alg».proof.Proof.Gen.KernelIdeal.Launch
import proofs.«401627_j1056561955307_2_alg».proof.Proof.Gen.KernelIdeal.Skeleton
import proofs.«401627_j1056561955307_2_alg».proof.Proof.Gen.KernelIdeal.Points
import proofs.«401627_j1056561955307_2_alg».proof.Proof.Gen.KernelIdeal.Regions
import Idealize.ShloMosaic.Lib.Pipeline.FrameBody
import Idealize.ShloMosaic.Lib.Pipeline.Regions
import Idealize.ShloMosaic.Lib.Pipeline.RegionsLoop
import Idealize.ShloMosaic.Lib.Pipeline.FrameSuffix
import Idealize.ShloMosaic.Lib.Ring
import Idealize.ShloMosaic.Lib.Tactic
import proofs.«401627_j1056561955307_2_alg».proof.Proof.KI.RunDefs
import proofs.«401627_j1056561955307_2_alg».proof.Proof.KI.Reg3Body

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section Records

variable (m : (ℓ : Loc nD τ sig) → Buf (Elt F) ℓ) (outs : Outs (F := F))

/-! ## The proof data family -/

/-- Every region's proof data, each at the contents its region is entered from: a literal match, so that the
    family at a numeral reduces to that region's data. -/
def pdats : (p : Fin 4) → (c : Dev nD) → Dat τ (Elt F) Unit ℕ (UR sig nD τ) ℕ (cfgs p) c
  | ⟨0, _⟩ => fun c => dat0 (Vr (V3 m)) c
  | ⟨1, _⟩ => fun c => dat1 (Vr (V5 m outs)) c
  | ⟨2, _⟩ => fun c => dat2 (Vr (V7 m outs)) c
  | ⟨3, _⟩ => fun c => dat3 (Vr (V9 m outs)) c

/-! ## The state that rides beside the buffers -/

/-- No core owes another anything: no level is assigned. -/
abbrev runL : GSem nD τ sig → Finset Unit := fun _ => ∅
abbrev runLv : GSem nD τ sig → Unit → ℕ := fun _ _ => 0

/-- Beside the unscoped buffers a core holds its generator register at some state and owes nothing. -/
abbrev restR (c : Dev nD) : sProp 𝕄 :=
  iprop((∃ r, prngReg c r) ∗ ∃ W, owes (c : Thread nD τ) (0 : CellTallies nD τ sig Unit) W)
/-- The same rest between any two items. -/
abbrev restE : Fin 5 → Dev nD → sProp 𝕄 := fun _ c => restR c

/-! ## Region 0 -/

/-- At region 0's exit each of its arrays holds what the write-backs leave: an input array what it held at entry,
    the output array the hypothesis' contents. -/
theorem hF0 (hok : OutsOk m outs) (c : Dev nD) (w : Fin cfg0.W) :
    (dat0 (Vr (V3 m)) c).arrAt w cfg0.N = Vr (V4 m outs) c (Pipeline.arrRef spec0 w) := by
  by_cases hw : w = 3
  · subst hw
    exact (hok.H4 c).symm.trans
      (Function.update_self (Proc.devRef .tc main_v16 : DevRef τ sig) (outs 4 main_v16 c) (V3 m c)).symm
  · have hin : (cfg0.win w).isOut = false := by revert w; decide
    have hne : Pipeline.arrRef spec0 w ∉ ([main_v16] : List (Ref sig .tc)) := by revert w; decide
    exact ((dat0 (Vr (V3 m)) c).arrAt_in w hin _).trans ((dat0_A (Vr (V3 m)) c w).trans (V4_of m outs c _ hne).symm)

/-- Off region 0's arrays nothing changes. -/
theorem hrest0 (c : Dev nD) (b : Ref sig .tc) (hb : b ∉ Finset.univ.image (Pipeline.arrRef spec0)) :
    Vr (V4 m outs) c b = Vr (V3 m) c b :=
  V4_of m outs c b fun hmem => hb (by
    rw [List.mem_singleton] at hmem; subst hmem
    exact Finset.mem_image.mpr ⟨3, Finset.mem_univ _, rfl⟩)

-- a library lemma stated over the pinned configuration unifies with the printed one only when unification may
-- unfold plain definitions in a metavariable's type
set_option backward.isDefEq.respectTransparency.types false in
/-- Region 0 over the thread state: entered from every unscoped buffer at the contents before it, left at the
    contents after it. Its arrays are split out of the unscoped buffers and put back at the exit contents; the
    generator register goes into the invariant and comes out; nothing is owed; the kernel has no semaphore of its own. -/
def reg0 (hok : OutsOk m outs) :
    Pipeline.RegionSeg (pcfgs (F := F)) adm (pdats m outs) () defs₀ Variants.none runL runLv 0 where
  win := launch0.win.to₀
  block_pos := launch0.block_pos
  stage_whole := launch0.stage_whole
  K := PEmpty
  osem k := k.elim
  ho := Pipeline.OwnSemFacts.none _
  hbody c := (body0 (Vr (V3 m)) c).loose
  hwaits := Pipeline.hwaits_of_owed_zero _ _ _ _ runL runLv 0 fun _ _ => rfl
  pre c := iprop(StableHlo.held (c : Thread nD τ) (Pipeline.ucRefs τ sig) (V3 m c) ∗ restR c)
  post c := iprop(StableHlo.held (c : Thread nD τ) (Pipeline.ucRefs τ sig) (V4 m outs c) ∗ restR c)
  X c := iprop(∃ r, prngReg c r)
  Y c := iprop(∃ r, prngReg c r)
  Z c := Pipeline.unscopedRest (Ix := Unit) (Name := ℕ) (U := UR sig nD τ) (Lvl := ℕ) spec0 c (Vr (V3 m) c)
  hentry c := by
    rw [Pipeline.ownSems0_none]
    have hsplit := Pipeline.arrays_of_unscopedBufs (p := 0) (pcfgs (F := F)) adm (pdats m outs) launch0.win launch0.arr_whole c
      ((pdats m outs 0 c).share_full fun _ => rfl) (Vr (V3 m) c) fun w => dat0_A (Vr (V3 m)) c w
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m outs 0 c).Φ 0 = Pipeline.ΦA spec0 c from rfl]; unfold Pipeline.ΦA
    iintro ⟨Hp, -, Hr⟩
    isplitl [Hr]; · iexact Hr
    iexact Hp
  hout c := by
    rw [Pipeline.ownSems0_none]
    refine (show (pdats m outs 0 c).Φ (Fin.last _) ⊢ Pipeline.ΦA spec0 c from .rfl).trans ?_
    unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m outs) ((pdats m outs 0 c).share_full fun _ => rfl)
      (Vr (V3 m) c) (Vr (V4 m outs) c) ((pdats m outs 0 c).arrAt · cfg0.N) (hF0 m outs hok c) (hrest0 m outs c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-! ## Region 1 -/

/-- At region 1's exit each of its arrays holds what the write-backs leave: an input array what it held at entry,
    the output array the hypothesis' contents. -/
theorem hF1 (hok : OutsOk m outs) (c : Dev nD) (w : Fin cfg1.W) :
    (dat1 (Vr (V5 m outs)) c).arrAt w cfg1.N = Vr (V6 m outs) c (Pipeline.arrRef spec1 w) := by
  by_cases hw : w = 4
  · subst hw
    exact (hok.H6 c).symm.trans
      (Function.update_self (Proc.devRef .tc main_v29 : DevRef τ sig) (outs 6 main_v29 c) (V5 m outs c)).symm
  · have hin : (cfg1.win w).isOut = false := by revert w; decide
    have hne : Pipeline.arrRef spec1 w ∉ ([main_v29] : List (Ref sig .tc)) := by revert w; decide
    exact ((dat1 (Vr (V5 m outs)) c).arrAt_in w hin _).trans ((dat1_A (Vr (V5 m outs)) c w).trans (V6_of m outs c _ hne).symm)

/-- Off region 1's arrays nothing changes. -/
theorem hrest1 (c : Dev nD) (b : Ref sig .tc) (hb : b ∉ Finset.univ.image (Pipeline.arrRef spec1)) :
    Vr (V6 m outs) c b = Vr (V5 m outs) c b :=
  V6_of m outs c b fun hmem => hb (by
    rw [List.mem_singleton] at hmem; subst hmem
    exact Finset.mem_image.mpr ⟨4, Finset.mem_univ _, rfl⟩)

-- a library lemma stated over the pinned configuration unifies with the printed one only when unification may
-- unfold plain definitions in a metavariable's type
set_option backward.isDefEq.respectTransparency.types false in
/-- Region 1 over the thread state: entered from every unscoped buffer at the contents before it, left at the
    contents after it. Its arrays are split out of the unscoped buffers and put back at the exit contents; the
    generator register goes into the invariant and comes out; nothing is owed; the kernel has no semaphore of its own. -/
def reg1 (hok : OutsOk m outs) :
    Pipeline.RegionSeg (pcfgs (F := F)) adm (pdats m outs) () defs₀ Variants.none runL runLv 1 where
  win := launch1.win.to₀
  block_pos := launch1.block_pos
  stage_whole := launch1.stage_whole
  K := PEmpty
  osem k := k.elim
  ho := Pipeline.OwnSemFacts.none _
  hbody c := (body1 (Vr (V5 m outs)) c).loose
  hwaits := Pipeline.hwaits_of_owed_zero _ _ _ _ runL runLv 1 fun _ _ => rfl
  pre c := iprop(StableHlo.held (c : Thread nD τ) (Pipeline.ucRefs τ sig) (V5 m outs c) ∗ restR c)
  post c := iprop(StableHlo.held (c : Thread nD τ) (Pipeline.ucRefs τ sig) (V6 m outs c) ∗ restR c)
  X c := iprop(∃ r, prngReg c r)
  Y c := iprop(∃ r, prngReg c r)
  Z c := Pipeline.unscopedRest (Ix := Unit) (Name := ℕ) (U := UR sig nD τ) (Lvl := ℕ) spec1 c (Vr (V5 m outs) c)
  hentry c := by
    rw [Pipeline.ownSems0_none]
    have hsplit := Pipeline.arrays_of_unscopedBufs (p := 1) (pcfgs (F := F)) adm (pdats m outs) launch1.win launch1.arr_whole c
      ((pdats m outs 1 c).share_full fun _ => rfl) (Vr (V5 m outs) c) fun w => dat1_A (Vr (V5 m outs)) c w
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m outs 1 c).Φ 0 = Pipeline.ΦA spec1 c from rfl]; unfold Pipeline.ΦA
    iintro ⟨Hp, -, Hr⟩
    isplitl [Hr]; · iexact Hr
    iexact Hp
  hout c := by
    rw [Pipeline.ownSems0_none]
    refine (show (pdats m outs 1 c).Φ (Fin.last _) ⊢ Pipeline.ΦA spec1 c from .rfl).trans ?_
    unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m outs) ((pdats m outs 1 c).share_full fun _ => rfl)
      (Vr (V5 m outs) c) (Vr (V6 m outs) c) ((pdats m outs 1 c).arrAt · cfg1.N) (hF1 m outs hok c) (hrest1 m outs c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-! ## Region 2 -/

/-- At region 2's exit each of its arrays holds what the write-backs leave: an input array what it held at entry,
    the output array the hypothesis' contents. -/
theorem hF2 (hok : OutsOk m outs) (c : Dev nD) (w : Fin cfg2.W) :
    (dat2 (Vr (V7 m outs)) c).arrAt w cfg2.N = Vr (V8 m outs) c (Pipeline.arrRef spec2 w) := by
  by_cases hw : w = 4
  · subst hw
    exact (hok.H8 c).symm.trans
      (Function.update_self (Proc.devRef .tc main_v42 : DevRef τ sig) (outs 8 main_v42 c) (V7 m outs c)).symm
  · have hin : (cfg2.win w).isOut = false := by revert w; decide
    have hne : Pipeline.arrRef spec2 w ∉ ([main_v42] : List (Ref sig .tc)) := by revert w; decide
    exact ((dat2 (Vr (V7 m outs)) c).arrAt_in w hin _).trans ((dat2_A (Vr (V7 m outs)) c w).trans (V8_of m outs c _ hne).symm)

/-- Off region 2's arrays nothing changes. -/
theorem hrest2 (c : Dev nD) (b : Ref sig .tc) (hb : b ∉ Finset.univ.image (Pipeline.arrRef spec2)) :
    Vr (V8 m outs) c b = Vr (V7 m outs) c b :=
  V8_of m outs c b fun hmem => hb (by
    rw [List.mem_singleton] at hmem; subst hmem
    exact Finset.mem_image.mpr ⟨4, Finset.mem_univ _, rfl⟩)

-- a library lemma stated over the pinned configuration unifies with the printed one only when unification may
-- unfold plain definitions in a metavariable's type
set_option backward.isDefEq.respectTransparency.types false in
/-- Region 2 over the thread state: entered from every unscoped buffer at the contents before it, left at the
    contents after it. Its arrays are split out of the unscoped buffers and put back at the exit contents; the
    generator register goes into the invariant and comes out; nothing is owed; the kernel has no semaphore of its own. -/
def reg2 (hok : OutsOk m outs) :
    Pipeline.RegionSeg (pcfgs (F := F)) adm (pdats m outs) () defs₀ Variants.none runL runLv 2 where
  win := launch2.win.to₀
  block_pos := launch2.block_pos
  stage_whole := launch2.stage_whole
  K := PEmpty
  osem k := k.elim
  ho := Pipeline.OwnSemFacts.none _
  hbody c := (body2 (Vr (V7 m outs)) c).loose
  hwaits := Pipeline.hwaits_of_owed_zero _ _ _ _ runL runLv 2 fun _ _ => rfl
  pre c := iprop(StableHlo.held (c : Thread nD τ) (Pipeline.ucRefs τ sig) (V7 m outs c) ∗ restR c)
  post c := iprop(StableHlo.held (c : Thread nD τ) (Pipeline.ucRefs τ sig) (V8 m outs c) ∗ restR c)
  X c := iprop(∃ r, prngReg c r)
  Y c := iprop(∃ r, prngReg c r)
  Z c := Pipeline.unscopedRest (Ix := Unit) (Name := ℕ) (U := UR sig nD τ) (Lvl := ℕ) spec2 c (Vr (V7 m outs) c)
  hentry c := by
    rw [Pipeline.ownSems0_none]
    have hsplit := Pipeline.arrays_of_unscopedBufs (p := 2) (pcfgs (F := F)) adm (pdats m outs) launch2.win launch2.arr_whole c
      ((pdats m outs 2 c).share_full fun _ => rfl) (Vr (V7 m outs) c) fun w => dat2_A (Vr (V7 m outs)) c w
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m outs 2 c).Φ 0 = Pipeline.ΦA spec2 c from rfl]; unfold Pipeline.ΦA
    iintro ⟨Hp, -, Hr⟩
    isplitl [Hr]; · iexact Hr
    iexact Hp
  hout c := by
    rw [Pipeline.ownSems0_none]
    refine (show (pdats m outs 2 c).Φ (Fin.last _) ⊢ Pipeline.ΦA spec2 c from .rfl).trans ?_
    unfold Pipeline.ΦA
    iintro ⟨Hr, Hp⟩
    isplitl [Hp]; · iexact Hp
    isplitr; · iempintro
    iexact Hr
  hexit c := by
    have hjoin := Pipeline.unscopedBufs_of_arrays (p := 2) (pcfgs (F := F)) adm (Ix := Unit) (Name := ℕ) (U := UR sig nD τ) (Lvl := ℕ)
      launch2.win launch2.arr_whole c (pdats m outs) ((pdats m outs 2 c).share_full fun _ => rfl)
      (Vr (V7 m outs) c) (Vr (V8 m outs) c) ((pdats m outs 2 c).arrAt · cfg2.N) (hF2 m outs hok c) (hrest2 m outs c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-! ## Region 3 -/

/-- At region 3's exit each of its arrays holds what the write-backs leave: an input array what it held at entry,
    the output array the hypothesis' contents. -/
theorem hF3 (hok : OutsOk m outs) (c : Dev nD) (w : Fin cfg3.W) :
    (dat3 (Vr (V9 m outs)) c).arrAt w cfg3.N = Vr (V10 m outs) c (Pipeline.arrRef spec3 w) := by
  by_cases hw : w = 7
  · subst hw
    exact (hok.H10 c).symm.trans
      (Function.update_self (Proc.devRef .tc main_v62 : DevRef τ sig) (outs 10 main_v62 c) (V9 m outs c)).symm
  · have hin : (cfg3.win w).isOut = false := by revert w; decide
    have hne : Pipeline.arrRef spec3 w ∉ ([main_v62] : List (Ref sig .tc)) := by revert w; decide
    exact ((dat3 (Vr (V9 m outs)) c).arrAt_in w hin _).trans ((dat3_A (Vr (V9 m outs)) c w).trans (V10_of m outs c _ hne).symm)

/-- Off region 3's arrays nothing changes. -/
theorem hrest3 (c : Dev nD) (b : Ref sig .tc) (hb : b ∉ Finset.univ.image (Pipeline.arrRef spec3)) :
    Vr (V10 m outs) c b = Vr (V9 m outs) c b :=
  V10_of m outs c b fun hmem => hb (by
    rw [List.mem_singleton] at hmem; subst hmem
    exact Finset.mem_image.mpr ⟨7, Finset.mem_univ _, rfl⟩)

-- a library lemma stated over the pinned configuration unifies with the printed one only when unification may
-- unfold plain definitions in a metavariable's type
set_option backward.isDefEq.respectTransparency.types false in
/-- Region 3 over the thread state: entered from every unscoped buffer at the contents before it, left at the
    contents after it. Its arrays are split out of the unscoped buffers and put back at the exit contents; the
    generator register goes into the invariant and comes out; nothing is owed; the kernel has no semaphore of its own. -/
def reg3 (hok : OutsOk m outs) :
    Pipeline.RegionSeg (pcfgs (F := F)) adm (pdats m outs) () defs₀ Variants.none runL runLv 3 where
  win := launch3.win.to₀
  block_pos := launch3.block_pos
  stage_whole := launch3.stage_whole
  K := PEmpty
  osem k := k.elim
  ho := Pipeline.OwnSemFacts.none _
  hbody c := (body3 (Vr (V9 m outs)) c).loose
  hwaits := Pipeline.hwaits_of_owed_zero _ _ _ _ runL runLv 3 fun _ _ => rfl
  pre c := iprop(StableHlo.held (c : Thread nD τ) (Pipeline.ucRefs τ sig) (V9 m outs c) ∗ restR c)
  post c := iprop((StableHlo.held (c : Thread nD τ) (Pipeline.ucRefs τ sig) (V10 m outs c) ∗ ∃ r, prngReg c r)
    ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := UR sig nD τ) (Lvl := ℕ) spec3 c (Vr (V9 m outs) c)
  hentry c := by
    rw [Pipeline.ownSems0_none]
    have hsplit := Pipeline.arrays_of_unscopedBufs (p := 3) (pcfgs (F := F)) adm (pdats m outs) launch3.win launch3.arr_whole c
      ((pdats m outs 3 c).share_full fun _ => rfl) (Vr (V9 m outs) c) fun w => dat3_A (Vr (V9 m outs)) c w
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m outs 3 c).Φ 0 = Pipeline.ΦA spec3 c from dat3_Phi0 (Vr (V9 m outs)) c]; unfold Pipeline.ΦA
    iintro ⟨Hp, -, Hr⟩
    isplitl [Hr]; · iexact Hr
    iexact Hp
  hout c := by
    rw [Pipeline.ownSems0_none]
    refine (show (pdats m outs 3 c).Φ (Fin.last _) ⊢ Pipeline.ΦA spec3 c from dat3_PhiLast (Vr (V9 m outs)) c).trans ?_
    unfold Pipeline.ΦA
    iintro ⟨Hr, Hp⟩
    isplitl [Hp]; · iexact Hp
    isplitr; · iempintro
    iexact Hr
  hexit c := by
    have hjoin := Pipeline.unscopedBufs_of_arrays (p := 3) (pcfgs (F := F)) adm (Ix := Unit) (Name := ℕ) (U := UR sig nD τ) (Lvl := ℕ)
      launch3.win launch3.arr_whole c (pdats m outs) ((pdats m outs 3 c).share_full fun _ => rfl)
      (Vr (V9 m outs) c) (Vr (V10 m outs) c) ((pdats m outs 3 c).arrAt · cfg3.N) (hF3 m outs hok c) (hrest3 m outs c)
    rw [Pipeline.unscopedBufs_held] at hjoin
    iintro ⟨Ha, HO, HY, Hrest⟩
    imodintro
    isplitl [Ha Hrest HY]
    · isplitl [Ha Hrest]
      · iapply hjoin; isplitl [Ha] <;> iassumption
      iexact HY
    unfold Pipeline.Dat.owesAt Pipeline.owesWithin
    icases HO with ⟨%W, -, HO⟩; iexists W; iexact HO

end Records

/-! ## The run -/

-- the launch theorem's implicit arguments are found by unifying its conclusion with this one, which takes unfolding
-- plain definitions in a metavariable's type
set_option backward.isDefEq.respectTransparency.types false in
/-- From any memory with zero counters every weakly fair execution of the program terminates; the result buffer
    then holds what the last region's write-backs leave, and every argument is as launched. -/
theorem run_of (m : (ℓ : Loc nD τ sig) → Buf (Elt F) ℓ) (ρ : Dev nD → PrngReg) (outs : Outs (F := F)) (hok : OutsOk m outs) :
    θ_run defs (onTc (τ := τ) (main (F := F))) ⟨m, fun _ => 0, ρ⟩ (fun r => ∀ c : Dev nD,
      r.2.mem ((c.tc : Thread nD τ).loc main_v62) = outs 10 main_v62 c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)) := by
  refine Pipeline.θ_run_regions_kit_dev (pcfgs (F := F)) adm (pdats m outs) () cellOf_inj emb₁ defs₀ Variants.none runL runLv m ρ main
    (segs m outs Variants.none runL runLv restE () (pdats m outs) (reg0 m outs hok) (reg1 m outs hok) (reg2 m outs hok) (reg3 m outs hok))
    (fun c Q => by
      rewrite [main_chain c, Pipeline.Seg.run_eq_chain,
        show (segs m outs Variants.none runL runLv restE () (pdats m outs) (reg0 m outs hok) (reg1 m outs hok) (reg2 m outs hok) (reg3 m outs hok) c).map Pipeline.Seg.prog = [
          StableHlo.seq hostOps0,
          StableHlo.seq hostOps0_1,
          StableHlo.seq hostOps0_2,
          Prog.lift (.customCall (Pipeline.entry 0) ()),
          StableHlo.seq hostOps1,
          Prog.lift (.customCall (Pipeline.entry 1) ()),
          StableHlo.seq hostOps2,
          Prog.lift (.customCall (Pipeline.entry 2) ()),
          StableHlo.seq hostOps3,
          Prog.lift (.customCall (Pipeline.entry 3) ()) ] from rfl]
      exact .rfl)
    (fun c => by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (V0 m c) ∗ restR c))
    (Tₙ := fun c => iprop(StableHlo.held (c : Thread nD τ) (Pipeline.ucRefs τ sig) (V10 m outs c) ∗ ∃ r, prngReg c r))
    (hch := fun c => ⟨.rfl, .rfl, .rfl, .rfl, .rfl, .rfl, .rfl, .rfl, .rfl, .rfl, .rfl⟩)
    (hinit := ?_)
    (QY := fun c s => s.mem ((c.tc : Thread nD τ).loc main_v62) = outs 10 main_v62 c
      ∧ s.mem ((c.tc : Thread nD τ).loc main_arg0) = m ((c.tc : Thread nD τ).loc main_arg0)
      ∧ s.mem ((c.tc : Thread nD τ).loc main_arg1) = m ((c.tc : Thread nD τ).loc main_arg1)
      ∧ s.mem ((c.tc : Thread nD τ).loc main_arg2) = m ((c.tc : Thread nD τ).loc main_arg2)
      ∧ s.mem ((c.tc : Thread nD τ).loc main_arg3) = m ((c.tc : Thread nD τ).loc main_arg3)
      ∧ s.mem ((c.tc : Thread nD τ).loc main_arg4) = m ((c.tc : Thread nD τ).loc main_arg4)
      ∧ s.mem ((c.tc : Thread nD τ).loc main_arg5) = m ((c.tc : Thread nD τ).loc main_arg5)
      ∧ s.mem ((c.tc : Thread nD τ).loc main_arg6) = m ((c.tc : Thread nD τ).loc main_arg6)
      ∧ s.mem ((c.tc : Thread nD τ).loc main_arg7) = m ((c.tc : Thread nD τ).loc main_arg7)
      ∧ s.mem ((c.tc : Thread nD τ).loc main_arg8) = m ((c.tc : Thread nD τ).loc main_arg8)
      ∧ s.mem ((c.tc : Thread nD τ).loc main_arg9) = m ((c.tc : Thread nD τ).loc main_arg9)
      ∧ s.mem ((c.tc : Thread nD τ).loc main_arg10) = m ((c.tc : Thread nD τ).loc main_arg10))
    (hfin := fun c s' => ?_) (hQ := fun _ hq => hq)
  · -- the launch: on each core the unscoped buffers are held at the launch contents, the register and the empty debt beside them
    refine Pipeline.initEach runL runLv fun c => ?_
    rw [show unscopedBufs c (fun b => m ((c : Thread nD τ).loc b)) = StableHlo.held (c : Thread nD τ) (Pipeline.ucRefs τ sig) (V0 m c)
      from Pipeline.unscopedBufs_held c (V0 m c)]
    iintro ⟨⟨Hh, -, HO, -, Hp, -⟩, -⟩
    imodintro
    isplitl [Hh]; · iexact Hh
    isplitl [Hp]; · iexists _; iexact Hp
    iexists ∅; iexact HO
  · -- the end: the result buffer and each argument's buffer read off the last valuation
    unfold StableHlo.held
    iintro ⟨⟨Hh, -⟩, HSI⟩
    ihave Hr := (pointsTo_read_all (Pipeline.ucRefs τ sig) (fun b => ((c : Thread nD τ).1, b)) (V10 m outs c) s') $$ [Hh HSI]
    · isplitl [Hh] <;> iassumption
    icases Hr with ⟨%hr, HSI⟩
    imodintro
    isplitr
    · ipureintro
      exact ⟨(hr (Proc.devRef .tc main_v62) (Finset.mem_filter.mpr ⟨StableHlo.devRef_mem_tcRefs main_v62, by decide⟩)).trans
          (Function.update_self (Proc.devRef .tc main_v62 : DevRef τ sig) (outs 10 main_v62 c) (V9 m outs c)),
        (hr (Proc.devRef .tc main_arg0) (Finset.mem_filter.mpr ⟨StableHlo.devRef_mem_tcRefs main_arg0, by decide⟩)).trans (V10_main_arg0 m outs c),
        (hr (Proc.devRef .tc main_arg1) (Finset.mem_filter.mpr ⟨StableHlo.devRef_mem_tcRefs main_arg1, by decide⟩)).trans (V10_main_arg1 m outs c),
        (hr (Proc.devRef .tc main_arg2) (Finset.mem_filter.mpr ⟨StableHlo.devRef_mem_tcRefs main_arg2, by decide⟩)).trans (V10_main_arg2 m outs c),
        (hr (Proc.devRef .tc main_arg3) (Finset.mem_filter.mpr ⟨StableHlo.devRef_mem_tcRefs main_arg3, by decide⟩)).trans (V10_main_arg3 m outs c),
        (hr (Proc.devRef .tc main_arg4) (Finset.mem_filter.mpr ⟨StableHlo.devRef_mem_tcRefs main_arg4, by decide⟩)).trans (V10_main_arg4 m outs c),
        (hr (Proc.devRef .tc main_arg5) (Finset.mem_filter.mpr ⟨StableHlo.devRef_mem_tcRefs main_arg5, by decide⟩)).trans (V10_main_arg5 m outs c),
        (hr (Proc.devRef .tc main_arg6) (Finset.mem_filter.mpr ⟨StableHlo.devRef_mem_tcRefs main_arg6, by decide⟩)).trans (V10_main_arg6 m outs c),
        (hr (Proc.devRef .tc main_arg7) (Finset.mem_filter.mpr ⟨StableHlo.devRef_mem_tcRefs main_arg7, by decide⟩)).trans (V10_main_arg7 m outs c),
        (hr (Proc.devRef .tc main_arg8) (Finset.mem_filter.mpr ⟨StableHlo.devRef_mem_tcRefs main_arg8, by decide⟩)).trans (V10_main_arg8 m outs c),
        (hr (Proc.devRef .tc main_arg9) (Finset.mem_filter.mpr ⟨StableHlo.devRef_mem_tcRefs main_arg9, by decide⟩)).trans (V10_main_arg9 m outs c),
        (hr (Proc.devRef .tc main_arg10) (Finset.mem_filter.mpr ⟨StableHlo.devRef_mem_tcRefs main_arg10, by decide⟩)).trans (V10_main_arg10 m outs c)⟩
    · iexact HSI

end Cert.KernelIdeal.Hand

end
-- ==== Proof.KI.Outs.lean ====
/-
  The contents the four regions leave in their output arrays exist as one family: each region's output is a
  function of the arrays the region finds, and those depend only on the outputs of the regions before it, so the
  four unknowns are solved in order, each from the ones already fixed.
-/
import proofs.«401627_j1056561955307_2_alg».proof.Proof.KI.RunDefs

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

variable (m : (ℓ : Loc nD τ sig) → Buf (Elt F) ℓ)

/-! ## A family from four chosen output contents -/

/-- The family that holds `o4`, `o6`, `o8`, `o10` at the four entries the valuations read, and the arrays'
    contents before the first region at every other reference. -/
def famOuts (o4 : (c : Dev nD) → Buf (Elt F) ((c : Thread nD τ).loc main_v16))
    (o6 : (c : Dev nD) → Buf (Elt F) ((c : Thread nD τ).loc main_v29))
    (o8 : (c : Dev nD) → Buf (Elt F) ((c : Thread nD τ).loc main_v42))
    (o10 : (c : Dev nD) → Buf (Elt F) ((c : Thread nD τ).loc main_v62)) : Outs (F := F) :=
  fun j r c =>
    if j = 4 then Function.update (V3 m c) main_v16 (o4 c) r
    else if j = 6 then Function.update (V3 m c) main_v29 (o6 c) r
    else if j = 8 then Function.update (V3 m c) main_v42 (o8 c) r
    else Function.update (V3 m c) main_v62 (o10 c) r

theorem famOuts_4 (o4 o6 o8 o10) (c : Dev nD) : famOuts m o4 o6 o8 o10 4 main_v16 c = o4 c := by
  unfold famOuts; rw [if_pos rfl]; exact Function.update_self _ _ _
theorem famOuts_6 (o4 o6 o8 o10) (c : Dev nD) : famOuts m o4 o6 o8 o10 6 main_v29 c = o6 c := by
  unfold famOuts; rw [if_neg (by decide), if_pos rfl]; exact Function.update_self _ _ _
theorem famOuts_8 (o4 o6 o8 o10) (c : Dev nD) : famOuts m o4 o6 o8 o10 8 main_v42 c = o8 c := by
  unfold famOuts; rw [if_neg (by decide), if_neg (by decide), if_pos rfl]; exact Function.update_self _ _ _
theorem famOuts_10 (o4 o6 o8 o10) (c : Dev nD) : famOuts m o4 o6 o8 o10 10 main_v62 c = o10 c := by
  unfold famOuts; rw [if_neg (by decide), if_neg (by decide), if_neg (by decide)]; exact Function.update_self _ _ _

/-! ## The valuations read the family only at those entries -/

theorem V5_congr {outs outs' : Outs (F := F)} (h4 : ∀ c, outs 4 main_v16 c = outs' 4 main_v16 c) :
    V5 m outs = V5 m outs' := by
  funext c; show StableHlo.after hostOps1 (Function.update (V3 m c) main_v16 (outs 4 main_v16 c)) = _
  rw [h4 c]

theorem V7_congr {outs outs' : Outs (F := F)} (h4 : ∀ c, outs 4 main_v16 c = outs' 4 main_v16 c)
    (h6 : ∀ c, outs 6 main_v29 c = outs' 6 main_v29 c) : V7 m outs = V7 m outs' := by
  funext c; show StableHlo.after hostOps2 (Function.update (V5 m outs c) main_v29 (outs 6 main_v29 c)) = _
  rw [h6 c, V5_congr m h4]

theorem V9_congr {outs outs' : Outs (F := F)} (h4 : ∀ c, outs 4 main_v16 c = outs' 4 main_v16 c)
    (h6 : ∀ c, outs 6 main_v29 c = outs' 6 main_v29 c) (h8 : ∀ c, outs 8 main_v42 c = outs' 8 main_v42 c) :
    V9 m outs = V9 m outs' := by
  funext c; show StableHlo.after hostOps3 (Function.update (V7 m outs c) main_v42 (outs 8 main_v42 c)) = _
  rw [h8 c, V7_congr m h4 h6]

/-! ## The four contents, in order -/

/-- What region 0 leaves in its output array: it finds the arrays as the first host stretches leave them. -/
def out4 (c : Dev nD) : Buf (Elt F) ((c : Thread nD τ).loc main_v16) := (dat0 (Vr (V3 m)) c).arrAt 3 cfg0.N

/-- The family once region 0's output is fixed. -/
def outsA : Outs (F := F) :=
  famOuts m (out4 m) (fun c => Vr (V3 m) c main_v29) (fun c => Vr (V3 m) c main_v42) (fun c => Vr (V3 m) c main_v62)

/-- What region 1 leaves, its arrays found after region 0's output is in place. -/
def out6 (c : Dev nD) : Buf (Elt F) ((c : Thread nD τ).loc main_v29) := (dat1 (Vr (V5 m (outsA m))) c).arrAt 4 cfg1.N

/-- The family once the outputs of regions 0 and 1 are fixed. -/
def outsB : Outs (F := F) :=
  famOuts m (out4 m) (out6 m) (fun c => Vr (V3 m) c main_v42) (fun c => Vr (V3 m) c main_v62)

/-- What region 2 leaves, its arrays found after the outputs of regions 0 and 1 are in place. -/
def out8 (c : Dev nD) : Buf (Elt F) ((c : Thread nD τ).loc main_v42) := (dat2 (Vr (V7 m (outsB m))) c).arrAt 4 cfg2.N

/-- The family once the outputs of regions 0, 1 and 2 are fixed. -/
def outsC : Outs (F := F) :=
  famOuts m (out4 m) (out6 m) (out8 m) (fun c => Vr (V3 m) c main_v62)

/-- What region 3 leaves, its arrays found after the outputs of regions 0, 1 and 2 are in place. -/
def out10 (c : Dev nD) : Buf (Elt F) ((c : Thread nD τ).loc main_v62) := (dat3 (Vr (V9 m (outsC m))) c).arrAt 7 cfg3.N

/-- The family of the four. -/
def theOuts : Outs (F := F) := famOuts m (out4 m) (out6 m) (out8 m) (out10 m)

theorem theOuts_4 (c : Dev nD) : theOuts m 4 main_v16 c = out4 m c := famOuts_4 m _ _ _ _ c
theorem theOuts_6 (c : Dev nD) : theOuts m 6 main_v29 c = out6 m c := famOuts_6 m _ _ _ _ c
theorem theOuts_8 (c : Dev nD) : theOuts m 8 main_v42 c = out8 m c := famOuts_8 m _ _ _ _ c
theorem theOuts_10 (c : Dev nD) : theOuts m 10 main_v62 c = out10 m c := famOuts_10 m _ _ _ _ c
theorem outsA_4 (c : Dev nD) : outsA m 4 main_v16 c = out4 m c := famOuts_4 m _ _ _ _ c
theorem outsB_4 (c : Dev nD) : outsB m 4 main_v16 c = out4 m c := famOuts_4 m _ _ _ _ c
theorem outsB_6 (c : Dev nD) : outsB m 6 main_v29 c = out6 m c := famOuts_6 m _ _ _ _ c
theorem outsC_4 (c : Dev nD) : outsC m 4 main_v16 c = out4 m c := famOuts_4 m _ _ _ _ c
theorem outsC_6 (c : Dev nD) : outsC m 6 main_v29 c = out6 m c := famOuts_6 m _ _ _ _ c
theorem outsC_8 (c : Dev nD) : outsC m 8 main_v42 c = out8 m c := famOuts_8 m _ _ _ _ c

/-- Each region finds, under the final family, the arrays it found when its output was fixed. -/
theorem V5_theOuts : V5 m (theOuts m) = V5 m (outsA m) :=
  V5_congr m (fun c => (theOuts_4 m c).trans (outsA_4 m c).symm)
theorem V7_theOuts : V7 m (theOuts m) = V7 m (outsB m) :=
  V7_congr m (fun c => (theOuts_4 m c).trans (outsB_4 m c).symm) (fun c => (theOuts_6 m c).trans (outsB_6 m c).symm)
theorem V9_theOuts : V9 m (theOuts m) = V9 m (outsC m) :=
  V9_congr m (fun c => (theOuts_4 m c).trans (outsC_4 m c).symm) (fun c => (theOuts_6 m c).trans (outsC_6 m c).symm)
    (fun c => (theOuts_8 m c).trans (outsC_8 m c).symm)

/-! ## Existence -/

theorem theOuts_ok : OutsOk m (theOuts m) where
  H4 c := theOuts_4 m c
  H6 c := by rw [V5_theOuts]; exact theOuts_6 m c
  H8 c := by rw [V7_theOuts]; exact theOuts_8 m c
  H10 c := by rw [V9_theOuts]; exact theOuts_10 m c

/-- Contents for the four regions' output arrays exist, each the fold of its region's write-backs over the array as
    that region finds it. -/
theorem exists_outs (m : (ℓ : Loc nD τ sig) → Buf (Elt F) ℓ) : ∃ outs : Outs (F := F), OutsOk m outs :=
  ⟨theOuts m, theOuts_ok m⟩

end Cert.KernelIdeal.Hand

end
-- ==== Proof.KI.Args.lean ====
/-
  The two integer arguments of the kernel program as the memory holds them at launch: the edge array (two rows of
  800000 words: sources, targets) and the per-node graph numbers.
-/
import proofs.«401627_j1056561955307_2_alg».proof.Proof.Gen.KernelIdeal.Regions
import Idealize.ShloMosaic.PureOps.Ideal

noncomputable section

namespace Cert.KernelIdeal.Hand

open Cert.KernelIdeal Cert.KernelIdeal.Gen Idealize.ShloMosaic Idealize.ShloMosaic.TcCoe Idealize.SL.Sem

variable (m : (ℓ : Loc nD τ sig) → Buf (Elt Ideal) ℓ) (c : Dev nD)

/-- The edge array at launch. -/
abbrev A1 : (⟨2, ![2, 800000]⟩ : Shape).Idx → BitVec 32 := m ((c : Thread nD τ).loc main_arg1)
/-- The graph numbers at launch. -/
abbrev A2 : (⟨1, ![50000]⟩ : Shape).Idx → BitVec 32 := m ((c : Thread nD τ).loc main_arg2)

end Cert.KernelIdeal.Hand

end
-- ==== Proof.Spec.lean ====
/-
  The mathematics of the two programs, on the extended reals, with every array a function of explicit coordinates.

  A graph of `N = 50000` nodes carries `E = 850000` directed pairs (the given edges, then one self-loop per
  node). Pair `e` has a source row `rowc e` (a node), a target read two ways: `colz e`, the signed value the
  segment sums compare with a node's number (a pair whose value names no node lands nowhere), and `colc e`, the node
  a table lookup at that target reads. `d` is the per-node scale (the inverse square root of the in-degree).

  Both programs run three rounds "multiply by a weight matrix, send along the pairs, sum at the targets, add a
  bias" (a rectifier after the first two), then average the node rows per graph and apply a last linear map.

  * The reference scales each message by `d (rowc e) * d (colc e)` before the sum.
  * The kernel scales the rows by `d` before they are sent, and the sums by `d` afterwards.

  The two agree because `d v` is a nonnegative real, over which multiplication distributes on the extended reals
  whatever the summands are, and because a pair that lands on node `v` reads the table at `v`.
-/
import Idealize.ShloMosaic.PureOps.Ideal
import Idealize.ShloMosaic.Lib.ValueIdx

noncomputable section

namespace Cert.Gcn

open Idealize.ShloMosaic
open scoped BigOperators

/-- Nodes, pairs, features, graphs, outputs. -/
abbrev nN : Nat := 50000
abbrev nE : Nat := 850000
abbrev nD : Nat := 128
abbrev nG : Nat := 128
abbrev nO : Nat := 3

variable (rowc colc : Fin nE → Fin nN) (colz : Fin nE → ℤ) (d : Fin nN → EReal)

/-! ## What the kernel program computes -/

/-- First region: the rows of `x · w`, each scaled by its node's `d`. -/
def klin0 (x : Fin nN → Fin nD → EReal) (w : Fin nD → Fin nD → EReal) : Fin nN → Fin nD → EReal :=
  fun r k => (∑ j : Fin nD, x r j * w j k) * d r

/-- Between regions: send the scaled rows along the pairs and sum them at the targets. -/
def kagg (t : Fin nN → Fin nD → EReal) : Fin nN → Fin nD → EReal :=
  fun v k => ∑ e ∈ Finset.univ.filter (fun e : Fin nE => colz e = (v.val : ℤ)), t (rowc e) k

/-- Second and third regions: finish the previous round (scale the sums, add the bias, rectify), multiply by the
    next weight matrix and scale the rows again. -/
def klin1 (a : Fin nN → Fin nD → EReal) (b : Fin nD → EReal) (w : Fin nD → Fin nD → EReal) : Fin nN → Fin nD → EReal :=
  fun r k => (∑ j : Fin nD, max (a r j * d r + b j) 0 * w j k) * d r

/-- Last region: finish the third round (no rectifier), sum the node rows per graph through the indicator `oh r g`
    of "node `r` belongs to graph `g`", divide by the clamped counts, apply the last linear map. -/
def kpool (a : Fin nN → Fin nD → EReal) (b : Fin nD → EReal) (oh : Fin nN → Fin nG → EReal) (cnt : Fin nG → EReal)
    (wl : Fin nD → Fin nO → EReal) (bl : Fin nO → EReal) : Fin nG → Fin nO → EReal :=
  fun g o => (∑ j : Fin nD, Ideal.div (∑ r : Fin nN, oh r g * (a r j * d r + b j)) (max (cnt g) 1) * wl j o) + bl o

/-- The kernel program's result. -/
def kres (x : Fin nN → Fin nD → EReal) (w1 : Fin nD → Fin nD → EReal) (b1 : Fin nD → EReal)
    (w2 : Fin nD → Fin nD → EReal) (b2 : Fin nD → EReal) (w3 : Fin nD → Fin nD → EReal) (b3 : Fin nD → EReal)
    (oh : Fin nN → Fin nG → EReal) (cnt : Fin nG → EReal) (wl : Fin nD → Fin nO → EReal) (bl : Fin nO → EReal) :
    Fin nG → Fin nO → EReal :=
  kpool d (kagg rowc colz (klin1 d (kagg rowc colz (klin1 d (kagg rowc colz (klin0 d x w1)) b1 w2)) b2 w3)) b3 oh cnt wl bl

/-! ## What the reference program computes -/

/-- One round of the reference: multiply, send along the pairs scaled by `d (rowc e) * d (colc e)`, sum at the
    targets, add the bias. -/
def rconv (h : Fin nN → Fin nD → EReal) (w : Fin nD → Fin nD → EReal) (b : Fin nD → EReal) : Fin nN → Fin nD → EReal :=
  fun v k => (∑ e ∈ Finset.univ.filter (fun e : Fin nE => colz e = (v.val : ℤ)),
      (∑ j : Fin nD, h (rowc e) j * w j k) * (d (rowc e) * d (colc e))) + b k

/-- The rectifier. -/
def relu (h : Fin nN → Fin nD → EReal) : Fin nN → Fin nD → EReal := fun v k => max (h v k) 0

/-- The reference's pooling: per graph the sum of the rows of the nodes whose signed graph number `bz r` is `g`,
    divided by the clamped counts, then the last linear map. -/
def rpool (h : Fin nN → Fin nD → EReal) (bz : Fin nN → ℤ) (cnt : Fin nG → EReal)
    (wl : Fin nD → Fin nO → EReal) (bl : Fin nO → EReal) : Fin nG → Fin nO → EReal :=
  fun g o => (∑ j : Fin nD, Ideal.div (∑ r ∈ Finset.univ.filter (fun r : Fin nN => bz r = (g.val : ℤ)), h r j) (max (cnt g) 1) * wl j o) + bl o

/-- The reference program's result. -/
def rres (x : Fin nN → Fin nD → EReal) (w1 : Fin nD → Fin nD → EReal) (b1 : Fin nD → EReal)
    (w2 : Fin nD → Fin nD → EReal) (b2 : Fin nD → EReal) (w3 : Fin nD → Fin nD → EReal) (b3 : Fin nD → EReal)
    (bz : Fin nN → ℤ) (cnt : Fin nG → EReal) (wl : Fin nD → Fin nO → EReal) (bl : Fin nO → EReal) :
    Fin nG → Fin nO → EReal :=
  rpool (rconv rowc colc colz d (relu (rconv rowc colc colz d (relu (rconv rowc colc colz d x w1 b1)) w2 b2)) w3 b3) bz cnt wl bl

end Cert.Gcn

end
-- ==== Proof.Idx.lean ====
/-
  The integer side of both programs as explicit formulas of the two integer arguments: the pair list (the given
  edges followed by one self-loop per node), how a pair's endpoints are read, the degree scale, and graph membership.

  `a1` is the 2 × 800000 edge array (row 0 the sources, row 1 the targets), `a2` the per-node graph numbers.

  * Pair `e < 800000` is edge `e`; pair `800000 + n` is the self-loop at node `n`.
  * A table lookup at an endpoint word first adds `50000` to a negative word, then clamps into `[0, 49999]`.
  * A segment sum compares the signed word itself with the segment's number; a word naming no segment lands nowhere.
  * `degOf v` counts the pairs landing on `v`; `dOf v` is its inverse square root, `0` where nothing lands.
-/
import proofs.«401627_j1056561955307_2_alg».proof.Proof.Spec

noncomputable section

namespace Cert.Gcn

open Idealize.ShloMosaic Idealize.ShloMosaic.ValueIdx
open scoped BigOperators

/-- The word of pair `e` on side `s` (0 the source, 1 the target): the edge array's, then the node's own number. -/
def pairW (a1 : (⟨2, ![2, 800000]⟩ : Shape).Idx → BitVec 32) (s : Fin 2) (e : Fin nE) : BitVec 32 :=
  if h : e.val < 800000 then a1 (ix2 s (⟨e.val, h⟩ : Fin 800000)) else BitVec.ofNat 32 (e.val - 800000)

/-- A lookup index: a negative word is first moved up by the table's length. -/
def wrapW (w : BitVec 32) : BitVec 32 := if w.toInt < 0 then w + 50000#32 else w

/-- A lookup reads the row the (wrapped) word names, clamped into the table. -/
def clampN (w : BitVec 32) : Fin nN := ⟨min w.toInt.toNat (nN - 1), by unfold nN; omega⟩

/-- The node whose row pair `e`'s message is read from. -/
def rowc (a1 : (⟨2, ![2, 800000]⟩ : Shape).Idx → BitVec 32) (e : Fin nE) : Fin nN := clampN (wrapW (pairW a1 0 e))
/-- The node at which a lookup at pair `e`'s target reads. -/
def colc (a1 : (⟨2, ![2, 800000]⟩ : Shape).Idx → BitVec 32) (e : Fin nE) : Fin nN := clampN (wrapW (pairW a1 1 e))
/-- The signed target word of pair `e`, as a segment sum compares it. -/
def colz (a1 : (⟨2, ![2, 800000]⟩ : Shape).Idx → BitVec 32) (e : Fin nE) : ℤ := (pairW a1 1 e).toInt

/-- The in-degree of node `v` (self-loop included), as an extended real. -/
def degOf (a1 : (⟨2, ![2, 800000]⟩ : Shape).Idx → BitVec 32) (v : Fin nN) : EReal :=
  ∑ _e ∈ Finset.univ.filter (fun e : Fin nE => colz a1 e = (v.val : ℤ)), (1 : EReal)

/-- The degree scale. -/
def dOf (a1 : (⟨2, ![2, 800000]⟩ : Shape).Idx → BitVec 32) (v : Fin nN) : EReal :=
  if 0 < degOf a1 v then Ideal.rsqrt (degOf a1 v) else 0

/-- The signed graph number of node `r`. -/
def bz (a2 : (⟨1, ![50000]⟩ : Shape).Idx → BitVec 32) (r : Fin nN) : ℤ := (a2 (ix1 r)).toInt

/-- The number of nodes of graph `g`. -/
def cntOf (a2 : (⟨1, ![50000]⟩ : Shape).Idx → BitVec 32) (g : Fin nG) : EReal :=
  ∑ _r ∈ Finset.univ.filter (fun r : Fin nN => bz a2 r = (g.val : ℤ)), (1 : EReal)

/-- The indicator of "node `r` belongs to graph `g`". -/
def ohOf (a2 : (⟨1, ![50000]⟩ : Shape).Idx → BitVec 32) (r : Fin nN) (g : Fin nG) : EReal :=
  if bz a2 r = (g.val : ℤ) then 1 else 0

end Cert.Gcn

end
-- ==== Proof.KI.Val0.lean ====
/-
  What the first kernel region leaves in its output array, entry by entry, on the extended reals.

  At a grid point the body stores, over its whole output block, the product of the block of `x` with the weight
  matrix, each row scaled by the matching entry of the degree column. On the extended reals a float is an extended
  real, a format change is the identity and a matrix product into a zero accumulator is a plain sum; so the block's
  entry `(p, q)` is `(∑ j, x p j * w j q) * d p`. Point `t` of the ten works on rows `5000 t … 5000 t + 4999`, the
  blocks tile the array, and the array ends as `klin0` of the arrays the region found.
-/
import proofs.«401627_j1056561955307_2_alg».proof.Proof.KI.Reg0
import proofs.«401627_j1056561955307_2_alg».proof.Proof.Spec
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.Hand

open Cert.KernelIdeal Cert.KernelIdeal.Gen Cert.Gcn Idealize.ShloMosaic Idealize.ShloMosaic.ValueIdx Idealize.ShloMosaic.TcCoe
open Idealize.ShloMosaic.Pipeline (Dat)
open scoped BigOperators

/-! ## The body's payload at an entry -/

/-- A column `[a, 1]` broadcast to `[a, b]` reads, at `(p, c)`, the column's entry `p`. -/
theorem broadcastTo_a1_ab_apply {α : Type} {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

theorem lhs_pay0_0 (i : S5000x128.Idx) (q : dot_S5000x128_S128x128_S5000x128_1_0_0_1_n_n.contr.Idx) :
    (dot_S5000x128_S128x128_S5000x128_1_0_0_1_n_n.lhsIdx i q 0).val = (i 0).val := by
  unfold DotDims.lhsIdx
  rw [dif_neg (show ¬(0 : Fin S5000x128.rank) ∈ dot_S5000x128_S128x128_S5000x128_1_0_0_1_n_n.lhsBatch by decide), dif_pos (show (0 : Fin S5000x128.rank) ∈ dot_S5000x128_S128x128_S5000x128_1_0_0_1_n_n.lhsNonContracting by decide)]
  rfl
theorem lhs_pay0_1 (i : S5000x128.Idx) (q : dot_S5000x128_S128x128_S5000x128_1_0_0_1_n_n.contr.Idx) :
    (dot_S5000x128_S128x128_S5000x128_1_0_0_1_n_n.lhsIdx i q 1).val = (q ⟨0, by decide⟩).val :=
  dot_S5000x128_S128x128_S5000x128_1_0_0_1_n_n.lhsIdx_val_of_single rfl i q
theorem rhs_pay0_0 (i : S5000x128.Idx) (q : dot_S5000x128_S128x128_S5000x128_1_0_0_1_n_n.contr.Idx) :
    (dot_S5000x128_S128x128_S5000x128_1_0_0_1_n_n.rhsIdx i q 0).val = (q ⟨0, by decide⟩).val :=
  dot_S5000x128_S128x128_S5000x128_1_0_0_1_n_n.rhsIdx_val_of_single rfl i q
theorem rhs_pay0_1 (i : S5000x128.Idx) (q : dot_S5000x128_S128x128_S5000x128_1_0_0_1_n_n.contr.Idx) :
    (dot_S5000x128_S128x128_S5000x128_1_0_0_1_n_n.rhsIdx i q 1).val = (i 1).val := by
  unfold DotDims.rhsIdx
  rw [dif_neg (show ¬(1 : Fin S128x128.rank) ∈ dot_S5000x128_S128x128_S5000x128_1_0_0_1_n_n.rhsBatch by decide), dif_pos (show (1 : Fin S128x128.rank) ∈ dot_S5000x128_S128x128_S5000x128_1_0_0_1_n_n.rhsNonContracting by decide)]
  rfl

/-- The block product into a zero accumulator, at an entry: the sum over the contracted axis. -/
theorem matmul0_apply (l : FVec Ideal S5000x128 .bf16) (r : FVec Ideal S128x128 .bf16) (p : Fin 5000) (q : Fin 128) :
    matmul (F := Ideal) dot_S5000x128_S128x128_S5000x128_1_0_0_1_n_n none l r (constant (F := Ideal) S5000x128 .f32 0x00000000#32) (ix2 p q)
      = ∑ j : Fin 128, l (ix2 p j) * r (ix2 j q) := by
  refine (Ideal.matmul_constant_zero_apply dot_S5000x128_S128x128_S5000x128_1_0_0_1_n_n none l r (ix2 p q)).trans ?_
  rw [← Equiv.sum_comp (ValueIdx.contrEquiv1 dot_S5000x128_S128x128_S5000x128_1_0_0_1_n_n 128 rfl rfl).symm]
  refine Finset.sum_congr rfl fun k _ => ?_
  have hk := ValueIdx.contrEquiv1_symm_val dot_S5000x128_S128x128_S5000x128_1_0_0_1_n_n 128 rfl rfl k
  have el : dot_S5000x128_S128x128_S5000x128_1_0_0_1_n_n.lhsIdx (ix2 p q) ((ValueIdx.contrEquiv1 dot_S5000x128_S128x128_S5000x128_1_0_0_1_n_n 128 rfl rfl).symm k) = ix2 p k := funext fun a => Fin.ext (by
    match a with
    | ⟨0, _⟩ => exact lhs_pay0_0 _ _
    | ⟨1, _⟩ => exact (lhs_pay0_1 _ _).trans hk)
  have er : dot_S5000x128_S128x128_S5000x128_1_0_0_1_n_n.rhsIdx (ix2 p q) ((ValueIdx.contrEquiv1 dot_S5000x128_S128x128_S5000x128_1_0_0_1_n_n 128 rfl rfl).symm k) = ix2 k q := funext fun a => Fin.ext (by
    match a with
    | ⟨0, _⟩ => exact (rhs_pay0_0 _ _).trans hk
    | ⟨1, _⟩ => exact rhs_pay0_1 _ _)
  rw [el, er]

/-- The payload of the body's one store, at entry `(p, q)` of the block. -/
theorem pay0_apply (x : Vec Ideal S5000x128 .f32) (w : Vec Ideal S128x128 .f32) (d : Vec Ideal S5000x1 .f32) (p : Fin 5000) (q : Fin 128) :
    k0_pay1 (F := Ideal) x w d (ix2 p q) = (∑ j : Fin 128, x (ix2 p j) * w (ix2 j q)) * d (ix2 p (0 : Fin 1)) := by
  unfold k0_pay1
  rw [truncf_apply, mulf_apply, matmul0_apply, shapeCast_self, broadcastTo_a1_ab_apply]
  rfl

/-! ## The arrays and the blocks, by their literal types -/

variable (V : (c : Dev nD) → (b : Ref sig .tc) → Buf (Elt Ideal) ((c : Thread nD τ).loc b))

abbrev xarr0 (c : Dev nD) : Vec Ideal S50000x128 .f32 := V c main_arg0
abbrev warr0 (c : Dev nD) : Vec Ideal S128x128 .f32 := V c main_arg3
abbrev darr0 (c : Dev nD) : Vec Ideal S50000x1 .f32 := V c main_v15
abbrev xblk0 (c : Dev nD) (t : Fin cfg0.N) : Vec Ideal S5000x128 .f32 := blk0 V c 0 t
abbrev wblk0 (c : Dev nD) (t : Fin cfg0.N) : Vec Ideal S128x128 .f32 := blk0 V c 1 t
abbrev dblk0 (c : Dev nD) (t : Fin cfg0.N) : Vec Ideal S5000x1 .f32 := blk0 V c 2 t

/-- The array the region leaves, as one function of the three arrays it reads. -/
def G0 (x : Vec Ideal S50000x128 .f32) (w : Vec Ideal S128x128 .f32) (d : Vec Ideal S50000x1 .f32) : Vec Ideal S50000x128 .bf16 :=
  fun i => klin0 (fun r => d (ix2 r (0 : Fin 1))) (fun r j => x (ix2 r j)) (fun j k => w (ix2 j k))
    (⟨(i 0).val, idx2_lt0 i⟩ : Fin 50000) (⟨(i 1).val, idx2_lt1 i⟩ : Fin 128)

theorem G0_apply (x : Vec Ideal S50000x128 .f32) (w : Vec Ideal S128x128 .f32) (d : Vec Ideal S50000x1 .f32) (r : Fin 50000) (k : Fin 128) :
    G0 x w d (ix2 r k) = klin0 (fun r => d (ix2 r (0 : Fin 1))) (fun r j => x (ix2 r j)) (fun j k => w (ix2 j k)) r k := rfl

/-! ## What the body leaves in the output block, at an entry -/

theorem hz0 : (![0, 0] : Fin 2 → Nat) = fun _ => 0 := funext fun a => by fin_cases a <;> rfl

theorem res0_apply (x : Vec Ideal S5000x128 .f32) (w : Vec Ideal S128x128 .f32) (d : Vec Ideal S5000x1 .f32) (p : Fin 5000) (q : Fin 128) :
    res0 (F := Ideal) x w d (ix2 p q) = (∑ j : Fin 128, x (ix2 p j) * w (ix2 j q)) * d (ix2 p (0 : Fin 1)) := by
  unfold res0
  rw [View.canon_unit_zero hz0]
  simp only [View.ld_unit_zero (S := S5000x128) hz0, View.ld_unit_zero (S := S128x128) hz0, View.ld_unit_zero (S := S5000x1) hz0]
  exact pay0_apply x w d p q

/-! ## From the blocks to the array -/

/-- The printed index maps, decided once over the grid: the blocks of `x`, of the degree column and of the output
    move down with the point; the weight matrix is one block. -/
theorem idx_facts0 : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0
    ∧ win0_3.index t (0 : Fin 2) = t.val ∧ win0_3.index t (1 : Fin 2) = 0 :=
  (by decide +kernel : ∀ t : Fin grid0.N, _)

/-- Block `t` of `x` is rows `5000 t … 5000 t + 4999` of the array. -/
theorem xblk0_apply (c : Dev nD) (t : Fin cfg0.N) (p : Fin 5000) (j : Fin 128) (r : Fin 50000) (hr : r.val = 5000 * t.val + p.val) :
    xblk0 V c t (ix2 p j) = xarr0 V c (ix2 r j) := by
  obtain ⟨e0, e1, -⟩ := idx_facts0 t
  show V c main_arg0 (((cfg0.win 0).blk t).view.emb (ix2 p j)) = V c main_arg0 (ix2 r j)
  refine congrArg (xarr0 V c) (funext fun a => Fin.ext ?_)
  match a with
  | ⟨0, _⟩ => show win0_0.index t (0 : Fin 2) * 5000 + 1 * p.val = r.val; omega
  | ⟨1, _⟩ => show win0_0.index t (1 : Fin 2) * 128 + 1 * j.val = j.val; omega

/-- Every point's block of the weight matrix is the matrix. -/
theorem wblk0_apply (c : Dev nD) (t : Fin cfg0.N) (j q : Fin 128) :
    wblk0 V c t (ix2 j q) = warr0 V c (ix2 j q) := by
  obtain ⟨-, -, e0, e1, -⟩ := idx_facts0 t
  show V c main_arg3 (((cfg0.win 1).blk t).view.emb (ix2 j q)) = V c main_arg3 (ix2 j q)
  refine congrArg (warr0 V c) (funext fun a => Fin.ext ?_)
  match a with
  | ⟨0, _⟩ => show win0_1.index t (0 : Fin 2) * 128 + 1 * j.val = j.val; omega
  | ⟨1, _⟩ => show win0_1.index t (1 : Fin 2) * 128 + 1 * q.val = q.val; omega

/-- Block `t` of the degree column is its entries `5000 t … 5000 t + 4999`. -/
theorem dblk0_apply (c : Dev nD) (t : Fin cfg0.N) (p : Fin 5000) (r : Fin 50000) (hr : r.val = 5000 * t.val + p.val) :
    dblk0 V c t (ix2 p (0 : Fin 1)) = darr0 V c (ix2 r (0 : Fin 1)) := by
  obtain ⟨-, -, -, -, e0, e1, -⟩ := idx_facts0 t
  show V c main_v15 (((cfg0.win 2).blk t).view.emb (ix2 p (0 : Fin 1))) = V c main_v15 (ix2 r (0 : Fin 1))
  refine congrArg (darr0 V c) (funext fun a => Fin.ext ?_)
  match a with
  | ⟨0, _⟩ => show win0_2.index t (0 : Fin 2) * 5000 + 1 * p.val = r.val; omega
  | ⟨1, _⟩ => show win0_2.index t (1 : Fin 2) * 1 + 1 * 0 = 0; omega

/-- What point `t` writes back is block `t` of `G0` of the arrays the region found. -/
theorem flushed0_eq (c : Dev nD) (t : Fin cfg0.N) :
    (dat0 (F := Ideal) V c).flushed 3 t = ((cfg0.win 3).blk t).view.read (Elt Ideal) (G0 (xarr0 V c) (warr0 V c) (darr0 V c)) := by
  show (cfg0.win 3).cut (grid0.coords t) ((dat0 (F := Ideal) V c).after 3 t) = _
  rw [dat0_after3]
  funext y
  have hy0 : (y 0).val < 5000 := (y 0).isLt
  have hy1 : (y 1).val < 128 := (y 1).isLt
  have ht : t.val < 10 := by have := t.isLt; have hN : cfg0.N = 10 := N_0; omega
  have hr : 5000 * t.val + (y 0).val < 50000 := by omega
  obtain ⟨-, -, -, -, -, -, e0, e1⟩ := idx_facts0 t
  have ex : (cfg0.win 3).xinj (grid0.coords t) y = ix2 (⟨(y 0).val, hy0⟩ : Fin 5000) (⟨(y 1).val, hy1⟩ : Fin 128) :=
    funext fun a => by match a with | ⟨0, _⟩ => rfl | ⟨1, _⟩ => rfl
  have ee : ((cfg0.win 3).blk t).view.emb y = ix2 (⟨5000 * t.val + (y 0).val, hr⟩ : Fin 50000) (⟨(y 1).val, hy1⟩ : Fin 128) :=
    funext fun a => Fin.ext (by
      match a with
      | ⟨0, _⟩ => show win0_3.index t (0 : Fin 2) * 5000 + 1 * (y 0).val = 5000 * t.val + (y 0).val; omega
      | ⟨1, _⟩ => show win0_3.index t (1 : Fin 2) * 128 + 1 * (y 1).val = (y 1).val; omega)
  show res0 (xblk0 V c t) (wblk0 V c t) (dblk0 V c t) ((cfg0.win 3).xinj (grid0.coords t) y)
    = G0 (xarr0 V c) (warr0 V c) (darr0 V c) (((cfg0.win 3).blk t).view.emb y)
  rw [ex, ee, res0_apply, G0_apply]
  unfold klin0
  rw [dblk0_apply V c t ⟨(y 0).val, hy0⟩ ⟨5000 * t.val + (y 0).val, hr⟩ rfl]
  refine congrArg (· * _) (Finset.sum_congr rfl fun j _ => ?_)
  rw [xblk0_apply V c t ⟨(y 0).val, hy0⟩ j ⟨5000 * t.val + (y 0).val, hr⟩ rfl, wblk0_apply]

/-- An entry of the array is in point `t`'s block iff each coordinate is in the block's range on its axis. -/
theorem mem_blk0 (t : Fin cfg0.N) (i : S50000x128.Idx) :
    i ∈ ((cfg0.win 3).blk t).view.set ↔ ∀ a : Fin 2, win0_3.index t a * S5000x128.size a ≤ (i a).val ∧ (i a).val < win0_3.index t a * S5000x128.size a + S5000x128.size a := by
  show i ∈ ((View.whole main_v16).slice (win0_3.rect t)).set ↔ _
  rw [View.set_slice_whole, Rect.mem_set_unit]
  exact Iff.rfl

/-- Row `r` is in the block of point `r / 5000`. -/
theorem cover0 (i : S50000x128.Idx) : ∃ t : Fin cfg0.N, (cfg0.win 3).flush t = true ∧ i ∈ ((cfg0.win 3).blk t).view.set := by
  have hi0 : (i 0).val < 50000 := (i 0).isLt
  have hi1 : (i 1).val < 128 := (i 1).isLt
  obtain ⟨t, ht⟩ : ∃ t : Fin cfg0.N, t.val = (i 0).val / 5000 :=
    ⟨⟨(i 0).val / 5000, by rw [show cfg0.N = 10 from N_0]; omega⟩, rfl⟩
  refine ⟨t, flush0_3 t, ?_⟩
  rw [mem_blk0]
  obtain ⟨-, -, -, -, -, -, e0, e1⟩ := idx_facts0 t
  intro a
  match a with
  | ⟨0, _⟩ => show win0_3.index t (0 : Fin 2) * 5000 ≤ (i 0).val ∧ (i 0).val < win0_3.index t (0 : Fin 2) * 5000 + 5000; omega
  | ⟨1, _⟩ => show win0_3.index t (1 : Fin 2) * 128 ≤ (i 1).val ∧ (i 1).val < win0_3.index t (1 : Fin 2) * 128 + 128; omega

/-- The output array after the region. -/
theorem final0 (c : Dev nD) : (dat0 (F := Ideal) V c).arrAt 3 cfg0.N = G0 (xarr0 V c) (warr0 V c) (darr0 V c) :=
  (dat0 (F := Ideal) V c).arrAt_eq_of_cover 3 (G0 (xarr0 V c) (warr0 V c) (darr0 V c)) (fun t _ => flushed0_eq V c t) cover0

theorem val0 (c : Dev nD) (r : Fin 50000) (k : Fin 128) :
    (dat0 (F := Ideal) V c).arrAt 3 cfg0.N (ix2 r k)
      = klin0 (fun r => V c main_v15 (ix2 r (0 : Fin 1))) (fun r j => V c main_arg0 (ix2 r j)) (fun j k => V c main_arg3 (ix2 j k)) r k := by
  exact (congrFun (final0 V c) (ix2 r k)).trans (G0_apply _ _ _ r k)

end Cert.KernelIdeal.Hand

end
-- ==== Proof.KI.Pay1.lean ====
/-
  The payload of the second and third kernel regions read at an entry, at the ideal values.

  At a grid point the body holds a block `a` of 5000 rows of the previous round's sums, the matching 5000 entries
  of the degree column (loaded twice: `d` and `d'`), the bias row `b` and the next weight matrix `w`. It finishes
  the previous round (scale each row by its node's degree scale, add the bias, rectify), multiplies by the weight
  matrix and scales the rows again. At the ideal values a float is an extended real, every change of format is the
  identity and a matrix product into a zero accumulator is the plain sum, so entry `(p, q)` of what is stored is

    `(∑ j, max (a p j * d p + b j) 0 * w j q) * d' p`.
-/
import proofs.«401627_j1056561955307_2_alg».proof.Proof.Gen.KernelIdeal.Skeleton
import proofs.«401627_j1056561955307_2_alg».proof.Proof.Spec
import Idealize.ShloMosaic.Lib.ValueIdx
import Idealize.ShloMosaic.Lib.ValueLayout
import Idealize.ShloMosaic.Lib.Pipeline.Value
import Idealize.ShloMosaic.PureOps.Ideal.Laws

noncomputable section

namespace Cert.KernelIdeal.Hand

open Cert.KernelIdeal Cert.KernelIdeal.Gen Cert.Gcn Idealize.ShloMosaic Idealize.ShloMosaic.ValueIdx
open scoped BigOperators

/-! ## The two operations that are not entry by entry -/

/-- A column `[a, 1]` broadcast to `[a, b]` reads, at `(p, c)`, the column's entry `p`. -/
theorem pay_colBroadcast_apply {α : Type} {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- The left operand's row coordinate is the output's. -/
theorem pay_lhs_0 (i : S5000x128.Idx) (k : dot_S5000x128_S128x128_S5000x128_1_0_0_1_n_n.contr.Idx) :
    (dot_S5000x128_S128x128_S5000x128_1_0_0_1_n_n.lhsIdx i k 0).val = (i 0).val := by
  unfold DotDims.lhsIdx
  rw [dif_neg (show ¬(0 : Fin S5000x128.rank) ∈ dot_S5000x128_S128x128_S5000x128_1_0_0_1_n_n.lhsBatch by decide),
    dif_pos (show (0 : Fin S5000x128.rank) ∈ dot_S5000x128_S128x128_S5000x128_1_0_0_1_n_n.lhsNonContracting by decide)]
  rfl
/-- The left operand's column coordinate is the contraction position. -/
theorem pay_lhs_1 (i : S5000x128.Idx) (k : dot_S5000x128_S128x128_S5000x128_1_0_0_1_n_n.contr.Idx) :
    (dot_S5000x128_S128x128_S5000x128_1_0_0_1_n_n.lhsIdx i k 1).val = (k ⟨0, by decide⟩).val :=
  dot_S5000x128_S128x128_S5000x128_1_0_0_1_n_n.lhsIdx_val_of_single rfl i k
/-- The right operand's row coordinate is the contraction position. -/
theorem pay_rhs_0 (i : S5000x128.Idx) (k : dot_S5000x128_S128x128_S5000x128_1_0_0_1_n_n.contr.Idx) :
    (dot_S5000x128_S128x128_S5000x128_1_0_0_1_n_n.rhsIdx i k 0).val = (k ⟨0, by decide⟩).val :=
  dot_S5000x128_S128x128_S5000x128_1_0_0_1_n_n.rhsIdx_val_of_single rfl i k
/-- The right operand's column coordinate is the output's. -/
theorem pay_rhs_1 (i : S5000x128.Idx) (k : dot_S5000x128_S128x128_S5000x128_1_0_0_1_n_n.contr.Idx) :
    (dot_S5000x128_S128x128_S5000x128_1_0_0_1_n_n.rhsIdx i k 1).val = (i 1).val := by
  unfold DotDims.rhsIdx
  rw [dif_neg (show ¬(1 : Fin S128x128.rank) ∈ dot_S5000x128_S128x128_S5000x128_1_0_0_1_n_n.rhsBatch by decide),
    dif_pos (show (1 : Fin S128x128.rank) ∈ dot_S5000x128_S128x128_S5000x128_1_0_0_1_n_n.rhsNonContracting by decide)]
  rfl

/-- The matrix product into a zero accumulator read at `(p, q)`: row `p` of the left against column `q` of the
    right. -/
theorem pay_matmul_apply (x : FVec Ideal S5000x128 .bf16) (y : FVec Ideal S128x128 .bf16) (p : Fin 5000) (q : Fin 128) :
    matmul (F := Ideal) dot_S5000x128_S128x128_S5000x128_1_0_0_1_n_n none x y (constant (F := Ideal) S5000x128 .f32 0x00000000#32) (ix2 p q)
      = ∑ k : Fin 128, x (ix2 p k) * y (ix2 k q) := by
  refine (Ideal.matmul_constant_zero_apply dot_S5000x128_S128x128_S5000x128_1_0_0_1_n_n none x y (ix2 p q)).trans ?_
  rw [← Equiv.sum_comp (contrEquiv1 dot_S5000x128_S128x128_S5000x128_1_0_0_1_n_n 128 rfl rfl).symm]
  refine Finset.sum_congr rfl fun k _ => ?_
  have hk := contrEquiv1_symm_val dot_S5000x128_S128x128_S5000x128_1_0_0_1_n_n 128 rfl rfl k
  have el : dot_S5000x128_S128x128_S5000x128_1_0_0_1_n_n.lhsIdx (ix2 p q) ((contrEquiv1 dot_S5000x128_S128x128_S5000x128_1_0_0_1_n_n 128 rfl rfl).symm k) = ix2 p k :=
    funext fun a => Fin.ext (by
      match a with
      | ⟨0, _⟩ => exact pay_lhs_0 _ _
      | ⟨1, _⟩ => exact (pay_lhs_1 _ _).trans hk)
  have er : dot_S5000x128_S128x128_S5000x128_1_0_0_1_n_n.rhsIdx (ix2 p q) ((contrEquiv1 dot_S5000x128_S128x128_S5000x128_1_0_0_1_n_n 128 rfl rfl).symm k) = ix2 k q :=
    funext fun a => Fin.ext (by
      match a with
      | ⟨0, _⟩ => exact (pay_rhs_0 _ _).trans hk
      | ⟨1, _⟩ => exact pay_rhs_1 _ _)
  rw [el, er]

/-! ## The hidden block -/

/-- The block after the previous round is finished: each row scaled by its node's degree scale, the bias row added,
    the rectifier applied. -/
def payHidden (a : Vec Ideal S5000x128 .f32) (d : Vec Ideal S5000x1 .f32) (b : Vec Ideal S1x128 .f32) :
    FVec Ideal S5000x128 .f32 :=
  maximumf
    (addf
      (mulf (shapeCast S5000x128 a shapeCasts_S5000x128_S5000x128)
        (broadcastTo S5000x128 (shapeCast S5000x1 d shapeCasts_S5000x1_S5000x1) broadcasts_S5000x1_S5000x128))
      (broadcastTo S5000x128 (shapeCast S1x128 b shapeCasts_S1x128_S1x128) broadcasts_S1x128_S5000x128))
    (broadcast S5000x128 (Scalar.ofBits (F := Ideal) .f32 0x00000000#32))

/-- The hidden block read at `(p, j)`. -/
theorem payHidden_apply (a : Vec Ideal S5000x128 .f32) (d : Vec Ideal S5000x1 .f32) (b : Vec Ideal S1x128 .f32)
    (p : Fin 5000) (j : Fin 128) :
    payHidden a d b (ix2 p j) = max (a (ix2 p j) * d (ix2 p (0 : Fin 1)) + b (ix2 (0 : Fin 1) j)) 0 := by
  unfold payHidden
  show max ((shapeCast S5000x128 a shapeCasts_S5000x128_S5000x128) (ix2 p j)
        * (broadcastTo S5000x128 (shapeCast S5000x1 d shapeCasts_S5000x1_S5000x1) broadcasts_S5000x1_S5000x128) (ix2 p j)
      + (broadcastTo S5000x128 (shapeCast S1x128 b shapeCasts_S1x128_S1x128) broadcasts_S1x128_S5000x128) (ix2 p j))
      (Ideal.ofBits .f32 0x00000000#32) = _
  rw [shapeCast_self, shapeCast_self, shapeCast_self, Ideal.ofBits_zero_f32,
    pay_colBroadcast_apply d broadcasts_S5000x1_S5000x128 p j, broadcastTo_1b_ab_apply b broadcasts_S1x128_S5000x128 p j]

/-! ## The payloads -/

/-- THE PAYLOAD OF REGION 1 READ AT `(p, q)`: the rectified, scaled and shifted row `p` of the block against
    column `q` of the weight matrix, scaled by the row's degree scale. -/
theorem pay1_apply (a : Vec Ideal S5000x128 .f32) (d : Vec Ideal S5000x1 .f32) (b : Vec Ideal S1x128 .f32)
    (w : Vec Ideal S128x128 .f32) (d' : Vec Ideal S5000x1 .f32) (p : Fin 5000) (q : Fin 128) :
    k1_pay1 (F := Ideal) a d b w d' (ix2 p q)
      = (∑ j : Fin 128, max (a (ix2 p j) * d (ix2 p (0 : Fin 1)) + b (ix2 (0 : Fin 1) j)) 0 * w (ix2 j q))
          * d' (ix2 p (0 : Fin 1)) := by
  show matmul (F := Ideal) dot_S5000x128_S128x128_S5000x128_1_0_0_1_n_n none (truncf .bf16 (payHidden a d b) bitsLt_bf16_f32)
        (truncf .bf16 w bitsLt_bf16_f32) (constant (F := Ideal) S5000x128 .f32 0x00000000#32) (ix2 p q)
      * (broadcastTo S5000x128 (shapeCast S5000x1 d' shapeCasts_S5000x1_S5000x1) broadcasts_S5000x1_S5000x128) (ix2 p q) = _
  rw [shapeCast_self, pay_colBroadcast_apply d' broadcasts_S5000x1_S5000x128 p q]
  refine congrArg (· * d' (ix2 p (0 : Fin 1))) ?_
  refine (pay_matmul_apply _ _ p q).trans ?_
  refine Finset.sum_congr rfl fun j _ => ?_
  show payHidden a d b (ix2 p j) * w (ix2 j q) = _
  rw [payHidden_apply]

/-- THE PAYLOAD OF REGION 2 READ AT `(p, q)`: the rectified, scaled and shifted row `p` of the block against
    column `q` of the weight matrix, scaled by the row's degree scale. -/
theorem pay2_apply (a : Vec Ideal S5000x128 .f32) (d : Vec Ideal S5000x1 .f32) (b : Vec Ideal S1x128 .f32)
    (w : Vec Ideal S128x128 .f32) (d' : Vec Ideal S5000x1 .f32) (p : Fin 5000) (q : Fin 128) :
    k2_pay1 (F := Ideal) a d b w d' (ix2 p q)
      = (∑ j : Fin 128, max (a (ix2 p j) * d (ix2 p (0 : Fin 1)) + b (ix2 (0 : Fin 1) j)) 0 * w (ix2 j q))
          * d' (ix2 p (0 : Fin 1)) := by
  show matmul (F := Ideal) dot_S5000x128_S128x128_S5000x128_1_0_0_1_n_n none (truncf .bf16 (payHidden a d b) bitsLt_bf16_f32)
        (truncf .bf16 w bitsLt_bf16_f32) (constant (F := Ideal) S5000x128 .f32 0x00000000#32) (ix2 p q)
      * (broadcastTo S5000x128 (shapeCast S5000x1 d' shapeCasts_S5000x1_S5000x1) broadcasts_S5000x1_S5000x128) (ix2 p q) = _
  rw [shapeCast_self, pay_colBroadcast_apply d' broadcasts_S5000x1_S5000x128 p q]
  refine congrArg (· * d' (ix2 p (0 : Fin 1))) ?_
  refine (pay_matmul_apply _ _ p q).trans ?_
  refine Finset.sum_congr rfl fun j _ => ?_
  show payHidden a d b (ix2 p j) * w (ix2 j q) = _
  rw [payHidden_apply]

end Cert.KernelIdeal.Hand

end
-- ==== Proof.KI.Val1.lean ====
/-
  From blocks to the array, for kernel region 1, at the ideal values.

  The region's grid has 10 points. At point `t` the body holds rows `5000 t … 5000 t + 4999` of the aggregated
  array and of the degree column, the whole bias row and the whole weight matrix, and writes back rows
  `5000 t … 5000 t + 4999` of the output array. What it writes is, entry by entry, one function of the four arrays
  as the region finds them: row `r`, column `k` of the output is

    `(∑ j, max (a r j * d r + b j) 0 * w j k) * d r`.

  The ten blocks tile the output array (row `r` is in the block of point `r / 5000`), so after the last point the
  whole array is that function.
-/
import proofs.«401627_j1056561955307_2_alg».proof.Proof.KI.Reg1
import proofs.«401627_j1056561955307_2_alg».proof.Proof.KI.Pay1
import proofs.«401627_j1056561955307_2_alg».proof.Proof.Spec
import Idealize.ShloMosaic.Lib.Pipeline.Value
import Idealize.ShloMosaic.Lib.ValueIdx

set_option maxRecDepth 16384

noncomputable section

namespace Cert.KernelIdeal.Hand

open Cert.KernelIdeal Cert.KernelIdeal.Gen Cert.Gcn
open Idealize.ShloMosaic Idealize.ShloMosaic.TcCoe Idealize.ShloMosaic.ValueIdx Idealize.SL.Sem
open Idealize.ShloMosaic.Pipeline (Dat)
open scoped BigOperators

-- the arrays' contents when the region is entered
variable (V : (c : Dev nD) → (b : Ref sig .tc) → Buf (Elt Ideal) ((c : Thread nD τ).loc b))

/-- The whole-buffer rectangles start at the origin. -/
theorem val1_origin : (![0, 0] : Fin 2 → Nat) = fun _ => 0 :=
  funext fun a => match a with | ⟨0, _⟩ => rfl | ⟨1, _⟩ => rfl

/-- The output array as one function of the four arrays the region reads, entry by entry. -/
def arr1 (c : Dev nD) : S50000x128.Idx → Elt Ideal .bf16 := fun i =>
  klin1 (fun r => V c main_v15 (ix2 r (0 : Fin 1))) (fun r j => V c main_v27 (ix2 r j))
      (fun j => V c main_v28 (ix2 (0 : Fin 1) j)) (fun j k => V c main_arg5 (ix2 j k))
      ⟨(i 0).val, idx2_lt0 i⟩ ⟨(i 1).val, idx2_lt1 i⟩

/-- `arr1` at an index whose coordinates are `r` and `k`. -/
theorem arr1_apply (c : Dev nD) (i : S50000x128.Idx) (r : Fin 50000) (k : Fin 128)
    (hr : (i 0).val = r.val) (hk : (i 1).val = k.val) :
    arr1 V c i = klin1 (fun r => V c main_v15 (ix2 r (0 : Fin 1))) (fun r j => V c main_v27 (ix2 r j))
      (fun j => V c main_v28 (ix2 (0 : Fin 1) j)) (fun j k => V c main_arg5 (ix2 j k)) r k := by
  unfold arr1
  rw [show (⟨(i 0).val, idx2_lt0 i⟩ : Fin 50000) = r from Fin.ext hr,
    show (⟨(i 1).val, idx2_lt1 i⟩ : Fin 128) = k from Fin.ext hk]

/-- The block indices at point `t`, decided over the grid: the aggregated rows, the degree column and the output
    move with the point along the rows; the bias row and the weight matrix stay. -/
theorem val1_index : ∀ t : Fin cfg1.N,
    win1_0.index t (0 : Fin 2) = t.val ∧ win1_0.index t (1 : Fin 2) = 0
    ∧ win1_1.index t (0 : Fin 2) = t.val ∧ win1_1.index t (1 : Fin 2) = 0
    ∧ win1_2.index t (0 : Fin 2) = 0 ∧ win1_2.index t (1 : Fin 2) = 0
    ∧ win1_3.index t (0 : Fin 2) = 0 ∧ win1_3.index t (1 : Fin 2) = 0
    ∧ win1_4.index t (0 : Fin 2) = t.val ∧ win1_4.index t (1 : Fin 2) = 0 :=
  (by decide +kernel : ∀ t : Fin grid1.N, _)

/-- Row `p` of block `t` is a row of the array. -/
theorem val1_row (t : Fin cfg1.N) (p : Fin 5000) : t.val * 5000 + p.val < 50000 := by
  have ht : t.val < 10 := lt_of_lt_of_eq t.isLt N_1
  have hp := p.isLt
  omega

/-! ## Each input block read where the point's rectangle says -/

/-- Entry `(p, j)` of the aggregated block at point `t` is entry `(5000 t + p, j)` of the aggregated array. -/
theorem val1_blk0 (c : Dev nD) (t : Fin cfg1.N) (p : Fin 5000) (j : Fin 128) :
    blk1 (F := Ideal) V c 0 t (ix2 p j) = V c main_v27 (ix2 (⟨t.val * 5000 + p.val, val1_row t p⟩ : Fin 50000) j) := by
  obtain ⟨e00, e01, -⟩ := val1_index t
  show V c main_v27 (((cfg1.win 0).blk t).view.emb (ix2 p j)) = _
  refine congrArg (V c main_v27) (funext fun a => Fin.ext ?_)
  match a with
  | ⟨0, _⟩ => show win1_0.index t (0 : Fin 2) * 5000 + 1 * p.val = t.val * 5000 + p.val; rw [e00]; omega
  | ⟨1, _⟩ => show win1_0.index t (1 : Fin 2) * 128 + 1 * j.val = j.val; rw [e01]; omega

/-- Entry `p` of the degree block at point `t` is entry `5000 t + p` of the degree column. -/
theorem val1_blk1 (c : Dev nD) (t : Fin cfg1.N) (p : Fin 5000) :
    blk1 (F := Ideal) V c 1 t (ix2 p (0 : Fin 1))
      = V c main_v15 (ix2 (⟨t.val * 5000 + p.val, val1_row t p⟩ : Fin 50000) (0 : Fin 1)) := by
  obtain ⟨-, -, e10, e11, -⟩ := val1_index t
  show V c main_v15 (((cfg1.win 1).blk t).view.emb (ix2 p (0 : Fin 1))) = _
  refine congrArg (V c main_v15) (funext fun a => Fin.ext ?_)
  match a with
  | ⟨0, _⟩ => show win1_1.index t (0 : Fin 2) * 5000 + 1 * p.val = t.val * 5000 + p.val; rw [e10]; omega
  | ⟨1, _⟩ => show win1_1.index t (1 : Fin 2) * 1 + 1 * 0 = 0; rw [e11]

/-- The bias block at every point is the bias row. -/
theorem val1_blk2 (c : Dev nD) (t : Fin cfg1.N) (j : Fin 128) :
    blk1 (F := Ideal) V c 2 t (ix2 (0 : Fin 1) j) = V c main_v28 (ix2 (0 : Fin 1) j) := by
  obtain ⟨-, -, -, -, e20, e21, -⟩ := val1_index t
  show V c main_v28 (((cfg1.win 2).blk t).view.emb (ix2 (0 : Fin 1) j)) = _
  refine congrArg (V c main_v28) (funext fun a => Fin.ext ?_)
  match a with
  | ⟨0, _⟩ => show win1_2.index t (0 : Fin 2) * 1 + 1 * 0 = 0; rw [e20]
  | ⟨1, _⟩ => show win1_2.index t (1 : Fin 2) * 128 + 1 * j.val = j.val; rw [e21]; omega

/-- The weight block at every point is the weight matrix. -/
theorem val1_blk3 (c : Dev nD) (t : Fin cfg1.N) (j q : Fin 128) :
    blk1 (F := Ideal) V c 3 t (ix2 j q) = V c main_arg5 (ix2 j q) := by
  obtain ⟨-, -, -, -, -, -, e30, e31, -⟩ := val1_index t
  show V c main_arg5 (((cfg1.win 3).blk t).view.emb (ix2 j q)) = _
  refine congrArg (V c main_arg5) (funext fun a => Fin.ext ?_)
  match a with
  | ⟨0, _⟩ => show win1_3.index t (0 : Fin 2) * 128 + 1 * j.val = j.val; rw [e30]; omega
  | ⟨1, _⟩ => show win1_3.index t (1 : Fin 2) * 128 + 1 * q.val = q.val; rw [e31]; omega

/-! ## What a point writes back -/

set_option maxHeartbeats 1000000 in
/-- WHAT POINT `t` WRITES BACK is block `t` of `arr1`. -/
theorem val1_flushed (c : Dev nD) (t : Fin cfg1.N) :
    (dat1 (F := Ideal) V c).flushed 4 t = ((cfg1.win 4).blk t).view.read (Elt Ideal) (arr1 V c) := by
  show (cfg1.win 4).cut (grid1.coords t) ((dat1 V c).after 4 t) = _
  rw [dat1_after4]
  unfold res1
  rw [View.canon_unit_zero val1_origin]
  simp only [View.ld_unit_zero (S := S5000x128) val1_origin, View.ld_unit_zero (S := S5000x1) val1_origin,
    View.ld_unit_zero (S := S1x128) val1_origin, View.ld_unit_zero (S := S128x128) val1_origin]
  obtain ⟨-, -, -, -, -, -, -, -, e40, e41⟩ := val1_index t
  refine funext fun (y : S5000x128.Idx) => ?_
  obtain ⟨p, q, rfl⟩ : ∃ (p : Fin 5000) (q : Fin 128), y = ix2 p q := ⟨y 0, y 1, eq_ix2 y⟩
  refine (pay1_apply _ _ _ _ _ p q).trans ?_
  show _ = arr1 V c (((cfg1.win 4).blk t).view.emb (ix2 p q))
  refine Eq.trans ?_ (arr1_apply V c _ (⟨t.val * 5000 + p.val, val1_row t p⟩ : Fin 50000) q ?_ ?_).symm
  · simp only [val1_blk0 V c t, val1_blk1 V c t, val1_blk2 V c t, val1_blk3 V c t]
    rfl
  · show win1_4.index t (0 : Fin 2) * 5000 + 1 * p.val = t.val * 5000 + p.val
    rw [e40]; omega
  · show win1_4.index t (1 : Fin 2) * 128 + 1 * q.val = q.val
    rw [e41]; omega

/-! ## The blocks tile the array -/

/-- An index of the output array is in point `t`'s block iff each coordinate is in the block's range on its axis. -/
theorem val1_mem_blk (t : Fin cfg1.N) (i : S50000x128.Idx) :
    i ∈ ((cfg1.win 4).blk t).view.set ↔ ∀ a : Fin 2, win1_4.index t a * S5000x128.size a ≤ (i a).val
      ∧ (i a).val < win1_4.index t a * S5000x128.size a + S5000x128.size a := by
  show i ∈ ((View.whole main_v29).slice (win1_4.rect t)).set ↔ _
  rw [View.set_slice_whole, Rect.mem_set_unit]
  exact Iff.rfl

/-- THE BLOCKS TILE THE ARRAY: row `r` is in the block of point `r / 5000`. -/
theorem val1_cover (i : S50000x128.Idx) :
    ∃ t : Fin cfg1.N, (cfg1.win 4).flush t = true ∧ i ∈ ((cfg1.win 4).blk t).view.set := by
  have hi0 : (i 0).val < 50000 := (i 0).isLt
  have hi1 : (i 1).val < 128 := (i 1).isLt
  have ht : (i 0).val / 5000 < cfg1.N := by rw [show cfg1.N = 10 from N_1]; omega
  obtain ⟨-, -, -, -, -, -, -, -, e40, e41⟩ := val1_index ⟨(i 0).val / 5000, ht⟩
  refine ⟨⟨(i 0).val / 5000, ht⟩, flush1_4 _, ?_⟩
  rw [val1_mem_blk]
  intro a
  match a with
  | ⟨0, _⟩ =>
    show win1_4.index ⟨(i 0).val / 5000, ht⟩ (0 : Fin 2) * 5000 ≤ (i 0).val
      ∧ (i 0).val < win1_4.index ⟨(i 0).val / 5000, ht⟩ (0 : Fin 2) * 5000 + 5000
    rw [e40]; show (i 0).val / 5000 * 5000 ≤ (i 0).val ∧ (i 0).val < (i 0).val / 5000 * 5000 + 5000; omega
  | ⟨1, _⟩ =>
    show win1_4.index ⟨(i 0).val / 5000, ht⟩ (1 : Fin 2) * 128 ≤ (i 1).val
      ∧ (i 1).val < win1_4.index ⟨(i 0).val / 5000, ht⟩ (1 : Fin 2) * 128 + 128
    rw [e41]; omega

/-! ## The array after the region -/

/-- THE ARRAY after the region's last point is `arr1`. -/
theorem val1_final (c : Dev nD) : (dat1 (F := Ideal) V c).arrAt 4 cfg1.N = arr1 V c :=
  (dat1 (F := Ideal) V c).arrAt_eq_of_cover 4 (arr1 V c) (fun t _ => val1_flushed V c t) (val1_cover)

/-- THE OUTPUT ARRAY READ AT `(r, k)`: the region's mathematics of the four arrays it reads. -/
theorem val1 (V : (c : Dev nD) → (b : Ref sig .tc) → Buf (Elt Ideal) ((c : Thread nD τ).loc b)) (c : Dev nD)
    (r : Fin 50000) (k : Fin 128) :
    (dat1 (F := Ideal) V c).arrAt 4 cfg1.N (ix2 r k)
      = klin1 (fun r => V c main_v15 (ix2 r (0 : Fin 1))) (fun r j => V c main_v27 (ix2 r j))
      (fun j => V c main_v28 (ix2 (0 : Fin 1) j)) (fun j k => V c main_arg5 (ix2 j k)) r k := by
  rw [val1_final V c]
  exact arr1_apply V c (ix2 r k) r k rfl rfl

end Cert.KernelIdeal.Hand

end
-- ==== Proof.KI.Val2.lean ====
/-
  What kernel region 2 leaves in its output array, entry by entry, on the extended reals.

  At a grid point the body holds a block of 5000 aggregated rows, the matching 5000 entries of the degree column,
  the bias row and the weight matrix. It scales the rows by the degree entries, adds the bias, rectifies, multiplies
  by the weight matrix and scales the rows again; so the block's entry `(p, q)` is
  `(∑ j, max (a p j * d p + b j) 0 * w j q) * d p`. Point `t` of the ten works on rows `5000 t … 5000 t + 4999`, the
  blocks tile the array, and the array ends as `klin1` of the arrays the region found.
-/
import proofs.«401627_j1056561955307_2_alg».proof.Proof.KI.Reg2
import proofs.«401627_j1056561955307_2_alg».proof.Proof.KI.Pay1
import proofs.«401627_j1056561955307_2_alg».proof.Proof.Spec
import Idealize.ShloMosaic.Lib.Pipeline.Value
import Idealize.ShloMosaic.Lib.ValueIdx

set_option maxRecDepth 16384

noncomputable section

namespace Cert.KernelIdeal.Hand

open Cert.KernelIdeal Cert.KernelIdeal.Gen Cert.Gcn Idealize.ShloMosaic Idealize.ShloMosaic.ValueIdx Idealize.ShloMosaic.TcCoe
open Idealize.ShloMosaic.Pipeline (Dat)
open scoped BigOperators

/-! ## The arrays and the blocks, by their literal types -/

variable (V : (c : Dev nD) → (b : Ref sig .tc) → Buf (Elt Ideal) ((c : Thread nD τ).loc b))

abbrev aarr2 (c : Dev nD) : Vec Ideal S50000x128 .f32 := V c main_v40
abbrev darr2 (c : Dev nD) : Vec Ideal S50000x1 .f32 := V c main_v15
abbrev barr2 (c : Dev nD) : Vec Ideal S1x128 .f32 := V c main_v41
abbrev warr2 (c : Dev nD) : Vec Ideal S128x128 .f32 := V c main_arg7
abbrev ablk2 (c : Dev nD) (t : Fin cfg2.N) : Vec Ideal S5000x128 .f32 := blk2 V c 0 t
abbrev dblk2 (c : Dev nD) (t : Fin cfg2.N) : Vec Ideal S5000x1 .f32 := blk2 V c 1 t
abbrev bblk2 (c : Dev nD) (t : Fin cfg2.N) : Vec Ideal S1x128 .f32 := blk2 V c 2 t
abbrev wblk2 (c : Dev nD) (t : Fin cfg2.N) : Vec Ideal S128x128 .f32 := blk2 V c 3 t

/-- The array the region leaves, as one function of the four arrays it reads. -/
def G2 (a : Vec Ideal S50000x128 .f32) (d : Vec Ideal S50000x1 .f32) (b : Vec Ideal S1x128 .f32) (w : Vec Ideal S128x128 .f32) :
    Vec Ideal S50000x128 .bf16 :=
  fun i => klin1 (fun r => d (ix2 r (0 : Fin 1))) (fun r j => a (ix2 r j)) (fun j => b (ix2 (0 : Fin 1) j)) (fun j k => w (ix2 j k))
    (⟨(i 0).val, idx2_lt0 i⟩ : Fin 50000) (⟨(i 1).val, idx2_lt1 i⟩ : Fin 128)

theorem G2_apply (a : Vec Ideal S50000x128 .f32) (d : Vec Ideal S50000x1 .f32) (b : Vec Ideal S1x128 .f32) (w : Vec Ideal S128x128 .f32)
    (r : Fin 50000) (k : Fin 128) :
    G2 a d b w (ix2 r k)
      = klin1 (fun r => d (ix2 r (0 : Fin 1))) (fun r j => a (ix2 r j)) (fun j => b (ix2 (0 : Fin 1) j)) (fun j k => w (ix2 j k)) r k := rfl

/-! ## What the body leaves in the output block, at an entry -/

theorem val2_hz : (![0, 0] : Fin 2 → Nat) = fun _ => 0 := funext fun a => by fin_cases a <;> rfl

theorem res2_apply (a : Vec Ideal S5000x128 .f32) (d : Vec Ideal S5000x1 .f32) (b : Vec Ideal S1x128 .f32) (w : Vec Ideal S128x128 .f32)
    (p : Fin 5000) (q : Fin 128) :
    res2 (F := Ideal) a d b w (ix2 p q)
      = (∑ j : Fin 128, max (a (ix2 p j) * d (ix2 p (0 : Fin 1)) + b (ix2 (0 : Fin 1) j)) 0 * w (ix2 j q)) * d (ix2 p (0 : Fin 1)) := by
  unfold res2
  rw [View.canon_unit_zero val2_hz]
  simp only [View.ld_unit_zero (S := S5000x128) val2_hz, View.ld_unit_zero (S := S5000x1) val2_hz,
    View.ld_unit_zero (S := S1x128) val2_hz, View.ld_unit_zero (S := S128x128) val2_hz]
  exact pay2_apply a d b w d p q

/-! ## From the blocks to the array -/

/-- The printed index maps, decided once over the grid: the blocks of the aggregated rows, of the degree column and
    of the output move down with the point; the bias row and the weight matrix are one block each. -/
theorem val2_idx_facts : ∀ t : Fin cfg2.N, win2_0.index t (0 : Fin 2) = t.val ∧ win2_0.index t (1 : Fin 2) = 0
    ∧ win2_1.index t (0 : Fin 2) = t.val ∧ win2_1.index t (1 : Fin 2) = 0
    ∧ win2_2.index t (0 : Fin 2) = 0 ∧ win2_2.index t (1 : Fin 2) = 0
    ∧ win2_3.index t (0 : Fin 2) = 0 ∧ win2_3.index t (1 : Fin 2) = 0
    ∧ win2_4.index t (0 : Fin 2) = t.val ∧ win2_4.index t (1 : Fin 2) = 0 :=
  (by decide +kernel : ∀ t : Fin grid2.N, _)

/-- Block `t` of the aggregated rows is rows `5000 t … 5000 t + 4999` of the array. -/
theorem ablk2_apply (c : Dev nD) (t : Fin cfg2.N) (p : Fin 5000) (j : Fin 128) (r : Fin 50000) (hr : r.val = 5000 * t.val + p.val) :
    ablk2 V c t (ix2 p j) = aarr2 V c (ix2 r j) := by
  obtain ⟨e0, e1, -⟩ := val2_idx_facts t
  show V c main_v40 (((cfg2.win 0).blk t).view.emb (ix2 p j)) = V c main_v40 (ix2 r j)
  refine congrArg (aarr2 V c) (funext fun a => Fin.ext ?_)
  match a with
  | ⟨0, _⟩ => show win2_0.index t (0 : Fin 2) * 5000 + 1 * p.val = r.val; omega
  | ⟨1, _⟩ => show win2_0.index t (1 : Fin 2) * 128 + 1 * j.val = j.val; omega

/-- Block `t` of the degree column is its entries `5000 t … 5000 t + 4999`. -/
theorem dblk2_apply (c : Dev nD) (t : Fin cfg2.N) (p : Fin 5000) (r : Fin 50000) (hr : r.val = 5000 * t.val + p.val) :
    dblk2 V c t (ix2 p (0 : Fin 1)) = darr2 V c (ix2 r (0 : Fin 1)) := by
  obtain ⟨-, -, e0, e1, -⟩ := val2_idx_facts t
  show V c main_v15 (((cfg2.win 1).blk t).view.emb (ix2 p (0 : Fin 1))) = V c main_v15 (ix2 r (0 : Fin 1))
  refine congrArg (darr2 V c) (funext fun a => Fin.ext ?_)
  match a with
  | ⟨0, _⟩ => show win2_1.index t (0 : Fin 2) * 5000 + 1 * p.val = r.val; omega
  | ⟨1, _⟩ => show win2_1.index t (1 : Fin 2) * 1 + 1 * 0 = 0; omega

/-- Every point's block of the bias row is the row. -/
theorem bblk2_apply (c : Dev nD) (t : Fin cfg2.N) (j : Fin 128) :
    bblk2 V c t (ix2 (0 : Fin 1) j) = barr2 V c (ix2 (0 : Fin 1) j) := by
  obtain ⟨-, -, -, -, e0, e1, -⟩ := val2_idx_facts t
  show V c main_v41 (((cfg2.win 2).blk t).view.emb (ix2 (0 : Fin 1) j)) = V c main_v41 (ix2 (0 : Fin 1) j)
  refine congrArg (barr2 V c) (funext fun a => Fin.ext ?_)
  match a with
  | ⟨0, _⟩ => show win2_2.index t (0 : Fin 2) * 1 + 1 * 0 = 0; omega
  | ⟨1, _⟩ => show win2_2.index t (1 : Fin 2) * 128 + 1 * j.val = j.val; omega

/-- Every point's block of the weight matrix is the matrix. -/
theorem wblk2_apply (c : Dev nD) (t : Fin cfg2.N) (j q : Fin 128) :
    wblk2 V c t (ix2 j q) = warr2 V c (ix2 j q) := by
  obtain ⟨-, -, -, -, -, -, e0, e1, -⟩ := val2_idx_facts t
  show V c main_arg7 (((cfg2.win 3).blk t).view.emb (ix2 j q)) = V c main_arg7 (ix2 j q)
  refine congrArg (warr2 V c) (funext fun a => Fin.ext ?_)
  match a with
  | ⟨0, _⟩ => show win2_3.index t (0 : Fin 2) * 128 + 1 * j.val = j.val; omega
  | ⟨1, _⟩ => show win2_3.index t (1 : Fin 2) * 128 + 1 * q.val = q.val; omega

/-- What point `t` writes back is block `t` of `G2` of the arrays the region found. -/
theorem val2_flushed_eq (c : Dev nD) (t : Fin cfg2.N) :
    (dat2 (F := Ideal) V c).flushed 4 t
      = ((cfg2.win 4).blk t).view.read (Elt Ideal) (G2 (aarr2 V c) (darr2 V c) (barr2 V c) (warr2 V c)) := by
  show (cfg2.win 4).cut (grid2.coords t) ((dat2 (F := Ideal) V c).after 4 t) = _
  rw [dat2_after4]
  funext y
  have hy0 : (y 0).val < 5000 := (y 0).isLt
  have hy1 : (y 1).val < 128 := (y 1).isLt
  have ht : t.val < 10 := by have := t.isLt; have hN : cfg2.N = 10 := N_2; omega
  have hr : 5000 * t.val + (y 0).val < 50000 := by omega
  obtain ⟨-, -, -, -, -, -, -, -, e0, e1⟩ := val2_idx_facts t
  have ex : (cfg2.win 4).xinj (grid2.coords t) y = ix2 (⟨(y 0).val, hy0⟩ : Fin 5000) (⟨(y 1).val, hy1⟩ : Fin 128) :=
    funext fun a => by match a with | ⟨0, _⟩ => rfl | ⟨1, _⟩ => rfl
  have ee : ((cfg2.win 4).blk t).view.emb y = ix2 (⟨5000 * t.val + (y 0).val, hr⟩ : Fin 50000) (⟨(y 1).val, hy1⟩ : Fin 128) :=
    funext fun a => Fin.ext (by
      match a with
      | ⟨0, _⟩ => show win2_4.index t (0 : Fin 2) * 5000 + 1 * (y 0).val = 5000 * t.val + (y 0).val; omega
      | ⟨1, _⟩ => show win2_4.index t (1 : Fin 2) * 128 + 1 * (y 1).val = (y 1).val; omega)
  show res2 (ablk2 V c t) (dblk2 V c t) (bblk2 V c t) (wblk2 V c t) ((cfg2.win 4).xinj (grid2.coords t) y)
    = G2 (aarr2 V c) (darr2 V c) (barr2 V c) (warr2 V c) (((cfg2.win 4).blk t).view.emb y)
  rw [ex, ee, res2_apply, G2_apply]
  unfold klin1
  rw [dblk2_apply V c t ⟨(y 0).val, hy0⟩ ⟨5000 * t.val + (y 0).val, hr⟩ rfl]
  refine congrArg (· * _) (Finset.sum_congr rfl fun j _ => ?_)
  rw [ablk2_apply V c t ⟨(y 0).val, hy0⟩ j ⟨5000 * t.val + (y 0).val, hr⟩ rfl, bblk2_apply, wblk2_apply]

/-- An entry of the array is in point `t`'s block iff each coordinate is in the block's range on its axis. -/
theorem val2_mem_blk (t : Fin cfg2.N) (i : S50000x128.Idx) :
    i ∈ ((cfg2.win 4).blk t).view.set ↔ ∀ a : Fin 2, win2_4.index t a * S5000x128.size a ≤ (i a).val ∧ (i a).val < win2_4.index t a * S5000x128.size a + S5000x128.size a := by
  show i ∈ ((View.whole main_v42).slice (win2_4.rect t)).set ↔ _
  rw [View.set_slice_whole, Rect.mem_set_unit]
  exact Iff.rfl

/-- Row `r` is in the block of point `r / 5000`. -/
theorem val2_cover (i : S50000x128.Idx) : ∃ t : Fin cfg2.N, (cfg2.win 4).flush t = true ∧ i ∈ ((cfg2.win 4).blk t).view.set := by
  have hi0 : (i 0).val < 50000 := (i 0).isLt
  have hi1 : (i 1).val < 128 := (i 1).isLt
  obtain ⟨t, ht⟩ : ∃ t : Fin cfg2.N, t.val = (i 0).val / 5000 :=
    ⟨⟨(i 0).val / 5000, by rw [show cfg2.N = 10 from N_2]; omega⟩, rfl⟩
  refine ⟨t, flush2_4 t, ?_⟩
  rw [val2_mem_blk]
  obtain ⟨-, -, -, -, -, -, -, -, e0, e1⟩ := val2_idx_facts t
  intro a
  match a with
  | ⟨0, _⟩ => show win2_4.index t (0 : Fin 2) * 5000 ≤ (i 0).val ∧ (i 0).val < win2_4.index t (0 : Fin 2) * 5000 + 5000; omega
  | ⟨1, _⟩ => show win2_4.index t (1 : Fin 2) * 128 ≤ (i 1).val ∧ (i 1).val < win2_4.index t (1 : Fin 2) * 128 + 128; omega

/-- The output array after the region. -/
theorem val2_final (c : Dev nD) :
    (dat2 (F := Ideal) V c).arrAt 4 cfg2.N = G2 (aarr2 V c) (darr2 V c) (barr2 V c) (warr2 V c) :=
  (dat2 (F := Ideal) V c).arrAt_eq_of_cover 4 (G2 (aarr2 V c) (darr2 V c) (barr2 V c) (warr2 V c)) (fun t _ => val2_flushed_eq V c t) val2_cover

theorem val2 (c : Dev nD) (r : Fin 50000) (k : Fin 128) :
    (dat2 (F := Ideal) V c).arrAt 4 cfg2.N (ix2 r k)
      = klin1 (fun r => V c main_v15 (ix2 r (0 : Fin 1))) (fun r j => V c main_v40 (ix2 r j)) (fun j => V c main_v41 (ix2 (0 : Fin 1) j)) (fun j k => V c main_arg7 (ix2 j k)) r k := by
  exact (congrFun (val2_final V c) (ix2 r k)).trans (G2_apply _ _ _ _ r k)

end Cert.KernelIdeal.Hand

end
-- ==== Proof.KI.Pay3.lean ====
/-
  The payloads of the pooling region read at an entry, on the extended reals.

  The region keeps a 128 × 128 table of per-graph row sums. It is zeroed at the first point; at every point a block
  of 5000 node rows is finished (scaled by the node's degree scale, the bias added) and each row is added into the
  table's row of the graph the node belongs to, through the indicator "the node's graph number is the lane's
  number" and a product contracting the 5000 rows; at the last point the table is divided by the clamped node
  counts and the last linear map applied.
-/
import proofs.«401627_j1056561955307_2_alg».proof.Proof.Gen.KernelIdeal.Skeleton
import proofs.«401627_j1056561955307_2_alg».proof.Proof.Spec
import Idealize.ShloMosaic.Lib.Pipeline.Value
import Idealize.ShloMosaic.Lib.ValueIdx
import Idealize.ShloMosaic.Lib.ValueLayout
import Idealize.ShloMosaic.PureOps.Ideal.Laws

noncomputable section

namespace Cert.KernelIdeal.Hand

open Cert.KernelIdeal Cert.KernelIdeal.Gen Cert.Gcn Idealize.ShloMosaic Idealize.ShloMosaic.ValueIdx
open scoped BigOperators

namespace Pay3

/-! ## A column copied across the lanes -/

/-- An [a, 1] column broadcast to [a, b] reads, at (p, c), the column's entry p. -/
theorem broadcastTo_a1_ab_apply {α : Type} {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-! ## Two scalars -/

/-- The word of the float one is the real one. -/
theorem ofBits_one_f32 : Ideal.ofBits .f32 0x3F800000#32 = 1 := by
  simp [Ideal.ofBits, Ideal.ieee]
  rw [← EReal.coe_mul]
  norm_num

/-- The bit of "x = y", widened to a word and converted, is the indicator of x = y. -/
theorem sitofp_cmpi_eq (x y : BitVec 32) :
    (FloatOps.sitofp (F := Ideal) .f32 ((IntOp.cmpi .eq x y).setWidth 32) : EReal) = if x = y then 1 else 0 := by
  show ((((IntOp.cmpi .eq x y).setWidth 32).toInt : ℝ) : EReal) = _
  by_cases h : x = y
  · rw [if_pos h, show IntOp.cmpi .eq x y = 1#1 from by simp [IntOp.cmpi, h],
      show ((1#1 : BitVec 1).setWidth 32).toInt = 1 from by decide]
    norm_num
  · rw [if_neg h, show IntOp.cmpi .eq x y = 0#1 from by
        show BitVec.ofBool (x == y) = 0#1
        rw [beq_eq_false_iff_ne.mpr h]; rfl,
      show ((0#1 : BitVec 1).setWidth 32).toInt = 0 from by decide]
    norm_num

/-! ## The accumulating product: both operands contracted along their rows -/

theorem lhs_acc_0 (i : S128x128.Idx) (q : dot_S5000x128_S5000x128_S128x128_0_0_1_1_n_n.contr.Idx) :
    (dot_S5000x128_S5000x128_S128x128_0_0_1_1_n_n.lhsIdx i q 0).val = (q ⟨0, by decide⟩).val :=
  dot_S5000x128_S5000x128_S128x128_0_0_1_1_n_n.lhsIdx_val_of_single rfl i q
theorem lhs_acc_1 (i : S128x128.Idx) (q : dot_S5000x128_S5000x128_S128x128_0_0_1_1_n_n.contr.Idx) :
    (dot_S5000x128_S5000x128_S128x128_0_0_1_1_n_n.lhsIdx i q 1).val = (i 0).val := by
  unfold DotDims.lhsIdx
  rw [dif_neg (show ¬(1 : Fin S5000x128.rank) ∈ dot_S5000x128_S5000x128_S128x128_0_0_1_1_n_n.lhsBatch by decide), dif_pos (show (1 : Fin S5000x128.rank) ∈ dot_S5000x128_S5000x128_S128x128_0_0_1_1_n_n.lhsNonContracting by decide)]
  rfl
theorem rhs_acc_0 (i : S128x128.Idx) (q : dot_S5000x128_S5000x128_S128x128_0_0_1_1_n_n.contr.Idx) :
    (dot_S5000x128_S5000x128_S128x128_0_0_1_1_n_n.rhsIdx i q 0).val = (q ⟨0, by decide⟩).val :=
  dot_S5000x128_S5000x128_S128x128_0_0_1_1_n_n.rhsIdx_val_of_single rfl i q
theorem rhs_acc_1 (i : S128x128.Idx) (q : dot_S5000x128_S5000x128_S128x128_0_0_1_1_n_n.contr.Idx) :
    (dot_S5000x128_S5000x128_S128x128_0_0_1_1_n_n.rhsIdx i q 1).val = (i 1).val := by
  unfold DotDims.rhsIdx
  rw [dif_neg (show ¬(1 : Fin S5000x128.rank) ∈ dot_S5000x128_S5000x128_S128x128_0_0_1_1_n_n.rhsBatch by decide), dif_pos (show (1 : Fin S5000x128.rank) ∈ dot_S5000x128_S5000x128_S128x128_0_0_1_1_n_n.rhsNonContracting by decide)]
  rfl

/-- Into a zero accumulator, entry (g, j) of that product is the sum over the rows r of A (r, g) * B (r, j). -/
theorem matmul_acc_apply (A B : FVec Ideal S5000x128 .bf16) (g j : Fin 128) :
    matmul (F := Ideal) dot_S5000x128_S5000x128_S128x128_0_0_1_1_n_n none A B (constant (F := Ideal) S128x128 .f32 0x00000000#32) (ix2 g j)
      = ∑ r : Fin 5000, A (ix2 r g) * B (ix2 r j) := by
  simp only [matmul]
  rw [Ideal.matmul_constant_zero_apply, ← Equiv.sum_comp (contrEquiv1 dot_S5000x128_S5000x128_S128x128_0_0_1_1_n_n 5000 rfl rfl).symm]
  refine Finset.sum_congr rfl fun k _ => ?_
  have hk := contrEquiv1_symm_val dot_S5000x128_S5000x128_S128x128_0_0_1_1_n_n 5000 rfl rfl k
  have el : dot_S5000x128_S5000x128_S128x128_0_0_1_1_n_n.lhsIdx (ix2 g j) ((contrEquiv1 dot_S5000x128_S5000x128_S128x128_0_0_1_1_n_n 5000 rfl rfl).symm k) = ix2 k g := funext fun a => Fin.ext (by
    match a with
    | ⟨0, _⟩ => exact (lhs_acc_0 _ _).trans hk
    | ⟨1, _⟩ => exact lhs_acc_1 _ _)
  have er : dot_S5000x128_S5000x128_S128x128_0_0_1_1_n_n.rhsIdx (ix2 g j) ((contrEquiv1 dot_S5000x128_S5000x128_S128x128_0_0_1_1_n_n 5000 rfl rfl).symm k) = ix2 k j := funext fun a => Fin.ext (by
    match a with
    | ⟨0, _⟩ => exact (rhs_acc_0 _ _).trans hk
    | ⟨1, _⟩ => exact rhs_acc_1 _ _)
  rw [el, er]

/-! ## The last linear map: rows times columns -/

theorem lhs_fin_0 (i : S128x3.Idx) (q : dot_S128x128_S128x3_S128x3_1_0_0_1_n_n.contr.Idx) :
    (dot_S128x128_S128x3_S128x3_1_0_0_1_n_n.lhsIdx i q 0).val = (i 0).val := by
  unfold DotDims.lhsIdx
  rw [dif_neg (show ¬(0 : Fin S128x128.rank) ∈ dot_S128x128_S128x3_S128x3_1_0_0_1_n_n.lhsBatch by decide), dif_pos (show (0 : Fin S128x128.rank) ∈ dot_S128x128_S128x3_S128x3_1_0_0_1_n_n.lhsNonContracting by decide)]
  rfl
theorem lhs_fin_1 (i : S128x3.Idx) (q : dot_S128x128_S128x3_S128x3_1_0_0_1_n_n.contr.Idx) :
    (dot_S128x128_S128x3_S128x3_1_0_0_1_n_n.lhsIdx i q 1).val = (q ⟨0, by decide⟩).val :=
  dot_S128x128_S128x3_S128x3_1_0_0_1_n_n.lhsIdx_val_of_single rfl i q
theorem rhs_fin_0 (i : S128x3.Idx) (q : dot_S128x128_S128x3_S128x3_1_0_0_1_n_n.contr.Idx) :
    (dot_S128x128_S128x3_S128x3_1_0_0_1_n_n.rhsIdx i q 0).val = (q ⟨0, by decide⟩).val :=
  dot_S128x128_S128x3_S128x3_1_0_0_1_n_n.rhsIdx_val_of_single rfl i q
theorem rhs_fin_1 (i : S128x3.Idx) (q : dot_S128x128_S128x3_S128x3_1_0_0_1_n_n.contr.Idx) :
    (dot_S128x128_S128x3_S128x3_1_0_0_1_n_n.rhsIdx i q 1).val = (i 1).val := by
  unfold DotDims.rhsIdx
  rw [dif_neg (show ¬(1 : Fin S128x3.rank) ∈ dot_S128x128_S128x3_S128x3_1_0_0_1_n_n.rhsBatch by decide), dif_pos (show (1 : Fin S128x3.rank) ∈ dot_S128x128_S128x3_S128x3_1_0_0_1_n_n.rhsNonContracting by decide)]
  rfl

/-- Into a zero accumulator, entry (g, o) of that product is the sum over k of A (g, k) * B (k, o). -/
theorem matmul_fin_apply (A : FVec Ideal S128x128 .bf16) (B : FVec Ideal S128x3 .bf16) (g : Fin 128) (o : Fin 3) :
    matmul (F := Ideal) dot_S128x128_S128x3_S128x3_1_0_0_1_n_n none A B (constant (F := Ideal) S128x3 .f32 0x00000000#32) (ix2 g o)
      = ∑ k : Fin 128, A (ix2 g k) * B (ix2 k o) := by
  simp only [matmul]
  rw [Ideal.matmul_constant_zero_apply, ← Equiv.sum_comp (contrEquiv1 dot_S128x128_S128x3_S128x3_1_0_0_1_n_n 128 rfl rfl).symm]
  refine Finset.sum_congr rfl fun k _ => ?_
  have hk := contrEquiv1_symm_val dot_S128x128_S128x3_S128x3_1_0_0_1_n_n 128 rfl rfl k
  have el : dot_S128x128_S128x3_S128x3_1_0_0_1_n_n.lhsIdx (ix2 g o) ((contrEquiv1 dot_S128x128_S128x3_S128x3_1_0_0_1_n_n 128 rfl rfl).symm k) = ix2 g k := funext fun a => Fin.ext (by
    match a with
    | ⟨0, _⟩ => exact lhs_fin_0 _ _
    | ⟨1, _⟩ => exact (lhs_fin_1 _ _).trans hk)
  have er : dot_S128x128_S128x3_S128x3_1_0_0_1_n_n.rhsIdx (ix2 g o) ((contrEquiv1 dot_S128x128_S128x3_S128x3_1_0_0_1_n_n 128 rfl rfl).symm k) = ix2 k o := funext fun a => Fin.ext (by
    match a with
    | ⟨0, _⟩ => exact (rhs_fin_0 _ _).trans hk
    | ⟨1, _⟩ => exact rhs_fin_1 _ _)
  rw [el, er]

end Pay3

open Pay3

/-- The table's first value: zero at every entry. -/
theorem pay3_zero (g j : Fin 128) : k3_pay1 (F := Ideal) (ix2 g j) = 0 := by
  unfold k3_pay1
  simp only [shapeCast_self]
  exact Ideal.ofBits_zero_f32

/-- One accumulation step at entry (g, j): the table's entry plus, over the block's rows, the indicator of "row r
    belongs to graph g" times the finished row at j. -/
theorem pay3_acc (v3 : Vec Ideal S5000x128 .f32) (v5 : Vec Ideal S5000x1 .f32) (v9 : Vec Ideal S1x128 .f32)
    (v14 : Vec Ideal S5000x1 .i32) (v22 : Vec Ideal S128x128 .f32) (g j : Fin 128) :
    k3_pay2 (F := Ideal) v3 v5 v9 v14 v22 (ix2 g j)
      = v22 (ix2 g j) + ∑ r : Fin 5000, (if v14 (ix2 r (0 : Fin 1)) = BitVec.ofNat 32 g.val then (1 : EReal) else 0)
          * (v3 (ix2 r j) * v5 (ix2 r (0 : Fin 1)) + v9 (ix2 (0 : Fin 1) j)) := by
  unfold k3_pay2
  simp only [shapeCast_self]
  refine (addf_apply _ _ _).trans ?_
  refine congrArg (v22 (ix2 g j) + ·) ?_
  refine (matmul_acc_apply _ _ g j).trans ?_
  refine Finset.sum_congr rfl fun r _ => ?_
  show FloatOps.sitofp (F := Ideal) .f32
        ((IntOp.cmpi .eq (broadcastTo S5000x128 v14 broadcasts_S5000x1_S5000x128 (ix2 r g))
          (iota .tc S5000x128 32 [1] iota_S5000x128_d1_w32 (ix2 r g))).setWidth 32)
      * (v3 (ix2 r j) * broadcastTo S5000x128 v5 broadcasts_S5000x1_S5000x128 (ix2 r j)
          + broadcastTo S5000x128 v9 broadcasts_S1x128_S5000x128 (ix2 r j)) = _
  rw [broadcastTo_a1_ab_apply, broadcastTo_a1_ab_apply, broadcastTo_1b_ab_apply, iota_single_apply, sitofp_cmpi_eq]

/-- The finish at entry (g, o): the table's row g divided by the clamped count, times the last weight matrix,
    plus the last bias. -/
theorem pay3_fin (v31 : Vec Ideal S128x1 .f32) (v35 : Vec Ideal S128x128 .f32) (v39 : Vec Ideal S128x3 .f32)
    (v42 : Vec Ideal S1x3 .f32) (g : Fin 128) (o : Fin 3) :
    k3_pay3 (F := Ideal) v31 v35 v39 v42 (ix2 g o)
      = (∑ j : Fin 128, Ideal.div (v35 (ix2 g j)) (max (v31 (ix2 g (0 : Fin 1))) 1) * v39 (ix2 j o))
          + v42 (ix2 (0 : Fin 1) o) := by
  unfold k3_pay3
  simp only [shapeCast_self]
  refine (addf_apply _ _ _).trans ?_
  refine congr (congrArg (· + ·) ((matmul_fin_apply _ _ g o).trans ?_)) (broadcastTo_1b_ab_apply _ _ g o)
  refine Finset.sum_congr rfl fun k _ => ?_
  show Ideal.div (v35 (ix2 g k))
        (broadcastTo S128x128 (maximumf v31 (broadcast S128x1 (Scalar.ofBits (F := Ideal) .f32 0x3F800000#32))) broadcasts_S128x1_S128x128 (ix2 g k))
      * v39 (ix2 k o) = _
  rw [broadcastTo_a1_ab_apply]
  show Ideal.div (v35 (ix2 g k)) (max (v31 (ix2 g (0 : Fin 1))) (Ideal.ofBits .f32 0x3F800000#32)) * v39 (ix2 k o) = _
  rw [ofBits_one_f32]

end Cert.KernelIdeal.Hand

end
-- ==== Proof.KI.Val3.lean ====
/-
  The pooling region's result as one formula of the arrays it reads, on the extended reals.

  The table the region carries holds, after point n, at entry (g, j), the sum over the rows of blocks 0..n of the
  indicator "the row's graph number is g" times the finished row at j: the first point starts from zeros and every
  point adds its block's 5000 rows. Row p of block t is row 5000 * t + p of the arrays, so after the tenth point the
  ten partial sums are one sum over all 50000 rows. Only the last point writes the output block back, and that
  block is the whole 128 × 3 array; what it writes is the table divided by the clamped counts, times the last
  matrix, plus the last bias.
-/
import proofs.«401627_j1056561955307_2_alg».proof.Proof.KI.Reg3
import proofs.«401627_j1056561955307_2_alg».proof.Proof.KI.Pay3
import proofs.«401627_j1056561955307_2_alg».proof.Proof.Spec
import Mathlib.Algebra.BigOperators.Fin
import Mathlib.Data.Fintype.BigOperators
import Mathlib.Logic.Equiv.Fin.Basic
import Idealize.ShloMosaic.Lib.Pipeline.Value
import Idealize.ShloMosaic.Lib.ValueIdx

set_option maxRecDepth 16384

noncomputable section

namespace Cert.KernelIdeal.Hand

open Cert.KernelIdeal Cert.KernelIdeal.Gen Cert.Gcn Idealize.ShloMosaic Idealize.ShloMosaic.TcCoe Idealize.ShloMosaic.ValueIdx
open Idealize.ShloMosaic.Pipeline (Dat Cfg Window)
open scoped BigOperators

namespace Val3

/-! ## Ten blocks of 5000 rows are all 50000 rows -/

/-- A sum over ten consecutive blocks of 5000 rows is the sum over all 50000 rows. -/
theorem sum_blocks {M : Type} [AddCommMonoid M] (f : Fin 50000 → M) (row : ℕ → Fin 5000 → Fin 50000)
    (hrow : ∀ k, k < 10 → ∀ p, (row k p).val = 5000 * k + p.val) :
    ∑ k ∈ Finset.range 10, ∑ p : Fin 5000, f (row k p) = ∑ r : Fin 50000, f r := by
  rw [Finset.sum_range (fun k => ∑ p : Fin 5000, f (row k p))]
  refine Eq.trans ?_ (Equiv.sum_comp (finProdFinEquiv (m := 10) (n := 5000)) f)
  rw [Fintype.sum_prod_type]
  refine Finset.sum_congr rfl fun k _ => Finset.sum_congr rfl fun p _ => congrArg f (Fin.ext ?_)
  rw [hrow k.val k.isLt p]
  show 5000 * k.val + p.val = p.val + 5000 * k.val
  omega

/-! ## Where each window's block sits in its array -/

/-- The printed index maps, decided over the ten points: the three 5000-row windows move with the point, every
    other window stays at block 0. -/
theorem idx_facts : ∀ t : Fin cfg3.N,
    win3_0.index t (0 : Fin 2) = t.val ∧ win3_0.index t (1 : Fin 2) = 0
    ∧ win3_1.index t (0 : Fin 2) = t.val ∧ win3_1.index t (1 : Fin 2) = 0
    ∧ win3_2.index t (0 : Fin 2) = 0 ∧ win3_2.index t (1 : Fin 2) = 0
    ∧ win3_3.index t (0 : Fin 2) = t.val ∧ win3_3.index t (1 : Fin 2) = 0
    ∧ win3_4.index t (0 : Fin 2) = 0 ∧ win3_4.index t (1 : Fin 2) = 0
    ∧ win3_5.index t (0 : Fin 2) = 0 ∧ win3_5.index t (1 : Fin 2) = 0
    ∧ win3_6.index t (0 : Fin 2) = 0 ∧ win3_6.index t (1 : Fin 2) = 0
    ∧ win3_7.index t (0 : Fin 2) = 0 ∧ win3_7.index t (1 : Fin 2) = 0 :=
  (by decide +kernel : ∀ t : Fin grid3.N, _)

/-- The array row of row p of block t. -/
def rowOf (t : Fin cfg3.N) (p : Fin 5000) : Fin 50000 :=
  ⟨5000 * t.val + p.val, by have := lt_of_lt_of_eq t.isLt N_3; have := p.isLt; omega⟩

-- the arrays' contents when the region is entered, and the core
variable (V : (c : Dev nD) → (b : Ref sig .tc) → Buf (Elt Ideal) ((c : Thread nD τ).loc b)) (c : Dev nD)

/-- The aggregated rows' block read at the array. -/
theorem rd0 (t : Fin cfg3.N) (p : Fin 5000) (j : Fin 128) :
    blk3 (F := Ideal) V c 0 t (ix2 p j) = V c main_v53 (ix2 (rowOf t p) j) := by
  obtain ⟨e0, e1, -⟩ := idx_facts t
  show V c main_v53 (((cfg3.win 0).blk t).view.emb (ix2 p j)) = _
  refine congrArg (V c main_v53) (funext fun a => Fin.ext ?_)
  match a with
  | ⟨0, _⟩ => show win3_0.index t (0 : Fin 2) * 5000 + 1 * p.val = 5000 * t.val + p.val; rw [e0]; omega
  | ⟨1, _⟩ => show win3_0.index t (1 : Fin 2) * 128 + 1 * j.val = j.val; rw [e1]; omega

/-- The degree column's block read at the array. -/
theorem rd1 (t : Fin cfg3.N) (p : Fin 5000) :
    blk3 (F := Ideal) V c 1 t (ix2 p (0 : Fin 1)) = V c main_v15 (ix2 (rowOf t p) (0 : Fin 1)) := by
  obtain ⟨-, -, e0, e1, -⟩ := idx_facts t
  show V c main_v15 (((cfg3.win 1).blk t).view.emb (ix2 p (0 : Fin 1))) = _
  refine congrArg (V c main_v15) (funext fun a => Fin.ext ?_)
  match a with
  | ⟨0, _⟩ => show win3_1.index t (0 : Fin 2) * 5000 + 1 * p.val = 5000 * t.val + p.val; rw [e0]; omega
  | ⟨1, _⟩ => show win3_1.index t (1 : Fin 2) * 1 + 1 * 0 = 0; rw [e1]

/-- The bias row's block read at the array. -/
theorem rd2 (t : Fin cfg3.N) (j : Fin 128) :
    blk3 (F := Ideal) V c 2 t (ix2 (0 : Fin 1) j) = V c main_v60 (ix2 (0 : Fin 1) j) := by
  obtain ⟨-, -, -, -, e0, e1, -⟩ := idx_facts t
  show V c main_v60 (((cfg3.win 2).blk t).view.emb (ix2 (0 : Fin 1) j)) = _
  refine congrArg (V c main_v60) (funext fun a => Fin.ext ?_)
  match a with
  | ⟨0, _⟩ => show win3_2.index t (0 : Fin 2) * 1 + 1 * 0 = 0; rw [e0]
  | ⟨1, _⟩ => show win3_2.index t (1 : Fin 2) * 128 + 1 * j.val = j.val; rw [e1]; omega

/-- The graph numbers' block read at the array. -/
theorem rd3 (t : Fin cfg3.N) (p : Fin 5000) :
    blk3 (F := Ideal) V c 3 t (ix2 p (0 : Fin 1)) = V c main_v54 (ix2 (rowOf t p) (0 : Fin 1)) := by
  obtain ⟨-, -, -, -, -, -, e0, e1, -⟩ := idx_facts t
  show V c main_v54 (((cfg3.win 3).blk t).view.emb (ix2 p (0 : Fin 1))) = _
  refine congrArg (V c main_v54) (funext fun a => Fin.ext ?_)
  match a with
  | ⟨0, _⟩ => show win3_3.index t (0 : Fin 2) * 5000 + 1 * p.val = 5000 * t.val + p.val; rw [e0]; omega
  | ⟨1, _⟩ => show win3_3.index t (1 : Fin 2) * 1 + 1 * 0 = 0; rw [e1]

/-- The counts' block read at the array. -/
theorem rd4 (t : Fin cfg3.N) (g : Fin 128) :
    blk3 (F := Ideal) V c 4 t (ix2 g (0 : Fin 1)) = V c main_v59 (ix2 g (0 : Fin 1)) := by
  obtain ⟨-, -, -, -, -, -, -, -, e0, e1, -⟩ := idx_facts t
  show V c main_v59 (((cfg3.win 4).blk t).view.emb (ix2 g (0 : Fin 1))) = _
  refine congrArg (V c main_v59) (funext fun a => Fin.ext ?_)
  match a with
  | ⟨0, _⟩ => show win3_4.index t (0 : Fin 2) * 128 + 1 * g.val = g.val; rw [e0]; omega
  | ⟨1, _⟩ => show win3_4.index t (1 : Fin 2) * 1 + 1 * 0 = 0; rw [e1]

/-- The last matrix's block read at the array. -/
theorem rd5 (t : Fin cfg3.N) (j : Fin 128) (o : Fin 3) :
    blk3 (F := Ideal) V c 5 t (ix2 j o) = V c main_arg9 (ix2 j o) := by
  obtain ⟨-, -, -, -, -, -, -, -, -, -, e0, e1, -⟩ := idx_facts t
  show V c main_arg9 (((cfg3.win 5).blk t).view.emb (ix2 j o)) = _
  refine congrArg (V c main_arg9) (funext fun a => Fin.ext ?_)
  match a with
  | ⟨0, _⟩ => show win3_5.index t (0 : Fin 2) * 128 + 1 * j.val = j.val; rw [e0]; omega
  | ⟨1, _⟩ => show win3_5.index t (1 : Fin 2) * 3 + 1 * o.val = o.val; rw [e1]; omega

/-- The last bias row's block read at the array. -/
theorem rd6 (t : Fin cfg3.N) (o : Fin 3) :
    blk3 (F := Ideal) V c 6 t (ix2 (0 : Fin 1) o) = V c main_v61 (ix2 (0 : Fin 1) o) := by
  obtain ⟨-, -, -, -, -, -, -, -, -, -, -, -, e0, e1, -⟩ := idx_facts t
  show V c main_v61 (((cfg3.win 6).blk t).view.emb (ix2 (0 : Fin 1) o)) = _
  refine congrArg (V c main_v61) (funext fun a => Fin.ext ?_)
  match a with
  | ⟨0, _⟩ => show win3_6.index t (0 : Fin 2) * 1 + 1 * 0 = 0; rw [e0]
  | ⟨1, _⟩ => show win3_6.index t (1 : Fin 2) * 3 + 1 * o.val = o.val; rw [e1]; omega

/-! ## The table after each point -/

/-- The aggregated rows, the degree column and the bias row as functions of explicit coordinates. -/
def aggA (r : Fin 50000) (j : Fin 128) : EReal := V c main_v53 (ix2 r j)
def degD (r : Fin 50000) : EReal := V c main_v15 (ix2 r (0 : Fin 1))
def biasB (j : Fin 128) : EReal := V c main_v60 (ix2 (0 : Fin 1) j)

/-- Row r's contribution to entry (g, j) of the table. -/
def term (r : Fin 50000) (g j : Fin 128) : EReal :=
  (if V c main_v54 (ix2 r (0 : Fin 1)) = BitVec.ofNat 32 g.val then (1 : EReal) else 0)
    * (aggA V c r j * degD V c r + biasB V c j)

/-- One point's update at an entry: what the table held plus the block's rows' contributions. -/
theorem step_apply (t : Fin cfg3.N) (s : Vec Ideal S128x128 .f32) (g j : Fin 128) :
    step3 (F := Ideal) V c t s (ix2 g j) = s (ix2 g j) + ∑ p : Fin 5000, term V c (rowOf t p) g j := by
  unfold step3
  rw [acc3_eq, pay3_acc]
  refine congrArg (s (ix2 g j) + ·) (Finset.sum_congr rfl fun p _ => ?_)
  rw [rd0, rd1, rd2, rd3]
  rfl

/-- After point n the table holds the contributions of the rows of blocks 0..n. -/
theorem sAt_apply (g j : Fin 128) : ∀ n : ℕ,
    sAt3 (F := Ideal) V c n (ix2 g j)
      = ∑ k ∈ Finset.range (n + 1), ∑ p : Fin 5000, term V c (rowOf (pt3 k) p) g j
  | 0 => by
    rw [sAt3_zero, step_apply, Finset.sum_range_one]
    unfold zero3
    rw [pay3_zero, zero_add]
  | n + 1 => by
    rw [sAt3_succ, step_apply, sAt_apply g j n, Finset.sum_range_succ _ (n + 1)]

/-- After the tenth point the table holds the contributions of all 50000 rows. -/
theorem sAt9_apply (g j : Fin 128) :
    sAt3 (F := Ideal) V c 9 (ix2 g j) = ∑ r : Fin 50000, term V c r g j := by
  rw [sAt_apply V c g j 9]
  exact sum_blocks (fun r => term V c r g j) (fun k p => rowOf (pt3 k) p) fun k hk p => by
    show 5000 * (k % 10) + p.val = 5000 * k + p.val
    rw [Nat.mod_eq_of_lt hk]

/-! ## The output array -/

/-- The last point. -/
def t9 : Fin cfg3.N := ⟨9, lt_of_lt_of_eq (by decide) N_3.symm⟩

theorem flush_t9 : (cfg3.win 7).flush t9 = true := (flush3_7 t9).mpr rfl

/-- Only the last point writes the output block back. -/
theorem eq_t9_of_flush (t : Fin cfg3.N) (h : (cfg3.win 7).flush t = true) : t = t9 :=
  Fin.ext (by
    have h9 := (flush3_7 t).mp h
    have hl := lt_of_lt_of_eq t.isLt N_3
    show t.val = 9
    omega)

end Val3

open Val3

/-- The region's output array at entry (g, o): the pooled mean of the finished rows times the last matrix, plus the
    last bias. -/
theorem val3 (V : (c : Dev nD) → (b : Ref sig .tc) → Buf (Elt Ideal) ((c : Thread nD τ).loc b)) (c : Dev nD)
    (g : Fin 128) (o : Fin 3) :
    (dat3 (F := Ideal) V c).arrAt 7 cfg3.N (ix2 g o)
      = kpool (fun r => V c main_v15 (ix2 r (0 : Fin 1))) (fun r j => V c main_v53 (ix2 r j))
          (fun j => V c main_v60 (ix2 (0 : Fin 1) j))
          (fun r g => if V c main_v54 (ix2 r (0 : Fin 1)) = BitVec.ofNat 32 g.val then (1 : EReal) else 0)
          (fun g => V c main_v59 (ix2 g (0 : Fin 1)))
          (fun j o => V c main_arg9 (ix2 j o)) (fun o => V c main_v61 (ix2 (0 : Fin 1) o)) g o := by
  have hdisj : ∀ t t' : Fin cfg3.N, (cfg3.win 7).flush t = true → (cfg3.win 7).flush t' = true → t ≠ t' →
      Disjoint ((cfg3.win 7).blk t).view.set ((cfg3.win 7).blk t').view.set :=
    fun t t' h h' hne => absurd ((eq_t9_of_flush t h).trans (eq_t9_of_flush t' h').symm) hne
  obtain ⟨-, -, -, -, -, -, -, -, -, -, -, -, -, -, e0, e1⟩ := idx_facts t9
  have hemb : ((cfg3.win 7).blk t9).view.emb (ix2 g o) = ix2 g o := funext fun a => Fin.ext (by
    match a with
    | ⟨0, _⟩ => show win3_7.index t9 (0 : Fin 2) * 128 + 1 * g.val = g.val; rw [e0]; omega
    | ⟨1, _⟩ => show win3_7.index t9 (1 : Fin 2) * 3 + 1 * o.val = o.val; rw [e1]; omega)
  have h := (dat3 (F := Ideal) V c).arrAt_emb_eq_flushed 7 hdisj t9 flush_t9 (ix2 g o)
  rw [hemb] at h
  refine h.trans ?_
  show (dat3 (F := Ideal) V c).after 7 t9 ((cfg3.win 7).xinj (cfg3.grid.coords t9) (ix2 g o)) = _
  have hx : (cfg3.win 7).xinj (cfg3.grid.coords t9) (ix2 g o) = ix2 g o := funext fun a => Fin.ext (by
    match a with
    | ⟨0, _⟩ => rfl
    | ⟨1, _⟩ => rfl)
  rw [hx, dat3_after7, res3_eq, pay3_fin]
  unfold kpool
  beta_reduce
  rw [rd6 V c t9 o]
  refine congrArg₂ (fun x y : EReal => x + y) (Finset.sum_congr rfl fun j _ => ?_) rfl
  show Ideal.div (sAt3 (F := Ideal) V c 9 (ix2 g j)) (max (blk3 (F := Ideal) V c 4 t9 (ix2 g (0 : Fin 1))) 1)
      * blk3 (F := Ideal) V c 5 t9 (ix2 j o) = _
  rw [sAt9_apply, rd4, rd5]
  rfl

end Cert.KernelIdeal.Hand

end
-- ==== Proof.LibVecGatherScatter.lean ====
/-
  Entries of a vector gathered by, and scattered-and-added at, a column of integer indices, read at one element.

  The vector has `N` entries; the indices are an `E × 1` column of machine integers.

  * The gather of entries (what `v[idx]` of a flat array lowers to: the one axis collapsed, no offset axis, the
    start index naming an entry) reads, at `e`, the vector's entry that the index `e` names — the index read as a
    signed integer and clamped into `[0, N - 1]`.
  * The accumulating scatter of entries (what `segment_sum` / `.at[idx].add` of a flat array lowers to), at the
    ideal values, leaves at `i` the operand's entry plus the sum of the updates' entries over the positions `e`
    whose index, read as a signed integer and NOT clamped, is `i`; an index that names no entry contributes nowhere.
-/
import Idealize.ShloMosaic.PureOps.Ideal
import Idealize.ShloMosaic.Lib.ValueIdx

noncomputable section

namespace Cert.Gcn

open Idealize.ShloMosaic Idealize.ShloMosaic.ValueIdx
open scoped BigOperators

/-! ## The gather of entries -/

/-- The dimension numbers of an entry gather: operand `N`, start indices `E × 1`, result `E`. -/
abbrev vecGatherDims (N E : Nat)
    (wf : GatherDims.WF ⟨1, ![N]⟩ ⟨2, ![E, 1]⟩ ⟨1, ![E]⟩ [] [0] [] [0] [] 1 ![1]) :
    GatherDims ⟨1, ![N]⟩ ⟨2, ![E, 1]⟩ ⟨1, ![E]⟩ where
  offsetDims := []
  collapsedSliceDims := [0]
  operandBatchingDims := []
  startIndicesBatchingDims := []
  startIndexMap := [0]
  indexVectorDim := 1
  sliceSizes := ![1]
  wf := wf

/-- THE ENTRY GATHER READ AT `e`: the entry that index `e` names, read signed and clamped into `[0, N - 1]`. -/
theorem gather_vec_apply {α : Type} {N E w : Nat} (hN : 0 < N)
    (wf : GatherDims.WF ⟨1, ![N]⟩ ⟨2, ![E, 1]⟩ ⟨1, ![E]⟩ [] [0] [] [0] [] 1 ![1])
    (x : (⟨1, ![N]⟩ : Shape).Idx → α) (idx : IVec ⟨2, ![E, 1]⟩ w) (e : Fin E) :
    Host.gather (vecGatherDims N E wf) x idx (ix1 e)
      = x (ix1 ⟨min (idx (ix2 e (0 : Fin 1))).toInt.toNat (N - 1), by omega⟩) := by
  unfold Host.gather
  congr 1
  funext a
  obtain rfl : a = 0 := Subsingleton.elim _ _
  refine Fin.ext ?_
  show (vecGatherDims N E wf).start (ix1 e) idx 0 + (vecGatherDims N E wf).batchCoord (ix1 e) 0
      + (vecGatherDims N E wf).offCoord (ix1 e) 0 = _
  rw [GatherDims.batchCoord_eq_zero _ _ _ List.not_mem_nil,
    GatherDims.offCoord_eq_zero _ _ _ (fun h => ((GatherDims.mem_sKept _ _).mp h).1 (List.mem_singleton.mpr rfl))]
  simp only [Nat.add_zero]
  unfold GatherDims.start
  rw [dif_pos (show (0 : Fin 1) ∈ (vecGatherDims N E wf).startIndexMap from List.mem_singleton.mpr rfl)]
  have hsi : (vecGatherDims N E wf).siIdx (ix1 e) ⟨List.idxOf (0 : Fin 1) (vecGatherDims N E wf).startIndexMap,
      List.idxOf_lt_length_iff.2 (List.mem_singleton.mpr rfl)⟩ = ix2 e (0 : Fin 1) := by
    funext b; refine Fin.ext ?_
    match b with
    | ⟨0, _⟩ => rfl
    | ⟨1, _⟩ => rfl
  rw [hsi]
  rfl

/-! ## The accumulating scatter of entries -/

/-- The dimension numbers of an entry scatter: operand `N`, scatter indices `E × 1`, updates `E`. -/
abbrev vecScatterDims (N E : Nat)
    (wf : ScatterDims.WF ⟨1, ![N]⟩ ⟨2, ![E, 1]⟩ ⟨1, ![E]⟩ [] [0] [0] 1) :
    ScatterDims ⟨1, ![N]⟩ ⟨2, ![E, 1]⟩ ⟨1, ![E]⟩ where
  updateWindowDims := []
  insertedWindowDims := [0]
  scatterDimsToOperandDims := [0]
  indexVectorDim := 1
  wf := wf

section
variable {N E w : Nat} (wf : ScatterDims.WF ⟨1, ![N]⟩ ⟨2, ![E, 1]⟩ ⟨1, ![E]⟩ [] [0] [0] 1)
  (idx : IVec ⟨2, ![E, 1]⟩ w)

/-- On the one axis the update `e` lands at the signed value of index `e`. -/
theorem vecScatter_pos0 (e : Fin E) :
    (vecScatterDims N E wf).start (ix1 e) idx (0 : Fin 1) + ((vecScatterDims N E wf).window (ix1 e) (0 : Fin 1) : ℤ)
      = (idx (ix2 e (0 : Fin 1))).toInt := by
  have hw : (vecScatterDims N E wf).window (ix1 e) (0 : Fin 1) = 0 := by
    have h0 : (0 : Fin 1) ∉ (vecScatterDims N E wf).sKept := show (0 : Fin 1) ∉ ([] : List (Fin 1)) from List.not_mem_nil
    unfold ScatterDims.window
    rw [dif_neg h0]
  rw [hw]
  unfold ScatterDims.start
  rw [dif_pos (show (0 : Fin 1) ∈ ([0] : List (Fin 1)) from List.mem_singleton.mpr rfl)]
  have hsi : (vecScatterDims N E wf).siIdx (ix1 e) ⟨List.idxOf (0 : Fin 1) (vecScatterDims N E wf).scatterDimsToOperandDims,
      List.idxOf_lt_length_iff.2 (show (0 : Fin 1) ∈ ([0] : List (Fin 1)) from List.mem_singleton.mpr rfl)⟩ = ix2 e (0 : Fin 1) := by
    funext b; refine Fin.ext ?_
    match b with
    | ⟨0, _⟩ => rfl
    | ⟨1, _⟩ => rfl
  rw [hsi]
  simp

/-- The update `e` lands on `i` exactly when index `e`, read signed, is `i`. -/
theorem vecScatter_resultIdx (e : Fin E) (i : Fin N) :
    (vecScatterDims N E wf).resultIdx? (ix1 e) idx = some (ix1 i)
      ↔ (idx (ix2 e (0 : Fin 1))).toInt = (i.val : ℤ) := by
  have p0 := vecScatter_pos0 wf idx e
  unfold ScatterDims.resultIdx?
  constructor
  · intro h
    split at h
    · rename_i hb
      have hf := Option.some.inj h
      have h0 : ((vecScatterDims N E wf).start (ix1 e) idx (0 : Fin 1)
          + ((vecScatterDims N E wf).window (ix1 e) (0 : Fin 1) : ℤ)).toNat = i.val :=
        congrArg (fun f => (f (0 : Fin 1)).val) hf
      have b0 := (hb (0 : Fin 1)).1
      rw [p0] at h0 b0
      omega
    · exact absurd h (by simp)
  · intro h0
    have hb : ∀ a : Fin 1, 0 ≤ (vecScatterDims N E wf).start (ix1 e) idx a + ((vecScatterDims N E wf).window (ix1 e) a : ℤ)
        ∧ (vecScatterDims N E wf).start (ix1 e) idx a + ((vecScatterDims N E wf).window (ix1 e) a : ℤ)
          < (((⟨1, ![N]⟩ : Shape).size a : ℕ) : ℤ) := by
      intro a
      obtain rfl : a = 0 := Subsingleton.elim _ _
      show 0 ≤ (vecScatterDims N E wf).start (ix1 e) idx (0 : Fin 1) + ((vecScatterDims N E wf).window (ix1 e) (0 : Fin 1) : ℤ)
        ∧ (vecScatterDims N E wf).start (ix1 e) idx (0 : Fin 1) + ((vecScatterDims N E wf).window (ix1 e) (0 : Fin 1) : ℤ) < ((N : ℕ) : ℤ)
      rw [p0, h0]
      exact ⟨by omega, by exact_mod_cast i.isLt⟩
    rw [dif_pos hb]
    congr 1
    funext a
    obtain rfl : a = 0 := Subsingleton.elim _ _
    refine Fin.ext ?_
    show ((vecScatterDims N E wf).start (ix1 e) idx (0 : Fin 1) + ((vecScatterDims N E wf).window (ix1 e) (0 : Fin 1) : ℤ)).toNat = i.val
    rw [p0, h0]; simp

/-- THE ACCUMULATING ENTRY SCATTER READ AT `i`, at the ideal values: the operand's entry plus the sum of the
    updates' entries over the positions `e` whose index, read signed, is `i`. -/
theorem scatterAdd_vec_apply (x : (⟨1, ![N]⟩ : Shape).Idx → EReal) (upd : (⟨1, ![E]⟩ : Shape).Idx → EReal)
    (i : Fin N) :
    Ideal.hostScatterAdd (vecScatterDims N E wf) x idx upd (ix1 i)
      = x (ix1 i) + ∑ e ∈ Finset.univ.filter (fun e : Fin E => (idx (ix2 e (0 : Fin 1))).toInt = (i.val : ℤ)), upd (ix1 e) := by
  unfold Ideal.hostScatterAdd
  congr 1
  have hsum : ∀ f : (⟨1, ![E]⟩ : Shape).Idx → EReal, ∑ j, f j = ∑ e : Fin E, f (ix1 e) := fun f =>
    Fintype.sum_equiv ⟨fun j => j 0, ix1, fun j => (eq_ix1 j).symm, fun _ => rfl⟩ _ _ (fun j => congrArg f (eq_ix1 j))
  rw [Finset.sum_filter, hsum, Finset.sum_filter]
  refine Finset.sum_congr rfl fun e _ => ?_
  simp only [vecScatter_resultIdx wf idx e i]

end

end Cert.Gcn

end
-- ==== Proof.KI.HostVal.lean ====
/-
  What the host stretches of the kernel program leave in the buffers the four kernel regions read, at the ideal values:
  the degree scale column, the argument arrays no stretch writes, the bias rows, the graph-number column and the
  per-graph node counts, each as an explicit formula of the launch contents.
-/
import proofs.«401627_j1056561955307_2_alg».proof.Proof.Gen.KernelIdeal.Regions
import proofs.«401627_j1056561955307_2_alg».proof.Proof.Idx
import proofs.«401627_j1056561955307_2_alg».proof.Proof.LibVecGatherScatter
import proofs.«401627_j1056561955307_2_alg».proof.Proof.KI.Args
import Idealize.ShloMosaic.Lib.StableHlo.Run
import Idealize.ShloMosaic.Lib.ValueIdx
import Idealize.ShloMosaic.Lib.ValueLayout
import Idealize.ShloMosaic.Lib.IdealHost
import Idealize.ShloMosaic.Lib.Pipeline.Value
import Idealize.ShloMosaic.PureOps.Ideal.Laws

set_option maxRecDepth 16384

noncomputable section

namespace Cert.KernelIdeal.Hand

open Cert.KernelIdeal Cert.KernelIdeal.Gen
open Cert.Gcn (pairW colz degOf dOf bz cntOf)
open Idealize.ShloMosaic Idealize.ShloMosaic.TcCoe Idealize.ShloMosaic.ValueIdx Idealize.ShloMosaic.StableHlo
open scoped BigOperators

variable (m : (ℓ : Loc nD τ sig) → Buf (Elt Ideal) ℓ) (outs : Outs (F := Ideal)) (c : Dev nD)

/-! ## The arguments no stretch writes, at each valuation where a region or a reshape reads them -/

namespace HostVal

theorem arg_V3 (r : Ref sig .tc) (h0 : r ∉ hostOps0_W) (h1 : r ∉ hostOps0_1_W) (h2 : r ∉ hostOps0_2_W) :
    V3 m c r = m ((c : Thread nD τ).loc r) :=
  (V3_of m c r h2).trans <| (V2_of m c r h1).trans <| (V1_of m c r h0).trans rfl

theorem keep_V5 (r : Ref sig .tc) (h4 : r ∉ ([main_v16] : List (Ref sig .tc))) (h5 : r ∉ hostOps1_W) :
    V5 m outs c r = V3 m c r :=
  (V5_of m outs c r h5).trans (V4_of m outs c r h4)

theorem keep_V7 (r : Ref sig .tc) (h6 : r ∉ ([main_v29] : List (Ref sig .tc))) (h7 : r ∉ hostOps2_W) :
    V7 m outs c r = V5 m outs c r :=
  (V7_of m outs c r h7).trans (V6_of m outs c r h6)

theorem keep_V9 (r : Ref sig .tc) (h8 : r ∉ ([main_v42] : List (Ref sig .tc))) (h9 : r ∉ hostOps3_W) :
    V9 m outs c r = V7 m outs c r :=
  (V9_of m outs c r h9).trans (V8_of m outs c r h8)

end HostVal

theorem dinv_keep5 : V5 m outs c main_v15 = V3 m c main_v15 := HostVal.keep_V5 m outs c main_v15 (by decide) (by decide)
theorem dinv_keep7 : V7 m outs c main_v15 = V3 m c main_v15 :=
  (HostVal.keep_V7 m outs c main_v15 (by decide) (by decide)).trans (dinv_keep5 m outs c)
theorem dinv_keep9 : V9 m outs c main_v15 = V3 m c main_v15 :=
  (HostVal.keep_V9 m outs c main_v15 (by decide) (by decide)).trans (dinv_keep7 m outs c)

theorem x_val : V3 m c main_arg0 = m ((c : Thread nD τ).loc main_arg0) := HostVal.arg_V3 m c main_arg0 (by decide) (by decide) (by decide)
theorem w1_val : V3 m c main_arg3 = m ((c : Thread nD τ).loc main_arg3) := HostVal.arg_V3 m c main_arg3 (by decide) (by decide) (by decide)
theorem w2_val : V5 m outs c main_arg5 = m ((c : Thread nD τ).loc main_arg5) :=
  (HostVal.keep_V5 m outs c main_arg5 (by decide) (by decide)).trans (HostVal.arg_V3 m c main_arg5 (by decide) (by decide) (by decide))
theorem w3_val : V7 m outs c main_arg7 = m ((c : Thread nD τ).loc main_arg7) :=
  (HostVal.keep_V7 m outs c main_arg7 (by decide) (by decide)).trans <| (HostVal.keep_V5 m outs c main_arg7 (by decide) (by decide)).trans
    (HostVal.arg_V3 m c main_arg7 (by decide) (by decide) (by decide))
theorem wl_val : V9 m outs c main_arg9 = m ((c : Thread nD τ).loc main_arg9) :=
  (HostVal.keep_V9 m outs c main_arg9 (by decide) (by decide)).trans <| (HostVal.keep_V7 m outs c main_arg9 (by decide) (by decide)).trans <|
    (HostVal.keep_V5 m outs c main_arg9 (by decide) (by decide)).trans (HostVal.arg_V3 m c main_arg9 (by decide) (by decide) (by decide))

/-! ## The target words of the pairs -/

namespace HostVal

/-- The target words of the 850000 pairs as the first stretch computes them: row 1 of the edge array, then the
    nodes' own numbers. -/
def tgtW : S850000.Idx → BitVec 32 :=
  concatenate S850000 0
    [⟨S800000, shapeCast S800000 (extractStridedSlice S1x800000 ![1, 0] (A1 m c) slices_S2x800000_S1x800000_1_0) shapeCasts_S1x800000_S800000⟩,
     ⟨S50000, iotaInDim S50000 32 0⟩] concatenates_S800000_S50000_S850000_d0

theorem tgtW_eq : (V1 m c main_v6 : S850000.Idx → BitVec 32) = tgtW m c := by
  show StableHlo.after hostOps0 _ (Proc.devRef .tc main_v6) = _
  after_results; rfl

theorem tgtW_apply (e : Fin 850000) : tgtW m c (ix1 e) = pairW (A1 m c) 1 e := by
  unfold tgtW pairW
  by_cases h : e.val < 800000
  · rw [dif_pos h]
    refine (concatenate_pair_apply_left (t := S850000) (s₁ := S800000) (s₂ := S50000) (0 : Fin 1) _ _
      concatenates_S800000_S50000_S850000_d0 (ix1 e) rfl
      (ix1 (⟨e.val, h⟩ : Fin 800000)) (fun b => match b with | ⟨0, _⟩ => rfl)).trans ?_
    rw [shapeCast_1a_a_apply]
    exact extractStridedSlice_apply _ _ _ _ (ix2 (1 : Fin 2) (⟨e.val, h⟩ : Fin 800000))
      (fun a => match a with | ⟨0, _⟩ => rfl | ⟨1, _⟩ => by show e.val = 0 + e.val; omega)
  · rw [dif_neg h]
    have h' : e.val - 800000 < 50000 := by have := e.isLt; omega
    refine (concatenate_pair_apply_right (t := S850000) (s₁ := S800000) (s₂ := S50000) (0 : Fin 1) _ _
      concatenates_S800000_S50000_S850000_d0 (ix1 e) rfl rfl
      (ix1 (⟨e.val - 800000, h'⟩ : Fin 50000)) (fun b hb => absurd (Fin.ext (by have hb1 : b.val < 1 := b.isLt; show b.val = 0; omega)) hb)
      (by show (e.val - 800000) + 800000 = e.val; omega)).trans ?_
    rfl

end HostVal

/-! ## The in-degrees -/

namespace HostVal

/-- The host's accumulating scatter at the ideal values is the exact sum. -/
theorem scatterAdd_ideal {s si u : Shape} {w : Nat} (d : ScatterDims s si u) (x : s.Idx → EReal) (idx : IVec si w)
    (upd : u.Idx → EReal) : Host.scatterAdd (F := Ideal) (φ := .f32) d x idx upd = Ideal.hostScatterAdd d x idx upd := rfl

theorem dims_deg : scatter_S50000_S850000x1_S850000_n_0_0_1
    = Cert.Gcn.vecScatterDims 50000 850000 Facts₀.scatter_S50000_S850000x1_S850000_n_0_0_1_wf := rfl

theorem dims_cnt : scatter_S128_S50000x1_S50000_n_0_0_1
    = Cert.Gcn.vecScatterDims 128 50000 Facts₀.scatter_S128_S50000x1_S50000_n_0_0_1_wf := rfl

/-- The in-degrees as the first stretch computes them: ones scattered and added at the target words, over zeros. -/
def degV : S50000.Idx → EReal :=
  Host.scatterAdd (F := Ideal) (φ := .f32) scatter_S50000_S850000x1_S850000_n_0_0_1
    (broadcastInDim S50000 ![] bcast_S_S50000 (constant (F := Ideal) S_ .f32 0x00000000#32))
    (broadcastInDim S850000x1 ![0] bcast_S850000_S850000x1_0 (tgtW m c))
    (broadcastInDim S850000 ![] bcast_S_S850000 (constant (F := Ideal) S_ .f32 0x3F800000#32))

theorem degV_eq : (V1 m c main_v10 : S50000.Idx → EReal) = degV m c := by
  show StableHlo.after hostOps0 _ (Proc.devRef .tc main_v10) = _
  after_results; rfl

theorem zero_f32_apply {T : Shape} (h : S_.BroadcastsInDim T ![]) (j : T.Idx) :
    broadcastInDim T ![] h (constant (F := Ideal) S_ .f32 0x00000000#32) j = (0 : EReal) := by
  rw [broadcastInDim_scalar_apply, constant_apply, Ideal.ofBits_zero_f32]

theorem one_f32_apply {T : Shape} (h : S_.BroadcastsInDim T ![]) (j : T.Idx) :
    broadcastInDim T ![] h (constant (F := Ideal) S_ .f32 0x3F800000#32) j = (1 : EReal) := by
  rw [broadcastInDim_scalar_apply, constant_apply, Ideal.ofBits_one_f32]

theorem degV_apply (r : Fin 50000) : degV m c (ix1 r) = degOf (A1 m c) r := by
  have hi : ∀ e : Fin 850000, broadcastInDim S850000x1 ![0] bcast_S850000_S850000x1_0 (tgtW m c) (ix2 e (0 : Fin 1))
      = pairW (A1 m c) 1 e := fun e =>
    (broadcastInDim_apply _ _ _ _ (ix1 e) (fun a => match a with | ⟨0, _⟩ => rfl)).trans (tgtW_apply m c e)
  have hf : (Finset.univ.filter (fun e : Fin 850000 =>
        (broadcastInDim S850000x1 ![0] bcast_S850000_S850000x1_0 (tgtW m c) (ix2 e (0 : Fin 1))).toInt = (r.val : ℤ)))
      = Finset.univ.filter (fun e : Fin 850000 => colz (A1 m c) e = (r.val : ℤ)) :=
    Finset.filter_congr fun e _ => by rw [hi e]; exact Iff.rfl
  have h1 : ∀ e ∈ Finset.univ.filter (fun e : Fin 850000 => colz (A1 m c) e = (r.val : ℤ)),
      broadcastInDim S850000 ![] bcast_S_S850000 (constant (F := Ideal) S_ .f32 0x3F800000#32) (ix1 e) = (1 : EReal) :=
    fun e _ => one_f32_apply _ _
  unfold degV
  rw [scatterAdd_ideal, dims_deg]
  refine (Cert.Gcn.scatterAdd_vec_apply (N := 50000) (E := 850000) _ _ _ _ r).trans ?_
  rw [zero_f32_apply, hf, Finset.sum_congr rfl h1]
  refine (zero_add _).trans ?_
  unfold degOf
  with_reducible rfl

end HostVal

/-! ## The degree scale -/

namespace HostVal

theorem degPos_eq : (V1 m c main_v12 : S50000.Idx → BitVec 1)
    = cmpf .ogt (degV m c) (broadcastInDim S50000 ![] bcast_S_S50000 (constant (F := Ideal) S_ .f32 0x00000000#32)) := by
  show StableHlo.after hostOps0 _ (Proc.devRef .tc main_v12) = _
  after_results; rfl

theorem degRsqrt_eq : (V1 m c main_v13 : S50000.Idx → EReal) = Host.rsqrt (F := Ideal) (φ := .f32) (degV m c) := by
  show StableHlo.after hostOps0 _ (Proc.devRef .tc main_v13) = _
  after_results; rfl

theorem zeroCst_eq : (V1 m c main_cst_2 : S_.Idx → EReal) = constant (F := Ideal) S_ .f32 0x00000000#32 := by
  show StableHlo.after hostOps0 _ (Proc.devRef .tc main_cst_2) = _
  after_results <;> rfl

/-- The second stretch (the choice between the inverse square root and zero), over any contents before it. -/
theorem where_after (W : Valuation τ sig (Elt Ideal)) :
    (StableHlo.after hostOps0_1 W (Proc.devRef .tc main_v14) : S50000.Idx → EReal)
      = select (W (Proc.devRef .tc main_v12) : S50000.Idx → BitVec 1) (W (Proc.devRef .tc main_v13) : S50000.Idx → EReal)
          (broadcastInDim S50000 ![] bcast_S_S50000 (W (Proc.devRef .tc main_cst_2) : S_.Idx → EReal)) := by
  after_results; rfl

/-- The third stretch (the vector made a column), over any contents before it. -/
theorem col_after (W : Valuation τ sig (Elt Ideal)) :
    (StableHlo.after hostOps0_2 W (Proc.devRef .tc main_v15) : S50000x1.Idx → EReal)
      = shapeCast S50000x1 (W (Proc.devRef .tc main_v14) : S50000.Idx → EReal) shapeCasts_S50000_S50000x1 := by
  after_results; rfl

/-- A column made of a vector reads, at row `r`, the vector's entry `r`. -/
theorem shapeCast_a_a1_apply {α : Type} {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- The host's inverse square root at an entry. -/
theorem hostRsqrt_apply {s : Shape} (x : s.Idx → EReal) (i : s.Idx) :
    Host.rsqrt (F := Ideal) (φ := .f32) x i = Ideal.rsqrt (x i) := rfl

/-- A choice on "greater than", at the ideal values. -/
theorem select_cmp_ogt {α : Type} (x y : EReal) (a b : α) :
    Scalar.select (Ideal.cmp .ogt x y) a b = if y < x then a else b := by
  unfold Scalar.select Ideal.cmp
  by_cases h : y < x
  · simp [h]
  · simp [h]

end HostVal

/-- The degree-scale column the first region reads: at row `r` the inverse square root of node `r`'s in-degree,
    `0` where nothing lands. -/
theorem dinv_val (r : Fin 50000) : V3 m c main_v15 (ix2 r (0 : Fin 1)) = dOf (A1 m c) r := by
  have e15 : (V3 m c main_v15 : S50000x1.Idx → EReal)
      = shapeCast S50000x1 (V2 m c main_v14 : S50000.Idx → EReal) shapeCasts_S50000_S50000x1 := HostVal.col_after (V2 m c)
  have e14 : (V2 m c main_v14 : S50000.Idx → EReal)
      = select (V1 m c main_v12 : S50000.Idx → BitVec 1) (V1 m c main_v13 : S50000.Idx → EReal)
          (broadcastInDim S50000 ![] bcast_S_S50000 (V1 m c main_cst_2 : S_.Idx → EReal)) := HostVal.where_after (V1 m c)
  rw [e15, HostVal.shapeCast_a_a1_apply, e14, select_apply, HostVal.degPos_eq, HostVal.degRsqrt_eq, HostVal.zeroCst_eq,
    cmpf_apply, HostVal.hostRsqrt_apply, HostVal.zero_f32_apply, Ideal.cmpf_def, HostVal.select_cmp_ogt, HostVal.degV_apply]
  rfl

/-! ## The bias rows -/

namespace HostVal

/-- Each later stretch ends by making a row of a bias vector: the row, over any contents before the stretch. -/
theorem row1_after (W : Valuation τ sig (Elt Ideal)) :
    (StableHlo.after hostOps1 W (Proc.devRef .tc main_v28) : S1x128.Idx → EReal)
      = shapeCast S1x128 (W (Proc.devRef .tc main_arg4) : S128.Idx → EReal) shapeCasts_S128_S1x128 := by
  after_results; rfl

theorem row2_after (W : Valuation τ sig (Elt Ideal)) :
    (StableHlo.after hostOps2 W (Proc.devRef .tc main_v41) : S1x128.Idx → EReal)
      = shapeCast S1x128 (W (Proc.devRef .tc main_arg6) : S128.Idx → EReal) shapeCasts_S128_S1x128 := by
  after_results; rfl

theorem row3_after (W : Valuation τ sig (Elt Ideal)) :
    (StableHlo.after hostOps3 W (Proc.devRef .tc main_v60) : S1x128.Idx → EReal)
      = shapeCast S1x128 (W (Proc.devRef .tc main_arg8) : S128.Idx → EReal) shapeCasts_S128_S1x128 := by
  after_results; rfl

theorem rowl_after (W : Valuation τ sig (Elt Ideal)) :
    (StableHlo.after hostOps3 W (Proc.devRef .tc main_v61) : S1x3.Idx → EReal)
      = shapeCast S1x3 (W (Proc.devRef .tc main_arg10) : S3.Idx → EReal) shapeCasts_S3_S1x3 := by
  after_results; rfl

end HostVal

theorem b1_val (k : Fin 128) : V5 m outs c main_v28 (ix2 (0 : Fin 1) k) = m ((c : Thread nD τ).loc main_arg4) (ix1 k) := by
  have e : (V5 m outs c main_v28 : S1x128.Idx → EReal)
      = shapeCast S1x128 (V4 m outs c main_arg4 : S128.Idx → EReal) shapeCasts_S128_S1x128 := HostVal.row1_after (V4 m outs c)
  rw [e, shapeCast_a_1a_apply, V4_of m outs c main_arg4 (by decide), HostVal.arg_V3 m c main_arg4 (by decide) (by decide) (by decide)]

theorem b2_val (k : Fin 128) : V7 m outs c main_v41 (ix2 (0 : Fin 1) k) = m ((c : Thread nD τ).loc main_arg6) (ix1 k) := by
  have e : (V7 m outs c main_v41 : S1x128.Idx → EReal)
      = shapeCast S1x128 (V6 m outs c main_arg6 : S128.Idx → EReal) shapeCasts_S128_S1x128 := HostVal.row2_after (V6 m outs c)
  rw [e, shapeCast_a_1a_apply, V6_of m outs c main_arg6 (by decide), HostVal.keep_V5 m outs c main_arg6 (by decide) (by decide),
    HostVal.arg_V3 m c main_arg6 (by decide) (by decide) (by decide)]

theorem b3_val (k : Fin 128) : V9 m outs c main_v60 (ix2 (0 : Fin 1) k) = m ((c : Thread nD τ).loc main_arg8) (ix1 k) := by
  have e : (V9 m outs c main_v60 : S1x128.Idx → EReal)
      = shapeCast S1x128 (V8 m outs c main_arg8 : S128.Idx → EReal) shapeCasts_S128_S1x128 := HostVal.row3_after (V8 m outs c)
  rw [e, shapeCast_a_1a_apply, V8_of m outs c main_arg8 (by decide), HostVal.keep_V7 m outs c main_arg8 (by decide) (by decide),
    HostVal.keep_V5 m outs c main_arg8 (by decide) (by decide), HostVal.arg_V3 m c main_arg8 (by decide) (by decide) (by decide)]

theorem bl_val (o : Fin 3) : V9 m outs c main_v61 (ix2 (0 : Fin 1) o) = m ((c : Thread nD τ).loc main_arg10) (ix1 o) := by
  have e : (V9 m outs c main_v61 : S1x3.Idx → EReal)
      = shapeCast S1x3 (V8 m outs c main_arg10 : S3.Idx → EReal) shapeCasts_S3_S1x3 := HostVal.rowl_after (V8 m outs c)
  rw [e, shapeCast_a_1a_apply, V8_of m outs c main_arg10 (by decide), HostVal.keep_V7 m outs c main_arg10 (by decide) (by decide),
    HostVal.keep_V5 m outs c main_arg10 (by decide) (by decide), HostVal.arg_V3 m c main_arg10 (by decide) (by decide) (by decide)]

/-! ## The graph numbers and the per-graph counts -/

namespace HostVal

theorem arg2_V8 : (V8 m outs c main_arg2 : S50000.Idx → BitVec 32) = A2 m c :=
  (V8_of m outs c main_arg2 (by decide)).trans <| (keep_V7 m outs c main_arg2 (by decide) (by decide)).trans <|
    (keep_V5 m outs c main_arg2 (by decide) (by decide)).trans (arg_V3 m c main_arg2 (by decide) (by decide) (by decide))

/-- The last stretch makes a column of the graph numbers, over any contents before it. -/
theorem batch_after (W : Valuation τ sig (Elt Ideal)) :
    (StableHlo.after hostOps3 W (Proc.devRef .tc main_v54) : S50000x1.Idx → BitVec 32)
      = shapeCast S50000x1 (W (Proc.devRef .tc main_arg2) : S50000.Idx → BitVec 32) shapeCasts_S50000_S50000x1 := by
  after_results; rfl

end HostVal

theorem batch_val (r : Fin 50000) : V9 m outs c main_v54 (ix2 r (0 : Fin 1)) = A2 m c (ix1 r) := by
  have e : (V9 m outs c main_v54 : S50000x1.Idx → BitVec 32)
      = shapeCast S50000x1 (V8 m outs c main_arg2 : S50000.Idx → BitVec 32) shapeCasts_S50000_S50000x1 :=
    HostVal.batch_after (V8 m outs c)
  rw [e, HostVal.shapeCast_a_a1_apply, HostVal.arg2_V8]

namespace HostVal

/-- The per-graph node counts as the last stretch computes them from graph numbers `a`: ones scattered and added at
    the graph numbers, over zeros. -/
def cntV (a : S50000.Idx → BitVec 32) : S128.Idx → EReal :=
  Host.scatterAdd (F := Ideal) (φ := .f32) scatter_S128_S50000x1_S50000_n_0_0_1
    (broadcastInDim S128 ![] bcast_S_S128 (constant (F := Ideal) S_ .f32 0x00000000#32))
    (broadcastInDim S50000x1 ![0] bcast_S50000_S50000x1_0 a)
    (broadcastInDim S50000 ![] bcast_S_S50000 (constant (F := Ideal) S_ .f32 0x3F800000#32))

theorem cnt_after (W : Valuation τ sig (Elt Ideal)) :
    (StableHlo.after hostOps3 W (Proc.devRef .tc main_v59) : S128x1.Idx → EReal)
      = shapeCast S128x1 (cntV (W (Proc.devRef .tc main_arg2) : S50000.Idx → BitVec 32)) shapeCasts_S128_S128x1 := by
  after_results; rfl

theorem cntV_apply (a : S50000.Idx → BitVec 32) (g : Fin 128) : cntV a (ix1 g) = cntOf a g := by
  have hi : ∀ r : Fin 50000, broadcastInDim S50000x1 ![0] bcast_S50000_S50000x1_0 a (ix2 r (0 : Fin 1)) = a (ix1 r) := fun r =>
    broadcastInDim_apply _ _ _ _ (ix1 r) (fun b => match b with | ⟨0, _⟩ => rfl)
  have hf : (Finset.univ.filter (fun r : Fin 50000 =>
        (broadcastInDim S50000x1 ![0] bcast_S50000_S50000x1_0 a (ix2 r (0 : Fin 1))).toInt = (g.val : ℤ)))
      = Finset.univ.filter (fun r : Fin 50000 => bz a r = (g.val : ℤ)) :=
    Finset.filter_congr fun r _ => by rw [hi r]; exact Iff.rfl
  have h1 : ∀ r ∈ Finset.univ.filter (fun r : Fin 50000 => bz a r = (g.val : ℤ)),
      broadcastInDim S50000 ![] bcast_S_S50000 (constant (F := Ideal) S_ .f32 0x3F800000#32) (ix1 r) = (1 : EReal) :=
    fun r _ => one_f32_apply _ _
  unfold cntV
  rw [scatterAdd_ideal, dims_cnt]
  refine (Cert.Gcn.scatterAdd_vec_apply (N := 128) (E := 50000) _ _ _ _ g).trans ?_
  rw [zero_f32_apply, hf, Finset.sum_congr rfl h1]
  refine (zero_add _).trans ?_
  unfold cntOf
  with_reducible rfl

end HostVal

theorem cnt_val (g : Fin 128) : V9 m outs c main_v59 (ix2 g (0 : Fin 1)) = cntOf (A2 m c) g := by
  have e : (V9 m outs c main_v59 : S128x1.Idx → EReal)
      = shapeCast S128x1 (HostVal.cntV (V8 m outs c main_arg2 : S50000.Idx → BitVec 32)) shapeCasts_S128_S128x1 := HostVal.cnt_after (V8 m outs c)
  rw [e, HostVal.shapeCast_a_a1_apply, HostVal.arg2_V8, HostVal.cntV_apply]

end Cert.KernelIdeal.Hand

end
-- ==== Proof.LibRowGatherScatter.lean ====
/-
  Rows of a table gathered by, and scattered-and-added at, a column of integer indices, read at one element.

  The table has `N` rows of `C` entries; the indices are an `E × 1` column of machine integers.

  * The gather of rows (what `table[idx]` lowers to: one collapsed axis, one offset axis, the start index naming a
    row) reads, at `(e, k)`, the table's entry `k` of the row the index `e` names — the index read as a signed
    integer and clamped into `[0, N - 1]`.
  * The accumulating scatter of rows (what `segment_sum` / `.at[idx].add` lowers to), at the ideal values, leaves at
    `(i, k)` the operand's entry plus the sum of the updates' entries `k` over the rows `e` whose index, read as a
    signed integer and NOT clamped, is `i`; an index that names no row contributes nowhere.
-/
import Idealize.ShloMosaic.PureOps.Ideal
import Idealize.ShloMosaic.Lib.ValueIdx

noncomputable section

namespace Cert.Gcn

open Idealize.ShloMosaic Idealize.ShloMosaic.ValueIdx
open scoped BigOperators

/-! ## The gather of rows -/

/-- The dimension numbers of a row gather: operand `N × C`, start indices `E × 1`, result `E × C`. -/
abbrev rowGatherDims (N E C : Nat)
    (wf : GatherDims.WF ⟨2, ![N, C]⟩ ⟨2, ![E, 1]⟩ ⟨2, ![E, C]⟩ [1] [0] [] [0] [] 1 ![1, C]) :
    GatherDims ⟨2, ![N, C]⟩ ⟨2, ![E, 1]⟩ ⟨2, ![E, C]⟩ where
  offsetDims := [1]
  collapsedSliceDims := [0]
  operandBatchingDims := []
  startIndicesBatchingDims := []
  startIndexMap := [0]
  indexVectorDim := 1
  sliceSizes := ![1, C]
  wf := wf

/-- THE ROW GATHER READ AT `(e, k)`: entry `k` of the row that index `e` names, read signed and clamped into
    `[0, N - 1]`. -/
theorem gather_rows_apply {α : Type} {N E C w : Nat} (hN : 0 < N)
    (wf : GatherDims.WF ⟨2, ![N, C]⟩ ⟨2, ![E, 1]⟩ ⟨2, ![E, C]⟩ [1] [0] [] [0] [] 1 ![1, C])
    (x : (⟨2, ![N, C]⟩ : Shape).Idx → α) (idx : IVec ⟨2, ![E, 1]⟩ w) (e : Fin E) (k : Fin C) :
    Host.gather (rowGatherDims N E C wf) x idx (ix2 e k)
      = x (ix2 ⟨min (idx (ix2 e (0 : Fin 1))).toInt.toNat (N - 1), by omega⟩ k) := by
  unfold Host.gather
  congr 1
  funext a
  refine Fin.ext ?_
  show (rowGatherDims N E C wf).start (ix2 e k) idx a + (rowGatherDims N E C wf).batchCoord (ix2 e k) a
      + (rowGatherDims N E C wf).offCoord (ix2 e k) a = _
  rw [GatherDims.batchCoord_eq_zero _ _ _ List.not_mem_nil]
  match a with
  | ⟨0, _⟩ =>
    rw [GatherDims.offCoord_eq_zero _ _ _ (fun h => ((GatherDims.mem_sKept _ _).mp h).1 (List.mem_singleton.mpr rfl))]
    simp only [Nat.add_zero]
    unfold GatherDims.start
    rw [dif_pos (show (⟨0, by decide⟩ : Fin 2) ∈ (rowGatherDims N E C wf).startIndexMap from List.mem_singleton.mpr rfl)]
    have hsi : (rowGatherDims N E C wf).siIdx (ix2 e k) ⟨List.idxOf (⟨0, by decide⟩ : Fin 2) (rowGatherDims N E C wf).startIndexMap,
        List.idxOf_lt_length_iff.2 (List.mem_singleton.mpr rfl)⟩ = ix2 e (0 : Fin 1) := by
      funext b; refine Fin.ext ?_
      match b with
      | ⟨0, _⟩ => rfl
      | ⟨1, _⟩ => rfl
    rw [hsi]
    rfl
  | ⟨1, _⟩ =>
    show (rowGatherDims N E C wf).start (ix2 e k) idx (1 : Fin 2) + 0
        + (rowGatherDims N E C wf).offCoord (ix2 e k) (1 : Fin 2) = k.val
    have hs : (rowGatherDims N E C wf).start (ix2 e k) idx (1 : Fin 2) = 0 := by
      unfold GatherDims.start
      rw [dif_neg (show (1 : Fin 2) ∉ ([0] : List (Fin 2)) from by decide)]
    have hm : (1 : Fin 2) ∈ (rowGatherDims N E C wf).sKept :=
      (GatherDims.mem_sKept _ _).mpr ⟨show (1 : Fin 2) ∉ ([0] : List (Fin 2)) from by decide, List.not_mem_nil⟩
    rw [hs]
    unfold GatherDims.offCoord
    rw [dif_pos hm]
    simp only [Nat.zero_add]
    rfl

/-! ## The accumulating scatter of rows -/

/-- The dimension numbers of a row scatter: operand `N × C`, scatter indices `E × 1`, updates `E × C`. -/
abbrev rowScatterDims (N E C : Nat)
    (wf : ScatterDims.WF ⟨2, ![N, C]⟩ ⟨2, ![E, 1]⟩ ⟨2, ![E, C]⟩ [1] [0] [0] 1) :
    ScatterDims ⟨2, ![N, C]⟩ ⟨2, ![E, 1]⟩ ⟨2, ![E, C]⟩ where
  updateWindowDims := [1]
  insertedWindowDims := [0]
  scatterDimsToOperandDims := [0]
  indexVectorDim := 1
  wf := wf

section
variable {N E C w : Nat} (wf : ScatterDims.WF ⟨2, ![N, C]⟩ ⟨2, ![E, 1]⟩ ⟨2, ![E, C]⟩ [1] [0] [0] 1)
  (idx : IVec ⟨2, ![E, 1]⟩ w) (e : Fin E) (k : Fin C)

/-- On the row axis the update `(e, k)` lands at the signed value of index `e`. -/
theorem rowScatter_pos0 :
    (rowScatterDims N E C wf).start (ix2 e k) idx (0 : Fin 2) + ((rowScatterDims N E C wf).window (ix2 e k) (0 : Fin 2) : ℤ)
      = (idx (ix2 e (0 : Fin 1))).toInt := by
  have hw : (rowScatterDims N E C wf).window (ix2 e k) (0 : Fin 2) = 0 := by
    have h0 : (0 : Fin 2) ∉ (rowScatterDims N E C wf).sKept := show (0 : Fin 2) ∉ ([1] : List (Fin 2)) from by decide
    unfold ScatterDims.window
    rw [dif_neg h0]
  rw [hw]
  unfold ScatterDims.start
  rw [dif_pos (show (0 : Fin 2) ∈ ([0] : List (Fin 2)) from by decide)]
  have hsi : (rowScatterDims N E C wf).siIdx (ix2 e k) ⟨List.idxOf (0 : Fin 2) (rowScatterDims N E C wf).scatterDimsToOperandDims,
      List.idxOf_lt_length_iff.2 (show (0 : Fin 2) ∈ ([0] : List (Fin 2)) from by decide)⟩ = ix2 e (0 : Fin 1) := by
    funext b; refine Fin.ext ?_
    match b with
    | ⟨0, _⟩ => rfl
    | ⟨1, _⟩ => rfl
  rw [hsi]
  simp

/-- On the column axis the update `(e, k)` lands at `k`. -/
theorem rowScatter_pos1 :
    (rowScatterDims N E C wf).start (ix2 e k) idx (1 : Fin 2) + ((rowScatterDims N E C wf).window (ix2 e k) (1 : Fin 2) : ℤ)
      = (k.val : ℤ) := by
  have hs : (rowScatterDims N E C wf).start (ix2 e k) idx (1 : Fin 2) = 0 := by
    unfold ScatterDims.start
    rw [dif_neg (show (1 : Fin 2) ∉ ([0] : List (Fin 2)) from by decide)]
  have hw : (rowScatterDims N E C wf).window (ix2 e k) (1 : Fin 2) = k.val := by
    have h1 : (1 : Fin 2) ∈ (rowScatterDims N E C wf).sKept := show (1 : Fin 2) ∈ ([1] : List (Fin 2)) from by decide
    unfold ScatterDims.window
    rw [dif_pos h1]
    rfl
  rw [hs, hw, zero_add]

end

section
variable {N E C w : Nat} (wf : ScatterDims.WF ⟨2, ![N, C]⟩ ⟨2, ![E, 1]⟩ ⟨2, ![E, C]⟩ [1] [0] [0] 1)
  (idx : IVec ⟨2, ![E, 1]⟩ w)

/-- The update `(e, b)` lands on `(i, k)` exactly when index `e`, read signed, is `i` and `b = k`. -/
theorem rowScatter_resultIdx (e : Fin E) (b : Fin C) (i : Fin N) (k : Fin C) :
    (rowScatterDims N E C wf).resultIdx? (ix2 e b) idx = some (ix2 i k)
      ↔ (idx (ix2 e (0 : Fin 1))).toInt = (i.val : ℤ) ∧ b = k := by
  have p0 := rowScatter_pos0 wf idx e b
  have p1 := rowScatter_pos1 wf idx e b
  unfold ScatterDims.resultIdx?
  constructor
  · intro h
    split at h
    · rename_i hb
      have hf := Option.some.inj h
      have h0 : ((rowScatterDims N E C wf).start (ix2 e b) idx (0 : Fin 2)
          + ((rowScatterDims N E C wf).window (ix2 e b) (0 : Fin 2) : ℤ)).toNat = i.val :=
        congrArg (fun f => (f (0 : Fin 2)).val) hf
      have h1 : ((rowScatterDims N E C wf).start (ix2 e b) idx (1 : Fin 2)
          + ((rowScatterDims N E C wf).window (ix2 e b) (1 : Fin 2) : ℤ)).toNat = k.val :=
        congrArg (fun f => (f (1 : Fin 2)).val) hf
      have b0 := (hb (0 : Fin 2)).1
      rw [p0] at h0 b0
      rw [p1] at h1
      exact ⟨by omega, Fin.ext (by omega)⟩
    · exact absurd h (by simp)
  · rintro ⟨h0, rfl⟩
    have hb : ∀ a : Fin 2, 0 ≤ (rowScatterDims N E C wf).start (ix2 e b) idx a + ((rowScatterDims N E C wf).window (ix2 e b) a : ℤ)
        ∧ (rowScatterDims N E C wf).start (ix2 e b) idx a + ((rowScatterDims N E C wf).window (ix2 e b) a : ℤ)
          < (((⟨2, ![N, C]⟩ : Shape).size a : ℕ) : ℤ) := by
      intro a
      match a with
      | ⟨0, _⟩ =>
        show 0 ≤ (rowScatterDims N E C wf).start (ix2 e b) idx (0 : Fin 2) + ((rowScatterDims N E C wf).window (ix2 e b) (0 : Fin 2) : ℤ)
          ∧ (rowScatterDims N E C wf).start (ix2 e b) idx (0 : Fin 2) + ((rowScatterDims N E C wf).window (ix2 e b) (0 : Fin 2) : ℤ) < ((N : ℕ) : ℤ)
        rw [p0, h0]
        exact ⟨by omega, by exact_mod_cast i.isLt⟩
      | ⟨1, _⟩ =>
        show 0 ≤ (rowScatterDims N E C wf).start (ix2 e b) idx (1 : Fin 2) + ((rowScatterDims N E C wf).window (ix2 e b) (1 : Fin 2) : ℤ)
          ∧ (rowScatterDims N E C wf).start (ix2 e b) idx (1 : Fin 2) + ((rowScatterDims N E C wf).window (ix2 e b) (1 : Fin 2) : ℤ) < ((C : ℕ) : ℤ)
        rw [p1]
        exact ⟨by omega, by exact_mod_cast b.isLt⟩
    rw [dif_pos hb]
    congr 1
    funext a
    refine Fin.ext ?_
    match a with
    | ⟨0, _⟩ =>
      show ((rowScatterDims N E C wf).start (ix2 e b) idx (0 : Fin 2) + ((rowScatterDims N E C wf).window (ix2 e b) (0 : Fin 2) : ℤ)).toNat = i.val
      rw [p0, h0]; simp
    | ⟨1, _⟩ =>
      show ((rowScatterDims N E C wf).start (ix2 e b) idx (1 : Fin 2) + ((rowScatterDims N E C wf).window (ix2 e b) (1 : Fin 2) : ℤ)).toNat = b.val
      rw [p1]; simp

/-- THE ACCUMULATING ROW SCATTER READ AT `(i, k)`, at the ideal values: the operand's entry plus the sum of the
    updates' entries `k` over the rows `e` whose index, read signed, is `i`. -/
theorem scatterAdd_rows_apply (x : (⟨2, ![N, C]⟩ : Shape).Idx → EReal) (upd : (⟨2, ![E, C]⟩ : Shape).Idx → EReal)
    (i : Fin N) (k : Fin C) :
    Ideal.hostScatterAdd (rowScatterDims N E C wf) x idx upd (ix2 i k)
      = x (ix2 i k) + ∑ e ∈ Finset.univ.filter (fun e : Fin E => (idx (ix2 e (0 : Fin 1))).toInt = (i.val : ℤ)), upd (ix2 e k) := by
  unfold Ideal.hostScatterAdd
  congr 1
  rw [Finset.sum_filter, sum_idx2, Finset.sum_filter]
  refine Finset.sum_congr rfl fun e _ => ?_
  simp only [rowScatter_resultIdx wf idx e _ i k]
  by_cases h : (idx (ix2 e (0 : Fin 1))).toInt = (i.val : ℤ)
  · simp [h]
  · simp [h]

end

end Cert.Gcn

end
-- ==== Proof.KI.HostAgg.lean ====
/-
  The kernel program's three host stretches between its regions, read at an entry, at the ideal values.

  Each stretch takes a table of 50000 rows of 128 entries (the previous region's scaled rows), gathers along the
  850000 pairs the row the pair's source word names, converts the gathered rows to the wider format (the identity on
  the extended reals) and sums them, from zero, at the rows the pairs' target words name.

  * The source and target words are the two concatenations computed once, before the first region: the edge
    array's row followed by the nodes' own numbers. Read at pair `e` they are `pairW a1 0 e` and `pairW a1 1 e`.
  * A source word is wrapped (`wrapW`: a negative word moved up by the table's length) and then clamped by the
    gather (`clampN`): the row read is `rowc a1 e`.
  * A target word is read signed and not clamped: pair `e` lands on node `v` exactly when `colz a1 e = v`.

  The three stretches are one function of (table, source words, target words), `aggOf`, read once at an entry
  (`aggOf_apply`) and instantiated at the three tables.
-/
import proofs.«401627_j1056561955307_2_alg».proof.Proof.Gen.KernelIdeal.Regions
import proofs.«401627_j1056561955307_2_alg».proof.Proof.Idx
import proofs.«401627_j1056561955307_2_alg».proof.Proof.LibRowGatherScatter
import proofs.«401627_j1056561955307_2_alg».proof.Proof.KI.Args
import Idealize.ShloMosaic.Lib.StableHlo.Run
import Idealize.ShloMosaic.Lib.ValueIdx
import Idealize.ShloMosaic.Lib.ValueLayout
import Idealize.ShloMosaic.Lib.Pipeline.Value
import Idealize.ShloMosaic.PureOps.Ideal.Laws

noncomputable section

namespace Cert.KernelIdeal.Hand

open Cert.KernelIdeal Cert.KernelIdeal.Gen Cert.Gcn
open Idealize.ShloMosaic Idealize.ShloMosaic.TcCoe Idealize.ShloMosaic.ValueIdx
open scoped BigOperators

/-! ## One stretch as a function of its table and index words -/

/-- The stretch: wrap the source words, gather the table's rows at them, widen, and sum into zeros at the target words. -/
def aggOf (t : FVec Ideal S50000x128 .bf16) (src tgt : IVec S850000 32) : FVec Ideal S50000x128 .f32 :=
  Host.scatterAdd scatter_S50000x128_S850000x1_S850000x128_1_0_0_1
    (broadcastInDim S50000x128 ![] Gen.bcast_S_S50000x128 (constant (F := Ideal) S_ .f32 0x00000000#32))
    (broadcastInDim S850000x1 ![0] Gen.bcast_S850000_S850000x1_0 tgt)
    (extf .f32
      (Host.gather gather_S50000x128_S850000x1_S850000x128_1_0_n_n_0_1_1128 t
        (broadcastInDim S850000x1 ![0] Gen.bcast_S850000_S850000x1_0
          (select (cmpi .slt src (broadcastInDim S850000 ![] Gen.bcast_S_S850000 (constantI S_ 32 0#32)))
            (addi src (broadcastInDim S850000 ![] Gen.bcast_S_S850000 (constantI S_ 32 50000#32))) src)))
      Gen.bitsLt_bf16_f32)

/-- The printed scatter's dimension numbers are the row scatter's. -/
theorem scatterDims_eq : scatter_S50000x128_S850000x1_S850000x128_1_0_0_1
    = rowScatterDims 50000 850000 128 Gen.scatter_S50000x128_S850000x1_S850000x128_1_0_0_1_wf := rfl

/-- The printed gather's dimension numbers are the row gather's. -/
theorem gatherDims_eq : gather_S50000x128_S850000x1_S850000x128_1_0_n_n_0_1_1128
    = rowGatherDims 50000 850000 128 Gen.gather_S50000x128_S850000x1_S850000x128_1_0_n_n_0_1_1128_wf := rfl

/-- The host's accumulating row scatter, at the ideal values, read at an entry. -/
theorem hostScatterAdd_rows_apply {N E C w : Nat} (wf : ScatterDims.WF ⟨2, ![N, C]⟩ ⟨2, ![E, 1]⟩ ⟨2, ![E, C]⟩ [1] [0] [0] 1)
    (x : FVec Ideal ⟨2, ![N, C]⟩ .f32) (idx : IVec ⟨2, ![E, 1]⟩ w) (upd : FVec Ideal ⟨2, ![E, C]⟩ .f32) (i : Fin N) (k : Fin C) :
    Host.scatterAdd (rowScatterDims N E C wf) x idx upd (ix2 i k)
      = x (ix2 i k) + ∑ e ∈ Finset.univ.filter (fun e : Fin E => (idx (ix2 e (0 : Fin 1))).toInt = (i.val : ℤ)), upd (ix2 e k) :=
  scatterAdd_rows_apply wf idx x upd i k

/-- The lookup's "negative word moved up by the table's length", on one word. -/
theorem wrap_eq (w : BitVec 32) : Scalar.select (IntOp.cmpi .slt w 0#32) (IntOp.addi w 50000#32) w = wrapW w := by
  have hz : (0#32 : BitVec 32).toInt = 0 := by decide
  unfold wrapW Scalar.select IntOp.cmpi IntOp.addi
  by_cases h : w.toInt < 0
  · have hs : w.slt 0#32 = true := (BitVec.slt_iff_toInt_lt).mpr (by rw [hz]; exact h)
    simp [hs, h]
  · have hs : w.slt 0#32 = false := by
      rw [Bool.eq_false_iff]; intro hc; exact h (by have := (BitVec.slt_iff_toInt_lt).mp hc; rwa [hz] at this)
    simp [hs, h]

/-- A vector of words laid out as a column reads its entry. -/
theorem col_apply (w : IVec S850000 32) (e : Fin 850000) :
    broadcastInDim S850000x1 ![0] Gen.bcast_S850000_S850000x1_0 w (ix2 e (0 : Fin 1)) = w (ix1 e) :=
  broadcastInDim_apply _ _ _ _ _ (fun a => by match a with | ⟨0, _⟩ => rfl)

/-- The wrapped source words at a pair. -/
theorem wrapped_apply (src : IVec S850000 32) (e : Fin 850000) :
    select (cmpi .slt src (broadcastInDim S850000 ![] Gen.bcast_S_S850000 (constantI S_ 32 0#32)))
        (addi src (broadcastInDim S850000 ![] Gen.bcast_S_S850000 (constantI S_ 32 50000#32))) src (ix1 e)
      = wrapW (src (ix1 e)) :=
  wrap_eq (src (ix1 e))

/-- The zero table the sums start from. -/
theorem zeros_apply (v : Fin 50000) (k : Fin 128) :
    broadcastInDim S50000x128 ![] Gen.bcast_S_S50000x128 (constant (F := Ideal) S_ .f32 0x00000000#32) (ix2 v k) = 0 := by
  unfold broadcastInDim
  rw [constant_apply, Ideal.ofBits_zero_f32]

/-- A row read at a clamped word depends on the word only. -/
theorem clamped_row (t : FVec Ideal S50000x128 .bf16) (k : Fin 128) {a b : BitVec 32} (h : a = b)
    (p : min a.toInt.toNat (50000 - 1) < 50000) :
    t (ix2 (⟨min a.toInt.toNat (50000 - 1), p⟩ : Fin 50000) k) = t (ix2 (clampN b) k) := by
  subst h; rfl

/-- THE STRETCH READ AT `(v, k)`: the sum, over the pairs whose target word read signed is `v`, of entry `k` of the
    table's row that the pair's wrapped and clamped source word names. -/
theorem aggOf_apply (t : FVec Ideal S50000x128 .bf16) (src tgt : IVec S850000 32) (v : Fin 50000) (k : Fin 128) :
    aggOf t src tgt (ix2 v k)
      = ∑ e ∈ Finset.univ.filter (fun e : Fin 850000 => (tgt (ix1 e)).toInt = (v.val : ℤ)),
          t (ix2 (clampN (wrapW (src (ix1 e)))) k) := by
  unfold aggOf
  rw [scatterDims_eq, hostScatterAdd_rows_apply, zeros_apply, zero_add]
  refine Finset.sum_congr ?_ fun e _ => ?_
  · ext e
    rw [Finset.mem_filter, Finset.mem_filter, col_apply]
  · rw [extf_apply, gatherDims_eq, gather_rows_apply (N := 50000) (by decide)]
    refine clamped_row t k ?_ _
    rw [col_apply, wrapped_apply]

/-! ## The index words -/

variable (m : (ℓ : Loc nD τ sig) → Buf (Elt Ideal) ℓ) (outs : Outs (F := Ideal)) (c : Dev nD)

/-- The source words after the first host stretch, as the operations compute them. -/
theorem v3_eq : (V1 m c main_v3 : IVec S850000 32)
    = concatenate S850000 0
        [⟨S800000, shapeCast S800000 (extractStridedSlice S1x800000 ![0, 0] (A1 m c) Gen.slices_S2x800000_S1x800000_0_0)
            Gen.shapeCasts_S1x800000_S800000⟩,
          ⟨S50000, iotaInDim S50000 32 0⟩] Gen.concatenates_S800000_S50000_S850000_d0 := by
  show StableHlo.after hostOps0 _ (Proc.devRef .tc main_v3) = _
  after_results
  rfl

/-- The target words after the first host stretch, as the operations compute them. -/
theorem v6_eq : (V1 m c main_v6 : IVec S850000 32)
    = concatenate S850000 0
        [⟨S800000, shapeCast S800000 (extractStridedSlice S1x800000 ![1, 0] (A1 m c) Gen.slices_S2x800000_S1x800000_1_0)
            Gen.shapeCasts_S1x800000_S800000⟩,
          ⟨S50000, iotaInDim S50000 32 0⟩] Gen.concatenates_S800000_S50000_S850000_d0 := by
  show StableHlo.after hostOps0 _ (Proc.devRef .tc main_v6) = _
  after_results
  rfl

/-- An edge row followed by the nodes' own numbers, read at a pair. -/
theorem pairs_apply (a1 : (⟨2, ![2, 800000]⟩ : Shape).Idx → BitVec 32) (s : Fin 2)
    (hs : S2x800000.Slices ![s.val, 0] S1x800000) (e : Fin 850000) :
    concatenate S850000 0
        [⟨S800000, shapeCast S800000 (extractStridedSlice S1x800000 ![s.val, 0] a1 hs) Gen.shapeCasts_S1x800000_S800000⟩,
          ⟨S50000, iotaInDim S50000 32 0⟩] Gen.concatenates_S800000_S50000_S850000_d0 (ix1 e)
      = pairW a1 s e := by
  unfold pairW
  by_cases h : e.val < 800000
  · rw [dif_pos h]
    rw [concatenate_pair_apply_left (t := S850000) (s₁ := S800000) (s₂ := S50000) 0 _ _ _ (ix1 e) rfl
      (ix1 (⟨e.val, h⟩ : Fin 800000)) (fun b => by match b with | ⟨0, _⟩ => rfl)]
    rw [shapeCast_1a_a_apply, slice2_axis0_apply s.val a1 hs (0 : Fin 1) (⟨e.val, h⟩ : Fin 800000) s (by simp)]
  · rw [dif_neg h]
    have he : e.val - 800000 < 50000 := by have := e.isLt; omega
    rw [concatenate_pair_apply_right (t := S850000) (s₁ := S800000) (s₂ := S50000) 0 _ _ _ (ix1 e) rfl rfl
      (ix1 (⟨e.val - 800000, he⟩ : Fin 50000))
      (fun b hb => absurd (Fin.ext (by have hb1 : b.val < 1 := b.isLt; show b.val = 0; omega)) hb)
      (by show e.val - 800000 + 800000 = e.val; omega)]
    rfl

/-- The source words after the first host stretch: pair `e`'s source word. -/
theorem v3_apply (e : Fin 850000) : V1 m c main_v3 (ix1 e) = pairW (A1 m c) 0 e := by
  rw [congrFun (v3_eq m c) (ix1 e)]
  exact pairs_apply (A1 m c) 0 Gen.slices_S2x800000_S1x800000_0_0 e

/-- The target words after the first host stretch: pair `e`'s target word. -/
theorem v6_apply (e : Fin 850000) : V1 m c main_v6 (ix1 e) = pairW (A1 m c) 1 e := by
  rw [congrFun (v6_eq m c) (ix1 e)]
  exact pairs_apply (A1 m c) 1 Gen.slices_S2x800000_S1x800000_1_0 e

/-! ## The index words reach every stretch unchanged -/

theorem v3_at4 (e : Fin 850000) : V4 m outs c main_v3 (ix1 e) = pairW (A1 m c) 0 e := by
  rw [V4_of m outs c main_v3 (by decide), V3_of m c main_v3 (by decide), V2_of m c main_v3 (by decide)]
  exact v3_apply m c e
theorem v6_at4 (e : Fin 850000) : V4 m outs c main_v6 (ix1 e) = pairW (A1 m c) 1 e := by
  rw [V4_of m outs c main_v6 (by decide), V3_of m c main_v6 (by decide), V2_of m c main_v6 (by decide)]
  exact v6_apply m c e
theorem v3_at6 (e : Fin 850000) : V6 m outs c main_v3 (ix1 e) = pairW (A1 m c) 0 e := by
  rw [V6_of m outs c main_v3 (by decide), V5_of m outs c main_v3 (by decide)]
  exact v3_at4 m outs c e
theorem v6_at6 (e : Fin 850000) : V6 m outs c main_v6 (ix1 e) = pairW (A1 m c) 1 e := by
  rw [V6_of m outs c main_v6 (by decide), V5_of m outs c main_v6 (by decide)]
  exact v6_at4 m outs c e
theorem v3_at8 (e : Fin 850000) : V8 m outs c main_v3 (ix1 e) = pairW (A1 m c) 0 e := by
  rw [V8_of m outs c main_v3 (by decide), V7_of m outs c main_v3 (by decide)]
  exact v3_at6 m outs c e
theorem v6_at8 (e : Fin 850000) : V8 m outs c main_v6 (ix1 e) = pairW (A1 m c) 1 e := by
  rw [V8_of m outs c main_v6 (by decide), V7_of m outs c main_v6 (by decide)]
  exact v6_at6 m outs c e

/-! ## The three stretches -/

set_option maxHeartbeats 1000000 in
/-- The first stretch's result is `aggOf` of the first region's output and the index words. -/
theorem v27_eq : (V5 m outs c main_v27 : FVec Ideal S50000x128 .f32)
    = aggOf (V4 m outs c main_v16) (V4 m outs c main_v3) (V4 m outs c main_v6) := by
  show StableHlo.after hostOps1 _ (Proc.devRef .tc main_v27) = _
  after_results
  rfl

set_option maxHeartbeats 1000000 in
/-- The second stretch's result is `aggOf` of the second region's output and the index words. -/
theorem v40_eq : (V7 m outs c main_v40 : FVec Ideal S50000x128 .f32)
    = aggOf (V6 m outs c main_v29) (V6 m outs c main_v3) (V6 m outs c main_v6) := by
  show StableHlo.after hostOps2 _ (Proc.devRef .tc main_v40) = _
  after_results
  rfl

set_option maxHeartbeats 1000000 in
/-- The third stretch's result is `aggOf` of the third region's output and the index words. -/
theorem v53_eq : (V9 m outs c main_v53 : FVec Ideal S50000x128 .f32)
    = aggOf (V8 m outs c main_v42) (V8 m outs c main_v3) (V8 m outs c main_v6) := by
  show StableHlo.after hostOps3 _ (Proc.devRef .tc main_v53) = _
  after_results
  rfl

/-- The stretch's sum, once its words are the pairs' and its table is named, is the aggregation of the table. -/
theorem agg_of_words (t : FVec Ideal S50000x128 .bf16) (src tgt : IVec S850000 32)
    (hsrc : ∀ e : Fin 850000, src (ix1 e) = pairW (A1 m c) 0 e) (htgt : ∀ e : Fin 850000, tgt (ix1 e) = pairW (A1 m c) 1 e)
    (v : Fin 50000) (k : Fin 128) :
    aggOf t src tgt (ix2 v k) = kagg (rowc (A1 m c)) (colz (A1 m c)) (fun r k => t (ix2 r k)) v k := by
  rw [aggOf_apply]
  unfold kagg rowc colz
  simp only [hsrc, htgt]

theorem agg1_val (v : Fin 50000) (k : Fin 128) :
    V5 m outs c main_v27 (ix2 v k)
      = kagg (rowc (A1 m c)) (colz (A1 m c)) (fun r k => outs 4 main_v16 c (ix2 r k)) v k := by
  rw [congrFun (v27_eq m outs c) (ix2 v k),
    agg_of_words m c _ _ _ (v3_at4 m outs c) (v6_at4 m outs c) v k,
    show V4 m outs c main_v16 = outs 4 main_v16 c from Function.update_self ..]

theorem agg2_val (v : Fin 50000) (k : Fin 128) :
    V7 m outs c main_v40 (ix2 v k)
      = kagg (rowc (A1 m c)) (colz (A1 m c)) (fun r k => outs 6 main_v29 c (ix2 r k)) v k := by
  rw [congrFun (v40_eq m outs c) (ix2 v k),
    agg_of_words m c _ _ _ (v3_at6 m outs c) (v6_at6 m outs c) v k,
    show V6 m outs c main_v29 = outs 6 main_v29 c from Function.update_self ..]

theorem agg3_val (v : Fin 50000) (k : Fin 128) :
    V9 m outs c main_v53 (ix2 v k)
      = kagg (rowc (A1 m c)) (colz (A1 m c)) (fun r k => outs 8 main_v42 c (ix2 r k)) v k := by
  rw [congrFun (v53_eq m outs c) (ix2 v k),
    agg_of_words m c _ _ _ (v3_at8 m outs c) (v6_at8 m outs c) v k,
    show V8 m outs c main_v42 = outs 8 main_v42 c from Function.update_self ..]

end Cert.KernelIdeal.Hand

end
-- ==== Proof.KI.Value.lean ====
/-
  The kernel program's result buffer, entry by entry, as the spec function `kres` of the launch memory.

  Read from the end backwards: the last region's output array is the pooling of its seven input arrays; the
  aggregated rows it reads are the host's "send along the pairs and sum at the targets" of the previous region's
  output array; that array is the previous region's function of its inputs; and so on down to the first region,
  whose inputs are the node features, the first weight matrix and the degree column. The degree column, the
  biases, the graph numbers and the counts are what the host stretches compute from the arguments.
-/
import proofs.«401627_j1056561955307_2_alg».proof.Proof.KI.RunDefs
import proofs.«401627_j1056561955307_2_alg».proof.Proof.KI.Args
import proofs.«401627_j1056561955307_2_alg».proof.Proof.Idx
import proofs.«401627_j1056561955307_2_alg».proof.Proof.KI.Val0
import proofs.«401627_j1056561955307_2_alg».proof.Proof.KI.Val1
import proofs.«401627_j1056561955307_2_alg».proof.Proof.KI.Val2
import proofs.«401627_j1056561955307_2_alg».proof.Proof.KI.Val3
import proofs.«401627_j1056561955307_2_alg».proof.Proof.KI.HostVal
import proofs.«401627_j1056561955307_2_alg».proof.Proof.KI.HostAgg

noncomputable section

namespace Cert.KernelIdeal.Hand

open Cert.KernelIdeal Cert.KernelIdeal.Gen
open Cert.Gcn (klin0 klin1 kagg kpool kres rowc colc colz dOf bz cntOf ohOf)
open Idealize.ShloMosaic Idealize.ShloMosaic.TcCoe Idealize.ShloMosaic.ValueIdx Idealize.SL.Sem

variable (m : (ℓ : Loc nD τ sig) → Buf (Elt Ideal) ℓ) (outs : Outs (F := Ideal)) (h : OutsOk m outs) (c : Dev nD)

/-- The arguments as curried functions of explicit coordinates. -/
abbrev argX : Fin 50000 → Fin 128 → EReal := fun r j => m ((c : Thread nD τ).loc main_arg0) (ix2 r j)
abbrev argW1 : Fin 128 → Fin 128 → EReal := fun j k => m ((c : Thread nD τ).loc main_arg3) (ix2 j k)
abbrev argB1 : Fin 128 → EReal := fun k => m ((c : Thread nD τ).loc main_arg4) (ix1 k)
abbrev argW2 : Fin 128 → Fin 128 → EReal := fun j k => m ((c : Thread nD τ).loc main_arg5) (ix2 j k)
abbrev argB2 : Fin 128 → EReal := fun k => m ((c : Thread nD τ).loc main_arg6) (ix1 k)
abbrev argW3 : Fin 128 → Fin 128 → EReal := fun j k => m ((c : Thread nD τ).loc main_arg7) (ix2 j k)
abbrev argB3 : Fin 128 → EReal := fun k => m ((c : Thread nD τ).loc main_arg8) (ix1 k)
abbrev argWl : Fin 128 → Fin 3 → EReal := fun j o => m ((c : Thread nD τ).loc main_arg9) (ix2 j o)
abbrev argBl : Fin 3 → EReal := fun o => m ((c : Thread nD τ).loc main_arg10) (ix1 o)

/-- A graph-number word equals the word of `g < 128` exactly when its signed value is `g`. -/
theorem word_eq_iff (w : BitVec 32) (g : Fin 128) : w = BitVec.ofNat 32 g.val ↔ w.toInt = (g.val : ℤ) := by
  have hg := g.isLt
  have hn : (BitVec.ofNat 32 g.val).toNat = g.val := by
    rw [BitVec.toNat_ofNat]; omega
  have hi : (BitVec.ofNat 32 g.val).toInt = (g.val : ℤ) := by
    rw [BitVec.toInt_eq_toNat_cond, hn]
    have : 2 * g.val < 2 ^ 32 := by omega
    rw [if_pos this]
  constructor
  · rintro rfl; exact hi
  · intro hw
    exact BitVec.eq_of_toInt_eq (hw.trans hi.symm)

/-! ## The host-side facts as equalities of curried functions -/

theorem dinv3_fn : (fun r : Fin 50000 => Vr (V3 m) c main_v15 (ix2 r (0 : Fin 1))) = dOf (A1 m c) :=
  funext fun r => dinv_val m c r
theorem dinv5_fn : (fun r : Fin 50000 => Vr (V5 m outs) c main_v15 (ix2 r (0 : Fin 1))) = dOf (A1 m c) :=
  funext fun r => (congrFun (dinv_keep5 m outs c) _).trans (dinv_val m c r)
theorem dinv7_fn : (fun r : Fin 50000 => Vr (V7 m outs) c main_v15 (ix2 r (0 : Fin 1))) = dOf (A1 m c) :=
  funext fun r => (congrFun (dinv_keep7 m outs c) _).trans (dinv_val m c r)
theorem dinv9_fn : (fun r : Fin 50000 => Vr (V9 m outs) c main_v15 (ix2 r (0 : Fin 1))) = dOf (A1 m c) :=
  funext fun r => (congrFun (dinv_keep9 m outs c) _).trans (dinv_val m c r)

theorem x_fn : (fun (r : Fin 50000) (j : Fin 128) => Vr (V3 m) c main_arg0 (ix2 r j)) = argX m c :=
  funext fun r => funext fun j => congrFun (x_val m c) (ix2 r j)
theorem w1_fn : (fun (j k : Fin 128) => Vr (V3 m) c main_arg3 (ix2 j k)) = argW1 m c :=
  funext fun j => funext fun k => congrFun (w1_val m c) (ix2 j k)
theorem w2_fn : (fun (j k : Fin 128) => Vr (V5 m outs) c main_arg5 (ix2 j k)) = argW2 m c :=
  funext fun j => funext fun k => congrFun (w2_val m outs c) (ix2 j k)
theorem w3_fn : (fun (j k : Fin 128) => Vr (V7 m outs) c main_arg7 (ix2 j k)) = argW3 m c :=
  funext fun j => funext fun k => congrFun (w3_val m outs c) (ix2 j k)
theorem wl_fn : (fun (j : Fin 128) (o : Fin 3) => Vr (V9 m outs) c main_arg9 (ix2 j o)) = argWl m c :=
  funext fun j => funext fun o => congrFun (wl_val m outs c) (ix2 j o)

theorem b1_fn : (fun j : Fin 128 => Vr (V5 m outs) c main_v28 (ix2 (0 : Fin 1) j)) = argB1 m c :=
  funext fun j => b1_val m outs c j
theorem b2_fn : (fun j : Fin 128 => Vr (V7 m outs) c main_v41 (ix2 (0 : Fin 1) j)) = argB2 m c :=
  funext fun j => b2_val m outs c j
theorem b3_fn : (fun j : Fin 128 => Vr (V9 m outs) c main_v60 (ix2 (0 : Fin 1) j)) = argB3 m c :=
  funext fun j => b3_val m outs c j
theorem bl_fn : (fun o : Fin 3 => Vr (V9 m outs) c main_v61 (ix2 (0 : Fin 1) o)) = argBl m c :=
  funext fun o => bl_val m outs c o
theorem cnt_fn : (fun g : Fin 128 => Vr (V9 m outs) c main_v59 (ix2 g (0 : Fin 1))) = cntOf (A2 m c) :=
  funext fun g => cnt_val m outs c g

/-- The kernel's indicator of graph membership is the one the spec names. -/
theorem oh_fn : (fun (r : Fin 50000) (g : Fin 128) =>
      if Vr (V9 m outs) c main_v54 (ix2 r (0 : Fin 1)) = BitVec.ofNat 32 g.val then (1 : EReal) else 0) = ohOf (A2 m c) := by
  funext r g
  have e : Vr (V9 m outs) c main_v54 (ix2 r (0 : Fin 1)) = A2 m c (ix1 r) := batch_val m outs c r
  rw [e]
  unfold Cert.Gcn.ohOf Cert.Gcn.bz
  exact if_congr (word_eq_iff _ g) rfl rfl

/-! ## The regions' output arrays, one after the other -/

include h in
/-- The first region's output array. -/
theorem out0_val (r : Fin 50000) (k : Fin 128) :
    outs 4 main_v16 c (ix2 r k) = klin0 (dOf (A1 m c)) (argX m c) (argW1 m c) r k := by
  rw [h.H4 c]
  refine (val0 (Vr (V3 m)) c r k).trans ?_
  rw [dinv3_fn m c, x_fn m c, w1_fn m c]

include h in
theorem out0_fn : (fun (r : Fin 50000) (k : Fin 128) => outs 4 main_v16 c (ix2 r k)) = klin0 (dOf (A1 m c)) (argX m c) (argW1 m c) :=
  funext fun r => funext fun k => out0_val m outs h c r k

include h in
/-- The aggregated rows the second region reads. -/
theorem agg1_fn : (fun (r : Fin 50000) (j : Fin 128) => Vr (V5 m outs) c main_v27 (ix2 r j))
    = kagg (rowc (A1 m c)) (colz (A1 m c)) (klin0 (dOf (A1 m c)) (argX m c) (argW1 m c)) := by
  funext r j
  refine (agg1_val m outs c r j).trans ?_
  rw [out0_fn m outs h c]

include h in
/-- The second region's output array. -/
theorem out1_val (r : Fin 50000) (k : Fin 128) :
    outs 6 main_v29 c (ix2 r k)
      = klin1 (dOf (A1 m c)) (kagg (rowc (A1 m c)) (colz (A1 m c)) (klin0 (dOf (A1 m c)) (argX m c) (argW1 m c))) (argB1 m c) (argW2 m c) r k := by
  rw [h.H6 c]
  refine (val1 (Vr (V5 m outs)) c r k).trans ?_
  rw [dinv5_fn m outs c, agg1_fn m outs h c, b1_fn m outs c, w2_fn m outs c]

include h in
theorem out1_fn : (fun (r : Fin 50000) (k : Fin 128) => outs 6 main_v29 c (ix2 r k))
    = klin1 (dOf (A1 m c)) (kagg (rowc (A1 m c)) (colz (A1 m c)) (klin0 (dOf (A1 m c)) (argX m c) (argW1 m c))) (argB1 m c) (argW2 m c) :=
  funext fun r => funext fun k => out1_val m outs h c r k

include h in
/-- The aggregated rows the third region reads. -/
theorem agg2_fn : (fun (r : Fin 50000) (j : Fin 128) => Vr (V7 m outs) c main_v40 (ix2 r j))
    = kagg (rowc (A1 m c)) (colz (A1 m c))
        (klin1 (dOf (A1 m c)) (kagg (rowc (A1 m c)) (colz (A1 m c)) (klin0 (dOf (A1 m c)) (argX m c) (argW1 m c))) (argB1 m c) (argW2 m c)) := by
  funext r j
  refine (agg2_val m outs c r j).trans ?_
  rw [out1_fn m outs h c]

include h in
/-- The third region's output array. -/
theorem out2_val (r : Fin 50000) (k : Fin 128) :
    outs 8 main_v42 c (ix2 r k)
      = klin1 (dOf (A1 m c)) (kagg (rowc (A1 m c)) (colz (A1 m c))
          (klin1 (dOf (A1 m c)) (kagg (rowc (A1 m c)) (colz (A1 m c)) (klin0 (dOf (A1 m c)) (argX m c) (argW1 m c))) (argB1 m c) (argW2 m c)))
          (argB2 m c) (argW3 m c) r k := by
  rw [h.H8 c]
  refine (val2 (Vr (V7 m outs)) c r k).trans ?_
  rw [dinv7_fn m outs c, agg2_fn m outs h c, b2_fn m outs c, w3_fn m outs c]

include h in
theorem out2_fn : (fun (r : Fin 50000) (k : Fin 128) => outs 8 main_v42 c (ix2 r k))
    = klin1 (dOf (A1 m c)) (kagg (rowc (A1 m c)) (colz (A1 m c))
          (klin1 (dOf (A1 m c)) (kagg (rowc (A1 m c)) (colz (A1 m c)) (klin0 (dOf (A1 m c)) (argX m c) (argW1 m c))) (argB1 m c) (argW2 m c)))
          (argB2 m c) (argW3 m c) :=
  funext fun r => funext fun k => out2_val m outs h c r k

include h in
/-- The aggregated rows the last region reads. -/
theorem agg3_fn : (fun (r : Fin 50000) (j : Fin 128) => Vr (V9 m outs) c main_v53 (ix2 r j))
    = kagg (rowc (A1 m c)) (colz (A1 m c))
        (klin1 (dOf (A1 m c)) (kagg (rowc (A1 m c)) (colz (A1 m c))
          (klin1 (dOf (A1 m c)) (kagg (rowc (A1 m c)) (colz (A1 m c)) (klin0 (dOf (A1 m c)) (argX m c) (argW1 m c))) (argB1 m c) (argW2 m c)))
          (argB2 m c) (argW3 m c)) := by
  funext r j
  refine (agg3_val m outs c r j).trans ?_
  rw [out2_fn m outs h c]

include h in
/-- The result buffer. -/
theorem result_val (g : Fin 128) (o : Fin 3) :
    outs 10 main_v62 c (ix2 g o)
      = kres (rowc (A1 m c)) (colz (A1 m c)) (dOf (A1 m c)) (argX m c) (argW1 m c) (argB1 m c) (argW2 m c) (argB2 m c) (argW3 m c) (argB3 m c)
          (ohOf (A2 m c)) (cntOf (A2 m c)) (argWl m c) (argBl m c) g o := by
  rw [h.H10 c]
  refine (val3 (Vr (V9 m outs)) c g o).trans ?_
  rw [dinv9_fn m outs c, agg3_fn m outs h c, b3_fn m outs c, oh_fn m outs c, cnt_fn m outs c, wl_fn m outs c, bl_fn m outs c]
  rfl

end Cert.KernelIdeal.Hand

end
-- ==== Proof.Ref.Idx.lean ====
/-
  The integer side of the reference program read at an element: the two endpoint words of a pair (the edge array's
  rows followed by the nodes' own numbers), the wrapped words the lookups read, and the index columns the gathers
  and the segment sums are given.
-/
import proofs.«401627_j1056561955307_2_alg».proof.Proof.RefRead
import proofs.«401627_j1056561955307_2_alg».proof.Proof.Idx
import proofs.«401627_j1056561955307_2_alg».proof.Proof.LibRowGatherScatter
import proofs.«401627_j1056561955307_2_alg».proof.Proof.LibVecGatherScatter
import Idealize.ShloMosaic.Lib.ValueIdx
import Idealize.ShloMosaic.Lib.Pipeline.Value
import Idealize.ShloMosaic.PureOps.Ideal.Laws

noncomputable section

namespace Cert.ReferenceIdeal.RefValue

open Cert.ReferenceIdeal Cert.ReferenceIdeal.Gen Cert.ReferenceIdeal.Read Idealize.ShloMosaic Idealize.ShloMosaic.TcCoe Idealize.SL.Sem Idealize.ShloMosaic.StableHlo Idealize.ShloMosaic.ValueIdx
open Cert.Gcn (pairW wrapW clampN rowc colc colz degOf dOf bz cntOf rconv relu rpool rres gather_vec_apply scatterAdd_vec_apply gather_rows_apply scatterAdd_rows_apply rowScatterDims rowGatherDims vecScatterDims vecGatherDims)
open scoped BigOperators

variable {F : FTy → Type} [FloatOps F]

/-! ## The endpoint words of a pair -/

/-- The source word of pair `e`: the edge array's first row, then the node's own number. -/
theorem v3_at (x1 : (⟨S2x800000, .i32⟩ : BufTy).Contents (Elt F)) (e : Fin 850000) :
    val_main_v3 (F := F) x1 (ix1 e) = pairW x1 0 e := by
  have he := e.isLt
  unfold val_main_v3 pairW
  by_cases h : e.val < 800000
  · rw [dif_pos h]
    refine (concatenate_pair_apply_left (t := S850000) (s₁ := S800000) (s₂ := S50000) (0 : Fin 1) _ _
      concatenates_S800000_S50000_S850000_d0 (ix1 e) rfl (ix1 (⟨e.val, h⟩ : Fin 800000))
      (fun b => match b with | ⟨0, _⟩ => rfl)).trans ?_
    rw [val_main_v2_apply, val_main_v1_apply]
    refine congrArg x1 (funext fun a => Fin.ext ?_)
    match a with
    | ⟨0, _⟩ => rfl
    | ⟨1, _⟩ => exact Nat.mod_eq_of_lt h
  · rw [dif_neg h]
    refine (concatenate_pair_apply_right (t := S850000) (s₁ := S800000) (s₂ := S50000) (0 : Fin 1) _ _
      concatenates_S800000_S50000_S850000_d0 (ix1 e) rfl rfl (ix1 (⟨e.val - 800000, by omega⟩ : Fin 50000))
      (fun b hb => ?_) ?_).trans ?_
    · match b, hb with
      | ⟨0, _⟩, hb => exact absurd rfl hb
    · show e.val - 800000 + 800000 = e.val
      omega
    · rfl

/-- The target word of pair `e`: the edge array's second row, then the node's own number. -/
theorem v6_at (x1 : (⟨S2x800000, .i32⟩ : BufTy).Contents (Elt F)) (e : Fin 850000) :
    val_main_v6 (F := F) x1 (ix1 e) = pairW x1 1 e := by
  have he := e.isLt
  unfold val_main_v6 pairW
  by_cases h : e.val < 800000
  · rw [dif_pos h]
    refine (concatenate_pair_apply_left (t := S850000) (s₁ := S800000) (s₂ := S50000) (0 : Fin 1) _ _
      concatenates_S800000_S50000_S850000_d0 (ix1 e) rfl (ix1 (⟨e.val, h⟩ : Fin 800000))
      (fun b => match b with | ⟨0, _⟩ => rfl)).trans ?_
    rw [val_main_v5_apply, val_main_v4_apply]
    refine congrArg x1 (funext fun a => Fin.ext ?_)
    match a with
    | ⟨0, _⟩ => rfl
    | ⟨1, _⟩ => exact Nat.mod_eq_of_lt h
  · rw [dif_neg h]
    refine (concatenate_pair_apply_right (t := S850000) (s₁ := S800000) (s₂ := S50000) (0 : Fin 1) _ _
      concatenates_S800000_S50000_S850000_d0 (ix1 e) rfl rfl (ix1 (⟨e.val - 800000, by omega⟩ : Fin 50000))
      (fun b hb => ?_) ?_).trans ?_
    · match b, hb with
      | ⟨0, _⟩, hb => exact absurd rfl hb
    · show e.val - 800000 + 800000 = e.val
      omega
    · rfl

/-- A lookup word: a negative word moved up by the table's length. -/
theorem wrap_eq (w : BitVec 32) :
    Scalar.select (IntOp.cmpi .slt w 0#32) (IntOp.addi w 50000#32) w = wrapW w := by
  unfold wrapW IntOp.cmpi IntOp.addi Scalar.select
  by_cases h : w.toInt < 0
  · have hs : w.slt 0#32 = true := by simp [BitVec.slt, h]
    simp [hs, h]
  · have hs : w.slt 0#32 = false := by simp [BitVec.slt, h]
    simp [hs, h]

/-! ## The index columns the gathers and scatters read -/

/-- The wrapped source word of pair `e` (the degree-scale lookup's). -/
theorem v19_at (x1 : (⟨S2x800000, .i32⟩ : BufTy).Contents (Elt F)) (e : Fin 850000) :
    val_main_v19 (F := F) x1 (ix1 e) = wrapW (pairW x1 0 e) := by
  rw [val_main_v19_apply, val_main_v16_apply, val_main_v18_apply, val_main_v15_apply, val_main_v17_apply,
    val_main_c_apply, val_main_c_3_apply, v3_at]
  exact wrap_eq _

theorem v20_at (x1 : (⟨S2x800000, .i32⟩ : BufTy).Contents (Elt F)) (e : Fin 850000) :
    val_main_v20 (F := F) x1 (ix2 e (0 : Fin 1)) = wrapW (pairW x1 0 e) := by
  rw [val_main_v20_apply, show idx_main_v20 (ix2 e (0 : Fin 1)) = ix1 e from funext fun a => match a with | ⟨0, _⟩ => rfl,
    v19_at]

/-- The wrapped target word of pair `e`. -/
theorem v26_at (x1 : (⟨S2x800000, .i32⟩ : BufTy).Contents (Elt F)) (e : Fin 850000) :
    val_main_v26 (F := F) x1 (ix1 e) = wrapW (pairW x1 1 e) := by
  rw [val_main_v26_apply, val_main_v23_apply, val_main_v25_apply, val_main_v22_apply, val_main_v24_apply,
    val_main_c_4_apply, val_main_c_5_apply, v6_at]
  exact wrap_eq _

theorem v27_at (x1 : (⟨S2x800000, .i32⟩ : BufTy).Contents (Elt F)) (e : Fin 850000) :
    val_main_v27 (F := F) x1 (ix2 e (0 : Fin 1)) = wrapW (pairW x1 1 e) := by
  rw [val_main_v27_apply, show idx_main_v27 (ix2 e (0 : Fin 1)) = ix1 e from funext fun a => match a with | ⟨0, _⟩ => rfl,
    v26_at]

/-- The wrapped source word of pair `e` (the row lookup's). -/
theorem v35_at (x1 : (⟨S2x800000, .i32⟩ : BufTy).Contents (Elt F)) (e : Fin 850000) :
    val_main_v35 (F := F) x1 (ix1 e) = wrapW (pairW x1 0 e) := by
  rw [val_main_v35_apply, val_main_v32_apply, val_main_v34_apply, val_main_v31_apply, val_main_v33_apply,
    val_main_c_6_apply, val_main_c_7_apply, v3_at]
  exact wrap_eq _

theorem v36_at (x1 : (⟨S2x800000, .i32⟩ : BufTy).Contents (Elt F)) (e : Fin 850000) :
    val_main_v36 (F := F) x1 (ix2 e (0 : Fin 1)) = wrapW (pairW x1 0 e) := by
  rw [val_main_v36_apply, show idx_main_v36 (ix2 e (0 : Fin 1)) = ix1 e from funext fun a => match a with | ⟨0, _⟩ => rfl,
    v35_at]

/-- The target word of pair `e` as the degree count's segment sum compares it. -/
theorem v9_at (x1 : (⟨S2x800000, .i32⟩ : BufTy).Contents (Elt F)) (e : Fin 850000) :
    val_main_v9 (F := F) x1 (ix2 e (0 : Fin 1)) = pairW x1 1 e := by
  rw [val_main_v9_apply, show idx_main_v9 (ix2 e (0 : Fin 1)) = ix1 e from funext fun a => match a with | ⟨0, _⟩ => rfl,
    v6_at]

/-- The target word of pair `e` as a round's segment sum compares it. -/
theorem v42_at (x1 : (⟨S2x800000, .i32⟩ : BufTy).Contents (Elt F)) (e : Fin 850000) :
    val_main_v42 (F := F) x1 (ix2 e (0 : Fin 1)) = pairW x1 1 e := by
  rw [val_main_v42_apply, show idx_main_v42 (ix2 e (0 : Fin 1)) = ix1 e from funext fun a => match a with | ⟨0, _⟩ => rfl,
    v6_at]

/-- A clamped lookup row. -/
theorem clamp_mk (w : BitVec 32) (h : min w.toInt.toNat (50000 - 1) < 50000) :
    (⟨min w.toInt.toNat (50000 - 1), h⟩ : Fin 50000) = clampN w := rfl

end Cert.ReferenceIdeal.RefValue

end
-- ==== Proof.Ref.Deg.lean ====
/-
  The degree side of the reference program read at an element: the in-degree of a node (a segment sum of ones over
  the pairs' target words), the degree scale (its inverse square root where it is positive, zero elsewhere) and the
  weight of a pair (the scale at its source times the scale at the node its target looks up); with the program's
  dimension records identified with the entry and row forms the gather and scatter lemmas are stated for.
-/
import proofs.«401627_j1056561955307_2_alg».proof.Proof.Ref.Idx

noncomputable section

namespace Cert.ReferenceIdeal.RefValue

open Cert.ReferenceIdeal Cert.ReferenceIdeal.Gen Cert.ReferenceIdeal.Read Idealize.ShloMosaic Idealize.ShloMosaic.TcCoe Idealize.SL.Sem Idealize.ShloMosaic.StableHlo Idealize.ShloMosaic.ValueIdx
open Cert.Gcn (pairW wrapW clampN rowc colc colz degOf dOf bz cntOf rconv relu rpool rres gather_vec_apply scatterAdd_vec_apply gather_rows_apply scatterAdd_rows_apply rowScatterDims rowGatherDims vecScatterDims vecGatherDims)
open scoped BigOperators

variable {F : FTy → Type} [FloatOps F]

/-! ## The program's dimension records are the entry and row forms the gather and scatter lemmas are stated for -/

theorem scatterAdd_ideal {s si su : Shape} {w : Nat} (d : ScatterDims s si su) (x : FVec Ideal s .f32) (idx : IVec si w)
    (upd : FVec Ideal su .f32) : Host.scatterAdd (F := Ideal) d x idx upd = Ideal.hostScatterAdd d x idx upd := rfl

theorem dims_deg : scatter_S50000_S850000x1_S850000_n_0_0_1
    = vecScatterDims 50000 850000 Facts₀.scatter_S50000_S850000x1_S850000_n_0_0_1_wf := rfl

theorem dims_dinv : gather_S50000_S850000x1_S850000_n_0_n_n_0_1_1
    = vecGatherDims 50000 850000 Facts₀.gather_S50000_S850000x1_S850000_n_0_n_n_0_1_1_wf := rfl

theorem dims_rows : gather_S50000x128_S850000x1_S850000x128_1_0_n_n_0_1_1128
    = rowGatherDims 50000 850000 128 Facts₀.gather_S50000x128_S850000x1_S850000x128_1_0_n_n_0_1_1128_wf := rfl

theorem dims_sum : scatter_S50000x128_S850000x1_S850000x128_1_0_0_1
    = rowScatterDims 50000 850000 128 Facts₀.scatter_S50000x128_S850000x1_S850000x128_1_0_0_1_wf := rfl

theorem dims_pool : scatter_S128x128_S50000x1_S50000x128_1_0_0_1
    = rowScatterDims 128 50000 128 Facts₀.scatter_S128x128_S50000x1_S50000x128_1_0_0_1_wf := rfl

theorem dims_cnt : scatter_S128_S50000x1_S50000_n_0_0_1
    = vecScatterDims 128 50000 Facts₀.scatter_S128_S50000x1_S50000_n_0_0_1_wf := rfl

/-! ## The degree, the degree scale and the weight of a pair -/

/-- The word of one. -/
theorem ofBits_one_f32 : Ideal.ofBits .f32 0x3F800000#32 = 1 := by
  simp [Ideal.ofBits, Ideal.ieee, -EReal.coe_mul]; norm_num

theorem v7_at (e : Fin 850000) : val_main_v7 (F := Ideal) (ix1 e) = 1 := by
  rw [val_main_v7_apply, val_main_cst_apply]
  exact ofBits_one_f32

/-- The in-degree of node `v`. -/
theorem v10_at (x1 : (⟨S2x800000, .i32⟩ : BufTy).Contents (Elt Ideal)) (v : Fin 50000) :
    val_main_v10 (F := Ideal) x1 (ix1 v) = degOf x1 v := by
  unfold val_main_v10
  rw [scatterAdd_ideal, dims_deg, scatterAdd_vec_apply, val_main_v8_apply, val_main_cst_0_apply]
  simp only [Ideal.ofBits_def, Ideal.ofBits_zero_f32, zero_add, v9_at, v7_at]
  unfold degOf colz
  with_reducible rfl

/-- The degree scale of node `v`. -/
theorem v14_at (x1 : (⟨S2x800000, .i32⟩ : BufTy).Contents (Elt Ideal)) (v : Fin 50000) :
    val_main_v14 (F := Ideal) x1 (ix1 v) = dOf x1 v := by
  rw [val_main_v14_apply, val_main_v12_apply, val_main_v13_apply, val_main_v11_apply, val_main_cst_1_apply,
    val_main_call0_v1_apply, val_main_call0_v0_apply, val_main_cst_2_apply, v10_at]
  simp only [Ideal.cmpf_def, Ideal.hostUnary_rsqrt_def, Ideal.ofBits_def, Ideal.ofBits_zero_f32]
  unfold dOf Ideal.cmp
  by_cases h : 0 < degOf x1 v
  · rw [if_pos h]
    simp only [h, decide_true, BitVec.ofBool_true]
    exact select_one _ _
  · rw [if_neg h]
    simp only [h, decide_false, BitVec.ofBool_false]
    exact select_zero _ _

/-- The degree scale at pair `e`'s source. -/
theorem v21_at (x1 : (⟨S2x800000, .i32⟩ : BufTy).Contents (Elt Ideal)) (e : Fin 850000) :
    val_main_v21 (F := Ideal) x1 (ix1 e) = dOf x1 (rowc x1 e) := by
  unfold val_main_v21
  rw [dims_dinv, gather_vec_apply (by decide)]
  refine (congrArg (fun r => val_main_v14 (F := Ideal) x1 (ix1 r)) (Fin.ext ?_)).trans (v14_at x1 (rowc x1 e))
  show min (val_main_v20 (F := Ideal) x1 (ix2 e (0 : Fin 1))).toInt.toNat (50000 - 1) = (rowc x1 e).val
  rw [v20_at]
  rfl

/-- The degree scale at the node pair `e`'s target looks up. -/
theorem v28_at (x1 : (⟨S2x800000, .i32⟩ : BufTy).Contents (Elt Ideal)) (e : Fin 850000) :
    val_main_v28 (F := Ideal) x1 (ix1 e) = dOf x1 (colc x1 e) := by
  unfold val_main_v28
  rw [dims_dinv, gather_vec_apply (by decide)]
  refine (congrArg (fun r => val_main_v14 (F := Ideal) x1 (ix1 r)) (Fin.ext ?_)).trans (v14_at x1 (colc x1 e))
  show min (val_main_v27 (F := Ideal) x1 (ix2 e (0 : Fin 1))).toInt.toNat (50000 - 1) = (colc x1 e).val
  rw [v27_at]
  rfl

/-- The weight of pair `e`. -/
theorem v29_at (x1 : (⟨S2x800000, .i32⟩ : BufTy).Contents (Elt Ideal)) (e : Fin 850000) :
    val_main_v29 (F := Ideal) x1 (ix1 e) = dOf x1 (rowc x1 e) * dOf x1 (colc x1 e) := by
  rw [val_main_v29_apply, v21_at, v28_at]
  rfl

end Cert.ReferenceIdeal.RefValue

end
-- ==== Proof.Ref.Round.lean ====
/-
  One round of the reference program read at an element, for ANY previous stage, weight matrix and bias: the product
  with the weight matrix, the rows gathered along the pairs, the messages scaled by the pairs' weights, their sum at
  the targets and the bias. The program's second and third rounds are the first round's operations applied to the
  stage before them.
-/
import proofs.«401627_j1056561955307_2_alg».proof.Proof.Ref.Deg

noncomputable section

namespace Cert.ReferenceIdeal.RefValue

open Cert.ReferenceIdeal Cert.ReferenceIdeal.Gen Cert.ReferenceIdeal.Read Idealize.ShloMosaic Idealize.ShloMosaic.TcCoe Idealize.SL.Sem Idealize.ShloMosaic.StableHlo Idealize.ShloMosaic.ValueIdx
open Cert.Gcn (pairW wrapW clampN rowc colc colz degOf dOf bz cntOf rconv relu rpool rres gather_vec_apply scatterAdd_vec_apply gather_rows_apply scatterAdd_rows_apply rowScatterDims rowGatherDims vecScatterDims vecGatherDims)
open scoped BigOperators

/-! ## The pieces of a round, for any previous stage `h`, weight matrix `w` and bias `b` -/

/-- The product of the previous stage with the weight matrix. -/
theorem v30_at (h : (⟨S50000x128, .f32⟩ : BufTy).Contents (Elt Ideal)) (w : (⟨S128x128, .f32⟩ : BufTy).Contents (Elt Ideal)) (r : Fin 50000) (k : Fin 128) :
    val_main_v30 (F := Ideal) h w (ix2 r k) = ∑ j : Fin 128, h (ix2 r j) * w (ix2 j k) := by
  rw [val_main_v30_apply]
  refine Finset.sum_congr rfl fun j _ => ?_
  rw [show lidx_main_v30 (ix2 r k) j = ix2 r j from funext fun a => match a with | ⟨0, _⟩ => rfl | ⟨1, _⟩ => rfl,
    show ridx_main_v30 (ix2 r k) j = ix2 j k from funext fun a => match a with | ⟨0, _⟩ => rfl | ⟨1, _⟩ => rfl]

/-- The row of that product pair `e`'s message is read from. -/
theorem v37_at (h : (⟨S50000x128, .f32⟩ : BufTy).Contents (Elt Ideal)) (x1 : (⟨S2x800000, .i32⟩ : BufTy).Contents (Elt Ideal)) (w : (⟨S128x128, .f32⟩ : BufTy).Contents (Elt Ideal))
    (e : Fin 850000) (k : Fin 128) :
    val_main_v37 (F := Ideal) h x1 w (ix2 e k) = ∑ j : Fin 128, h (ix2 (rowc x1 e) j) * w (ix2 j k) := by
  unfold val_main_v37
  rw [dims_rows]
  refine (gather_rows_apply (N := 50000) (E := 850000) (C := 128) (by decide) _
    (val_main_v30 (F := Ideal) h w) (val_main_v36 (F := Ideal) x1) e k).trans ?_
  refine (congrArg (fun r => val_main_v30 (F := Ideal) h w (ix2 r k)) (Fin.ext ?_)).trans (v30_at h w (rowc x1 e) k)
  show min (val_main_v36 (F := Ideal) x1 (ix2 e (0 : Fin 1))).toInt.toNat (50000 - 1) = (rowc x1 e).val
  rw [v36_at]
  rfl

/-- The weight of pair `e`, repeated along the features. -/
theorem v39_at (x1 : (⟨S2x800000, .i32⟩ : BufTy).Contents (Elt Ideal)) (e : Fin 850000) (k : Fin 128) :
    val_main_v39 (F := Ideal) x1 (ix2 e k) = dOf x1 (rowc x1 e) * dOf x1 (colc x1 e) := by
  rw [val_main_v39_apply, val_main_v38_apply,
    show idx_main_v38 (idx_main_v39 (ix2 e k)) = ix1 e from funext fun a => match a with | ⟨0, _⟩ => rfl, v29_at]

/-- The message of pair `e`. -/
theorem v40_at (h : (⟨S50000x128, .f32⟩ : BufTy).Contents (Elt Ideal)) (x1 : (⟨S2x800000, .i32⟩ : BufTy).Contents (Elt Ideal)) (w : (⟨S128x128, .f32⟩ : BufTy).Contents (Elt Ideal))
    (e : Fin 850000) (k : Fin 128) :
    val_main_v40 (F := Ideal) h x1 w (ix2 e k)
      = (∑ j : Fin 128, h (ix2 (rowc x1 e) j) * w (ix2 j k)) * (dOf x1 (rowc x1 e) * dOf x1 (colc x1 e)) := by
  rw [val_main_v40_apply, v37_at, v39_at]
  rfl

/-- The messages summed at node `v`. -/
theorem v43_at (h : (⟨S50000x128, .f32⟩ : BufTy).Contents (Elt Ideal)) (x1 : (⟨S2x800000, .i32⟩ : BufTy).Contents (Elt Ideal)) (w : (⟨S128x128, .f32⟩ : BufTy).Contents (Elt Ideal))
    (v : Fin 50000) (k : Fin 128) :
    val_main_v43 (F := Ideal) h x1 w (ix2 v k)
      = ∑ e ∈ Finset.univ.filter (fun e : Fin 850000 => colz x1 e = (v.val : ℤ)),
          (∑ j : Fin 128, h (ix2 (rowc x1 e) j) * w (ix2 j k)) * (dOf x1 (rowc x1 e) * dOf x1 (colc x1 e)) := by
  unfold val_main_v43
  rw [scatterAdd_ideal, dims_sum]
  refine (scatterAdd_rows_apply (N := 50000) (E := 850000) (C := 128) _
    (val_main_v42 (F := Ideal) x1) (val_main_v41 (F := Ideal)) (val_main_v40 (F := Ideal) h x1 w) v k).trans ?_
  rw [val_main_v41_apply, val_main_cst_8_apply]
  simp only [Ideal.ofBits_def, Ideal.ofBits_zero_f32, zero_add, v42_at, v40_at]
  unfold colz
  with_reducible rfl

/-! ## One round -/

/-- One round of the reference, for any previous stage: multiply, send along the pairs scaled by the pair's weight,
    sum at the targets, add the bias. -/
theorem round_at (h : (⟨S50000x128, .f32⟩ : BufTy).Contents (Elt Ideal)) (x1 : (⟨S2x800000, .i32⟩ : BufTy).Contents (Elt Ideal)) (w : (⟨S128x128, .f32⟩ : BufTy).Contents (Elt Ideal))
    (b : (⟨S128, .f32⟩ : BufTy).Contents (Elt Ideal)) (v : Fin 50000) (k : Fin 128) :
    val_main_v46 (F := Ideal) h x1 w b (ix2 v k)
      = rconv (rowc x1) (colc x1) (colz x1) (dOf x1) (fun r j => h (ix2 r j)) (fun j k => w (ix2 j k))
          (fun k => b (ix1 k)) v k := by
  rw [val_main_v46_apply, val_main_v45_apply, val_main_v44_apply,
    show idx_main_v44 (idx_main_v45 (ix2 v k)) = ix1 k from funext fun a => match a with | ⟨0, _⟩ => rfl, v43_at]
  simp only [Ideal.addf_def]
  unfold rconv
  with_reducible rfl

/-! ## The second and third rounds are the first on the stage before them -/

theorem v64_eq (x0 : (⟨S50000x128, .f32⟩ : BufTy).Contents (Elt Ideal)) (x1 : (⟨S2x800000, .i32⟩ : BufTy).Contents (Elt Ideal)) (x3 : (⟨S128x128, .f32⟩ : BufTy).Contents (Elt Ideal))
    (x4 : (⟨S128, .f32⟩ : BufTy).Contents (Elt Ideal)) (x5 : (⟨S128x128, .f32⟩ : BufTy).Contents (Elt Ideal)) (x6 : (⟨S128, .f32⟩ : BufTy).Contents (Elt Ideal)) :
    val_main_v64 (F := Ideal) x0 x1 x3 x4 x5 x6
      = val_main_v46 (F := Ideal) (val_main_v47 (F := Ideal) x0 x1 x3 x4) x1 x5 x6 := rfl

theorem v82_eq (x0 : (⟨S50000x128, .f32⟩ : BufTy).Contents (Elt Ideal)) (x1 : (⟨S2x800000, .i32⟩ : BufTy).Contents (Elt Ideal)) (x3 : (⟨S128x128, .f32⟩ : BufTy).Contents (Elt Ideal))
    (x4 : (⟨S128, .f32⟩ : BufTy).Contents (Elt Ideal)) (x5 : (⟨S128x128, .f32⟩ : BufTy).Contents (Elt Ideal)) (x6 : (⟨S128, .f32⟩ : BufTy).Contents (Elt Ideal)) (x7 : (⟨S128x128, .f32⟩ : BufTy).Contents (Elt Ideal))
    (x8 : (⟨S128, .f32⟩ : BufTy).Contents (Elt Ideal)) :
    val_main_v82 (F := Ideal) x0 x1 x3 x4 x5 x6 x7 x8
      = val_main_v46 (F := Ideal) (val_main_v65 (F := Ideal) x0 x1 x3 x4 x5 x6) x1 x7 x8 := rfl

end Cert.ReferenceIdeal.RefValue

end
-- ==== Proof.Ref.Value.lean ====
/-
  What the reference program computes, index by index, at the ideal instance: three rounds of "multiply by a weight
  matrix, send along the pairs scaled by the pair's weight, sum at the targets, add the bias" (a rectifier after the
  first two), the node rows averaged per graph, and the last linear map.
-/
import proofs.«401627_j1056561955307_2_alg».proof.Proof.Ref.Round

noncomputable section

namespace Cert.ReferenceIdeal.RefValue

open Cert.ReferenceIdeal Cert.ReferenceIdeal.Gen Cert.ReferenceIdeal.Read Idealize.ShloMosaic Idealize.ShloMosaic.TcCoe Idealize.SL.Sem Idealize.ShloMosaic.StableHlo Idealize.ShloMosaic.ValueIdx
open Cert.Gcn (pairW wrapW clampN rowc colc colz degOf dOf bz cntOf rconv relu rpool rres gather_vec_apply scatterAdd_vec_apply gather_rows_apply scatterAdd_rows_apply rowScatterDims rowGatherDims vecScatterDims vecGatherDims)
open scoped BigOperators

/-! ## The three stages -/

/-- The first stage: a round on the node features, rectified. -/
theorem stage1_at (x0 : (⟨S50000x128, .f32⟩ : BufTy).Contents (Elt Ideal)) (x1 : (⟨S2x800000, .i32⟩ : BufTy).Contents (Elt Ideal)) (x3 : (⟨S128x128, .f32⟩ : BufTy).Contents (Elt Ideal))
    (x4 : (⟨S128, .f32⟩ : BufTy).Contents (Elt Ideal)) (r : Fin 50000) (j : Fin 128) :
    val_main_v47 (F := Ideal) x0 x1 x3 x4 (ix2 r j)
      = relu (rconv (rowc x1) (colc x1) (colz x1) (dOf x1) (fun r j => x0 (ix2 r j)) (fun j k => x3 (ix2 j k)) (fun k => x4 (ix1 k))) r j := by
  rw [val_main_v47_apply, val_main_call1_v0_apply, val_main_call1_cst_apply, round_at]
  simp only [Ideal.maximumf_def, Ideal.ofBits_def, Ideal.ofBits_zero_f32]
  unfold relu
  with_reducible rfl

/-- The second stage: a round on the first, rectified. -/
theorem stage2_at (x0 : (⟨S50000x128, .f32⟩ : BufTy).Contents (Elt Ideal)) (x1 : (⟨S2x800000, .i32⟩ : BufTy).Contents (Elt Ideal)) (x3 : (⟨S128x128, .f32⟩ : BufTy).Contents (Elt Ideal))
    (x4 : (⟨S128, .f32⟩ : BufTy).Contents (Elt Ideal)) (x5 : (⟨S128x128, .f32⟩ : BufTy).Contents (Elt Ideal)) (x6 : (⟨S128, .f32⟩ : BufTy).Contents (Elt Ideal)) (r : Fin 50000) (j : Fin 128) :
    val_main_v65 (F := Ideal) x0 x1 x3 x4 x5 x6 (ix2 r j)
      = relu (rconv (rowc x1) (colc x1) (colz x1) (dOf x1) (relu (rconv (rowc x1) (colc x1) (colz x1) (dOf x1) (fun r j => x0 (ix2 r j)) (fun j k => x3 (ix2 j k)) (fun k => x4 (ix1 k)))) (fun j k => x5 (ix2 j k)) (fun k => x6 (ix1 k))) r j := by
  have h1 : (fun r j => val_main_v47 (F := Ideal) x0 x1 x3 x4 (ix2 r j)) = relu (rconv (rowc x1) (colc x1) (colz x1) (dOf x1) (fun r j => x0 (ix2 r j)) (fun j k => x3 (ix2 j k)) (fun k => x4 (ix1 k))) :=
    funext fun r => funext fun j => stage1_at x0 x1 x3 x4 r j
  rw [val_main_v65_apply, val_main_call2_v0_apply, val_main_call2_cst_apply, v64_eq, round_at, h1]
  simp only [Ideal.maximumf_def, Ideal.ofBits_def, Ideal.ofBits_zero_f32]
  unfold relu
  with_reducible rfl

/-- The third stage: a round on the second. -/
theorem stage3_at (x0 : (⟨S50000x128, .f32⟩ : BufTy).Contents (Elt Ideal)) (x1 : (⟨S2x800000, .i32⟩ : BufTy).Contents (Elt Ideal)) (x3 : (⟨S128x128, .f32⟩ : BufTy).Contents (Elt Ideal)) (x4 : (⟨S128, .f32⟩ : BufTy).Contents (Elt Ideal)) (x5 : (⟨S128x128, .f32⟩ : BufTy).Contents (Elt Ideal)) (x6 : (⟨S128, .f32⟩ : BufTy).Contents (Elt Ideal)) (x7 : (⟨S128x128, .f32⟩ : BufTy).Contents (Elt Ideal)) (x8 : (⟨S128, .f32⟩ : BufTy).Contents (Elt Ideal)) (r : Fin 50000) (j : Fin 128) :
    val_main_v82 (F := Ideal) x0 x1 x3 x4 x5 x6 x7 x8 (ix2 r j)
      = rconv (rowc x1) (colc x1) (colz x1) (dOf x1) (relu (rconv (rowc x1) (colc x1) (colz x1) (dOf x1) (relu (rconv (rowc x1) (colc x1) (colz x1) (dOf x1) (fun r j => x0 (ix2 r j)) (fun j k => x3 (ix2 j k)) (fun k => x4 (ix1 k)))) (fun j k => x5 (ix2 j k)) (fun k => x6 (ix1 k)))) (fun j k => x7 (ix2 j k)) (fun k => x8 (ix1 k)) r j := by
  have h2 : (fun r j => val_main_v65 (F := Ideal) x0 x1 x3 x4 x5 x6 (ix2 r j)) = relu (rconv (rowc x1) (colc x1) (colz x1) (dOf x1) (relu (rconv (rowc x1) (colc x1) (colz x1) (dOf x1) (fun r j => x0 (ix2 r j)) (fun j k => x3 (ix2 j k)) (fun k => x4 (ix1 k)))) (fun j k => x5 (ix2 j k)) (fun k => x6 (ix1 k))) :=
    funext fun r => funext fun j => stage2_at x0 x1 x3 x4 x5 x6 r j
  rw [v82_eq, round_at, h2]

/-! ## The pooling -/

/-- The signed graph number the pooling's segment sums compare. -/
theorem v84_at (x2 : (⟨S50000, .i32⟩ : BufTy).Contents (Elt Ideal)) (r : Fin 50000) :
    (val_main_v84 (F := Ideal) x2 (ix2 r (0 : Fin 1))).toInt = bz x2 r := by
  rw [val_main_v84_apply, show idx_main_v84 (ix2 r (0 : Fin 1)) = ix1 r from funext fun a => match a with | ⟨0, _⟩ => rfl]
  rfl

theorem v88_at (x2 : (⟨S50000, .i32⟩ : BufTy).Contents (Elt Ideal)) (r : Fin 50000) :
    (val_main_v88 (F := Ideal) x2 (ix2 r (0 : Fin 1))).toInt = bz x2 r := by
  rw [val_main_v88_apply, show idx_main_v88 (ix2 r (0 : Fin 1)) = ix1 r from funext fun a => match a with | ⟨0, _⟩ => rfl]
  rfl

/-- The rows of a stage `h` summed per graph. -/
theorem pool_sum_at (x2 : (⟨S50000, .i32⟩ : BufTy).Contents (Elt Ideal)) (h : (⟨S50000x128, .f32⟩ : BufTy).Contents (Elt Ideal)) (g j : Fin 128) :
    Host.scatterAdd (F := Ideal) (φ := .f32) scatter_S128x128_S50000x1_S50000x128_1_0_0_1 (val_main_v83 (F := Ideal))
        (val_main_v84 (F := Ideal) x2) h (ix2 g j)
      = ∑ r ∈ Finset.univ.filter (fun r : Fin 50000 => bz x2 r = (g.val : ℤ)), h (ix2 r j) := by
  rw [scatterAdd_ideal, dims_pool]
  refine (scatterAdd_rows_apply (N := 128) (E := 50000) (C := 128) _
    (val_main_v84 (F := Ideal) x2) (val_main_v83 (F := Ideal)) h g j).trans ?_
  rw [val_main_v83_apply, val_main_cst_15_apply]
  simp only [Ideal.ofBits_def, Ideal.ofBits_zero_f32, zero_add, v84_at]

/-- The number of nodes of graph `g`. -/
theorem v89_at (x2 : (⟨S50000, .i32⟩ : BufTy).Contents (Elt Ideal)) (g : Fin 128) :
    val_main_v89 (F := Ideal) x2 (ix1 g) = cntOf x2 g := by
  unfold val_main_v89
  rw [scatterAdd_ideal, dims_cnt]
  refine (scatterAdd_vec_apply (N := 128) (E := 50000) _
    (val_main_v88 (F := Ideal) x2) (val_main_v87 (F := Ideal)) (val_main_v86 (F := Ideal)) g).trans ?_
  rw [val_main_v87_apply, val_main_cst_17_apply]
  simp only [Ideal.ofBits_def, Ideal.ofBits_zero_f32, zero_add, v88_at, val_main_v86_apply, val_main_cst_16_apply,
    ofBits_one_f32]
  unfold cntOf
  with_reducible rfl

/-- The clamped count, repeated along the features. -/
theorem v93_at (x2 : (⟨S50000, .i32⟩ : BufTy).Contents (Elt Ideal)) (g j : Fin 128) :
    val_main_v93 (F := Ideal) x2 (ix2 g j) = max (cntOf x2 g) 1 := by
  rw [val_main_v93_apply, val_main_v92_apply,
    show idx_main_v92 (idx_main_v93 (ix2 g j)) = ix1 g from funext fun a => match a with | ⟨0, _⟩ => rfl,
    val_main_v91_apply, val_main_v90_apply, val_main_cst_18_apply, v89_at]
  simp only [Ideal.maximumf_def, Ideal.ofBits_def, ofBits_one_f32]

/-! ## The reference's value -/

/-- What the reference program computes, index by index. -/
theorem ref_value (x0 : (⟨S50000x128, .f32⟩ : BufTy).Contents (Elt Ideal)) (x1 : (⟨S2x800000, .i32⟩ : BufTy).Contents (Elt Ideal)) (x2 : (⟨S50000, .i32⟩ : BufTy).Contents (Elt Ideal))
    (x3 : (⟨S128x128, .f32⟩ : BufTy).Contents (Elt Ideal)) (x4 : (⟨S128, .f32⟩ : BufTy).Contents (Elt Ideal)) (x5 : (⟨S128x128, .f32⟩ : BufTy).Contents (Elt Ideal)) (x6 : (⟨S128, .f32⟩ : BufTy).Contents (Elt Ideal))
    (x7 : (⟨S128x128, .f32⟩ : BufTy).Contents (Elt Ideal)) (x8 : (⟨S128, .f32⟩ : BufTy).Contents (Elt Ideal)) (x9 : (⟨S128x3, .f32⟩ : BufTy).Contents (Elt Ideal)) (x10 : (⟨S3, .f32⟩ : BufTy).Contents (Elt Ideal))
    (g : Fin 128) (o : Fin 3) :
    val_main_v98 (F := Ideal) x0 x1 x2 x3 x4 x5 x6 x7 x8 x9 x10 (ix2 g o)
      = rres (rowc x1) (colc x1) (colz x1) (dOf x1) (fun r j => x0 (ix2 r j)) (fun j k => x3 (ix2 j k))
          (fun k => x4 (ix1 k)) (fun j k => x5 (ix2 j k)) (fun k => x6 (ix1 k)) (fun j k => x7 (ix2 j k))
          (fun k => x8 (ix1 k)) (bz x2) (cntOf x2) (fun j o => x9 (ix2 j o)) (fun o => x10 (ix1 o)) g o := by
  rw [val_main_v98_apply, val_main_v97_apply, val_main_v96_apply,
    show idx_main_v96 (idx_main_v97 (ix2 g o)) = ix1 o from funext fun a => match a with | ⟨0, _⟩ => rfl,
    val_main_v95_apply]
  have hterm : ∀ j : Fin 128,
      val_main_v94 (F := Ideal) x0 x1 x2 x3 x4 x5 x6 x7 x8 (lidx_main_v95 (ix2 g o) j) * x9 (ridx_main_v95 (ix2 g o) j)
        = Ideal.div (∑ r ∈ Finset.univ.filter (fun r : Fin 50000 => bz x2 r = (g.val : ℤ)),
            (rconv (rowc x1) (colc x1) (colz x1) (dOf x1) (relu (rconv (rowc x1) (colc x1) (colz x1) (dOf x1) (relu (rconv (rowc x1) (colc x1) (colz x1) (dOf x1) (fun r j => x0 (ix2 r j)) (fun j k => x3 (ix2 j k)) (fun k => x4 (ix1 k)))) (fun j k => x5 (ix2 j k)) (fun k => x6 (ix1 k)))) (fun j k => x7 (ix2 j k)) (fun k => x8 (ix1 k))) r j) (max (cntOf x2 g) 1) * x9 (ix2 j o) := by
    intro j
    rw [show lidx_main_v95 (ix2 g o) j = ix2 g j from funext fun a => match a with | ⟨0, _⟩ => rfl | ⟨1, _⟩ => rfl,
      show ridx_main_v95 (ix2 g o) j = ix2 j o from funext fun a => match a with | ⟨0, _⟩ => rfl | ⟨1, _⟩ => rfl,
      val_main_v94_apply, v93_at]
    unfold val_main_v85
    rw [pool_sum_at]
    simp only [Ideal.hostDivf_def, stage3_at]
  simp only [hterm, Ideal.addf_def]
  unfold rres rpool
  with_reducible rfl

end Cert.ReferenceIdeal.RefValue

end
-- ==== Proof.Bridge.lean ====
/-
  The kernel's arrangement of the computation equals the reference's, on the extended reals.

  Three facts carry it.
  * The degree scale `dOf a1 v` is a nonnegative real: the inverse square root of a positive extended real is a
    nonnegative real (`0` at `⊤`), and the scale is `0` where nothing lands.
  * A pair whose signed target word equals a node's number reads the table at that node: the word is nonnegative
    and below the table's length, so it is neither moved up nor clamped.
  * Multiplication by a nonnegative real distributes over any finite sum of extended reals. Hence
    `(∑ e, t e * d (src e)) * d v = ∑ e, t e * (d (src e) * d v)` whatever the summands are; nothing is assumed of
    the features or the weights beyond the commutative-monoid laws of `+` and `*`.

  One round is stated for an arbitrary incoming `h`, so the three rounds are one lemma; the pooling turns a sum
  weighted by a `0`/`1` indicator into the sum over the indicated nodes.
-/
import proofs.«401627_j1056561955307_2_alg».proof.Proof.Idx
import Mathlib.Data.EReal.Operations
import Mathlib.Algebra.BigOperators.Group.Finset.Basic

noncomputable section

namespace Cert.Gcn

open Idealize.ShloMosaic Idealize.ShloMosaic.ValueIdx
open scoped BigOperators

/-! ## Distribution over finite sums -/

/-- Multiplication on the right by a nonnegative real distributes over a finite sum of extended reals. -/
theorem sum_mul_of_nonneg_of_ne_top {ι : Type} (s : Finset ι) (f : ι → EReal) {c : EReal}
    (h0 : 0 ≤ c) (ht : c ≠ ⊤) : (∑ i ∈ s, f i) * c = ∑ i ∈ s, f i * c := by
  classical
  induction s using Finset.induction_on with
  | empty => simp
  | insert a s ha ih =>
    rw [Finset.sum_insert ha, Finset.sum_insert ha, EReal.right_distrib_of_nonneg_of_ne_top h0 ht, ih]

/-- A sum weighted by a `0`/`1` indicator is the sum over the indicated indices. -/
theorem sum_indicator_mul {ι : Type} [Fintype ι] (p : ι → Prop) [DecidablePred p] (y : ι → EReal) :
    ∑ r, (if p r then (1 : EReal) else 0) * y r = ∑ r ∈ Finset.univ.filter p, y r := by
  rw [Finset.sum_filter]
  apply Finset.sum_congr rfl
  intro r _
  split_ifs
  · rw [one_mul]
  · rw [zero_mul]

/-! ## The degree scale is a nonnegative real -/

/-- The inverse square root of a positive extended real is a nonnegative real. -/
theorem rsqrt_nonneg_ne_top_of_pos {x : EReal} (hx : 0 < x) : 0 ≤ Ideal.rsqrt x ∧ Ideal.rsqrt x ≠ ⊤ := by
  induction x using EReal.rec with
  | bot => exact absurd hx (not_lt_bot)
  | top => exact ⟨le_of_eq Ideal.rsqrt_top.symm, by rw [Ideal.rsqrt_top]; exact EReal.zero_ne_top⟩
  | coe r =>
    have hr : 0 < r := by exact_mod_cast hx
    rw [Ideal.rsqrt_coe, if_neg (not_lt.mpr hr.le), if_neg hr.ne']
    refine ⟨?_, EReal.coe_ne_top _⟩
    exact_mod_cast inv_nonneg.mpr (Real.sqrt_nonneg r)

theorem dOf_nonneg_ne_top (a1 : (⟨2, ![2, 800000]⟩ : Shape).Idx → BitVec 32) (v : Fin nN) :
    0 ≤ dOf a1 v ∧ dOf a1 v ≠ ⊤ := by
  unfold dOf
  split_ifs with h
  · exact rsqrt_nonneg_ne_top_of_pos h
  · exact ⟨le_rfl, EReal.zero_ne_top⟩

/-! ## A pair landing on a node reads the table at that node -/

theorem colc_eq_of_colz (a1 : (⟨2, ![2, 800000]⟩ : Shape).Idx → BitVec 32) (e : Fin nE) (v : Fin nN)
    (h : colz a1 e = (v.val : ℤ)) : colc a1 e = v := by
  unfold colz at h
  unfold colc
  have hv := v.isLt
  have hw : wrapW (pairW a1 1 e) = pairW a1 1 e := by
    unfold wrapW
    rw [if_neg]
    rw [h]
    omega
  rw [hw]
  apply Fin.ext
  show min (pairW a1 1 e).toInt.toNat (nN - 1) = v.val
  rw [h, Int.toNat_natCast]
  omega

/-! ## One round, for any incoming rows -/

section Round

variable (src tgt : Fin nE → Fin nN) (tz : Fin nE → ℤ) (d : Fin nN → EReal)

/-- The kernel's scaled sum at a node, scaled again and biased, is the reference's round at that node. -/
theorem kagg_scale_eq_rconv (hd : ∀ v, 0 ≤ d v ∧ d v ≠ ⊤) (hc : ∀ e v, tz e = (v.val : ℤ) → tgt e = v)
    (h : Fin nN → Fin nD → EReal) (w : Fin nD → Fin nD → EReal) (b : Fin nD → EReal) (v : Fin nN) (k : Fin nD) :
    kagg src tz (klin0 d h w) v k * d v + b k = rconv src tgt tz d h w b v k := by
  unfold kagg klin0 rconv
  rw [sum_mul_of_nonneg_of_ne_top _ _ (hd v).1 (hd v).2]
  have hs : ∀ e ∈ Finset.univ.filter (fun e : Fin nE => tz e = (v.val : ℤ)),
      (∑ j : Fin nD, h (src e) j * w j k) * d (src e) * d v
        = (∑ j : Fin nD, h (src e) j * w j k) * (d (src e) * d (tgt e)) := by
    intro e he
    rw [Finset.mem_filter] at he
    rw [hc e v he.2, mul_assoc]
  rw [Finset.sum_congr rfl hs]

/-- Finishing a round and starting the next is starting the next from the reference's rectified round. -/
theorem klin1_kagg_klin0 (hd : ∀ v, 0 ≤ d v ∧ d v ≠ ⊤) (hc : ∀ e v, tz e = (v.val : ℤ) → tgt e = v)
    (h : Fin nN → Fin nD → EReal) (w : Fin nD → Fin nD → EReal) (b : Fin nD → EReal) (w' : Fin nD → Fin nD → EReal) :
    klin1 d (kagg src tz (klin0 d h w)) b w' = klin0 d (relu (rconv src tgt tz d h w b)) w' := by
  funext r k
  show (∑ j : Fin nD, max (kagg src tz (klin0 d h w) r j * d r + b j) 0 * w' j k) * d r
     = (∑ j : Fin nD, relu (rconv src tgt tz d h w b) r j * w' j k) * d r
  have hs : ∀ j ∈ (Finset.univ : Finset (Fin nD)),
      max (kagg src tz (klin0 d h w) r j * d r + b j) 0 * w' j k
        = relu (rconv src tgt tz d h w b) r j * w' j k := by
    intro j _
    rw [kagg_scale_eq_rconv src tgt tz d hd hc]
    rfl
  rw [Finset.sum_congr rfl hs]

/-- Finishing the last round and pooling through the indicator is the reference's pooling of its last round. -/
theorem kpool_kagg_klin0 (a2 : (⟨1, ![50000]⟩ : Shape).Idx → BitVec 32)
    (hd : ∀ v, 0 ≤ d v ∧ d v ≠ ⊤) (hc : ∀ e v, tz e = (v.val : ℤ) → tgt e = v)
    (h : Fin nN → Fin nD → EReal) (w : Fin nD → Fin nD → EReal) (b : Fin nD → EReal)
    (cnt : Fin nG → EReal) (wl : Fin nD → Fin nO → EReal) (bl : Fin nO → EReal) :
    kpool d (kagg src tz (klin0 d h w)) b (ohOf a2) cnt wl bl = rpool (rconv src tgt tz d h w b) (bz a2) cnt wl bl := by
  funext g o
  show (∑ j : Fin nD, Ideal.div (∑ r : Fin nN, ohOf a2 r g * (kagg src tz (klin0 d h w) r j * d r + b j)) (max (cnt g) 1) * wl j o) + bl o
     = (∑ j : Fin nD, Ideal.div (∑ r ∈ Finset.univ.filter (fun r : Fin nN => bz a2 r = (g.val : ℤ)), rconv src tgt tz d h w b r j) (max (cnt g) 1) * wl j o) + bl o
  have hin : ∀ j : Fin nD, (∑ r : Fin nN, ohOf a2 r g * (kagg src tz (klin0 d h w) r j * d r + b j))
      = ∑ r ∈ Finset.univ.filter (fun r : Fin nN => bz a2 r = (g.val : ℤ)), rconv src tgt tz d h w b r j := by
    intro j
    have e1 : ∀ r ∈ (Finset.univ : Finset (Fin nN)), ohOf a2 r g * (kagg src tz (klin0 d h w) r j * d r + b j)
        = (if bz a2 r = (g.val : ℤ) then (1 : EReal) else 0) * rconv src tgt tz d h w b r j := by
      intro r _
      rw [kagg_scale_eq_rconv src tgt tz d hd hc]
      rfl
    rw [Finset.sum_congr rfl e1]
    exact sum_indicator_mul (fun r : Fin nN => bz a2 r = (g.val : ℤ)) _
  have hs : ∀ j ∈ (Finset.univ : Finset (Fin nD)),
      Ideal.div (∑ r : Fin nN, ohOf a2 r g * (kagg src tz (klin0 d h w) r j * d r + b j)) (max (cnt g) 1) * wl j o
        = Ideal.div (∑ r ∈ Finset.univ.filter (fun r : Fin nN => bz a2 r = (g.val : ℤ)), rconv src tgt tz d h w b r j) (max (cnt g) 1) * wl j o := by
    intro j _
    rw [hin j]
  rw [Finset.sum_congr rfl hs]

end Round

/-! ## The two results agree -/

theorem kres_eq_rres (a1 : (⟨2, ![2, 800000]⟩ : Shape).Idx → BitVec 32) (a2 : (⟨1, ![50000]⟩ : Shape).Idx → BitVec 32)
    (x : Fin nN → Fin nD → EReal) (w1 : Fin nD → Fin nD → EReal) (b1 : Fin nD → EReal) (w2 : Fin nD → Fin nD → EReal) (b2 : Fin nD → EReal)
    (w3 : Fin nD → Fin nD → EReal) (b3 : Fin nD → EReal) (wl : Fin nD → Fin nO → EReal) (bl : Fin nO → EReal) :
    kres (rowc a1) (colz a1) (dOf a1) x w1 b1 w2 b2 w3 b3 (ohOf a2) (cntOf a2) wl bl
      = rres (rowc a1) (colc a1) (colz a1) (dOf a1) x w1 b1 w2 b2 w3 b3 (bz a2) (cntOf a2) wl bl := by
  have hd := dOf_nonneg_ne_top a1
  have hc := colc_eq_of_colz a1
  unfold kres rres
  rw [klin1_kagg_klin0 (rowc a1) (colc a1) (colz a1) (dOf a1) hd hc x w1 b1 w2,
    klin1_kagg_klin0 (rowc a1) (colc a1) (colz a1) (dOf a1) hd hc _ w2 b2 w3,
    kpool_kagg_klin0 (rowc a1) (colc a1) (colz a1) (dOf a1) a2 hd hc _ w3 b3]

end Cert.Gcn

end
-- ==== Proof.lean ====
/-
  The five claims about a three-layer graph convolution with mean pooling and a last linear map, computed by a
  program of four TensorCore kernels glued by host gathers and segment sums, against a plain reference.

  * The kernel program runs to the end, faults nowhere and leaves its arguments unchanged, read at the word level
    and at the extended reals: each of its four kernel regions runs its body at every grid point from the blocks
    the pipeline hands it, the last one carrying its accumulator from point to point; the host stretches in between
    only write buffers of their own.
  * The reference does the same: it is its run read back, with the result dropped.
  * Nothing was rewritten between the two readings of the kernel program, so the second claim about them is empty.
  * At the extended reals both programs end with the same 128 × 3 array. The kernel program scales each node's row by
    `d` (the inverse square root of its in-degree) before sending it along the pairs and scales the sums by `d`
    again afterwards; the reference scales each message by the product of the two endpoints' `d`. The two agree
    because a pair that lands on node `v` reads the table at `v`, and multiplication by the nonnegative real `d v`
    distributes over any sum of extended reals. The pooling is a product with the indicator of "node `r` is in
    graph `g`" in the kernel and a sum over the nodes of graph `g` in the reference: the same sum.
-/
import proofs.«401627_j1056561955307_2_alg».proof.Defs
import proofs.«401627_j1056561955307_2_alg».proof.Proof.Gen.Kernel
import proofs.«401627_j1056561955307_2_alg».proof.Proof.Gen.KernelIdeal
import proofs.«401627_j1056561955307_2_alg».proof.Proof.Gen.ReferenceIdeal
import proofs.«401627_j1056561955307_2_alg».proof.Proof.Gen.Pre_finite_inputs
import proofs.«401627_j1056561955307_2_alg».proof.Proof.K.Run
import proofs.«401627_j1056561955307_2_alg».proof.Proof.K.Outs
import proofs.«401627_j1056561955307_2_alg».proof.Proof.KI.Run
import proofs.«401627_j1056561955307_2_alg».proof.Proof.KI.Outs
import proofs.«401627_j1056561955307_2_alg».proof.Proof.KI.Value
import proofs.«401627_j1056561955307_2_alg».proof.Proof.Ref.Value
import proofs.«401627_j1056561955307_2_alg».proof.Proof.RefRead
import proofs.«401627_j1056561955307_2_alg».proof.Proof.Bridge
import Idealize.ShloMosaic.Adequacy
import Idealize.ShloMosaic.Init

noncomputable section

namespace Cert.Proof

open Idealize.ShloMosaic Idealize.ShloMosaic.TcCoe Idealize.ShloMosaic.ValueIdx Idealize.SL.Sem

/-- The kernel program at the word level: the run with the result dropped. -/
theorem frame_k [Cert.Kernel.Facts] [Cert.Pre_finite_inputs.Facts] : Cert.frame_Kernel := fun m ρ _ => by
  obtain ⟨outs, h⟩ := Cert.Kernel.Hand.exists_outs (F := Bits) m
  exact (θ_run (Cert.Kernel.defs (F := Bits)) _ _).mono (fun _ hr c => (hr c).2) (Cert.Kernel.Hand.run_of m ρ outs h)

/-- The kernel program at the extended reals: the same. -/
theorem frame_ki [Cert.KernelIdeal.Facts] [Cert.Pre_finite_inputs.Facts] : Cert.frame_KernelIdeal := fun m ρ _ => by
  obtain ⟨outs, h⟩ := Cert.KernelIdeal.Hand.exists_outs (F := Ideal) m
  exact (θ_run (Cert.KernelIdeal.defs (F := Ideal)) _ _).mono (fun _ hr c => (hr c).2) (Cert.KernelIdeal.Hand.run_of m ρ outs h)

/-- The reference: its run read back, the result dropped. -/
theorem frame_ri [Cert.ReferenceIdeal.Facts] [Cert.Pre_finite_inputs.Facts] : Cert.frame_ReferenceIdeal := fun m ρ _ =>
  (θ_run (Cert.ReferenceIdeal.defs (F := Ideal)) _ _).mono (fun _ h c => (h c).2) (Cert.ReferenceIdeal.Value.run (F := Ideal) m ρ)

/-- Both programs end with the same array: the kernel program's result is `kres` of the arguments, the reference's
    `rres` of the same arguments, and the two spec functions are equal. -/
theorem algebraic [Cert.KernelIdeal.Facts] [Cert.ReferenceIdeal.Facts] [Cert.Pre_finite_inputs.Facts] :
    Cert.algebraic_KernelIdeal_ReferenceIdeal := by
  intro m ρ m' ρ' _ hagree
  obtain ⟨outs, h⟩ := Cert.KernelIdeal.Hand.exists_outs (F := Ideal) m
  refine ⟨fun c => outs 10 Cert.KernelIdeal.main_v62 c, Cert.KernelIdeal.Hand.run_of m ρ outs h, ?_⟩
  refine (θ_run (Cert.ReferenceIdeal.defs (F := Ideal)) _ _).mono (fun _ hr c => ⟨(hr c).1.trans ?_, (hr c).2⟩)
    (Cert.ReferenceIdeal.Value.run (F := Ideal) m' ρ')
  obtain ⟨e0, e1, e2, e3, e4, e5, e6, e7, e8, e9, e10⟩ := hagree c
  funext i
  obtain ⟨g, o, rfl⟩ : ∃ (g : Fin 128) (o : Fin 3), i = ix2 g o := ⟨i 0, i 1, eq_ix2 i⟩
  rw [Cert.ReferenceIdeal.Read.val_main_v98_eq, Cert.ReferenceIdeal.RefValue.ref_value, e0, e1, e2, e3, e4, e5, e6, e7, e8, e9, e10]
  have hk := Cert.KernelIdeal.Hand.result_val m outs h c g o
  have hb := congrFun (congrFun (Cert.Gcn.kres_eq_rres (Cert.KernelIdeal.Hand.A1 m c) (Cert.KernelIdeal.Hand.A2 m c)
    (Cert.KernelIdeal.Hand.argX m c) (Cert.KernelIdeal.Hand.argW1 m c) (Cert.KernelIdeal.Hand.argB1 m c)
    (Cert.KernelIdeal.Hand.argW2 m c) (Cert.KernelIdeal.Hand.argB2 m c) (Cert.KernelIdeal.Hand.argW3 m c)
    (Cert.KernelIdeal.Hand.argB3 m c) (Cert.KernelIdeal.Hand.argWl m c) (Cert.KernelIdeal.Hand.argBl m c)) g) o
  exact (hk.trans hb).symm

theorem claim : Cert.Claim :=
  ⟨Cert.Kernel.Gen.facts, Cert.KernelIdeal.Gen.facts, Cert.ReferenceIdeal.Gen.facts, Cert.Pre_finite_inputs.Gen.facts,
    frame_k, frame_ki, frame_ri, trivial, algebraic⟩

end Cert.Proof

end
